-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v503)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v503) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v503) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S120000x96 : Shape := ⟨2, ![120000, 96]⟩
abbrev S27x192x96 : Shape := ⟨3, ![27, 192, 96]⟩
abbrev S96 : Shape := ⟨1, ![96]⟩
abbrev S192x96 : Shape := ⟨2, ![192, 96]⟩
abbrev S120000x8 : Shape := ⟨2, ![120000, 8]⟩
abbrev S120000 : Shape := ⟨1, ![120000]⟩
abbrev S96446x27 : Shape := ⟨2, ![96446, 27]⟩
abbrev S_ : Shape := ⟨0, ![]⟩

class Facts : Prop where
  bcast_S_S120000x96 : S_.BroadcastsInDim S120000x96 (![] : Fin 0 → Fin S120000x96.rank)
  reducesTo_S120000x96_S_d0_1 : S120000x96.ReducesTo [0, 1] S_
  h_S_ : 0 < S_.numel
  bcast_S_S27x192x96 : S_.BroadcastsInDim S27x192x96 (![] : Fin 0 → Fin S27x192x96.rank)
  reducesTo_S27x192x96_S_d0_1_2 : S27x192x96.ReducesTo [0, 1, 2] S_
  bcast_S_S96 : S_.BroadcastsInDim S96 (![] : Fin 0 → Fin S96.rank)
  reducesTo_S96_S_d0 : S96.ReducesTo [0] S_
  bcast_S_S192x96 : S_.BroadcastsInDim S192x96 (![] : Fin 0 → Fin S192x96.rank)
  reducesTo_S192x96_S_d0_1 : S192x96.ReducesTo [0, 1] S_
  bcast_S_S120000x8 : S_.BroadcastsInDim S120000x8 (![] : Fin 0 → Fin S120000x8.rank)
  reducesTo_S120000x8_S_d0_1 : S120000x8.ReducesTo [0, 1] S_
  bcast_S_S96446x27 : S_.BroadcastsInDim S96446x27 (![] : Fin 0 → Fin S96446x27.rank)
  reducesTo_S96446x27_S_d0_1 : S96446x27.ReducesTo [0, 1] S_

variable [Facts]

def fn_part2 {F : FTy → Type} [FloatOps F] (main_arg7 : FVec F S120000x8 .f32) (main_arg9 : IVec S96446x27 32) (main_v33 : IVec S_ 1) : IVec S_ 1 :=
  let main_v34 : FVec F S120000x8 .f32 := Host.absf main_arg7
  let main_cst_12 : FVec F S_ .f32 := constant S_ .f32 0x7F800000#32
  let main_v35 : FVec F S120000x8 .f32 := broadcastInDim S120000x8 ![] bcast_S_S120000x8 main_cst_12
  let main_v36 : IVec S120000x8 1 := cmpf .olt main_v34 main_v35
  let main_c_13 : IVec S_ 1 := constantI S_ 1 1#1
  let main_v37 : IVec S_ 1 := (fun x v => Host.reduce IntOp.andi x v reducesTo_S120000x8_S_d0_1 h_S_) main_v36 main_c_13
  let main_v38 : IVec S_ 1 := andi main_v33 main_v37
  let main_c_14 : IVec S_ 32 := constantI S_ 32 0#32
  let main_v39 : IVec S96446x27 32 := broadcastInDim S96446x27 ![] bcast_S_S96446x27 main_c_14
  let main_v40 : IVec S96446x27 1 := cmpi .sge main_arg9 main_v39
  let main_c_15 : IVec S_ 1 := constantI S_ 1 1#1
  let main_v41 : IVec S_ 1 := (fun x v => Host.reduce IntOp.andi x v reducesTo_S96446x27_S_d0_1 h_S_) main_v40 main_c_15
  let main_v42 : IVec S_ 1 := andi main_v38 main_v41
  let main_c_16 : IVec S_ 32 := constantI S_ 32 96446#32
  let main_v43 : IVec S96446x27 32 := broadcastInDim S96446x27 ![] bcast_S_S96446x27 main_c_16
  let main_v44 : IVec S96446x27 1 := cmpi .sle main_arg9 main_v43
  let main_c_17 : IVec S_ 1 := constantI S_ 1 1#1
  let main_v45 : IVec S_ 1 := (fun x v => Host.reduce IntOp.andi x v reducesTo_S96446x27_S_d0_1 h_S_) main_v44 main_c_17
  let main_v46 : IVec S_ 1 := andi main_v42 main_v45
  main_v46

def fn_part1 {F : FTy → Type} [FloatOps F] (main_arg4 : FVec F S96 .f32) (main_arg5 : FVec F S192x96 .f32) (main_arg6 : FVec F S96 .f32) (main_arg7 : FVec F S120000x8 .f32) (main_arg9 : IVec S96446x27 32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S192x96 .f32 := Host.absf main_arg5
  let main_cst_8 : FVec F S_ .f32 := constant S_ .f32 0x7F800000#32
  let main_v25 : FVec F S192x96 .f32 := broadcastInDim S192x96 ![] bcast_S_S192x96 main_cst_8
  let main_v26 : IVec S192x96 1 := cmpf .olt main_v24 main_v25
  let main_c_9 : IVec S_ 1 := constantI S_ 1 1#1
  let main_v27 : IVec S_ 1 := (fun x v => Host.reduce IntOp.andi x v reducesTo_S192x96_S_d0_1 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg7 main_arg9 main_v33

def fn {F : FTy → Type} [FloatOps F] (main_arg0 : FVec F S120000x96 .f32) (main_arg1 : FVec F S120000x96 .f32) (main_arg2 : FVec F S27x192x96 .f32) (main_arg3 : FVec F S96 .f32) (main_arg4 : FVec F S96 .f32) (main_arg5 : FVec F S192x96 .f32) (main_arg6 : FVec F S96 .f32) (main_arg7 : FVec F S120000x8 .f32) (main_arg8 : IVec S120000 32) (main_arg9 : IVec S96446x27 32) (main_arg10 : IVec S120000x8 32) : IVec S_ 1 :=
  let main_v0 : FVec F S120000x96 .f32 := Host.absf main_arg0
  let main_cst : FVec F S_ .f32 := constant S_ .f32 0x7F800000#32
  let main_v1 : FVec F S120000x96 .f32 := broadcastInDim S120000x96 ![] bcast_S_S120000x96 main_cst
  let main_v2 : IVec S120000x96 1 := cmpf .olt main_v0 main_v1
  let main_c : IVec S_ 1 := constantI S_ 1 1#1
  let main_v3 : IVec S_ 1 := (fun x v => Host.reduce IntOp.andi x v reducesTo_S120000x96_S_d0_1 h_S_) main_v2 main_c
  let main_v4 : FVec F S120000x96 .f32 := Host.absf main_arg1
  let main_cst_0 : FVec F S_ .f32 := constant S_ .f32 0x7F800000#32
  let main_v5 : FVec F S120000x96 .f32 := broadcastInDim S120000x96 ![] bcast_S_S120000x96 main_cst_0
  let main_v6 : IVec S120000x96 1 := cmpf .olt main_v4 main_v5
  let main_c_1 : IVec S_ 1 := constantI S_ 1 1#1
  let main_v7 : IVec S_ 1 := (fun x v => Host.reduce IntOp.andi x v reducesTo_S120000x96_S_d0_1 h_S_) main_v6 main_c_1
  let main_v8 : IVec S_ 1 := andi main_v3 main_v7
  let main_v9 : FVec F S27x192x96 .f32 := Host.absf main_arg2
  let main_cst_2 : FVec F S_ .f32 := constant S_ .f32 0x7F800000#32
  let main_v10 : FVec F S27x192x96 .f32 := broadcastInDim S27x192x96 ![] bcast_S_S27x192x96 main_cst_2
  let main_v11 : IVec S27x192x96 1 := cmpf .olt main_v9 main_v10
  let main_c_3 : IVec S_ 1 := constantI S_ 1 1#1
  let main_v12 : IVec S_ 1 := (fun x v => Host.reduce IntOp.andi x v reducesTo_S27x192x96_S_d0_1_2 h_S_) main_v11 main_c_3
  let main_v13 : IVec S_ 1 := andi main_v8 main_v12
  let main_v14 : FVec F S96 .f32 := Host.absf main_arg3
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg4 main_arg5 main_arg6 main_arg7 main_arg9 main_v13 main_v16
-- ==== Kernel.lean ====
abbrev S120000x96 : Shape := ⟨2, ![120000, 96]⟩
abbrev S27x192x96 : Shape := ⟨3, ![27, 192, 96]⟩
abbrev S96 : Shape := ⟨1, ![96]⟩
abbrev S192x96 : Shape := ⟨2, ![192, 96]⟩
abbrev S120000x8 : Shape := ⟨2, ![120000, 8]⟩
abbrev S120000 : Shape := ⟨1, ![120000]⟩
abbrev S96446x27 : Shape := ⟨2, ![96446, 27]⟩
abbrev S_ : Shape := ⟨0, ![]⟩
abbrev S96446x96 : Shape := ⟨2, ![96446, 96]⟩
abbrev S120000x1 : Shape := ⟨2, ![120000, 1]⟩
abbrev S96446x1 : Shape := ⟨2, ![96446, 1]⟩
abbrev S96446x192 : Shape := ⟨2, ![96446, 192]⟩
abbrev S1x192 : Shape := ⟨2, ![1, 192]⟩
abbrev S96447x192 : Shape := ⟨2, ![96447, 192]⟩
abbrev S192x27x96 : Shape := ⟨3, ![192, 27, 96]⟩
abbrev S192x2592 : Shape := ⟨2, ![192, 2592]⟩
abbrev S96768x192 : Shape := ⟨2, ![96768, 192]⟩
abbrev S96768x2592 : Shape := ⟨2, ![96768, 2592]⟩
abbrev S512x192 : Shape := ⟨2, ![512, 192]⟩
abbrev S512x2592 : Shape := ⟨2, ![512, 2592]⟩
abbrev S96768x27x96 : Shape := ⟨3, ![96768, 27, 96]⟩
abbrev S96768x1x96 : Shape := ⟨3, ![96768, 1, 96]⟩
abbrev S96768x96 : Shape := ⟨2, ![96768, 96]⟩
abbrev S96446 : Shape := ⟨1, ![96446]⟩
abbrev S1x96 : Shape := ⟨2, ![1, 96]⟩
abbrev S97280x96 : Shape := ⟨2, ![97280, 96]⟩
abbrev S1024x96 : Shape := ⟨2, ![1024, 96]⟩
abbrev S96447x96 : Shape := ⟨2, ![96447, 96]⟩
abbrev S96x96 : Shape := ⟨2, ![96, 96]⟩
abbrev S2400x96 : Shape := ⟨2, ![2400, 96]⟩

abbrev nBuf : Space → Nat
  | .hbm => 607
  | .vmem => 24
  | .smem => 0
  | _ => 0

abbrev hbmTy0_0 (i : Nat) : BufTy := match i % 128 with
  | 0 => ⟨S120000x96, .f32⟩
  | 1 => ⟨S120000x96, .f32⟩
  | 2 => ⟨S27x192x96, .f32⟩
  | 3 => ⟨S96, .f32⟩
  | 4 => ⟨S96, .f32⟩
  | 5 => ⟨S192x96, .f32⟩
  | 6 => ⟨S96, .f32⟩
  | 7 => ⟨S120000x8, .f32⟩
  | 8 => ⟨S120000, .i32⟩
  | 9 => ⟨S96446x27, .i32⟩
  | 10 => ⟨S120000x8, .i32⟩
  | 11 => ⟨S_, .f32⟩
  | 12 => ⟨S96446x96, .f32⟩
  | 13 => ⟨S120000x1, .i32⟩
  | 14 => ⟨S96446x96, .f32⟩
  | 15 => ⟨S_, .f32⟩
  | 16 => ⟨S96446x96, .f32⟩
  | 17 => ⟨S120000x1, .i32⟩
  | 18 => ⟨S96446x96, .f32⟩
  | 19 => ⟨S_, .f32⟩
  | 20 => ⟨S120000x1, .f32⟩
  | 21 => ⟨S_, .f32⟩
  | 22 => ⟨S96446x1, .f32⟩
  | 23 => ⟨S120000x1, .i32⟩
  | 24 => ⟨S96446x1, .f32⟩
  | 25 => ⟨S_, .f32⟩
  | 26 => ⟨S96446x1, .f32⟩
  | 27 => ⟨S96446x1, .f32⟩
  | 28 => ⟨S96446x96, .f32⟩
  | 29 => ⟨S96446x96, .f32⟩
  | 30 => ⟨S96446x96, .f32⟩
  | 31 => ⟨S96446x96, .f32⟩
  | 32 => ⟨S96446x192, .f32⟩
  | 33 => ⟨S96446x192, .bf16⟩
  | 34 => ⟨S_, .bf16⟩
  | 35 => ⟨S1x192, .bf16⟩
  | 36 => ⟨S96447x192, .bf16⟩
  | 37 => ⟨S192x27x96, .f32⟩
  | 38 => ⟨S192x2592, .f32⟩
  | 39 => ⟨S192x2592, .bf16⟩
  | 40 => ⟨S_, .i32⟩
  | 41 => ⟨S_, .bf16⟩
  | 42 => ⟨S96768x192, .bf16⟩
  | 43 => ⟨S96768x2592, .bf16⟩
  | 44 => ⟨S96768x27x96, .bf16⟩
  | 45 => ⟨S_, .f32⟩
  | 46 => ⟨S96446x96, .f32⟩
  | 47 => ⟨S96768x1x96, .bf16⟩
  | 48 => ⟨S96768x96, .bf16⟩
  | 49 => ⟨S96446x1, .i32⟩
  | 50 => ⟨S96446, .i32⟩
  | 51 => ⟨S_, .i32⟩
  | 52 => ⟨S96446, .i32⟩
  | 53 => ⟨S96446, .i1⟩
  | 54 => ⟨S_, .i32⟩
  | 55 => ⟨S96446, .i32⟩
  | 56 => ⟨S96446, .i32⟩
  | 57 => ⟨S96446, .i32⟩
  | 58 => ⟨S96446x1, .i32⟩
  | 59 => ⟨S96446x96, .bf16⟩
  | 60 => ⟨S96446x96, .f32⟩
  | 61 => ⟨S96446x96, .f32⟩
  | 62 => ⟨S96768x1x96, .bf16⟩
  | 63 => ⟨S96768x96, .bf16⟩
  | 64 => ⟨S96446x1, .i32⟩
  | 65 => ⟨S96446, .i32⟩
  | 66 => ⟨S_, .i32⟩
  | 67 => ⟨S96446, .i32⟩
  | 68 => ⟨S96446, .i1⟩
  | 69 => ⟨S_, .i32⟩
  | 70 => ⟨S96446, .i32⟩
  | 71 => ⟨S96446, .i32⟩
  | 72 => ⟨S96446, .i32⟩
  | 73 => ⟨S96446x1, .i32⟩
  | 74 => ⟨S96446x96, .bf16⟩
  | 75 => ⟨S96446x96, .f32⟩
  | 76 => ⟨S96446x96, .f32⟩
  | 77 => ⟨S96768x1x96, .bf16⟩
  | 78 => ⟨S96768x96, .bf16⟩
  | 79 => ⟨S96446x1, .i32⟩
  | 80 => ⟨S96446, .i32⟩
  | 81 => ⟨S_, .i32⟩
  | 82 => ⟨S96446, .i32⟩
  | 83 => ⟨S96446, .i1⟩
  | 84 => ⟨S_, .i32⟩
  | 85 => ⟨S96446, .i32⟩
  | 86 => ⟨S96446, .i32⟩
  | 87 => ⟨S96446, .i32⟩
  | 88 => ⟨S96446x1, .i32⟩
  | 89 => ⟨S96446x96, .bf16⟩
  | 90 => ⟨S96446x96, .f32⟩
  | 91 => ⟨S96446x96, .f32⟩
  | 92 => ⟨S96768x1x96, .bf16⟩
  | 93 => ⟨S96768x96, .bf16⟩
  | 94 => ⟨S96446x1, .i32⟩
  | 95 => ⟨S96446, .i32⟩
  | 96 => ⟨S_, .i32⟩
  | 97 => ⟨S96446, .i32⟩
  | 98 => ⟨S96446, .i1⟩
  | 99 => ⟨S_, .i32⟩
  | 100 => ⟨S96446, .i32⟩
  | 101 => ⟨S96446, .i32⟩
  | 102 => ⟨S96446, .i32⟩
  | 103 => ⟨S96446x1, .i32⟩
  | 104 => ⟨S96446x96, .bf16⟩
  | 105 => ⟨S96446x96, .f32⟩
  | 106 => ⟨S96446x96, .f32⟩
  | 107 => ⟨S96768x1x96, .bf16⟩
  | 108 => ⟨S96768x96, .bf16⟩
  | 109 => ⟨S96446x1, .i32⟩
  | 110 => ⟨S96446, .i32⟩
  | 111 => ⟨S_, .i32⟩
  | 112 => ⟨S96446, .i32⟩
  | 113 => ⟨S96446, .i1⟩
  | 114 => ⟨S_, .i32⟩
  | 115 => ⟨S96446, .i32⟩
  | 116 => ⟨S96446, .i32⟩
  | 117 => ⟨S96446, .i32⟩
  | 118 => ⟨S96446x1, .i32⟩
  | 119 => ⟨S96446x96, .bf16⟩
  | 120 => ⟨S96446x96, .f32⟩
  | 121 => ⟨S96446x96, .f32⟩
  | 122 => ⟨S96768x1x96, .bf16⟩
  | 123 => ⟨S96768x96, .bf16⟩
  | 124 => ⟨S96446x1, .i32⟩
  | 125 => ⟨S96446, .i32⟩
  | 126 => ⟨S_, .i32⟩
  | 127 => ⟨S96446, .i32⟩
  | _ => ⟨S120000x96, .f32⟩

abbrev hbmTy0_1 (i : Nat) : BufTy := match i % 128 with
  | 0 => ⟨S96446, .i1⟩
  | 1 => ⟨S_, .i32⟩
  | 2 => ⟨S96446, .i32⟩
  | 3 => ⟨S96446, .i32⟩
  | 4 => ⟨S96446, .i32⟩
  | 5 => ⟨S96446x1, .i32⟩
  | 6 => ⟨S96446x96, .bf16⟩
  | 7 => ⟨S96446x96, .f32⟩
  | 8 => ⟨S96446x96, .f32⟩
  | 9 => ⟨S96768x1x96, .bf16⟩
  | 10 => ⟨S96768x96, .bf16⟩
  | 11 => ⟨S96446x1, .i32⟩
  | 12 => ⟨S96446, .i32⟩
  | 13 => ⟨S_, .i32⟩
  | 14 => ⟨S96446, .i32⟩
  | 15 => ⟨S96446, .i1⟩
  | 16 => ⟨S_, .i32⟩
  | 17 => ⟨S96446, .i32⟩
  | 18 => ⟨S96446, .i32⟩
  | 19 => ⟨S96446, .i32⟩
  | 20 => ⟨S96446x1, .i32⟩
  | 21 => ⟨S96446x96, .bf16⟩
  | 22 => ⟨S96446x96, .f32⟩
  | 23 => ⟨S96446x96, .f32⟩
  | 24 => ⟨S96768x1x96, .bf16⟩
  | 25 => ⟨S96768x96, .bf16⟩
  | 26 => ⟨S96446x1, .i32⟩
  | 27 => ⟨S96446, .i32⟩
  | 28 => ⟨S_, .i32⟩
  | 29 => ⟨S96446, .i32⟩
  | 30 => ⟨S96446, .i1⟩
  | 31 => ⟨S_, .i32⟩
  | 32 => ⟨S96446, .i32⟩
  | 33 => ⟨S96446, .i32⟩
  | 34 => ⟨S96446, .i32⟩
  | 35 => ⟨S96446x1, .i32⟩
  | 36 => ⟨S96446x96, .bf16⟩
  | 37 => ⟨S96446x96, .f32⟩
  | 38 => ⟨S96446x96, .f32⟩
  | 39 => ⟨S96768x1x96, .bf16⟩
  | 40 => ⟨S96768x96, .bf16⟩
  | 41 => ⟨S96446x1, .i32⟩
  | 42 => ⟨S96446, .i32⟩
  | 43 => ⟨S_, .i32⟩
  | 44 => ⟨S96446, .i32⟩
  | 45 => ⟨S96446, .i1⟩
  | 46 => ⟨S_, .i32⟩
  | 47 => ⟨S96446, .i32⟩
  | 48 => ⟨S96446, .i32⟩
  | 49 => ⟨S96446, .i32⟩
  | 50 => ⟨S96446x1, .i32⟩
  | 51 => ⟨S96446x96, .bf16⟩
  | 52 => ⟨S96446x96, .f32⟩
  | 53 => ⟨S96446x96, .f32⟩
  | 54 => ⟨S96768x1x96, .bf16⟩
  | 55 => ⟨S96768x96, .bf16⟩
  | 56 => ⟨S96446x1, .i32⟩
  | 57 => ⟨S96446, .i32⟩
  | 58 => ⟨S_, .i32⟩
  | 59 => ⟨S96446, .i32⟩
  | 60 => ⟨S96446, .i1⟩
  | 61 => ⟨S_, .i32⟩
  | 62 => ⟨S96446, .i32⟩
  | 63 => ⟨S96446, .i32⟩
  | 64 => ⟨S96446, .i32⟩
  | 65 => ⟨S96446x1, .i32⟩
  | 66 => ⟨S96446x96, .bf16⟩
  | 67 => ⟨S96446x96, .f32⟩
  | 68 => ⟨S96446x96, .f32⟩
  | 69 => ⟨S96768x1x96, .bf16⟩
  | 70 => ⟨S96768x96, .bf16⟩
  | 71 => ⟨S96446x1, .i32⟩
  | 72 => ⟨S96446, .i32⟩
  | 73 => ⟨S_, .i32⟩
  | 74 => ⟨S96446, .i32⟩
  | 75 => ⟨S96446, .i1⟩
  | 76 => ⟨S_, .i32⟩
  | 77 => ⟨S96446, .i32⟩
  | 78 => ⟨S96446, .i32⟩
  | 79 => ⟨S96446, .i32⟩
  | 80 => ⟨S96446x1, .i32⟩
  | 81 => ⟨S96446x96, .bf16⟩
  | 82 => ⟨S96446x96, .f32⟩
  | 83 => ⟨S96446x96, .f32⟩
  | 84 => ⟨S96768x1x96, .bf16⟩
  | 85 => ⟨S96768x96, .bf16⟩
  | 86 => ⟨S96446x1, .i32⟩
  | 87 => ⟨S96446, .i32⟩
  | 88 => ⟨S_, .i32⟩
  | 89 => ⟨S96446, .i32⟩
  | 90 => ⟨S96446, .i1⟩
  | 91 => ⟨S_, .i32⟩
  | 92 => ⟨S96446, .i32⟩
  | 93 => ⟨S96446, .i32⟩
  | 94 => ⟨S96446, .i32⟩
  | 95 => ⟨S96446x1, .i32⟩
  | 96 => ⟨S96446x96, .bf16⟩
  | 97 => ⟨S96446x96, .f32⟩
  | 98 => ⟨S96446x96, .f32⟩
  | 99 => ⟨S96768x1x96, .bf16⟩
  | 100 => ⟨S96768x96, .bf16⟩
  | 101 => ⟨S96446x1, .i32⟩
  | 102 => ⟨S96446, .i32⟩
  | 103 => ⟨S_, .i32⟩
  | 104 => ⟨S96446, .i32⟩
  | 105 => ⟨S96446, .i1⟩
  | 106 => ⟨S_, .i32⟩
  | 107 => ⟨S96446, .i32⟩
  | 108 => ⟨S96446, .i32⟩
  | 109 => ⟨S96446, .i32⟩
  | 110 => ⟨S96446x1, .i32⟩
  | 111 => ⟨S96446x96, .bf16⟩
  | 112 => ⟨S96446x96, .f32⟩
  | 113 => ⟨S96446x96, .f32⟩
  | 114 => ⟨S96768x1x96, .bf16⟩
  | 115 => ⟨S96768x96, .bf16⟩
  | 116 => ⟨S96446x1, .i32⟩
  | 117 => ⟨S96446, .i32⟩
  | 118 => ⟨S_, .i32⟩
  | 119 => ⟨S96446, .i32⟩
  | 120 => ⟨S96446, .i1⟩
  | 121 => ⟨S_, .i32⟩
  | 122 => ⟨S96446, .i32⟩
  | 123 => ⟨S96446, .i32⟩
  | 124 => ⟨S96446, .i32⟩
  | 125 => ⟨S96446x1, .i32⟩
  | 126 => ⟨S96446x96, .bf16⟩
  | 127 => ⟨S96446x96, .f32⟩
  | _ => ⟨S120000x96, .f32⟩

abbrev hbmTy0_2 (i : Nat) : BufTy := match i % 128 with
  | 0 => ⟨S96446x96, .f32⟩
  | 1 => ⟨S96768x1x96, .bf16⟩
  | 2 => ⟨S96768x96, .bf16⟩
  | 3 => ⟨S96446x1, .i32⟩
  | 4 => ⟨S96446, .i32⟩
  | 5 => ⟨S_, .i32⟩
  | 6 => ⟨S96446, .i32⟩
  | 7 => ⟨S96446, .i1⟩
  | 8 => ⟨S_, .i32⟩
  | 9 => ⟨S96446, .i32⟩
  | 10 => ⟨S96446, .i32⟩
  | 11 => ⟨S96446, .i32⟩
  | 12 => ⟨S96446x1, .i32⟩
  | 13 => ⟨S96446x96, .bf16⟩
  | 14 => ⟨S96446x96, .f32⟩
  | 15 => ⟨S96446x96, .f32⟩
  | 16 => ⟨S96768x1x96, .bf16⟩
  | 17 => ⟨S96768x96, .bf16⟩
  | 18 => ⟨S96446x1, .i32⟩
  | 19 => ⟨S96446, .i32⟩
  | 20 => ⟨S_, .i32⟩
  | 21 => ⟨S96446, .i32⟩
  | 22 => ⟨S96446, .i1⟩
  | 23 => ⟨S_, .i32⟩
  | 24 => ⟨S96446, .i32⟩
  | 25 => ⟨S96446, .i32⟩
  | 26 => ⟨S96446, .i32⟩
  | 27 => ⟨S96446x1, .i32⟩
  | 28 => ⟨S96446x96, .bf16⟩
  | 29 => ⟨S96446x96, .f32⟩
  | 30 => ⟨S96446x96, .f32⟩
  | 31 => ⟨S96768x1x96, .bf16⟩
  | 32 => ⟨S96768x96, .bf16⟩
  | 33 => ⟨S96446x1, .i32⟩
  | 34 => ⟨S96446, .i32⟩
  | 35 => ⟨S_, .i32⟩
  | 36 => ⟨S96446, .i32⟩
  | 37 => ⟨S96446, .i1⟩
  | 38 => ⟨S_, .i32⟩
  | 39 => ⟨S96446, .i32⟩
  | 40 => ⟨S96446, .i32⟩
  | 41 => ⟨S96446, .i32⟩
  | 42 => ⟨S96446x1, .i32⟩
  | 43 => ⟨S96446x96, .bf16⟩
  | 44 => ⟨S96446x96, .f32⟩
  | 45 => ⟨S96446x96, .f32⟩
  | 46 => ⟨S96768x1x96, .bf16⟩
  | 47 => ⟨S96768x96, .bf16⟩
  | 48 => ⟨S96446x1, .i32⟩
  | 49 => ⟨S96446, .i32⟩
  | 50 => ⟨S_, .i32⟩
  | 51 => ⟨S96446, .i32⟩
  | 52 => ⟨S96446, .i1⟩
  | 53 => ⟨S_, .i32⟩
  | 54 => ⟨S96446, .i32⟩
  | 55 => ⟨S96446, .i32⟩
  | 56 => ⟨S96446, .i32⟩
  | 57 => ⟨S96446x1, .i32⟩
  | 58 => ⟨S96446x96, .bf16⟩
  | 59 => ⟨S96446x96, .f32⟩
  | 60 => ⟨S96446x96, .f32⟩
  | 61 => ⟨S96768x1x96, .bf16⟩
  | 62 => ⟨S96768x96, .bf16⟩
  | 63 => ⟨S96446x1, .i32⟩
  | 64 => ⟨S96446, .i32⟩
  | 65 => ⟨S_, .i32⟩
  | 66 => ⟨S96446, .i32⟩
  | 67 => ⟨S96446, .i1⟩
  | 68 => ⟨S_, .i32⟩
  | 69 => ⟨S96446, .i32⟩
  | 70 => ⟨S96446, .i32⟩
  | 71 => ⟨S96446, .i32⟩
  | 72 => ⟨S96446x1, .i32⟩
  | 73 => ⟨S96446x96, .bf16⟩
  | 74 => ⟨S96446x96, .f32⟩
  | 75 => ⟨S96446x96, .f32⟩
  | 76 => ⟨S96768x1x96, .bf16⟩
  | 77 => ⟨S96768x96, .bf16⟩
  | 78 => ⟨S96446x1, .i32⟩
  | 79 => ⟨S96446, .i32⟩
  | 80 => ⟨S_, .i32⟩
  | 81 => ⟨S96446, .i32⟩
  | 82 => ⟨S96446, .i1⟩
  | 83 => ⟨S_, .i32⟩
  | 84 => ⟨S96446, .i32⟩
  | 85 => ⟨S96446, .i32⟩
  | 86 => ⟨S96446, .i32⟩
  | 87 => ⟨S96446x1, .i32⟩
  | 88 => ⟨S96446x96, .bf16⟩
  | 89 => ⟨S96446x96, .f32⟩
  | 90 => ⟨S96446x96, .f32⟩
  | 91 => ⟨S96768x1x96, .bf16⟩
  | 92 => ⟨S96768x96, .bf16⟩
  | 93 => ⟨S96446x1, .i32⟩
  | 94 => ⟨S96446, .i32⟩
  | 95 => ⟨S_, .i32⟩
  | 96 => ⟨S96446, .i32⟩
  | 97 => ⟨S96446, .i1⟩
  | 98 => ⟨S_, .i32⟩
  | 99 => ⟨S96446, .i32⟩
  | 100 => ⟨S96446, .i32⟩
  | 101 => ⟨S96446, .i32⟩
  | 102 => ⟨S96446x1, .i32⟩
  | 103 => ⟨S96446x96, .bf16⟩
  | 104 => ⟨S96446x96, .f32⟩
  | 105 => ⟨S96446x96, .f32⟩
  | 106 => ⟨S96768x1x96, .bf16⟩
  | 107 => ⟨S96768x96, .bf16⟩
  | 108 => ⟨S96446x1, .i32⟩
  | 109 => ⟨S96446, .i32⟩
  | 110 => ⟨S_, .i32⟩
  | 111 => ⟨S96446, .i32⟩
  | 112 => ⟨S96446, .i1⟩
  | 113 => ⟨S_, .i32⟩
  | 114 => ⟨S96446, .i32⟩
  | 115 => ⟨S96446, .i32⟩
  | 116 => ⟨S96446, .i32⟩
  | 117 => ⟨S96446x1, .i32⟩
  | 118 => ⟨S96446x96, .bf16⟩
  | 119 => ⟨S96446x96, .f32⟩
  | 120 => ⟨S96446x96, .f32⟩
  | 121 => ⟨S96768x1x96, .bf16⟩
  | 122 => ⟨S96768x96, .bf16⟩
  | 123 => ⟨S96446x1, .i32⟩
  | 124 => ⟨S96446, .i32⟩
  | 125 => ⟨S_, .i32⟩
  | 126 => ⟨S96446, .i32⟩
  | 127 => ⟨S96446, .i1⟩
  | _ => ⟨S120000x96, .f32⟩

abbrev hbmTy0_3 (i : Nat) : BufTy := match i % 128 with
  | 0 => ⟨S_, .i32⟩
  | 1 => ⟨S96446, .i32⟩
  | 2 => ⟨S96446, .i32⟩
  | 3 => ⟨S96446, .i32⟩
  | 4 => ⟨S96446x1, .i32⟩
  | 5 => ⟨S96446x96, .bf16⟩
  | 6 => ⟨S96446x96, .f32⟩
  | 7 => ⟨S96446x96, .f32⟩
  | 8 => ⟨S96768x1x96, .bf16⟩
  | 9 => ⟨S96768x96, .bf16⟩
  | 10 => ⟨S96446x1, .i32⟩
  | 11 => ⟨S96446, .i32⟩
  | 12 => ⟨S_, .i32⟩
  | 13 => ⟨S96446, .i32⟩
  | 14 => ⟨S96446, .i1⟩
  | 15 => ⟨S_, .i32⟩
  | 16 => ⟨S96446, .i32⟩
  | 17 => ⟨S96446, .i32⟩
  | 18 => ⟨S96446, .i32⟩
  | 19 => ⟨S96446x1, .i32⟩
  | 20 => ⟨S96446x96, .bf16⟩
  | 21 => ⟨S96446x96, .f32⟩
  | 22 => ⟨S96446x96, .f32⟩
  | 23 => ⟨S96768x1x96, .bf16⟩
  | 24 => ⟨S96768x96, .bf16⟩
  | 25 => ⟨S96446x1, .i32⟩
  | 26 => ⟨S96446, .i32⟩
  | 27 => ⟨S_, .i32⟩
  | 28 => ⟨S96446, .i32⟩
  | 29 => ⟨S96446, .i1⟩
  | 30 => ⟨S_, .i32⟩
  | 31 => ⟨S96446, .i32⟩
  | 32 => ⟨S96446, .i32⟩
  | 33 => ⟨S96446, .i32⟩
  | 34 => ⟨S96446x1, .i32⟩
  | 35 => ⟨S96446x96, .bf16⟩
  | 36 => ⟨S96446x96, .f32⟩
  | 37 => ⟨S96446x96, .f32⟩
  | 38 => ⟨S96768x1x96, .bf16⟩
  | 39 => ⟨S96768x96, .bf16⟩
  | 40 => ⟨S96446x1, .i32⟩
  | 41 => ⟨S96446, .i32⟩
  | 42 => ⟨S_, .i32⟩
  | 43 => ⟨S96446, .i32⟩
  | 44 => ⟨S96446, .i1⟩
  | 45 => ⟨S_, .i32⟩
  | 46 => ⟨S96446, .i32⟩
  | 47 => ⟨S96446, .i32⟩
  | 48 => ⟨S96446, .i32⟩
  | 49 => ⟨S96446x1, .i32⟩
  | 50 => ⟨S96446x96, .bf16⟩
  | 51 => ⟨S96446x96, .f32⟩
  | 52 => ⟨S96446x96, .f32⟩
  | 53 => ⟨S96768x1x96, .bf16⟩
  | 54 => ⟨S96768x96, .bf16⟩
  | 55 => ⟨S96446x1, .i32⟩
  | 56 => ⟨S96446, .i32⟩
  | 57 => ⟨S_, .i32⟩
  | 58 => ⟨S96446, .i32⟩
  | 59 => ⟨S96446, .i1⟩
  | 60 => ⟨S_, .i32⟩
  | 61 => ⟨S96446, .i32⟩
  | 62 => ⟨S96446, .i32⟩
  | 63 => ⟨S96446, .i32⟩
  | 64 => ⟨S96446x1, .i32⟩
  | 65 => ⟨S96446x96, .bf16⟩
  | 66 => ⟨S96446x96, .f32⟩
  | 67 => ⟨S96446x96, .f32⟩
  | 68 => ⟨S_, .f32⟩
  | 69 => ⟨S96, .f32⟩
  | 70 => ⟨S_, .f32⟩
  | 71 => ⟨S96, .f32⟩
  | 72 => ⟨S96, .f32⟩
  | 73 => ⟨S1x96, .f32⟩
  | 74 => ⟨S96446x96, .f32⟩
  | 75 => ⟨S96446x96, .f32⟩
  | 76 => ⟨S96446x96, .f32⟩
  | 77 => ⟨S_, .f32⟩
  | 78 => ⟨S96, .f32⟩
  | 79 => ⟨S_, .f32⟩
  | 80 => ⟨S96, .f32⟩
  | 81 => ⟨S96, .f32⟩
  | 82 => ⟨S_, .i32⟩
  | 83 => ⟨S_, .f32⟩
  | 84 => ⟨S97280x96, .f32⟩
  | 85 => ⟨S97280x96, .f32⟩
  | 86 => ⟨S96446x96, .f32⟩
  | 87 => ⟨S_, .f32⟩
  | 88 => ⟨S1x96, .f32⟩
  | 89 => ⟨S96447x96, .f32⟩
  | 90 => ⟨S120000x1, .f32⟩
  | 91 => ⟨S120000x1, .i32⟩
  | 92 => ⟨S120000, .i32⟩
  | 93 => ⟨S_, .i32⟩
  | 94 => ⟨S120000, .i32⟩
  | 95 => ⟨S120000, .i1⟩
  | 96 => ⟨S_, .i32⟩
  | 97 => ⟨S120000, .i32⟩
  | 98 => ⟨S120000, .i32⟩
  | 99 => ⟨S120000, .i32⟩
  | 100 => ⟨S120000x1, .i32⟩
  | 101 => ⟨S120000x96, .f32⟩
  | 102 => ⟨S120000x96, .f32⟩
  | 103 => ⟨S120000x96, .f32⟩
  | 104 => ⟨S120000x1, .f32⟩
  | 105 => ⟨S120000x1, .i32⟩
  | 106 => ⟨S120000, .i32⟩
  | 107 => ⟨S_, .i32⟩
  | 108 => ⟨S120000, .i32⟩
  | 109 => ⟨S120000, .i1⟩
  | 110 => ⟨S_, .i32⟩
  | 111 => ⟨S120000, .i32⟩
  | 112 => ⟨S120000, .i32⟩
  | 113 => ⟨S120000, .i32⟩
  | 114 => ⟨S120000x1, .i32⟩
  | 115 => ⟨S120000x96, .f32⟩
  | 116 => ⟨S120000x96, .f32⟩
  | 117 => ⟨S120000x96, .f32⟩
  | 118 => ⟨S120000x96, .f32⟩
  | 119 => ⟨S120000x1, .f32⟩
  | 120 => ⟨S120000x1, .i32⟩
  | 121 => ⟨S120000, .i32⟩
  | 122 => ⟨S_, .i32⟩
  | 123 => ⟨S120000, .i32⟩
  | 124 => ⟨S120000, .i1⟩
  | 125 => ⟨S_, .i32⟩
  | 126 => ⟨S120000, .i32⟩
  | 127 => ⟨S120000, .i32⟩
  | _ => ⟨S120000x96, .f32⟩

abbrev hbmTy0_4 (i : Nat) : BufTy := match i % 128 with
  | 0 => ⟨S120000, .i32⟩
  | 1 => ⟨S120000x1, .i32⟩
  | 2 => ⟨S120000x96, .f32⟩
  | 3 => ⟨S120000x96, .f32⟩
  | 4 => ⟨S120000x96, .f32⟩
  | 5 => ⟨S120000x96, .f32⟩
  | 6 => ⟨S120000x1, .f32⟩
  | 7 => ⟨S120000x1, .i32⟩
  | 8 => ⟨S120000, .i32⟩
  | 9 => ⟨S_, .i32⟩
  | 10 => ⟨S120000, .i32⟩
  | 11 => ⟨S120000, .i1⟩
  | 12 => ⟨S_, .i32⟩
  | 13 => ⟨S120000, .i32⟩
  | 14 => ⟨S120000, .i32⟩
  | 15 => ⟨S120000, .i32⟩
  | 16 => ⟨S120000x1, .i32⟩
  | 17 => ⟨S120000x96, .f32⟩
  | 18 => ⟨S120000x96, .f32⟩
  | 19 => ⟨S120000x96, .f32⟩
  | 20 => ⟨S120000x96, .f32⟩
  | 21 => ⟨S120000x1, .f32⟩
  | 22 => ⟨S120000x1, .i32⟩
  | 23 => ⟨S120000, .i32⟩
  | 24 => ⟨S_, .i32⟩
  | 25 => ⟨S120000, .i32⟩
  | 26 => ⟨S120000, .i1⟩
  | 27 => ⟨S_, .i32⟩
  | 28 => ⟨S120000, .i32⟩
  | 29 => ⟨S120000, .i32⟩
  | 30 => ⟨S120000, .i32⟩
  | 31 => ⟨S120000x1, .i32⟩
  | 32 => ⟨S120000x96, .f32⟩
  | 33 => ⟨S120000x96, .f32⟩
  | 34 => ⟨S120000x96, .f32⟩
  | 35 => ⟨S120000x96, .f32⟩
  | 36 => ⟨S120000x1, .f32⟩
  | 37 => ⟨S120000x1, .i32⟩
  | 38 => ⟨S120000, .i32⟩
  | 39 => ⟨S_, .i32⟩
  | 40 => ⟨S120000, .i32⟩
  | 41 => ⟨S120000, .i1⟩
  | 42 => ⟨S_, .i32⟩
  | 43 => ⟨S120000, .i32⟩
  | 44 => ⟨S120000, .i32⟩
  | 45 => ⟨S120000, .i32⟩
  | 46 => ⟨S120000x1, .i32⟩
  | 47 => ⟨S120000x96, .f32⟩
  | 48 => ⟨S120000x96, .f32⟩
  | 49 => ⟨S120000x96, .f32⟩
  | 50 => ⟨S120000x96, .f32⟩
  | 51 => ⟨S120000x1, .f32⟩
  | 52 => ⟨S120000x1, .i32⟩
  | 53 => ⟨S120000, .i32⟩
  | 54 => ⟨S_, .i32⟩
  | 55 => ⟨S120000, .i32⟩
  | 56 => ⟨S120000, .i1⟩
  | 57 => ⟨S_, .i32⟩
  | 58 => ⟨S120000, .i32⟩
  | 59 => ⟨S120000, .i32⟩
  | 60 => ⟨S120000, .i32⟩
  | 61 => ⟨S120000x1, .i32⟩
  | 62 => ⟨S120000x96, .f32⟩
  | 63 => ⟨S120000x96, .f32⟩
  | 64 => ⟨S120000x96, .f32⟩
  | 65 => ⟨S120000x96, .f32⟩
  | 66 => ⟨S120000x1, .f32⟩
  | 67 => ⟨S120000x1, .i32⟩
  | 68 => ⟨S120000, .i32⟩
  | 69 => ⟨S_, .i32⟩
  | 70 => ⟨S120000, .i32⟩
  | 71 => ⟨S120000, .i1⟩
  | 72 => ⟨S_, .i32⟩
  | 73 => ⟨S120000, .i32⟩
  | 74 => ⟨S120000, .i32⟩
  | 75 => ⟨S120000, .i32⟩
  | 76 => ⟨S120000x1, .i32⟩
  | 77 => ⟨S120000x96, .f32⟩
  | 78 => ⟨S120000x96, .f32⟩
  | 79 => ⟨S120000x96, .f32⟩
  | 80 => ⟨S120000x96, .f32⟩
  | 81 => ⟨S_, .i32⟩
  | 82 => ⟨S_, .f32⟩
  | 83 => ⟨S120000x96, .f32⟩
  | 84 => ⟨S_, .i32⟩
  | 85 => ⟨S_, .f32⟩
  | 86 => ⟨S120000x96, .f32⟩
  | 87 => ⟨S_, .i32⟩
  | 88 => ⟨S_, .f32⟩
  | 89 => ⟨S120000x96, .f32⟩
  | 90 => ⟨S96x96, .f32⟩
  | 91 => ⟨S96x96, .bf16⟩
  | 92 => ⟨S96x96, .f32⟩
  | 93 => ⟨S96x96, .bf16⟩
  | 94 => ⟨S120000x96, .f32⟩
  | _ => ⟨S120000x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S120000x96, .f32⟩

abbrev bufTy : (tb : Table) → Fin (tcTables nBuf tb) → BufTy
  | .hbm, ⟨i, _⟩ => hbmTy i
  | .local _ .vmem, ⟨0, _⟩ => ⟨S512x192, .bf16⟩
  | .local _ .vmem, ⟨1, _⟩ => ⟨S512x192, .bf16⟩
  | .local _ .vmem, ⟨2, _⟩ => ⟨S192x2592, .bf16⟩
  | .local _ .vmem, ⟨3, _⟩ => ⟨S512x2592, .bf16⟩
  | .local _ .vmem, ⟨4, _⟩ => ⟨S512x2592, .bf16⟩
  | .local _ .vmem, ⟨5, _⟩ => ⟨S1024x96, .f32⟩
  | .local _ .vmem, ⟨6, _⟩ => ⟨S1024x96, .f32⟩
  | .local _ .vmem, ⟨7, _⟩ => ⟨S96, .f32⟩
  | .local _ .vmem, ⟨8, _⟩ => ⟨S96, .f32⟩
  | .local _ .vmem, ⟨9, _⟩ => ⟨S96, .f32⟩
  | .local _ .vmem, ⟨10, _⟩ => ⟨S96, .f32⟩
  | .local _ .vmem, ⟨11, _⟩ => ⟨S1024x96, .f32⟩
  | .local _ .vmem, ⟨12, _⟩ => ⟨S1024x96, .f32⟩
  | .local _ .vmem, ⟨13, _⟩ => ⟨S2400x96, .f32⟩
  | .local _ .vmem, ⟨14, _⟩ => ⟨S2400x96, .f32⟩
  | .local _ .vmem, ⟨15, _⟩ => ⟨S2400x96, .f32⟩
  | .local _ .vmem, ⟨16, _⟩ => ⟨S2400x96, .f32⟩
  | .local _ .vmem, ⟨17, _⟩ => ⟨S2400x96, .f32⟩
  | .local _ .vmem, ⟨18, _⟩ => ⟨S2400x96, .f32⟩
  | .local _ .vmem, ⟨19, _⟩ => ⟨S96x96, .bf16⟩
  | .local _ .vmem, ⟨20, _⟩ => ⟨S96x96, .bf16⟩
  | .local _ .vmem, ⟨21, _⟩ => ⟨S96, .f32⟩
  | .local _ .vmem, ⟨22, _⟩ => ⟨S2400x96, .f32⟩
  | .local _ .vmem, ⟨23, _⟩ => ⟨S2400x96, .f32⟩
  | _, _ => ⟨S120000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_4 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_call0_v0 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_v45 : Ref sig .tc := ⟨.hbm, 68, rfl⟩
abbrev main_c_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_12 : Ref sig .tc := ⟨.hbm, 96, rfl⟩
abbrev main_v70 : Ref sig .tc := ⟨.hbm, 97, rfl⟩
abbrev main_v71 : Ref sig .tc := ⟨.hbm, 98, rfl⟩
abbrev main_c_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_14 : Ref sig .tc := ⟨.hbm, 111, rfl⟩
abbrev main_v83 : Ref sig .tc := ⟨.hbm, 112, rfl⟩
abbrev main_v84 : Ref sig .tc := ⟨.hbm, 113, rfl⟩
abbrev main_c_15 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_16 : Ref sig .tc := ⟨.hbm, 126, rfl⟩
abbrev main_v96 : Ref sig .tc := ⟨.hbm, 127, rfl⟩
abbrev main_v97 : Ref sig .tc := ⟨.hbm, 128, rfl⟩
abbrev main_c_17 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_c_18 : Ref sig .tc := ⟨.hbm, 141, rfl⟩
abbrev main_v109 : Ref sig .tc := ⟨.hbm, 142, rfl⟩
abbrev main_v110 : Ref sig .tc := ⟨.hbm, 143, rfl⟩
abbrev main_c_19 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_20 : Ref sig .tc := ⟨.hbm, 156, rfl⟩
abbrev main_v122 : Ref sig .tc := ⟨.hbm, 157, rfl⟩
abbrev main_v123 : Ref sig .tc := ⟨.hbm, 158, rfl⟩
abbrev main_c_21 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_c_22 : Ref sig .tc := ⟨.hbm, 171, rfl⟩
abbrev main_v135 : Ref sig .tc := ⟨.hbm, 172, rfl⟩
abbrev main_v136 : Ref sig .tc := ⟨.hbm, 173, rfl⟩
abbrev main_c_23 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_c_24 : Ref sig .tc := ⟨.hbm, 186, rfl⟩
abbrev main_v148 : Ref sig .tc := ⟨.hbm, 187, rfl⟩
abbrev main_v149 : Ref sig .tc := ⟨.hbm, 188, rfl⟩
abbrev main_c_25 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_c_26 : Ref sig .tc := ⟨.hbm, 201, rfl⟩
abbrev main_v161 : Ref sig .tc := ⟨.hbm, 202, rfl⟩
abbrev main_v162 : Ref sig .tc := ⟨.hbm, 203, rfl⟩
abbrev main_c_27 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_c_28 : Ref sig .tc := ⟨.hbm, 216, rfl⟩
abbrev main_v174 : Ref sig .tc := ⟨.hbm, 217, rfl⟩
abbrev main_v175 : Ref sig .tc := ⟨.hbm, 218, rfl⟩
abbrev main_c_29 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_c_30 : Ref sig .tc := ⟨.hbm, 231, rfl⟩
abbrev main_v187 : Ref sig .tc := ⟨.hbm, 232, rfl⟩
abbrev main_v188 : Ref sig .tc := ⟨.hbm, 233, rfl⟩
abbrev main_c_31 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_v193 : Ref sig .tc := ⟨.hbm, 239, rfl⟩
abbrev main_v194 : Ref sig .tc := ⟨.hbm, 240, rfl⟩
abbrev main_v195 : Ref sig .tc := ⟨.hbm, 241, rfl⟩
abbrev main_v196 : Ref sig .tc := ⟨.hbm, 242, rfl⟩
abbrev main_v197 : Ref sig .tc := ⟨.hbm, 243, rfl⟩
abbrev main_v198 : Ref sig .tc := ⟨.hbm, 244, rfl⟩
abbrev main_v199 : Ref sig .tc := ⟨.hbm, 245, rfl⟩
abbrev main_c_32 : Ref sig .tc := ⟨.hbm, 246, rfl⟩
abbrev main_v200 : Ref sig .tc := ⟨.hbm, 247, rfl⟩
abbrev main_v201 : Ref sig .tc := ⟨.hbm, 248, rfl⟩
abbrev main_c_33 : Ref sig .tc := ⟨.hbm, 249, rfl⟩
abbrev main_v202 : Ref sig .tc := ⟨.hbm, 250, rfl⟩
abbrev main_v203 : Ref sig .tc := ⟨.hbm, 251, rfl⟩
abbrev main_v204 : Ref sig .tc := ⟨.hbm, 252, rfl⟩
abbrev main_v205 : Ref sig .tc := ⟨.hbm, 253, rfl⟩
abbrev main_v206 : Ref sig .tc := ⟨.hbm, 254, rfl⟩
abbrev main_v207 : Ref sig .tc := ⟨.hbm, 255, rfl⟩
abbrev main_v208 : Ref sig .tc := ⟨.hbm, 256, rfl⟩
abbrev main_v209 : Ref sig .tc := ⟨.hbm, 257, rfl⟩
abbrev main_v210 : Ref sig .tc := ⟨.hbm, 258, rfl⟩
abbrev main_v211 : Ref sig .tc := ⟨.hbm, 259, rfl⟩
abbrev main_v212 : Ref sig .tc := ⟨.hbm, 260, rfl⟩
abbrev main_c_34 : Ref sig .tc := ⟨.hbm, 261, rfl⟩
abbrev main_v213 : Ref sig .tc := ⟨.hbm, 262, rfl⟩
abbrev main_v214 : Ref sig .tc := ⟨.hbm, 263, rfl⟩
abbrev main_c_35 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_c_36 : Ref sig .tc := ⟨.hbm, 276, rfl⟩
abbrev main_v226 : Ref sig .tc := ⟨.hbm, 277, rfl⟩
abbrev main_v227 : Ref sig .tc := ⟨.hbm, 278, rfl⟩
abbrev main_c_37 : Ref sig .tc := ⟨.hbm, 279, rfl⟩
abbrev main_v228 : Ref sig .tc := ⟨.hbm, 280, rfl⟩
abbrev main_v229 : Ref sig .tc := ⟨.hbm, 281, rfl⟩
abbrev main_v230 : Ref sig .tc := ⟨.hbm, 282, rfl⟩
abbrev main_v231 : Ref sig .tc := ⟨.hbm, 283, rfl⟩
abbrev main_v232 : Ref sig .tc := ⟨.hbm, 284, rfl⟩
abbrev main_v233 : Ref sig .tc := ⟨.hbm, 285, rfl⟩
abbrev main_v234 : Ref sig .tc := ⟨.hbm, 286, rfl⟩
abbrev main_v235 : Ref sig .tc := ⟨.hbm, 287, rfl⟩
abbrev main_v236 : Ref sig .tc := ⟨.hbm, 288, rfl⟩
abbrev main_v237 : Ref sig .tc := ⟨.hbm, 289, rfl⟩
abbrev main_v238 : Ref sig .tc := ⟨.hbm, 290, rfl⟩
abbrev main_c_38 : Ref sig .tc := ⟨.hbm, 291, rfl⟩
abbrev main_v239 : Ref sig .tc := ⟨.hbm, 292, rfl⟩
abbrev main_v240 : Ref sig .tc := ⟨.hbm, 293, rfl⟩
abbrev main_c_39 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_c_40 : Ref sig .tc := ⟨.hbm, 306, rfl⟩
abbrev main_v252 : Ref sig .tc := ⟨.hbm, 307, rfl⟩
abbrev main_v253 : Ref sig .tc := ⟨.hbm, 308, rfl⟩
abbrev main_c_41 : Ref sig .tc := ⟨.hbm, 309, rfl⟩
abbrev main_v254 : Ref sig .tc := ⟨.hbm, 310, rfl⟩
abbrev main_v255 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_c_42 : Ref sig .tc := ⟨.hbm, 321, rfl⟩
abbrev main_v265 : Ref sig .tc := ⟨.hbm, 322, rfl⟩
abbrev main_v266 : Ref sig .tc := ⟨.hbm, 323, rfl⟩
abbrev main_c_43 : Ref sig .tc := ⟨.hbm, 324, rfl⟩
abbrev main_v267 : Ref sig .tc := ⟨.hbm, 325, rfl⟩
abbrev main_v268 : Ref sig .tc := ⟨.hbm, 326, rfl⟩
abbrev main_v269 : Ref sig .tc := ⟨.hbm, 327, rfl⟩
abbrev main_v270 : Ref sig .tc := ⟨.hbm, 328, rfl⟩
abbrev main_v271 : Ref sig .tc := ⟨.hbm, 329, rfl⟩
abbrev main_v272 : Ref sig .tc := ⟨.hbm, 330, rfl⟩
abbrev main_v273 : Ref sig .tc := ⟨.hbm, 331, rfl⟩
abbrev main_v274 : Ref sig .tc := ⟨.hbm, 332, rfl⟩
abbrev main_v275 : Ref sig .tc := ⟨.hbm, 333, rfl⟩
abbrev main_v276 : Ref sig .tc := ⟨.hbm, 334, rfl⟩
abbrev main_v277 : Ref sig .tc := ⟨.hbm, 335, rfl⟩
abbrev main_c_44 : Ref sig .tc := ⟨.hbm, 336, rfl⟩
abbrev main_v278 : Ref sig .tc := ⟨.hbm, 337, rfl⟩
abbrev main_v279 : Ref sig .tc := ⟨.hbm, 338, rfl⟩
abbrev main_c_45 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_v288 : Ref sig .tc := ⟨.hbm, 348, rfl⟩
abbrev main_v289 : Ref sig .tc := ⟨.hbm, 349, rfl⟩
abbrev main_v290 : Ref sig .tc := ⟨.hbm, 350, rfl⟩
abbrev main_c_46 : Ref sig .tc := ⟨.hbm, 351, rfl⟩
abbrev main_v291 : Ref sig .tc := ⟨.hbm, 352, rfl⟩
abbrev main_v292 : Ref sig .tc := ⟨.hbm, 353, rfl⟩
abbrev main_c_47 : Ref sig .tc := ⟨.hbm, 354, rfl⟩
abbrev main_v293 : Ref sig .tc := ⟨.hbm, 355, rfl⟩
abbrev main_v294 : Ref sig .tc := ⟨.hbm, 356, rfl⟩
abbrev main_v295 : Ref sig .tc := ⟨.hbm, 357, rfl⟩
abbrev main_v296 : Ref sig .tc := ⟨.hbm, 358, rfl⟩
abbrev main_v297 : Ref sig .tc := ⟨.hbm, 359, rfl⟩
abbrev main_v298 : Ref sig .tc := ⟨.hbm, 360, rfl⟩
abbrev main_v299 : Ref sig .tc := ⟨.hbm, 361, rfl⟩
abbrev main_v300 : Ref sig .tc := ⟨.hbm, 362, rfl⟩
abbrev main_v301 : Ref sig .tc := ⟨.hbm, 363, rfl⟩
abbrev main_v302 : Ref sig .tc := ⟨.hbm, 364, rfl⟩
abbrev main_v303 : Ref sig .tc := ⟨.hbm, 365, rfl⟩
abbrev main_c_48 : Ref sig .tc := ⟨.hbm, 366, rfl⟩
abbrev main_v304 : Ref sig .tc := ⟨.hbm, 367, rfl⟩
abbrev main_v305 : Ref sig .tc := ⟨.hbm, 368, rfl⟩
abbrev main_c_49 : Ref sig .tc := ⟨.hbm, 369, rfl⟩
abbrev main_v306 : Ref sig .tc := ⟨.hbm, 370, rfl⟩
abbrev main_v307 : Ref sig .tc := ⟨.hbm, 371, rfl⟩
abbrev main_v308 : Ref sig .tc := ⟨.hbm, 372, rfl⟩
abbrev main_v309 : Ref sig .tc := ⟨.hbm, 373, rfl⟩
abbrev main_v310 : Ref sig .tc := ⟨.hbm, 374, rfl⟩
abbrev main_v311 : Ref sig .tc := ⟨.hbm, 375, rfl⟩
abbrev main_v312 : Ref sig .tc := ⟨.hbm, 376, rfl⟩
abbrev main_v313 : Ref sig .tc := ⟨.hbm, 377, rfl⟩
abbrev main_v314 : Ref sig .tc := ⟨.hbm, 378, rfl⟩
abbrev main_v315 : Ref sig .tc := ⟨.hbm, 379, rfl⟩
abbrev main_v316 : Ref sig .tc := ⟨.hbm, 380, rfl⟩
abbrev main_c_50 : Ref sig .tc := ⟨.hbm, 381, rfl⟩
abbrev main_v317 : Ref sig .tc := ⟨.hbm, 382, rfl⟩
abbrev main_v318 : Ref sig .tc := ⟨.hbm, 383, rfl⟩
abbrev main_c_51 : Ref sig .tc := ⟨.hbm, 384, rfl⟩
abbrev main_v319 : Ref sig .tc := ⟨.hbm, 385, rfl⟩
abbrev main_v320 : Ref sig .tc := ⟨.hbm, 386, rfl⟩
abbrev main_v321 : Ref sig .tc := ⟨.hbm, 387, rfl⟩
abbrev main_v322 : Ref sig .tc := ⟨.hbm, 388, rfl⟩
abbrev main_v323 : Ref sig .tc := ⟨.hbm, 389, rfl⟩
abbrev main_v324 : Ref sig .tc := ⟨.hbm, 390, rfl⟩
abbrev main_v325 : Ref sig .tc := ⟨.hbm, 391, rfl⟩
abbrev main_v326 : Ref sig .tc := ⟨.hbm, 392, rfl⟩
abbrev main_v327 : Ref sig .tc := ⟨.hbm, 393, rfl⟩
abbrev main_v328 : Ref sig .tc := ⟨.hbm, 394, rfl⟩
abbrev main_v329 : Ref sig .tc := ⟨.hbm, 395, rfl⟩
abbrev main_c_52 : Ref sig .tc := ⟨.hbm, 396, rfl⟩
abbrev main_v330 : Ref sig .tc := ⟨.hbm, 397, rfl⟩
abbrev main_v331 : Ref sig .tc := ⟨.hbm, 398, rfl⟩
abbrev main_c_53 : Ref sig .tc := ⟨.hbm, 399, rfl⟩
abbrev main_v332 : Ref sig .tc := ⟨.hbm, 400, rfl⟩
abbrev main_v333 : Ref sig .tc := ⟨.hbm, 401, rfl⟩
abbrev main_v334 : Ref sig .tc := ⟨.hbm, 402, rfl⟩
abbrev main_v335 : Ref sig .tc := ⟨.hbm, 403, rfl⟩
abbrev main_v336 : Ref sig .tc := ⟨.hbm, 404, rfl⟩
abbrev main_v337 : Ref sig .tc := ⟨.hbm, 405, rfl⟩
abbrev main_v338 : Ref sig .tc := ⟨.hbm, 406, rfl⟩
abbrev main_v339 : Ref sig .tc := ⟨.hbm, 407, rfl⟩
abbrev main_v340 : Ref sig .tc := ⟨.hbm, 408, rfl⟩
abbrev main_v341 : Ref sig .tc := ⟨.hbm, 409, rfl⟩
abbrev main_v342 : Ref sig .tc := ⟨.hbm, 410, rfl⟩
abbrev main_c_54 : Ref sig .tc := ⟨.hbm, 411, rfl⟩
abbrev main_v343 : Ref sig .tc := ⟨.hbm, 412, rfl⟩
abbrev main_v344 : Ref sig .tc := ⟨.hbm, 413, rfl⟩
abbrev main_c_55 : Ref sig .tc := ⟨.hbm, 414, rfl⟩
abbrev main_v345 : Ref sig .tc := ⟨.hbm, 415, rfl⟩
abbrev main_v346 : Ref sig .tc := ⟨.hbm, 416, rfl⟩
abbrev main_v347 : Ref sig .tc := ⟨.hbm, 417, rfl⟩
abbrev main_v348 : Ref sig .tc := ⟨.hbm, 418, rfl⟩
abbrev main_v349 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_c_56 : Ref sig .tc := ⟨.hbm, 426, rfl⟩
abbrev main_v356 : Ref sig .tc := ⟨.hbm, 427, rfl⟩
abbrev main_v357 : Ref sig .tc := ⟨.hbm, 428, rfl⟩
abbrev main_c_57 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_c_58 : Ref sig .tc := ⟨.hbm, 441, rfl⟩
abbrev main_v369 : Ref sig .tc := ⟨.hbm, 442, rfl⟩
abbrev main_v370 : Ref sig .tc := ⟨.hbm, 443, rfl⟩
abbrev main_c_59 : Ref sig .tc := ⟨.hbm, 444, rfl⟩
abbrev main_v371 : Ref sig .tc := ⟨.hbm, 445, rfl⟩
abbrev main_v372 : Ref sig .tc := ⟨.hbm, 446, rfl⟩
abbrev main_v373 : Ref sig .tc := ⟨.hbm, 447, rfl⟩
abbrev main_v374 : Ref sig .tc := ⟨.hbm, 448, rfl⟩
abbrev main_v375 : Ref sig .tc := ⟨.hbm, 449, rfl⟩
abbrev main_v376 : Ref sig .tc := ⟨.hbm, 450, rfl⟩
abbrev main_v377 : Ref sig .tc := ⟨.hbm, 451, rfl⟩
abbrev main_cst_60 : Ref sig .tc := ⟨.hbm, 452, rfl⟩
abbrev main_v378 : Ref sig .tc := ⟨.hbm, 453, rfl⟩
abbrev main_cst_61 : Ref sig .tc := ⟨.hbm, 454, rfl⟩
abbrev main_v379 : Ref sig .tc := ⟨.hbm, 455, rfl⟩
abbrev main_v380 : Ref sig .tc := ⟨.hbm, 456, rfl⟩
abbrev main_v381 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_cst_62 : Ref sig .tc := ⟨.hbm, 461, rfl⟩
abbrev main_v385 : Ref sig .tc := ⟨.hbm, 462, rfl⟩
abbrev main_cst_63 : Ref sig .tc := ⟨.hbm, 463, rfl⟩
abbrev main_v386 : Ref sig .tc := ⟨.hbm, 464, rfl⟩
abbrev main_v387 : Ref sig .tc := ⟨.hbm, 465, rfl⟩
abbrev main_c_64 : Ref sig .tc := ⟨.hbm, 466, rfl⟩
abbrev main_call1_v0 : Ref sig .tc := ⟨.hbm, 467, rfl⟩
abbrev main_v388 : Ref sig .tc := ⟨.hbm, 468, rfl⟩
abbrev main_v389 : Ref sig .tc := ⟨.hbm, 469, rfl⟩
abbrev main_v390 : Ref sig .tc := ⟨.hbm, 470, rfl⟩
abbrev main_cst_65 : Ref sig .tc := ⟨.hbm, 471, rfl⟩
abbrev main_v391 : Ref sig .tc := ⟨.hbm, 472, rfl⟩
abbrev main_v392 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_c_66 : Ref sig .tc := ⟨.hbm, 477, rfl⟩
abbrev main_v396 : Ref sig .tc := ⟨.hbm, 478, rfl⟩
abbrev main_v397 : Ref sig .tc := ⟨.hbm, 479, rfl⟩
abbrev main_c_67 : Ref sig .tc := ⟨.hbm, 480, rfl⟩
abbrev main_v398 : Ref sig .tc := ⟨.hbm, 481, rfl⟩
abbrev main_v399 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_v404 : Ref sig .tc := ⟨.hbm, 487, rfl⟩
abbrev main_v405 : Ref sig .tc := ⟨.hbm, 488, rfl⟩
abbrev main_v406 : Ref sig .tc := ⟨.hbm, 489, rfl⟩
abbrev main_v407 : Ref sig .tc := ⟨.hbm, 490, rfl⟩
abbrev main_c_68 : Ref sig .tc := ⟨.hbm, 491, rfl⟩
abbrev main_v408 : Ref sig .tc := ⟨.hbm, 492, rfl⟩
abbrev main_v409 : Ref sig .tc := ⟨.hbm, 493, rfl⟩
abbrev main_c_69 : Ref sig .tc := ⟨.hbm, 494, rfl⟩
abbrev main_v410 : Ref sig .tc := ⟨.hbm, 495, rfl⟩
abbrev main_v411 : Ref sig .tc := ⟨.hbm, 496, rfl⟩
abbrev main_v412 : Ref sig .tc := ⟨.hbm, 497, rfl⟩
abbrev main_v413 : Ref sig .tc := ⟨.hbm, 498, rfl⟩
abbrev main_v414 : Ref sig .tc := ⟨.hbm, 499, rfl⟩
abbrev main_v415 : Ref sig .tc := ⟨.hbm, 500, rfl⟩
abbrev main_v416 : Ref sig .tc := ⟨.hbm, 501, rfl⟩
abbrev main_v417 : Ref sig .tc := ⟨.hbm, 502, rfl⟩
abbrev main_v418 : Ref sig .tc := ⟨.hbm, 503, rfl⟩
abbrev main_v419 : Ref sig .tc := ⟨.hbm, 504, rfl⟩
abbrev main_v420 : Ref sig .tc := ⟨.hbm, 505, rfl⟩
abbrev main_c_70 : Ref sig .tc := ⟨.hbm, 506, rfl⟩
abbrev main_v421 : Ref sig .tc := ⟨.hbm, 507, rfl⟩
abbrev main_v422 : Ref sig .tc := ⟨.hbm, 508, rfl⟩
abbrev main_c_71 : Ref sig .tc := ⟨.hbm, 509, rfl⟩
abbrev main_v423 : Ref sig .tc := ⟨.hbm, 510, rfl⟩
abbrev main_v424 : Ref sig .tc := ⟨.hbm, 511, rfl⟩
abbrev main_v425 : Ref sig .tc := ⟨.hbm, 512, rfl⟩
abbrev main_v426 : Ref sig .tc := ⟨.hbm, 513, rfl⟩
abbrev main_v427 : Ref sig .tc := ⟨.hbm, 514, rfl⟩
abbrev main_v428 : Ref sig .tc := ⟨.hbm, 515, rfl⟩
abbrev main_v429 : Ref sig .tc := ⟨.hbm, 516, rfl⟩
abbrev main_v430 : Ref sig .tc := ⟨.hbm, 517, rfl⟩
abbrev main_v431 : Ref sig .tc := ⟨.hbm, 518, rfl⟩
abbrev main_v432 : Ref sig .tc := ⟨.hbm, 519, rfl⟩
abbrev main_v433 : Ref sig .tc := ⟨.hbm, 520, rfl⟩
abbrev main_c_72 : Ref sig .tc := ⟨.hbm, 521, rfl⟩
abbrev main_v434 : Ref sig .tc := ⟨.hbm, 522, rfl⟩
abbrev main_v435 : Ref sig .tc := ⟨.hbm, 523, rfl⟩
abbrev main_c_73 : Ref sig .tc := ⟨.hbm, 524, rfl⟩
abbrev main_v436 : Ref sig .tc := ⟨.hbm, 525, rfl⟩
abbrev main_v437 : Ref sig .tc := ⟨.hbm, 526, rfl⟩
abbrev main_v438 : Ref sig .tc := ⟨.hbm, 527, rfl⟩
abbrev main_v439 : Ref sig .tc := ⟨.hbm, 528, rfl⟩
abbrev main_v440 : Ref sig .tc := ⟨.hbm, 529, rfl⟩
abbrev main_v441 : Ref sig .tc := ⟨.hbm, 530, rfl⟩
abbrev main_v442 : Ref sig .tc := ⟨.hbm, 531, rfl⟩
abbrev main_v443 : Ref sig .tc := ⟨.hbm, 532, rfl⟩
abbrev main_v444 : Ref sig .tc := ⟨.hbm, 533, rfl⟩
abbrev main_v445 : Ref sig .tc := ⟨.hbm, 534, rfl⟩
abbrev main_v446 : Ref sig .tc := ⟨.hbm, 535, rfl⟩
abbrev main_c_74 : Ref sig .tc := ⟨.hbm, 536, rfl⟩
abbrev main_v447 : Ref sig .tc := ⟨.hbm, 537, rfl⟩
abbrev main_v448 : Ref sig .tc := ⟨.hbm, 538, rfl⟩
abbrev main_c_75 : Ref sig .tc := ⟨.hbm, 539, rfl⟩
abbrev main_v449 : Ref sig .tc := ⟨.hbm, 540, rfl⟩
abbrev main_v450 : Ref sig .tc := ⟨.hbm, 541, rfl⟩
abbrev main_v451 : Ref sig .tc := ⟨.hbm, 542, rfl⟩
abbrev main_v452 : Ref sig .tc := ⟨.hbm, 543, rfl⟩
abbrev main_v453 : Ref sig .tc := ⟨.hbm, 544, rfl⟩
abbrev main_v454 : Ref sig .tc := ⟨.hbm, 545, rfl⟩
abbrev main_v455 : Ref sig .tc := ⟨.hbm, 546, rfl⟩
abbrev main_v456 : Ref sig .tc := ⟨.hbm, 547, rfl⟩
abbrev main_v457 : Ref sig .tc := ⟨.hbm, 548, rfl⟩
abbrev main_v458 : Ref sig .tc := ⟨.hbm, 549, rfl⟩
abbrev main_v459 : Ref sig .tc := ⟨.hbm, 550, rfl⟩
abbrev main_c_76 : Ref sig .tc := ⟨.hbm, 551, rfl⟩
abbrev main_v460 : Ref sig .tc := ⟨.hbm, 552, rfl⟩
abbrev main_v461 : Ref sig .tc := ⟨.hbm, 553, rfl⟩
abbrev main_c_77 : Ref sig .tc := ⟨.hbm, 554, rfl⟩
abbrev main_v462 : Ref sig .tc := ⟨.hbm, 555, rfl⟩
abbrev main_v463 : Ref sig .tc := ⟨.hbm, 556, rfl⟩
abbrev main_v464 : Ref sig .tc := ⟨.hbm, 557, rfl⟩
abbrev main_v465 : Ref sig .tc := ⟨.hbm, 558, rfl⟩
abbrev main_v466 : Ref sig .tc := ⟨.hbm, 559, rfl⟩
abbrev main_v467 : Ref sig .tc := ⟨.hbm, 560, rfl⟩
abbrev main_v468 : Ref sig .tc := ⟨.hbm, 561, rfl⟩
abbrev main_v469 : Ref sig .tc := ⟨.hbm, 562, rfl⟩
abbrev main_v470 : Ref sig .tc := ⟨.hbm, 563, rfl⟩
abbrev main_v471 : Ref sig .tc := ⟨.hbm, 564, rfl⟩
abbrev main_v472 : Ref sig .tc := ⟨.hbm, 565, rfl⟩
abbrev main_c_78 : Ref sig .tc := ⟨.hbm, 566, rfl⟩
abbrev main_v473 : Ref sig .tc := ⟨.hbm, 567, rfl⟩
abbrev main_v474 : Ref sig .tc := ⟨.hbm, 568, rfl⟩
abbrev main_c_79 : Ref sig .tc := ⟨.hbm, 569, rfl⟩
abbrev main_v475 : Ref sig .tc := ⟨.hbm, 570, rfl⟩
abbrev main_v476 : Ref sig .tc := ⟨.hbm, 571, rfl⟩
abbrev main_v477 : Ref sig .tc := ⟨.hbm, 572, rfl⟩
abbrev main_v478 : Ref sig .tc := ⟨.hbm, 573, rfl⟩
abbrev main_v479 : Ref sig .tc := ⟨.hbm, 574, rfl⟩
abbrev main_v480 : Ref sig .tc := ⟨.hbm, 575, rfl⟩
abbrev main_v481 : Ref sig .tc := ⟨.hbm, 576, rfl⟩
abbrev main_v482 : Ref sig .tc := ⟨.hbm, 577, rfl⟩
abbrev main_v483 : Ref sig .tc := ⟨.hbm, 578, rfl⟩
abbrev main_v484 : Ref sig .tc := ⟨.hbm, 579, rfl⟩
abbrev main_v485 : Ref sig .tc := ⟨.hbm, 580, rfl⟩
abbrev main_c_80 : Ref sig .tc := ⟨.hbm, 581, rfl⟩
abbrev main_v486 : Ref sig .tc := ⟨.hbm, 582, rfl⟩
abbrev main_v487 : Ref sig .tc := ⟨.hbm, 583, rfl⟩
abbrev main_c_81 : Ref sig .tc := ⟨.hbm, 584, rfl⟩
abbrev main_v488 : Ref sig .tc := ⟨.hbm, 585, rfl⟩
abbrev main_v489 : Ref sig .tc := ⟨.hbm, 586, rfl⟩
abbrev main_v490 : Ref sig .tc := ⟨.hbm, 587, rfl⟩
abbrev main_v491 : Ref sig .tc := ⟨.hbm, 588, rfl⟩
abbrev main_v492 : Ref sig .tc := ⟨.hbm, 589, rfl⟩
abbrev main_v493 : Ref sig .tc := ⟨.hbm, 590, rfl⟩
abbrev main_v494 : Ref sig .tc := ⟨.hbm, 591, rfl⟩
abbrev main_v495 : Ref sig .tc := ⟨.hbm, 592, rfl⟩
abbrev main_c_82 : Ref sig .tc := ⟨.hbm, 593, rfl⟩
abbrev main_call2_v0 : Ref sig .tc := ⟨.hbm, 594, rfl⟩
abbrev main_v496 : Ref sig .tc := ⟨.hbm, 595, rfl⟩
abbrev main_c_83 : Ref sig .tc := ⟨.hbm, 596, rfl⟩
abbrev main_call3_v0 : Ref sig .tc := ⟨.hbm, 597, rfl⟩
abbrev main_v497 : Ref sig .tc := ⟨.hbm, 598, rfl⟩
abbrev main_c_84 : Ref sig .tc := ⟨.hbm, 599, rfl⟩
abbrev main_call4_v0 : Ref sig .tc := ⟨.hbm, 600, rfl⟩
abbrev main_v498 : Ref sig .tc := ⟨.hbm, 601, rfl⟩
abbrev main_v499 : Ref sig .tc := ⟨.hbm, 602, rfl⟩
abbrev main_v500 : Ref sig .tc := ⟨.hbm, 603, rfl⟩
abbrev main_v501 : Ref sig .tc := ⟨.hbm, 604, rfl⟩
abbrev main_v502 : Ref sig .tc := ⟨.hbm, 605, rfl⟩
abbrev main_v503 : Ref sig .tc := ⟨.hbm, 606, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23

abbrev nD : Nat := 1
abbrev τ : Topo := Topo.v7x

variable {F : FTy → Type} [FloatOps F]

abbrev grid0 : Pipeline.Grid := ⟨1, ![189], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x2592 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2592 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![95], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2400x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2400x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2400x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S96x96 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S96x96 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S96 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2400x96 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S96446x96 : S_.BroadcastsInDim S96446x96 (![] : Fin 0 → Fin S96446x96.rank)
  bcast_S120000_S120000x1_0 : S120000.BroadcastsInDim S120000x1 (![0] : Fin 1 → Fin S120000x1.rank)
  bcast_S_S120000x1 : S_.BroadcastsInDim S120000x1 (![] : Fin 0 → Fin S120000x1.rank)
  bcast_S_S96446x1 : S_.BroadcastsInDim S96446x1 (![] : Fin 0 → Fin S96446x1.rank)
  bcast_S96446x1_S96446x96_0_1 : S96446x1.BroadcastsInDim S96446x96 (![0, 1] : Fin 2 → Fin S96446x96.rank)
  concatenates_S96446x96_S96446x96_S96446x192_d1 : Shape.Concatenates [S96446x96, S96446x96] S96446x192 1
  bitsLt_bf16_f32 : FTy.bits .bf16 < FTy.bits .f32
  bcast_S_S1x192 : S_.BroadcastsInDim S1x192 (![] : Fin 0 → Fin S1x192.rank)
  concatenates_S96446x192_S1x192_S96447x192_d0 : Shape.Concatenates [S96446x192, S1x192] S96447x192 0
  transposes_S27x192x96_S192x27x96_1_0_2 : S27x192x96.Transposes [1, 0, 2] S192x27x96
  shapeCasts_S192x27x96_S192x2592 : S192x27x96.ShapeCasts S192x2592
  pads_S96447x192_S96768x192_03210_000 : S96447x192.Pads (![0, 0] : Fin 2 → Nat) ![321, 0] ![0, 0] S96768x192
  h_S_ : 0 < S_.numel
  inb_S512x192_S512x192_0_0 : ∀ a, (![0, 0] : Fin 2 → Nat) a + S512x192.size a ≤ S512x192.size a
  h_S512x192 : 0 < S512x192.numel
  shapeCasts_S512x192_S512x192 : S512x192.ShapeCasts S512x192
  inb_S192x2592_S192x2592_0_0 : ∀ a, (![0, 0] : Fin 2 → Nat) a + S192x2592.size a ≤ S192x2592.size a
  h_S192x2592 : 0 < S192x2592.numel
  shapeCasts_S192x2592_S192x2592 : S192x2592.ShapeCasts S192x2592
  inb_S512x2592_S512x2592_0_0 : ∀ a, (![0, 0] : Fin 2 → Nat) a + S512x2592.size a ≤ S512x2592.size a
  h_S512x2592 : 0 < S512x2592.numel
  packedbf16_S512x2592_S512x2592_0_0 : (Rect.unit (s := S512x2592) ![0, 0] S512x2592.size inb_S512x2592_S512x2592_0_0).PackedRows (EltTy.packing .bf16)
  shapeCasts_S96768x2592_S96768x27x96 : S96768x2592.ShapeCasts S96768x27x96
  slices_S96768x27x96_S96768x1x96_0_0_0 : S96768x27x96.Slices ![0, 0, 0] S96768x1x96
  shapeCasts_S96768x1x96_S96768x96 : S96768x1x96.ShapeCasts S96768x96
  slices_S96446x27_S96446x1_0_0 : S96446x27.Slices ![0, 0] S96446x1
  shapeCasts_S96446x1_S96446 : S96446x1.ShapeCasts S96446
  bcast_S_S96446 : S_.BroadcastsInDim S96446 (![] : Fin 0 → Fin S96446.rank)
  bcast_S96446_S96446x1_0 : S96446.BroadcastsInDim S96446x1 (![0] : Fin 1 → Fin S96446x1.rank)
  slices_S96768x27x96_S96768x1x96_0_1_0 : S96768x27x96.Slices ![0, 1, 0] S96768x1x96
  slices_S96446x27_S96446x1_0_1 : S96446x27.Slices ![0, 1] S96446x1
  slices_S96768x27x96_S96768x1x96_0_2_0 : S96768x27x96.Slices ![0, 2, 0] S96768x1x96
  slices_S96446x27_S96446x1_0_2 : S96446x27.Slices ![0, 2] S96446x1
  slices_S96768x27x96_S96768x1x96_0_3_0 : S96768x27x96.Slices ![0, 3, 0] S96768x1x96
  slices_S96446x27_S96446x1_0_3 : S96446x27.Slices ![0, 3] S96446x1
  slices_S96768x27x96_S96768x1x96_0_4_0 : S96768x27x96.Slices ![0, 4, 0] S96768x1x96
  slices_S96446x27_S96446x1_0_4 : S96446x27.Slices ![0, 4] S96446x1
  slices_S96768x27x96_S96768x1x96_0_5_0 : S96768x27x96.Slices ![0, 5, 0] S96768x1x96
  slices_S96446x27_S96446x1_0_5 : S96446x27.Slices ![0, 5] S96446x1
  slices_S96768x27x96_S96768x1x96_0_6_0 : S96768x27x96.Slices ![0, 6, 0] S96768x1x96
  slices_S96446x27_S96446x1_0_6 : S96446x27.Slices ![0, 6] S96446x1
  slices_S96768x27x96_S96768x1x96_0_7_0 : S96768x27x96.Slices ![0, 7, 0] S96768x1x96
  slices_S96446x27_S96446x1_0_7 : S96446x27.Slices ![0, 7] S96446x1
  slices_S96768x27x96_S96768x1x96_0_8_0 : S96768x27x96.Slices ![0, 8, 0] S96768x1x96
  slices_S96446x27_S96446x1_0_8 : S96446x27.Slices ![0, 8] S96446x1
  slices_S96768x27x96_S96768x1x96_0_9_0 : S96768x27x96.Slices ![0, 9, 0] S96768x1x96
  slices_S96446x27_S96446x1_0_9 : S96446x27.Slices ![0, 9] S96446x1
  slices_S96768x27x96_S96768x1x96_0_10_0 : S96768x27x96.Slices ![0, 10, 0] S96768x1x96
  slices_S96446x27_S96446x1_0_10 : S96446x27.Slices ![0, 10] S96446x1
  slices_S96768x27x96_S96768x1x96_0_11_0 : S96768x27x96.Slices ![0, 11, 0] S96768x1x96
  slices_S96446x27_S96446x1_0_11 : S96446x27.Slices ![0, 11] S96446x1
  slices_S96768x27x96_S96768x1x96_0_12_0 : S96768x27x96.Slices ![0, 12, 0] S96768x1x96
  slices_S96446x27_S96446x1_0_12 : S96446x27.Slices ![0, 12] S96446x1
  slices_S96768x27x96_S96768x1x96_0_13_0 : S96768x27x96.Slices ![0, 13, 0] S96768x1x96
  slices_S96446x27_S96446x1_0_13 : S96446x27.Slices ![0, 13] S96446x1
  slices_S96768x27x96_S96768x1x96_0_14_0 : S96768x27x96.Slices ![0, 14, 0] S96768x1x96
  slices_S96446x27_S96446x1_0_14 : S96446x27.Slices ![0, 14] S96446x1
  slices_S96768x27x96_S96768x1x96_0_15_0 : S96768x27x96.Slices ![0, 15, 0] S96768x1x96
  slices_S96446x27_S96446x1_0_15 : S96446x27.Slices ![0, 15] S96446x1
  slices_S96768x27x96_S96768x1x96_0_16_0 : S96768x27x96.Slices ![0, 16, 0] S96768x1x96
  slices_S96446x27_S96446x1_0_16 : S96446x27.Slices ![0, 16] S96446x1
  slices_S96768x27x96_S96768x1x96_0_17_0 : S96768x27x96.Slices ![0, 17, 0] S96768x1x96
  slices_S96446x27_S96446x1_0_17 : S96446x27.Slices ![0, 17] S96446x1
  slices_S96768x27x96_S96768x1x96_0_18_0 : S96768x27x96.Slices ![0, 18, 0] S96768x1x96
  slices_S96446x27_S96446x1_0_18 : S96446x27.Slices ![0, 18] S96446x1
  slices_S96768x27x96_S96768x1x96_0_19_0 : S96768x27x96.Slices ![0, 19, 0] S96768x1x96
  slices_S96446x27_S96446x1_0_19 : S96446x27.Slices ![0, 19] S96446x1
  slices_S96768x27x96_S96768x1x96_0_20_0 : S96768x27x96.Slices ![0, 20, 0] S96768x1x96
  slices_S96446x27_S96446x1_0_20 : S96446x27.Slices ![0, 20] S96446x1
  slices_S96768x27x96_S96768x1x96_0_21_0 : S96768x27x96.Slices ![0, 21, 0] S96768x1x96
  slices_S96446x27_S96446x1_0_21 : S96446x27.Slices ![0, 21] S96446x1
  slices_S96768x27x96_S96768x1x96_0_22_0 : S96768x27x96.Slices ![0, 22, 0] S96768x1x96
  slices_S96446x27_S96446x1_0_22 : S96446x27.Slices ![0, 22] S96446x1
  slices_S96768x27x96_S96768x1x96_0_23_0 : S96768x27x96.Slices ![0, 23, 0] S96768x1x96
  slices_S96446x27_S96446x1_0_23 : S96446x27.Slices ![0, 23] S96446x1
  slices_S96768x27x96_S96768x1x96_0_24_0 : S96768x27x96.Slices ![0, 24, 0] S96768x1x96
  slices_S96446x27_S96446x1_0_24 : S96446x27.Slices ![0, 24] S96446x1
  slices_S96768x27x96_S96768x1x96_0_25_0 : S96768x27x96.Slices ![0, 25, 0] S96768x1x96
  slices_S96446x27_S96446x1_0_25 : S96446x27.Slices ![0, 25] S96446x1
  slices_S96768x27x96_S96768x1x96_0_26_0 : S96768x27x96.Slices ![0, 26, 0] S96768x1x96
  slices_S96446x27_S96446x1_0_26 : S96446x27.Slices ![0, 26] S96446x1
  reducesTo_S96446x96_S96_d0 : S96446x96.ReducesTo [0] S96
  bcast_S_S96 : S_.BroadcastsInDim S96 (![] : Fin 0 → Fin S96.rank)
  bcast_S96_S1x96_1 : S96.BroadcastsInDim S1x96 (![1] : Fin 1 → Fin S1x96.rank)
  bcast_S1x96_S96446x96_0_1 : S1x96.BroadcastsInDim S96446x96 (![0, 1] : Fin 2 → Fin S96446x96.rank)
  pads_S96446x96_S97280x96_08340_000 : S96446x96.Pads (![0, 0] : Fin 2 → Nat) ![834, 0] ![0, 0] S97280x96
  inb_S1024x96_S1024x96_0_0 : ∀ a, (![0, 0] : Fin 2 → Nat) a + S1024x96.size a ≤ S1024x96.size a
  h_S1024x96 : 0 < S1024x96.numel
  shapeCasts_S1024x96_S1024x96 : S1024x96.ShapeCasts S1024x96
  inb_S96_S96_0 : ∀ a, (![0] : Fin 1 → Nat) a + S96.size a ≤ S96.size a
  h_S96 : 0 < S96.numel
  shapeCasts_S96_S1x96 : S96.ShapeCasts S1x96
  shapeCasts_S96_S96 : S96.ShapeCasts S96
  broadcasts_S1x96_S1024x96 : S1x96.Broadcasts S1024x96
  slices_S97280x96_S96446x96_0_0 : S97280x96.Slices ![0, 0] S96446x96
  bcast_S_S1x96 : S_.BroadcastsInDim S1x96 (![] : Fin 0 → Fin S1x96.rank)
  concatenates_S96446x96_S1x96_S96447x96_d0 : Shape.Concatenates [S96446x96, S1x96] S96447x96 0
  slices_S120000x8_S120000x1_0_0 : S120000x8.Slices ![0, 0] S120000x1
  shapeCasts_S120000x1_S120000 : S120000x1.ShapeCasts S120000
  bcast_S_S120000 : S_.BroadcastsInDim S120000 (![] : Fin 0 → Fin S120000.rank)
  bcast_S120000x1_S120000x96_0_1 : S120000x1.BroadcastsInDim S120000x96 (![0, 1] : Fin 2 → Fin S120000x96.rank)
  slices_S120000x8_S120000x1_0_1 : S120000x8.Slices ![0, 1] S120000x1
  slices_S120000x8_S120000x1_0_2 : S120000x8.Slices ![0, 2] S120000x1
  slices_S120000x8_S120000x1_0_3 : S120000x8.Slices ![0, 3] S120000x1
  slices_S120000x8_S120000x1_0_4 : S120000x8.Slices ![0, 4] S120000x1
  slices_S120000x8_S120000x1_0_5 : S120000x8.Slices ![0, 5] S120000x1
  slices_S120000x8_S120000x1_0_6 : S120000x8.Slices ![0, 6] S120000x1
  slices_S120000x8_S120000x1_0_7 : S120000x8.Slices ![0, 7] S120000x1
  pads_S120000x96_S120000x96_000_000 : S120000x96.Pads (![0, 0] : Fin 2 → Nat) ![0, 0] ![0, 0] S120000x96
  slices_S192x96_S96x96_0_0 : S192x96.Slices ![0, 0] S96x96
  slices_S192x96_S96x96_96_0 : S192x96.Slices ![96, 0] S96x96
  inb_S2400x96_S2400x96_0_0 : ∀ a, (![0, 0] : Fin 2 → Nat) a + S2400x96.size a ≤ S2400x96.size a
  h_S2400x96 : 0 < S2400x96.numel
  shapeCasts_S2400x96_S2400x96 : S2400x96.ShapeCasts S2400x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  broadcasts_S1x96_S2400x96 : S1x96.Broadcasts S2400x96
  scatter_S96446x96_S120000x1_S120000x96_1_0_0_1_wf : ScatterDims.WF S96446x96 S120000x1 S120000x96 [1] [0] [0] 1
  scatter_S96446x1_S120000x1_S120000x1_1_0_0_1_wf : ScatterDims.WF S96446x1 S120000x1 S120000x1 [1] [0] [0] 1
  dot_S512x192_S192x2592_S512x2592_1_0_0_1_n_n_wf : DotDims.WF S512x192 S192x2592 S512x2592 [1] [0] [0] [1] [] []
  gather_S96768x96_S96446x1_S96446x96_1_0_n_n_0_1_196_wf : GatherDims.WF S96768x96 S96446x1 S96446x96 [1] [0] [] [0] [] 1 ![1, 96]
  gather_S96447x96_S120000x1_S120000x96_1_0_n_n_0_1_196_wf : GatherDims.WF S96447x96 S120000x1 S120000x96 [1] [0] [] [0] [] 1 ![1, 96]
  dot_S2400x96_S96x96_S2400x96_1_0_0_1_n_n_wf : DotDims.WF S2400x96 S96x96 S2400x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x192.size a ≤ S96768x192.size a
  hwx0_0 : ∀ i : grid0.Coords, EltTy.bits .bf16 = 32 ∨ (Rect.block (s := S96768x192) S512x192.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x2592.size a ≤ S192x2592.size a
  hwx0_1 : ∀ i : grid0.Coords, EltTy.bits .bf16 = 32 ∨ (Rect.block (s := S192x2592) S192x2592.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2592.size a ≤ S96768x2592.size a
  hwx0_2 : ∀ i : grid0.Coords, EltTy.bits .bf16 = 32 ∨ (Rect.block (s := S96768x2592) S512x2592.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x96.size a ≤ S97280x96.size a
  hwx1_0 : ∀ i : grid1.Coords, EltTy.bits .f32 = 32 ∨ (Rect.block (s := S97280x96) S1024x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96.size a ≤ S96.size a
  hwx1_1 : ∀ i : grid1.Coords, EltTy.bits .f32 = 32 ∨ (Rect.block (s := S96) S96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96.size a ≤ S96.size a
  hwx1_2 : ∀ i : grid1.Coords, EltTy.bits .f32 = 32 ∨ (Rect.block (s := S96) S96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96.size a ≤ S96.size a
  hwx1_3 : ∀ i : grid1.Coords, EltTy.bits .f32 = 32 ∨ (Rect.block (s := S96) S96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x96.size a ≤ S97280x96.size a
  hwx1_5 : ∀ i : grid1.Coords, EltTy.bits .f32 = 32 ∨ (Rect.block (s := S97280x96) S1024x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2400x96.size a ≤ S120000x96.size a
  hwx2_0 : ∀ i : grid2.Coords, EltTy.bits .f32 = 32 ∨ (Rect.block (s := S120000x96) S2400x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2400x96.size a ≤ S120000x96.size a
  hwx2_1 : ∀ i : grid2.Coords, EltTy.bits .f32 = 32 ∨ (Rect.block (s := S120000x96) S2400x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2400x96.size a ≤ S120000x96.size a
  hwx2_2 : ∀ i : grid2.Coords, EltTy.bits .f32 = 32 ∨ (Rect.block (s := S120000x96) S2400x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x96.size a ≤ S96x96.size a
  hwx2_3 : ∀ i : grid2.Coords, EltTy.bits .bf16 = 32 ∨ (Rect.block (s := S96x96) S96x96.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S96x96.size a ≤ S96x96.size a
  hwx2_4 : ∀ i : grid2.Coords, EltTy.bits .bf16 = 32 ∨ (Rect.block (s := S96x96) S96x96.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S96.size a ≤ S96.size a
  hwx2_5 : ∀ i : grid2.Coords, EltTy.bits .f32 = 32 ∨ (Rect.block (s := S96) S96.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2400x96.size a ≤ S120000x96.size a
  hwx2_6 : ∀ i : grid2.Coords, EltTy.bits .f32 = 32 ∨ (Rect.block (s := S120000x96) S2400x96.size (cc2_transform_6 i) (hinb2_6 i)).WholeWords (EltTy.packing .f32)

variable [Facts₀]

def scatter_S96446x96_S120000x1_S120000x96_1_0_0_1 : ScatterDims S96446x96 S120000x1 S120000x96 where
  updateWindowDims := [1]
  insertedWindowDims := [0]
  scatterDimsToOperandDims := [0]
  indexVectorDim := 1
  wf := scatter_S96446x96_S120000x1_S120000x96_1_0_0_1_wf
def scatter_S96446x1_S120000x1_S120000x1_1_0_0_1 : ScatterDims S96446x1 S120000x1 S120000x1 where
  updateWindowDims := [1]
  insertedWindowDims := [0]
  scatterDimsToOperandDims := [0]
  indexVectorDim := 1
  wf := scatter_S96446x1_S120000x1_S120000x1_1_0_0_1_wf
def dot_S512x192_S192x2592_S512x2592_1_0_0_1_n_n : DotDims S512x192 S192x2592 S512x2592 where
  lhsContracting := [1]
  rhsContracting := [0]
  lhsNonContracting := [0]
  rhsNonContracting := [1]
  lhsBatch := []
  rhsBatch := []
  wf := dot_S512x192_S192x2592_S512x2592_1_0_0_1_n_n_wf
def gather_S96768x96_S96446x1_S96446x96_1_0_n_n_0_1_196 : GatherDims S96768x96 S96446x1 S96446x96 where
  offsetDims := [1]
  collapsedSliceDims := [0]
  operandBatchingDims := []
  startIndicesBatchingDims := []
  startIndexMap := [0]
  indexVectorDim := 1
  sliceSizes := ![1, 96]
  wf := gather_S96768x96_S96446x1_S96446x96_1_0_n_n_0_1_196_wf
def gather_S96447x96_S120000x1_S120000x96_1_0_n_n_0_1_196 : GatherDims S96447x96 S120000x1 S120000x96 where
  offsetDims := [1]
  collapsedSliceDims := [0]
  operandBatchingDims := []
  startIndicesBatchingDims := []
  startIndexMap := [0]
  indexVectorDim := 1
  sliceSizes := ![1, 96]
  wf := gather_S96447x96_S120000x1_S120000x96_1_0_n_n_0_1_196_wf
def dot_S2400x96_S96x96_S2400x96_1_0_0_1_n_n : DotDims S2400x96 S96x96 S2400x96 where
  lhsContracting := [1]
  rhsContracting := [0]
  lhsNonContracting := [0]
  rhsNonContracting := [1]
  lhsBatch := []
  rhsBatch := []
  wf := dot_S2400x96_S96x96_S2400x96_1_0_0_1_n_n_wf

abbrev win0_0 : Pipeline.Window sig grid0 :=
  Pipeline.Window.ofSpec (Memref.whole main_v23) S512x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S192x2592.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S512x2592.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v388) S1024x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v380) S96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v387) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v389) S1024x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v496) S2400x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v497) S2400x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v498) S2400x96.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v500) S96x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v502) S96x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg6) S96.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v503) S2400x96.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S120000x96 : Shape := ⟨2, ![120000, 96]⟩
abbrev S27x192x96 : Shape := ⟨3, ![27, 192, 96]⟩
abbrev S96 : Shape := ⟨1, ![96]⟩
abbrev S192x96 : Shape := ⟨2, ![192, 96]⟩
abbrev S120000x8 : Shape := ⟨2, ![120000, 8]⟩
abbrev S120000 : Shape := ⟨1, ![120000]⟩
abbrev S96446x27 : Shape := ⟨2, ![96446, 27]⟩
abbrev S120000x192 : Shape := ⟨2, ![120000, 192]⟩
abbrev S_ : Shape := ⟨0, ![]⟩
abbrev S96446x192 : Shape := ⟨2, ![96446, 192]⟩
abbrev S120000x1 : Shape := ⟨2, ![120000, 1]⟩
abbrev S96446x1 : Shape := ⟨2, ![96446, 1]⟩
abbrev S1x192 : Shape := ⟨2, ![1, 192]⟩
abbrev S96447x192 : Shape := ⟨2, ![96447, 192]⟩
abbrev S96446x96 : Shape := ⟨2, ![96446, 96]⟩
abbrev S96446 : Shape := ⟨1, ![96446]⟩
abbrev S1x192x96 : Shape := ⟨3, ![1, 192, 96]⟩
abbrev S1x96 : Shape := ⟨2, ![1, 96]⟩
abbrev S96447x96 : Shape := ⟨2, ![96447, 96]⟩

abbrev nBuf : Space → Nat
  | .hbm => 600
  | .vmem => 0
  | .smem => 0
  | _ => 0

abbrev hbmTy0_0 (i : Nat) : BufTy := match i % 128 with
  | 0 => ⟨S120000x96, .f32⟩
  | 1 => ⟨S120000x96, .f32⟩
  | 2 => ⟨S27x192x96, .f32⟩
  | 3 => ⟨S96, .f32⟩
  | 4 => ⟨S96, .f32⟩
  | 5 => ⟨S192x96, .f32⟩
  | 6 => ⟨S96, .f32⟩
  | 7 => ⟨S120000x8, .f32⟩
  | 8 => ⟨S120000, .i32⟩
  | 9 => ⟨S96446x27, .i32⟩
  | 10 => ⟨S120000x8, .i32⟩
  | 11 => ⟨S120000x192, .f32⟩
  | 12 => ⟨S_, .f32⟩
  | 13 => ⟨S96446x192, .f32⟩
  | 14 => ⟨S120000x1, .i32⟩
  | 15 => ⟨S96446x192, .f32⟩
  | 16 => ⟨S_, .f32⟩
  | 17 => ⟨S120000x1, .f32⟩
  | 18 => ⟨S_, .f32⟩
  | 19 => ⟨S96446x1, .f32⟩
  | 20 => ⟨S120000x1, .i32⟩
  | 21 => ⟨S96446x1, .f32⟩
  | 22 => ⟨S_, .f32⟩
  | 23 => ⟨S96446x1, .f32⟩
  | 24 => ⟨S96446x1, .f32⟩
  | 25 => ⟨S96446x192, .f32⟩
  | 26 => ⟨S96446x192, .f32⟩
  | 27 => ⟨S_, .f32⟩
  | 28 => ⟨S1x192, .f32⟩
  | 29 => ⟨S96447x192, .f32⟩
  | 30 => ⟨S_, .f32⟩
  | 31 => ⟨S96446x96, .f32⟩
  | 32 => ⟨S96446x1, .i32⟩
  | 33 => ⟨S96446, .i32⟩
  | 34 => ⟨S_, .i32⟩
  | 35 => ⟨S96446, .i32⟩
  | 36 => ⟨S96446, .i1⟩
  | 37 => ⟨S_, .i32⟩
  | 38 => ⟨S96446, .i32⟩
  | 39 => ⟨S96446, .i32⟩
  | 40 => ⟨S96446, .i32⟩
  | 41 => ⟨S96446x1, .i32⟩
  | 42 => ⟨S96446x192, .f32⟩
  | 43 => ⟨S1x192x96, .f32⟩
  | 44 => ⟨S192x96, .f32⟩
  | 45 => ⟨S96446x96, .f32⟩
  | 46 => ⟨S96446x96, .f32⟩
  | 47 => ⟨S96446x1, .i32⟩
  | 48 => ⟨S96446, .i32⟩
  | 49 => ⟨S_, .i32⟩
  | 50 => ⟨S96446, .i32⟩
  | 51 => ⟨S96446, .i1⟩
  | 52 => ⟨S_, .i32⟩
  | 53 => ⟨S96446, .i32⟩
  | 54 => ⟨S96446, .i32⟩
  | 55 => ⟨S96446, .i32⟩
  | 56 => ⟨S96446x1, .i32⟩
  | 57 => ⟨S96446x192, .f32⟩
  | 58 => ⟨S1x192x96, .f32⟩
  | 59 => ⟨S192x96, .f32⟩
  | 60 => ⟨S96446x96, .f32⟩
  | 61 => ⟨S96446x96, .f32⟩
  | 62 => ⟨S96446x1, .i32⟩
  | 63 => ⟨S96446, .i32⟩
  | 64 => ⟨S_, .i32⟩
  | 65 => ⟨S96446, .i32⟩
  | 66 => ⟨S96446, .i1⟩
  | 67 => ⟨S_, .i32⟩
  | 68 => ⟨S96446, .i32⟩
  | 69 => ⟨S96446, .i32⟩
  | 70 => ⟨S96446, .i32⟩
  | 71 => ⟨S96446x1, .i32⟩
  | 72 => ⟨S96446x192, .f32⟩
  | 73 => ⟨S1x192x96, .f32⟩
  | 74 => ⟨S192x96, .f32⟩
  | 75 => ⟨S96446x96, .f32⟩
  | 76 => ⟨S96446x96, .f32⟩
  | 77 => ⟨S96446x1, .i32⟩
  | 78 => ⟨S96446, .i32⟩
  | 79 => ⟨S_, .i32⟩
  | 80 => ⟨S96446, .i32⟩
  | 81 => ⟨S96446, .i1⟩
  | 82 => ⟨S_, .i32⟩
  | 83 => ⟨S96446, .i32⟩
  | 84 => ⟨S96446, .i32⟩
  | 85 => ⟨S96446, .i32⟩
  | 86 => ⟨S96446x1, .i32⟩
  | 87 => ⟨S96446x192, .f32⟩
  | 88 => ⟨S1x192x96, .f32⟩
  | 89 => ⟨S192x96, .f32⟩
  | 90 => ⟨S96446x96, .f32⟩
  | 91 => ⟨S96446x96, .f32⟩
  | 92 => ⟨S96446x1, .i32⟩
  | 93 => ⟨S96446, .i32⟩
  | 94 => ⟨S_, .i32⟩
  | 95 => ⟨S96446, .i32⟩
  | 96 => ⟨S96446, .i1⟩
  | 97 => ⟨S_, .i32⟩
  | 98 => ⟨S96446, .i32⟩
  | 99 => ⟨S96446, .i32⟩
  | 100 => ⟨S96446, .i32⟩
  | 101 => ⟨S96446x1, .i32⟩
  | 102 => ⟨S96446x192, .f32⟩
  | 103 => ⟨S1x192x96, .f32⟩
  | 104 => ⟨S192x96, .f32⟩
  | 105 => ⟨S96446x96, .f32⟩
  | 106 => ⟨S96446x96, .f32⟩
  | 107 => ⟨S96446x1, .i32⟩
  | 108 => ⟨S96446, .i32⟩
  | 109 => ⟨S_, .i32⟩
  | 110 => ⟨S96446, .i32⟩
  | 111 => ⟨S96446, .i1⟩
  | 112 => ⟨S_, .i32⟩
  | 113 => ⟨S96446, .i32⟩
  | 114 => ⟨S96446, .i32⟩
  | 115 => ⟨S96446, .i32⟩
  | 116 => ⟨S96446x1, .i32⟩
  | 117 => ⟨S96446x192, .f32⟩
  | 118 => ⟨S1x192x96, .f32⟩
  | 119 => ⟨S192x96, .f32⟩
  | 120 => ⟨S96446x96, .f32⟩
  | 121 => ⟨S96446x96, .f32⟩
  | 122 => ⟨S96446x1, .i32⟩
  | 123 => ⟨S96446, .i32⟩
  | 124 => ⟨S_, .i32⟩
  | 125 => ⟨S96446, .i32⟩
  | 126 => ⟨S96446, .i1⟩
  | 127 => ⟨S_, .i32⟩
  | _ => ⟨S120000x96, .f32⟩

abbrev hbmTy0_1 (i : Nat) : BufTy := match i % 128 with
  | 0 => ⟨S96446, .i32⟩
  | 1 => ⟨S96446, .i32⟩
  | 2 => ⟨S96446, .i32⟩
  | 3 => ⟨S96446x1, .i32⟩
  | 4 => ⟨S96446x192, .f32⟩
  | 5 => ⟨S1x192x96, .f32⟩
  | 6 => ⟨S192x96, .f32⟩
  | 7 => ⟨S96446x96, .f32⟩
  | 8 => ⟨S96446x96, .f32⟩
  | 9 => ⟨S96446x1, .i32⟩
  | 10 => ⟨S96446, .i32⟩
  | 11 => ⟨S_, .i32⟩
  | 12 => ⟨S96446, .i32⟩
  | 13 => ⟨S96446, .i1⟩
  | 14 => ⟨S_, .i32⟩
  | 15 => ⟨S96446, .i32⟩
  | 16 => ⟨S96446, .i32⟩
  | 17 => ⟨S96446, .i32⟩
  | 18 => ⟨S96446x1, .i32⟩
  | 19 => ⟨S96446x192, .f32⟩
  | 20 => ⟨S1x192x96, .f32⟩
  | 21 => ⟨S192x96, .f32⟩
  | 22 => ⟨S96446x96, .f32⟩
  | 23 => ⟨S96446x96, .f32⟩
  | 24 => ⟨S96446x1, .i32⟩
  | 25 => ⟨S96446, .i32⟩
  | 26 => ⟨S_, .i32⟩
  | 27 => ⟨S96446, .i32⟩
  | 28 => ⟨S96446, .i1⟩
  | 29 => ⟨S_, .i32⟩
  | 30 => ⟨S96446, .i32⟩
  | 31 => ⟨S96446, .i32⟩
  | 32 => ⟨S96446, .i32⟩
  | 33 => ⟨S96446x1, .i32⟩
  | 34 => ⟨S96446x192, .f32⟩
  | 35 => ⟨S1x192x96, .f32⟩
  | 36 => ⟨S192x96, .f32⟩
  | 37 => ⟨S96446x96, .f32⟩
  | 38 => ⟨S96446x96, .f32⟩
  | 39 => ⟨S96446x1, .i32⟩
  | 40 => ⟨S96446, .i32⟩
  | 41 => ⟨S_, .i32⟩
  | 42 => ⟨S96446, .i32⟩
  | 43 => ⟨S96446, .i1⟩
  | 44 => ⟨S_, .i32⟩
  | 45 => ⟨S96446, .i32⟩
  | 46 => ⟨S96446, .i32⟩
  | 47 => ⟨S96446, .i32⟩
  | 48 => ⟨S96446x1, .i32⟩
  | 49 => ⟨S96446x192, .f32⟩
  | 50 => ⟨S1x192x96, .f32⟩
  | 51 => ⟨S192x96, .f32⟩
  | 52 => ⟨S96446x96, .f32⟩
  | 53 => ⟨S96446x96, .f32⟩
  | 54 => ⟨S96446x1, .i32⟩
  | 55 => ⟨S96446, .i32⟩
  | 56 => ⟨S_, .i32⟩
  | 57 => ⟨S96446, .i32⟩
  | 58 => ⟨S96446, .i1⟩
  | 59 => ⟨S_, .i32⟩
  | 60 => ⟨S96446, .i32⟩
  | 61 => ⟨S96446, .i32⟩
  | 62 => ⟨S96446, .i32⟩
  | 63 => ⟨S96446x1, .i32⟩
  | 64 => ⟨S96446x192, .f32⟩
  | 65 => ⟨S1x192x96, .f32⟩
  | 66 => ⟨S192x96, .f32⟩
  | 67 => ⟨S96446x96, .f32⟩
  | 68 => ⟨S96446x96, .f32⟩
  | 69 => ⟨S96446x1, .i32⟩
  | 70 => ⟨S96446, .i32⟩
  | 71 => ⟨S_, .i32⟩
  | 72 => ⟨S96446, .i32⟩
  | 73 => ⟨S96446, .i1⟩
  | 74 => ⟨S_, .i32⟩
  | 75 => ⟨S96446, .i32⟩
  | 76 => ⟨S96446, .i32⟩
  | 77 => ⟨S96446, .i32⟩
  | 78 => ⟨S96446x1, .i32⟩
  | 79 => ⟨S96446x192, .f32⟩
  | 80 => ⟨S1x192x96, .f32⟩
  | 81 => ⟨S192x96, .f32⟩
  | 82 => ⟨S96446x96, .f32⟩
  | 83 => ⟨S96446x96, .f32⟩
  | 84 => ⟨S96446x1, .i32⟩
  | 85 => ⟨S96446, .i32⟩
  | 86 => ⟨S_, .i32⟩
  | 87 => ⟨S96446, .i32⟩
  | 88 => ⟨S96446, .i1⟩
  | 89 => ⟨S_, .i32⟩
  | 90 => ⟨S96446, .i32⟩
  | 91 => ⟨S96446, .i32⟩
  | 92 => ⟨S96446, .i32⟩
  | 93 => ⟨S96446x1, .i32⟩
  | 94 => ⟨S96446x192, .f32⟩
  | 95 => ⟨S1x192x96, .f32⟩
  | 96 => ⟨S192x96, .f32⟩
  | 97 => ⟨S96446x96, .f32⟩
  | 98 => ⟨S96446x96, .f32⟩
  | 99 => ⟨S96446x1, .i32⟩
  | 100 => ⟨S96446, .i32⟩
  | 101 => ⟨S_, .i32⟩
  | 102 => ⟨S96446, .i32⟩
  | 103 => ⟨S96446, .i1⟩
  | 104 => ⟨S_, .i32⟩
  | 105 => ⟨S96446, .i32⟩
  | 106 => ⟨S96446, .i32⟩
  | 107 => ⟨S96446, .i32⟩
  | 108 => ⟨S96446x1, .i32⟩
  | 109 => ⟨S96446x192, .f32⟩
  | 110 => ⟨S1x192x96, .f32⟩
  | 111 => ⟨S192x96, .f32⟩
  | 112 => ⟨S96446x96, .f32⟩
  | 113 => ⟨S96446x96, .f32⟩
  | 114 => ⟨S96446x1, .i32⟩
  | 115 => ⟨S96446, .i32⟩
  | 116 => ⟨S_, .i32⟩
  | 117 => ⟨S96446, .i32⟩
  | 118 => ⟨S96446, .i1⟩
  | 119 => ⟨S_, .i32⟩
  | 120 => ⟨S96446, .i32⟩
  | 121 => ⟨S96446, .i32⟩
  | 122 => ⟨S96446, .i32⟩
  | 123 => ⟨S96446x1, .i32⟩
  | 124 => ⟨S96446x192, .f32⟩
  | 125 => ⟨S1x192x96, .f32⟩
  | 126 => ⟨S192x96, .f32⟩
  | 127 => ⟨S96446x96, .f32⟩
  | _ => ⟨S120000x96, .f32⟩

abbrev hbmTy0_2 (i : Nat) : BufTy := match i % 128 with
  | 0 => ⟨S96446x96, .f32⟩
  | 1 => ⟨S96446x1, .i32⟩
  | 2 => ⟨S96446, .i32⟩
  | 3 => ⟨S_, .i32⟩
  | 4 => ⟨S96446, .i32⟩
  | 5 => ⟨S96446, .i1⟩
  | 6 => ⟨S_, .i32⟩
  | 7 => ⟨S96446, .i32⟩
  | 8 => ⟨S96446, .i32⟩
  | 9 => ⟨S96446, .i32⟩
  | 10 => ⟨S96446x1, .i32⟩
  | 11 => ⟨S96446x192, .f32⟩
  | 12 => ⟨S1x192x96, .f32⟩
  | 13 => ⟨S192x96, .f32⟩
  | 14 => ⟨S96446x96, .f32⟩
  | 15 => ⟨S96446x96, .f32⟩
  | 16 => ⟨S96446x1, .i32⟩
  | 17 => ⟨S96446, .i32⟩
  | 18 => ⟨S_, .i32⟩
  | 19 => ⟨S96446, .i32⟩
  | 20 => ⟨S96446, .i1⟩
  | 21 => ⟨S_, .i32⟩
  | 22 => ⟨S96446, .i32⟩
  | 23 => ⟨S96446, .i32⟩
  | 24 => ⟨S96446, .i32⟩
  | 25 => ⟨S96446x1, .i32⟩
  | 26 => ⟨S96446x192, .f32⟩
  | 27 => ⟨S1x192x96, .f32⟩
  | 28 => ⟨S192x96, .f32⟩
  | 29 => ⟨S96446x96, .f32⟩
  | 30 => ⟨S96446x96, .f32⟩
  | 31 => ⟨S96446x1, .i32⟩
  | 32 => ⟨S96446, .i32⟩
  | 33 => ⟨S_, .i32⟩
  | 34 => ⟨S96446, .i32⟩
  | 35 => ⟨S96446, .i1⟩
  | 36 => ⟨S_, .i32⟩
  | 37 => ⟨S96446, .i32⟩
  | 38 => ⟨S96446, .i32⟩
  | 39 => ⟨S96446, .i32⟩
  | 40 => ⟨S96446x1, .i32⟩
  | 41 => ⟨S96446x192, .f32⟩
  | 42 => ⟨S1x192x96, .f32⟩
  | 43 => ⟨S192x96, .f32⟩
  | 44 => ⟨S96446x96, .f32⟩
  | 45 => ⟨S96446x96, .f32⟩
  | 46 => ⟨S96446x1, .i32⟩
  | 47 => ⟨S96446, .i32⟩
  | 48 => ⟨S_, .i32⟩
  | 49 => ⟨S96446, .i32⟩
  | 50 => ⟨S96446, .i1⟩
  | 51 => ⟨S_, .i32⟩
  | 52 => ⟨S96446, .i32⟩
  | 53 => ⟨S96446, .i32⟩
  | 54 => ⟨S96446, .i32⟩
  | 55 => ⟨S96446x1, .i32⟩
  | 56 => ⟨S96446x192, .f32⟩
  | 57 => ⟨S1x192x96, .f32⟩
  | 58 => ⟨S192x96, .f32⟩
  | 59 => ⟨S96446x96, .f32⟩
  | 60 => ⟨S96446x96, .f32⟩
  | 61 => ⟨S96446x1, .i32⟩
  | 62 => ⟨S96446, .i32⟩
  | 63 => ⟨S_, .i32⟩
  | 64 => ⟨S96446, .i32⟩
  | 65 => ⟨S96446, .i1⟩
  | 66 => ⟨S_, .i32⟩
  | 67 => ⟨S96446, .i32⟩
  | 68 => ⟨S96446, .i32⟩
  | 69 => ⟨S96446, .i32⟩
  | 70 => ⟨S96446x1, .i32⟩
  | 71 => ⟨S96446x192, .f32⟩
  | 72 => ⟨S1x192x96, .f32⟩
  | 73 => ⟨S192x96, .f32⟩
  | 74 => ⟨S96446x96, .f32⟩
  | 75 => ⟨S96446x96, .f32⟩
  | 76 => ⟨S96446x1, .i32⟩
  | 77 => ⟨S96446, .i32⟩
  | 78 => ⟨S_, .i32⟩
  | 79 => ⟨S96446, .i32⟩
  | 80 => ⟨S96446, .i1⟩
  | 81 => ⟨S_, .i32⟩
  | 82 => ⟨S96446, .i32⟩
  | 83 => ⟨S96446, .i32⟩
  | 84 => ⟨S96446, .i32⟩
  | 85 => ⟨S96446x1, .i32⟩
  | 86 => ⟨S96446x192, .f32⟩
  | 87 => ⟨S1x192x96, .f32⟩
  | 88 => ⟨S192x96, .f32⟩
  | 89 => ⟨S96446x96, .f32⟩
  | 90 => ⟨S96446x96, .f32⟩
  | 91 => ⟨S96446x1, .i32⟩
  | 92 => ⟨S96446, .i32⟩
  | 93 => ⟨S_, .i32⟩
  | 94 => ⟨S96446, .i32⟩
  | 95 => ⟨S96446, .i1⟩
  | 96 => ⟨S_, .i32⟩
  | 97 => ⟨S96446, .i32⟩
  | 98 => ⟨S96446, .i32⟩
  | 99 => ⟨S96446, .i32⟩
  | 100 => ⟨S96446x1, .i32⟩
  | 101 => ⟨S96446x192, .f32⟩
  | 102 => ⟨S1x192x96, .f32⟩
  | 103 => ⟨S192x96, .f32⟩
  | 104 => ⟨S96446x96, .f32⟩
  | 105 => ⟨S96446x96, .f32⟩
  | 106 => ⟨S96446x1, .i32⟩
  | 107 => ⟨S96446, .i32⟩
  | 108 => ⟨S_, .i32⟩
  | 109 => ⟨S96446, .i32⟩
  | 110 => ⟨S96446, .i1⟩
  | 111 => ⟨S_, .i32⟩
  | 112 => ⟨S96446, .i32⟩
  | 113 => ⟨S96446, .i32⟩
  | 114 => ⟨S96446, .i32⟩
  | 115 => ⟨S96446x1, .i32⟩
  | 116 => ⟨S96446x192, .f32⟩
  | 117 => ⟨S1x192x96, .f32⟩
  | 118 => ⟨S192x96, .f32⟩
  | 119 => ⟨S96446x96, .f32⟩
  | 120 => ⟨S96446x96, .f32⟩
  | 121 => ⟨S96446x1, .i32⟩
  | 122 => ⟨S96446, .i32⟩
  | 123 => ⟨S_, .i32⟩
  | 124 => ⟨S96446, .i32⟩
  | 125 => ⟨S96446, .i1⟩
  | 126 => ⟨S_, .i32⟩
  | 127 => ⟨S96446, .i32⟩
  | _ => ⟨S120000x96, .f32⟩

abbrev hbmTy0_3 (i : Nat) : BufTy := match i % 128 with
  | 0 => ⟨S96446, .i32⟩
  | 1 => ⟨S96446, .i32⟩
  | 2 => ⟨S96446x1, .i32⟩
  | 3 => ⟨S96446x192, .f32⟩
  | 4 => ⟨S1x192x96, .f32⟩
  | 5 => ⟨S192x96, .f32⟩
  | 6 => ⟨S96446x96, .f32⟩
  | 7 => ⟨S96446x96, .f32⟩
  | 8 => ⟨S96446x1, .i32⟩
  | 9 => ⟨S96446, .i32⟩
  | 10 => ⟨S_, .i32⟩
  | 11 => ⟨S96446, .i32⟩
  | 12 => ⟨S96446, .i1⟩
  | 13 => ⟨S_, .i32⟩
  | 14 => ⟨S96446, .i32⟩
  | 15 => ⟨S96446, .i32⟩
  | 16 => ⟨S96446, .i32⟩
  | 17 => ⟨S96446x1, .i32⟩
  | 18 => ⟨S96446x192, .f32⟩
  | 19 => ⟨S1x192x96, .f32⟩
  | 20 => ⟨S192x96, .f32⟩
  | 21 => ⟨S96446x96, .f32⟩
  | 22 => ⟨S96446x96, .f32⟩
  | 23 => ⟨S96446x1, .i32⟩
  | 24 => ⟨S96446, .i32⟩
  | 25 => ⟨S_, .i32⟩
  | 26 => ⟨S96446, .i32⟩
  | 27 => ⟨S96446, .i1⟩
  | 28 => ⟨S_, .i32⟩
  | 29 => ⟨S96446, .i32⟩
  | 30 => ⟨S96446, .i32⟩
  | 31 => ⟨S96446, .i32⟩
  | 32 => ⟨S96446x1, .i32⟩
  | 33 => ⟨S96446x192, .f32⟩
  | 34 => ⟨S1x192x96, .f32⟩
  | 35 => ⟨S192x96, .f32⟩
  | 36 => ⟨S96446x96, .f32⟩
  | 37 => ⟨S96446x96, .f32⟩
  | 38 => ⟨S96446x1, .i32⟩
  | 39 => ⟨S96446, .i32⟩
  | 40 => ⟨S_, .i32⟩
  | 41 => ⟨S96446, .i32⟩
  | 42 => ⟨S96446, .i1⟩
  | 43 => ⟨S_, .i32⟩
  | 44 => ⟨S96446, .i32⟩
  | 45 => ⟨S96446, .i32⟩
  | 46 => ⟨S96446, .i32⟩
  | 47 => ⟨S96446x1, .i32⟩
  | 48 => ⟨S96446x192, .f32⟩
  | 49 => ⟨S1x192x96, .f32⟩
  | 50 => ⟨S192x96, .f32⟩
  | 51 => ⟨S96446x96, .f32⟩
  | 52 => ⟨S96446x96, .f32⟩
  | 53 => ⟨S_, .f32⟩
  | 54 => ⟨S96, .f32⟩
  | 55 => ⟨S_, .f32⟩
  | 56 => ⟨S96, .f32⟩
  | 57 => ⟨S96, .f32⟩
  | 58 => ⟨S1x96, .f32⟩
  | 59 => ⟨S96446x96, .f32⟩
  | 60 => ⟨S96446x96, .f32⟩
  | 61 => ⟨S96446x96, .f32⟩
  | 62 => ⟨S_, .f32⟩
  | 63 => ⟨S96, .f32⟩
  | 64 => ⟨S_, .f32⟩
  | 65 => ⟨S96, .f32⟩
  | 66 => ⟨S96, .f32⟩
  | 67 => ⟨S1x96, .f32⟩
  | 68 => ⟨S96446x96, .f32⟩
  | 69 => ⟨S96446x96, .f32⟩
  | 70 => ⟨S1x96, .f32⟩
  | 71 => ⟨S96446x96, .f32⟩
  | 72 => ⟨S96446x96, .f32⟩
  | 73 => ⟨S_, .f32⟩
  | 74 => ⟨S96, .f32⟩
  | 75 => ⟨S96, .f32⟩
  | 76 => ⟨S96, .f32⟩
  | 77 => ⟨S1x96, .f32⟩
  | 78 => ⟨S96446x96, .f32⟩
  | 79 => ⟨S96446x96, .f32⟩
  | 80 => ⟨S1x96, .f32⟩
  | 81 => ⟨S96446x96, .f32⟩
  | 82 => ⟨S96446x96, .f32⟩
  | 83 => ⟨S_, .f32⟩
  | 84 => ⟨S96446x96, .f32⟩
  | 85 => ⟨S96446x96, .f32⟩
  | 86 => ⟨S_, .f32⟩
  | 87 => ⟨S1x96, .f32⟩
  | 88 => ⟨S96447x96, .f32⟩
  | 89 => ⟨S_, .f32⟩
  | 90 => ⟨S120000x96, .f32⟩
  | 91 => ⟨S120000x1, .f32⟩
  | 92 => ⟨S120000x1, .i32⟩
  | 93 => ⟨S120000, .i32⟩
  | 94 => ⟨S_, .i32⟩
  | 95 => ⟨S120000, .i32⟩
  | 96 => ⟨S120000, .i1⟩
  | 97 => ⟨S_, .i32⟩
  | 98 => ⟨S120000, .i32⟩
  | 99 => ⟨S120000, .i32⟩
  | 100 => ⟨S120000, .i32⟩
  | 101 => ⟨S120000x1, .i32⟩
  | 102 => ⟨S120000x96, .f32⟩
  | 103 => ⟨S120000x96, .f32⟩
  | 104 => ⟨S120000x96, .f32⟩
  | 105 => ⟨S120000x96, .f32⟩
  | 106 => ⟨S120000x1, .f32⟩
  | 107 => ⟨S120000x1, .i32⟩
  | 108 => ⟨S120000, .i32⟩
  | 109 => ⟨S_, .i32⟩
  | 110 => ⟨S120000, .i32⟩
  | 111 => ⟨S120000, .i1⟩
  | 112 => ⟨S_, .i32⟩
  | 113 => ⟨S120000, .i32⟩
  | 114 => ⟨S120000, .i32⟩
  | 115 => ⟨S120000, .i32⟩
  | 116 => ⟨S120000x1, .i32⟩
  | 117 => ⟨S120000x96, .f32⟩
  | 118 => ⟨S120000x96, .f32⟩
  | 119 => ⟨S120000x96, .f32⟩
  | 120 => ⟨S120000x96, .f32⟩
  | 121 => ⟨S120000x1, .f32⟩
  | 122 => ⟨S120000x1, .i32⟩
  | 123 => ⟨S120000, .i32⟩
  | 124 => ⟨S_, .i32⟩
  | 125 => ⟨S120000, .i32⟩
  | 126 => ⟨S120000, .i1⟩
  | 127 => ⟨S_, .i32⟩
  | _ => ⟨S120000x96, .f32⟩

abbrev hbmTy0_4 (i : Nat) : BufTy := match i % 128 with
  | 0 => ⟨S120000, .i32⟩
  | 1 => ⟨S120000, .i32⟩
  | 2 => ⟨S120000, .i32⟩
  | 3 => ⟨S120000x1, .i32⟩
  | 4 => ⟨S120000x96, .f32⟩
  | 5 => ⟨S120000x96, .f32⟩
  | 6 => ⟨S120000x96, .f32⟩
  | 7 => ⟨S120000x96, .f32⟩
  | 8 => ⟨S120000x1, .f32⟩
  | 9 => ⟨S120000x1, .i32⟩
  | 10 => ⟨S120000, .i32⟩
  | 11 => ⟨S_, .i32⟩
  | 12 => ⟨S120000, .i32⟩
  | 13 => ⟨S120000, .i1⟩
  | 14 => ⟨S_, .i32⟩
  | 15 => ⟨S120000, .i32⟩
  | 16 => ⟨S120000, .i32⟩
  | 17 => ⟨S120000, .i32⟩
  | 18 => ⟨S120000x1, .i32⟩
  | 19 => ⟨S120000x96, .f32⟩
  | 20 => ⟨S120000x96, .f32⟩
  | 21 => ⟨S120000x96, .f32⟩
  | 22 => ⟨S120000x96, .f32⟩
  | 23 => ⟨S120000x1, .f32⟩
  | 24 => ⟨S120000x1, .i32⟩
  | 25 => ⟨S120000, .i32⟩
  | 26 => ⟨S_, .i32⟩
  | 27 => ⟨S120000, .i32⟩
  | 28 => ⟨S120000, .i1⟩
  | 29 => ⟨S_, .i32⟩
  | 30 => ⟨S120000, .i32⟩
  | 31 => ⟨S120000, .i32⟩
  | 32 => ⟨S120000, .i32⟩
  | 33 => ⟨S120000x1, .i32⟩
  | 34 => ⟨S120000x96, .f32⟩
  | 35 => ⟨S120000x96, .f32⟩
  | 36 => ⟨S120000x96, .f32⟩
  | 37 => ⟨S120000x96, .f32⟩
  | 38 => ⟨S120000x1, .f32⟩
  | 39 => ⟨S120000x1, .i32⟩
  | 40 => ⟨S120000, .i32⟩
  | 41 => ⟨S_, .i32⟩
  | 42 => ⟨S120000, .i32⟩
  | 43 => ⟨S120000, .i1⟩
  | 44 => ⟨S_, .i32⟩
  | 45 => ⟨S120000, .i32⟩
  | 46 => ⟨S120000, .i32⟩
  | 47 => ⟨S120000, .i32⟩
  | 48 => ⟨S120000x1, .i32⟩
  | 49 => ⟨S120000x96, .f32⟩
  | 50 => ⟨S120000x96, .f32⟩
  | 51 => ⟨S120000x96, .f32⟩
  | 52 => ⟨S120000x96, .f32⟩
  | 53 => ⟨S120000x1, .f32⟩
  | 54 => ⟨S120000x1, .i32⟩
  | 55 => ⟨S120000, .i32⟩
  | 56 => ⟨S_, .i32⟩
  | 57 => ⟨S120000, .i32⟩
  | 58 => ⟨S120000, .i1⟩
  | 59 => ⟨S_, .i32⟩
  | 60 => ⟨S120000, .i32⟩
  | 61 => ⟨S120000, .i32⟩
  | 62 => ⟨S120000, .i32⟩
  | 63 => ⟨S120000x1, .i32⟩
  | 64 => ⟨S120000x96, .f32⟩
  | 65 => ⟨S120000x96, .f32⟩
  | 66 => ⟨S120000x96, .f32⟩
  | 67 => ⟨S120000x96, .f32⟩
  | 68 => ⟨S120000x1, .f32⟩
  | 69 => ⟨S120000x1, .i32⟩
  | 70 => ⟨S120000, .i32⟩
  | 71 => ⟨S_, .i32⟩
  | 72 => ⟨S120000, .i32⟩
  | 73 => ⟨S120000, .i1⟩
  | 74 => ⟨S_, .i32⟩
  | 75 => ⟨S120000, .i32⟩
  | 76 => ⟨S120000, .i32⟩
  | 77 => ⟨S120000, .i32⟩
  | 78 => ⟨S120000x1, .i32⟩
  | 79 => ⟨S120000x96, .f32⟩
  | 80 => ⟨S120000x96, .f32⟩
  | 81 => ⟨S120000x96, .f32⟩
  | 82 => ⟨S120000x96, .f32⟩
  | 83 => ⟨S120000x96, .f32⟩
  | 84 => ⟨S120000x96, .f32⟩
  | 85 => ⟨S1x96, .f32⟩
  | 86 => ⟨S120000x96, .f32⟩
  | 87 => ⟨S120000x96, .f32⟩
  | _ => ⟨S120000x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S120000x96, .f32⟩

abbrev bufTy : (tb : Table) → Fin (tcTables nBuf tb) → BufTy
  | .hbm, ⟨i, _⟩ => hbmTy i
  | _, _ => ⟨S120000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_c_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_c_8 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_12 : Ref sig .tc := ⟨.hbm, 94, rfl⟩
abbrev main_v69 : Ref sig .tc := ⟨.hbm, 95, rfl⟩
abbrev main_v70 : Ref sig .tc := ⟨.hbm, 96, rfl⟩
abbrev main_c_13 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_c_14 : Ref sig .tc := ⟨.hbm, 109, rfl⟩
abbrev main_v82 : Ref sig .tc := ⟨.hbm, 110, rfl⟩
abbrev main_v83 : Ref sig .tc := ⟨.hbm, 111, rfl⟩
abbrev main_c_15 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_c_16 : Ref sig .tc := ⟨.hbm, 124, rfl⟩
abbrev main_v95 : Ref sig .tc := ⟨.hbm, 125, rfl⟩
abbrev main_v96 : Ref sig .tc := ⟨.hbm, 126, rfl⟩
abbrev main_c_17 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_c_18 : Ref sig .tc := ⟨.hbm, 139, rfl⟩
abbrev main_v108 : Ref sig .tc := ⟨.hbm, 140, rfl⟩
abbrev main_v109 : Ref sig .tc := ⟨.hbm, 141, rfl⟩
abbrev main_c_19 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_c_20 : Ref sig .tc := ⟨.hbm, 154, rfl⟩
abbrev main_v121 : Ref sig .tc := ⟨.hbm, 155, rfl⟩
abbrev main_v122 : Ref sig .tc := ⟨.hbm, 156, rfl⟩
abbrev main_c_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_c_22 : Ref sig .tc := ⟨.hbm, 169, rfl⟩
abbrev main_v134 : Ref sig .tc := ⟨.hbm, 170, rfl⟩
abbrev main_v135 : Ref sig .tc := ⟨.hbm, 171, rfl⟩
abbrev main_c_23 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_c_24 : Ref sig .tc := ⟨.hbm, 184, rfl⟩
abbrev main_v147 : Ref sig .tc := ⟨.hbm, 185, rfl⟩
abbrev main_v148 : Ref sig .tc := ⟨.hbm, 186, rfl⟩
abbrev main_c_25 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_c_26 : Ref sig .tc := ⟨.hbm, 199, rfl⟩
abbrev main_v160 : Ref sig .tc := ⟨.hbm, 200, rfl⟩
abbrev main_v161 : Ref sig .tc := ⟨.hbm, 201, rfl⟩
abbrev main_c_27 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_v170 : Ref sig .tc := ⟨.hbm, 211, rfl⟩
abbrev main_v171 : Ref sig .tc := ⟨.hbm, 212, rfl⟩
abbrev main_v172 : Ref sig .tc := ⟨.hbm, 213, rfl⟩
abbrev main_c_28 : Ref sig .tc := ⟨.hbm, 214, rfl⟩
abbrev main_v173 : Ref sig .tc := ⟨.hbm, 215, rfl⟩
abbrev main_v174 : Ref sig .tc := ⟨.hbm, 216, rfl⟩
abbrev main_c_29 : Ref sig .tc := ⟨.hbm, 217, rfl⟩
abbrev main_v175 : Ref sig .tc := ⟨.hbm, 218, rfl⟩
abbrev main_v176 : Ref sig .tc := ⟨.hbm, 219, rfl⟩
abbrev main_v177 : Ref sig .tc := ⟨.hbm, 220, rfl⟩
abbrev main_v178 : Ref sig .tc := ⟨.hbm, 221, rfl⟩
abbrev main_v179 : Ref sig .tc := ⟨.hbm, 222, rfl⟩
abbrev main_v180 : Ref sig .tc := ⟨.hbm, 223, rfl⟩
abbrev main_v181 : Ref sig .tc := ⟨.hbm, 224, rfl⟩
abbrev main_v182 : Ref sig .tc := ⟨.hbm, 225, rfl⟩
abbrev main_v183 : Ref sig .tc := ⟨.hbm, 226, rfl⟩
abbrev main_v184 : Ref sig .tc := ⟨.hbm, 227, rfl⟩
abbrev main_v185 : Ref sig .tc := ⟨.hbm, 228, rfl⟩
abbrev main_c_30 : Ref sig .tc := ⟨.hbm, 229, rfl⟩
abbrev main_v186 : Ref sig .tc := ⟨.hbm, 230, rfl⟩
abbrev main_v187 : Ref sig .tc := ⟨.hbm, 231, rfl⟩
abbrev main_c_31 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_c_32 : Ref sig .tc := ⟨.hbm, 244, rfl⟩
abbrev main_v199 : Ref sig .tc := ⟨.hbm, 245, rfl⟩
abbrev main_v200 : Ref sig .tc := ⟨.hbm, 246, rfl⟩
abbrev main_c_33 : Ref sig .tc := ⟨.hbm, 247, rfl⟩
abbrev main_v201 : Ref sig .tc := ⟨.hbm, 248, rfl⟩
abbrev main_v202 : Ref sig .tc := ⟨.hbm, 249, rfl⟩
abbrev main_v203 : Ref sig .tc := ⟨.hbm, 250, rfl⟩
abbrev main_v204 : Ref sig .tc := ⟨.hbm, 251, rfl⟩
abbrev main_v205 : Ref sig .tc := ⟨.hbm, 252, rfl⟩
abbrev main_v206 : Ref sig .tc := ⟨.hbm, 253, rfl⟩
abbrev main_v207 : Ref sig .tc := ⟨.hbm, 254, rfl⟩
abbrev main_v208 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_c_34 : Ref sig .tc := ⟨.hbm, 259, rfl⟩
abbrev main_v212 : Ref sig .tc := ⟨.hbm, 260, rfl⟩
abbrev main_v213 : Ref sig .tc := ⟨.hbm, 261, rfl⟩
abbrev main_c_35 : Ref sig .tc := ⟨.hbm, 262, rfl⟩
abbrev main_v214 : Ref sig .tc := ⟨.hbm, 263, rfl⟩
abbrev main_v215 : Ref sig .tc := ⟨.hbm, 264, rfl⟩
abbrev main_v216 : Ref sig .tc := ⟨.hbm, 265, rfl⟩
abbrev main_v217 : Ref sig .tc := ⟨.hbm, 266, rfl⟩
abbrev main_v218 : Ref sig .tc := ⟨.hbm, 267, rfl⟩
abbrev main_v219 : Ref sig .tc := ⟨.hbm, 268, rfl⟩
abbrev main_v220 : Ref sig .tc := ⟨.hbm, 269, rfl⟩
abbrev main_v221 : Ref sig .tc := ⟨.hbm, 270, rfl⟩
abbrev main_v222 : Ref sig .tc := ⟨.hbm, 271, rfl⟩
abbrev main_v223 : Ref sig .tc := ⟨.hbm, 272, rfl⟩
abbrev main_v224 : Ref sig .tc := ⟨.hbm, 273, rfl⟩
abbrev main_c_36 : Ref sig .tc := ⟨.hbm, 274, rfl⟩
abbrev main_v225 : Ref sig .tc := ⟨.hbm, 275, rfl⟩
abbrev main_v226 : Ref sig .tc := ⟨.hbm, 276, rfl⟩
abbrev main_c_37 : Ref sig .tc := ⟨.hbm, 277, rfl⟩
abbrev main_v227 : Ref sig .tc := ⟨.hbm, 278, rfl⟩
abbrev main_v228 : Ref sig .tc := ⟨.hbm, 279, rfl⟩
abbrev main_v229 : Ref sig .tc := ⟨.hbm, 280, rfl⟩
abbrev main_v230 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_c_38 : Ref sig .tc := ⟨.hbm, 289, rfl⟩
abbrev main_v238 : Ref sig .tc := ⟨.hbm, 290, rfl⟩
abbrev main_v239 : Ref sig .tc := ⟨.hbm, 291, rfl⟩
abbrev main_c_39 : Ref sig .tc := ⟨.hbm, 292, rfl⟩
abbrev main_v240 : Ref sig .tc := ⟨.hbm, 293, rfl⟩
abbrev main_v241 : Ref sig .tc := ⟨.hbm, 294, rfl⟩
abbrev main_v242 : Ref sig .tc := ⟨.hbm, 295, rfl⟩
abbrev main_v243 : Ref sig .tc := ⟨.hbm, 296, rfl⟩
abbrev main_v244 : Ref sig .tc := ⟨.hbm, 297, rfl⟩
abbrev main_v245 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_c_40 : Ref sig .tc := ⟨.hbm, 304, rfl⟩
abbrev main_v251 : Ref sig .tc := ⟨.hbm, 305, rfl⟩
abbrev main_v252 : Ref sig .tc := ⟨.hbm, 306, rfl⟩
abbrev main_c_41 : Ref sig .tc := ⟨.hbm, 307, rfl⟩
abbrev main_v253 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_c_42 : Ref sig .tc := ⟨.hbm, 319, rfl⟩
abbrev main_v264 : Ref sig .tc := ⟨.hbm, 320, rfl⟩
abbrev main_v265 : Ref sig .tc := ⟨.hbm, 321, rfl⟩
abbrev main_c_43 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_c_44 : Ref sig .tc := ⟨.hbm, 334, rfl⟩
abbrev main_v277 : Ref sig .tc := ⟨.hbm, 335, rfl⟩
abbrev main_v278 : Ref sig .tc := ⟨.hbm, 336, rfl⟩
abbrev main_c_45 : Ref sig .tc := ⟨.hbm, 337, rfl⟩
abbrev main_v279 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_v284 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_c_46 : Ref sig .tc := ⟨.hbm, 349, rfl⟩
abbrev main_v290 : Ref sig .tc := ⟨.hbm, 350, rfl⟩
abbrev main_v291 : Ref sig .tc := ⟨.hbm, 351, rfl⟩
abbrev main_c_47 : Ref sig .tc := ⟨.hbm, 352, rfl⟩
abbrev main_v292 : Ref sig .tc := ⟨.hbm, 353, rfl⟩
abbrev main_v293 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_c_48 : Ref sig .tc := ⟨.hbm, 364, rfl⟩
abbrev main_v303 : Ref sig .tc := ⟨.hbm, 365, rfl⟩
abbrev main_v304 : Ref sig .tc := ⟨.hbm, 366, rfl⟩
abbrev main_c_49 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_v315 : Ref sig .tc := ⟨.hbm, 378, rfl⟩
abbrev main_c_50 : Ref sig .tc := ⟨.hbm, 379, rfl⟩
abbrev main_v316 : Ref sig .tc := ⟨.hbm, 380, rfl⟩
abbrev main_v317 : Ref sig .tc := ⟨.hbm, 381, rfl⟩
abbrev main_c_51 : Ref sig .tc := ⟨.hbm, 382, rfl⟩
abbrev main_v318 : Ref sig .tc := ⟨.hbm, 383, rfl⟩
abbrev main_v319 : Ref sig .tc := ⟨.hbm, 384, rfl⟩
abbrev main_v320 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_c_52 : Ref sig .tc := ⟨.hbm, 394, rfl⟩
abbrev main_v329 : Ref sig .tc := ⟨.hbm, 395, rfl⟩
abbrev main_v330 : Ref sig .tc := ⟨.hbm, 396, rfl⟩
abbrev main_c_53 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_c_54 : Ref sig .tc := ⟨.hbm, 409, rfl⟩
abbrev main_v342 : Ref sig .tc := ⟨.hbm, 410, rfl⟩
abbrev main_v343 : Ref sig .tc := ⟨.hbm, 411, rfl⟩
abbrev main_c_55 : Ref sig .tc := ⟨.hbm, 412, rfl⟩
abbrev main_v344 : Ref sig .tc := ⟨.hbm, 413, rfl⟩
abbrev main_v345 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_v354 : Ref sig .tc := ⟨.hbm, 423, rfl⟩
abbrev main_c_56 : Ref sig .tc := ⟨.hbm, 424, rfl⟩
abbrev main_v355 : Ref sig .tc := ⟨.hbm, 425, rfl⟩
abbrev main_v356 : Ref sig .tc := ⟨.hbm, 426, rfl⟩
abbrev main_c_57 : Ref sig .tc := ⟨.hbm, 427, rfl⟩
abbrev main_v357 : Ref sig .tc := ⟨.hbm, 428, rfl⟩
abbrev main_v358 : Ref sig .tc := ⟨.hbm, 429, rfl⟩
abbrev main_v359 : Ref sig .tc := ⟨.hbm, 430, rfl⟩
abbrev main_v360 : Ref sig .tc := ⟨.hbm, 431, rfl⟩
abbrev main_v361 : Ref sig .tc := ⟨.hbm, 432, rfl⟩
abbrev main_v362 : Ref sig .tc := ⟨.hbm, 433, rfl⟩
abbrev main_v363 : Ref sig .tc := ⟨.hbm, 434, rfl⟩
abbrev main_v364 : Ref sig .tc := ⟨.hbm, 435, rfl⟩
abbrev main_v365 : Ref sig .tc := ⟨.hbm, 436, rfl⟩
abbrev main_cst_58 : Ref sig .tc := ⟨.hbm, 437, rfl⟩
abbrev main_v366 : Ref sig .tc := ⟨.hbm, 438, rfl⟩
abbrev main_cst_59 : Ref sig .tc := ⟨.hbm, 439, rfl⟩
abbrev main_v367 : Ref sig .tc := ⟨.hbm, 440, rfl⟩
abbrev main_v368 : Ref sig .tc := ⟨.hbm, 441, rfl⟩
abbrev main_v369 : Ref sig .tc := ⟨.hbm, 442, rfl⟩
abbrev main_v370 : Ref sig .tc := ⟨.hbm, 443, rfl⟩
abbrev main_v371 : Ref sig .tc := ⟨.hbm, 444, rfl⟩
abbrev main_v372 : Ref sig .tc := ⟨.hbm, 445, rfl⟩
abbrev main_cst_60 : Ref sig .tc := ⟨.hbm, 446, rfl⟩
abbrev main_v373 : Ref sig .tc := ⟨.hbm, 447, rfl⟩
abbrev main_cst_61 : Ref sig .tc := ⟨.hbm, 448, rfl⟩
abbrev main_v374 : Ref sig .tc := ⟨.hbm, 449, rfl⟩
abbrev main_v375 : Ref sig .tc := ⟨.hbm, 450, rfl⟩
abbrev main_v376 : Ref sig .tc := ⟨.hbm, 451, rfl⟩
abbrev main_v377 : Ref sig .tc := ⟨.hbm, 452, rfl⟩
abbrev main_v378 : Ref sig .tc := ⟨.hbm, 453, rfl⟩
abbrev main_v379 : Ref sig .tc := ⟨.hbm, 454, rfl⟩
abbrev main_v380 : Ref sig .tc := ⟨.hbm, 455, rfl⟩
abbrev main_v381 : Ref sig .tc := ⟨.hbm, 456, rfl⟩
abbrev main_cst_62 : Ref sig .tc := ⟨.hbm, 457, rfl⟩
abbrev main_v382 : Ref sig .tc := ⟨.hbm, 458, rfl⟩
abbrev main_v383 : Ref sig .tc := ⟨.hbm, 459, rfl⟩
abbrev main_v384 : Ref sig .tc := ⟨.hbm, 460, rfl⟩
abbrev main_v385 : Ref sig .tc := ⟨.hbm, 461, rfl⟩
abbrev main_v386 : Ref sig .tc := ⟨.hbm, 462, rfl⟩
abbrev main_v387 : Ref sig .tc := ⟨.hbm, 463, rfl⟩
abbrev main_v388 : Ref sig .tc := ⟨.hbm, 464, rfl⟩
abbrev main_v389 : Ref sig .tc := ⟨.hbm, 465, rfl⟩
abbrev main_v390 : Ref sig .tc := ⟨.hbm, 466, rfl⟩
abbrev main_call0_cst : Ref sig .tc := ⟨.hbm, 467, rfl⟩
abbrev main_call0_v0 : Ref sig .tc := ⟨.hbm, 468, rfl⟩
abbrev main_v391 : Ref sig .tc := ⟨.hbm, 469, rfl⟩
abbrev main_cst_63 : Ref sig .tc := ⟨.hbm, 470, rfl⟩
abbrev main_v392 : Ref sig .tc := ⟨.hbm, 471, rfl⟩
abbrev main_v393 : Ref sig .tc := ⟨.hbm, 472, rfl⟩
abbrev main_cst_64 : Ref sig .tc := ⟨.hbm, 473, rfl⟩
abbrev main_v394 : Ref sig .tc := ⟨.hbm, 474, rfl⟩
abbrev main_v395 : Ref sig .tc := ⟨.hbm, 475, rfl⟩
abbrev main_v396 : Ref sig .tc := ⟨.hbm, 476, rfl⟩
abbrev main_v397 : Ref sig .tc := ⟨.hbm, 477, rfl⟩
abbrev main_c_65 : Ref sig .tc := ⟨.hbm, 478, rfl⟩
abbrev main_v398 : Ref sig .tc := ⟨.hbm, 479, rfl⟩
abbrev main_v399 : Ref sig .tc := ⟨.hbm, 480, rfl⟩
abbrev main_c_66 : Ref sig .tc := ⟨.hbm, 481, rfl⟩
abbrev main_v400 : Ref sig .tc := ⟨.hbm, 482, rfl⟩
abbrev main_v401 : Ref sig .tc := ⟨.hbm, 483, rfl⟩
abbrev main_v402 : Ref sig .tc := ⟨.hbm, 484, rfl⟩
abbrev main_v403 : Ref sig .tc := ⟨.hbm, 485, rfl⟩
abbrev main_v404 : Ref sig .tc := ⟨.hbm, 486, rfl⟩
abbrev main_v405 : Ref sig .tc := ⟨.hbm, 487, rfl⟩
abbrev main_v406 : Ref sig .tc := ⟨.hbm, 488, rfl⟩
abbrev main_v407 : Ref sig .tc := ⟨.hbm, 489, rfl⟩
abbrev main_v408 : Ref sig .tc := ⟨.hbm, 490, rfl⟩
abbrev main_v409 : Ref sig .tc := ⟨.hbm, 491, rfl⟩
abbrev main_v410 : Ref sig .tc := ⟨.hbm, 492, rfl⟩
abbrev main_c_67 : Ref sig .tc := ⟨.hbm, 493, rfl⟩
abbrev main_v411 : Ref sig .tc := ⟨.hbm, 494, rfl⟩
abbrev main_v412 : Ref sig .tc := ⟨.hbm, 495, rfl⟩
abbrev main_c_68 : Ref sig .tc := ⟨.hbm, 496, rfl⟩
abbrev main_v413 : Ref sig .tc := ⟨.hbm, 497, rfl⟩
abbrev main_v414 : Ref sig .tc := ⟨.hbm, 498, rfl⟩
abbrev main_v415 : Ref sig .tc := ⟨.hbm, 499, rfl⟩
abbrev main_v416 : Ref sig .tc := ⟨.hbm, 500, rfl⟩
abbrev main_v417 : Ref sig .tc := ⟨.hbm, 501, rfl⟩
abbrev main_v418 : Ref sig .tc := ⟨.hbm, 502, rfl⟩
abbrev main_v419 : Ref sig .tc := ⟨.hbm, 503, rfl⟩
abbrev main_v420 : Ref sig .tc := ⟨.hbm, 504, rfl⟩
abbrev main_v421 : Ref sig .tc := ⟨.hbm, 505, rfl⟩
abbrev main_v422 : Ref sig .tc := ⟨.hbm, 506, rfl⟩
abbrev main_v423 : Ref sig .tc := ⟨.hbm, 507, rfl⟩
abbrev main_c_69 : Ref sig .tc := ⟨.hbm, 508, rfl⟩
abbrev main_v424 : Ref sig .tc := ⟨.hbm, 509, rfl⟩
abbrev main_v425 : Ref sig .tc := ⟨.hbm, 510, rfl⟩
abbrev main_c_70 : Ref sig .tc := ⟨.hbm, 511, rfl⟩
abbrev main_v426 : Ref sig .tc := ⟨.hbm, 512, rfl⟩
abbrev main_v427 : Ref sig .tc := ⟨.hbm, 513, rfl⟩
abbrev main_v428 : Ref sig .tc := ⟨.hbm, 514, rfl⟩
abbrev main_v429 : Ref sig .tc := ⟨.hbm, 515, rfl⟩
abbrev main_v430 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_v434 : Ref sig .tc := ⟨.hbm, 520, rfl⟩
abbrev main_v435 : Ref sig .tc := ⟨.hbm, 521, rfl⟩
abbrev main_v436 : Ref sig .tc := ⟨.hbm, 522, rfl⟩
abbrev main_c_71 : Ref sig .tc := ⟨.hbm, 523, rfl⟩
abbrev main_v437 : Ref sig .tc := ⟨.hbm, 524, rfl⟩
abbrev main_v438 : Ref sig .tc := ⟨.hbm, 525, rfl⟩
abbrev main_c_72 : Ref sig .tc := ⟨.hbm, 526, rfl⟩
abbrev main_v439 : Ref sig .tc := ⟨.hbm, 527, rfl⟩
abbrev main_v440 : Ref sig .tc := ⟨.hbm, 528, rfl⟩
abbrev main_v441 : Ref sig .tc := ⟨.hbm, 529, rfl⟩
abbrev main_v442 : Ref sig .tc := ⟨.hbm, 530, rfl⟩
abbrev main_v443 : Ref sig .tc := ⟨.hbm, 531, rfl⟩
abbrev main_v444 : Ref sig .tc := ⟨.hbm, 532, rfl⟩
abbrev main_v445 : Ref sig .tc := ⟨.hbm, 533, rfl⟩
abbrev main_v446 : Ref sig .tc := ⟨.hbm, 534, rfl⟩
abbrev main_v447 : Ref sig .tc := ⟨.hbm, 535, rfl⟩
abbrev main_v448 : Ref sig .tc := ⟨.hbm, 536, rfl⟩
abbrev main_v449 : Ref sig .tc := ⟨.hbm, 537, rfl⟩
abbrev main_c_73 : Ref sig .tc := ⟨.hbm, 538, rfl⟩
abbrev main_v450 : Ref sig .tc := ⟨.hbm, 539, rfl⟩
abbrev main_v451 : Ref sig .tc := ⟨.hbm, 540, rfl⟩
abbrev main_c_74 : Ref sig .tc := ⟨.hbm, 541, rfl⟩
abbrev main_v452 : Ref sig .tc := ⟨.hbm, 542, rfl⟩
abbrev main_v453 : Ref sig .tc := ⟨.hbm, 543, rfl⟩
abbrev main_v454 : Ref sig .tc := ⟨.hbm, 544, rfl⟩
abbrev main_v455 : Ref sig .tc := ⟨.hbm, 545, rfl⟩
abbrev main_v456 : Ref sig .tc := ⟨.hbm, 546, rfl⟩
abbrev main_v457 : Ref sig .tc := ⟨.hbm, 547, rfl⟩
abbrev main_v458 : Ref sig .tc := ⟨.hbm, 548, rfl⟩
abbrev main_v459 : Ref sig .tc := ⟨.hbm, 549, rfl⟩
abbrev main_v460 : Ref sig .tc := ⟨.hbm, 550, rfl⟩
abbrev main_v461 : Ref sig .tc := ⟨.hbm, 551, rfl⟩
abbrev main_v462 : Ref sig .tc := ⟨.hbm, 552, rfl⟩
abbrev main_c_75 : Ref sig .tc := ⟨.hbm, 553, rfl⟩
abbrev main_v463 : Ref sig .tc := ⟨.hbm, 554, rfl⟩
abbrev main_v464 : Ref sig .tc := ⟨.hbm, 555, rfl⟩
abbrev main_c_76 : Ref sig .tc := ⟨.hbm, 556, rfl⟩
abbrev main_v465 : Ref sig .tc := ⟨.hbm, 557, rfl⟩
abbrev main_v466 : Ref sig .tc := ⟨.hbm, 558, rfl⟩
abbrev main_v467 : Ref sig .tc := ⟨.hbm, 559, rfl⟩
abbrev main_v468 : Ref sig .tc := ⟨.hbm, 560, rfl⟩
abbrev main_v469 : Ref sig .tc := ⟨.hbm, 561, rfl⟩
abbrev main_v470 : Ref sig .tc := ⟨.hbm, 562, rfl⟩
abbrev main_v471 : Ref sig .tc := ⟨.hbm, 563, rfl⟩
abbrev main_v472 : Ref sig .tc := ⟨.hbm, 564, rfl⟩
abbrev main_v473 : Ref sig .tc := ⟨.hbm, 565, rfl⟩
abbrev main_v474 : Ref sig .tc := ⟨.hbm, 566, rfl⟩
abbrev main_v475 : Ref sig .tc := ⟨.hbm, 567, rfl⟩
abbrev main_c_77 : Ref sig .tc := ⟨.hbm, 568, rfl⟩
abbrev main_v476 : Ref sig .tc := ⟨.hbm, 569, rfl⟩
abbrev main_v477 : Ref sig .tc := ⟨.hbm, 570, rfl⟩
abbrev main_c_78 : Ref sig .tc := ⟨.hbm, 571, rfl⟩
abbrev main_v478 : Ref sig .tc := ⟨.hbm, 572, rfl⟩
abbrev main_v479 : Ref sig .tc := ⟨.hbm, 573, rfl⟩
abbrev main_v480 : Ref sig .tc := ⟨.hbm, 574, rfl⟩
abbrev main_v481 : Ref sig .tc := ⟨.hbm, 575, rfl⟩
abbrev main_v482 : Ref sig .tc := ⟨.hbm, 576, rfl⟩
abbrev main_v483 : Ref sig .tc := ⟨.hbm, 577, rfl⟩
abbrev main_v484 : Ref sig .tc := ⟨.hbm, 578, rfl⟩
abbrev main_v485 : Ref sig .tc := ⟨.hbm, 579, rfl⟩
abbrev main_v486 : Ref sig .tc := ⟨.hbm, 580, rfl⟩
abbrev main_v487 : Ref sig .tc := ⟨.hbm, 581, rfl⟩
abbrev main_v488 : Ref sig .tc := ⟨.hbm, 582, rfl⟩
abbrev main_c_79 : Ref sig .tc := ⟨.hbm, 583, rfl⟩
abbrev main_v489 : Ref sig .tc := ⟨.hbm, 584, rfl⟩
abbrev main_v490 : Ref sig .tc := ⟨.hbm, 585, rfl⟩
abbrev main_c_80 : Ref sig .tc := ⟨.hbm, 586, rfl⟩
abbrev main_v491 : Ref sig .tc := ⟨.hbm, 587, rfl⟩
abbrev main_v492 : Ref sig .tc := ⟨.hbm, 588, rfl⟩
abbrev main_v493 : Ref sig .tc := ⟨.hbm, 589, rfl⟩
abbrev main_v494 : Ref sig .tc := ⟨.hbm, 590, rfl⟩
abbrev main_v495 : Ref sig .tc := ⟨.hbm, 591, rfl⟩
abbrev main_v496 : Ref sig .tc := ⟨.hbm, 592, rfl⟩
abbrev main_v497 : Ref sig .tc := ⟨.hbm, 593, rfl⟩
abbrev main_v498 : Ref sig .tc := ⟨.hbm, 594, rfl⟩
abbrev main_v499 : Ref sig .tc := ⟨.hbm, 595, rfl⟩
abbrev main_v500 : Ref sig .tc := ⟨.hbm, 596, rfl⟩
abbrev main_v501 : Ref sig .tc := ⟨.hbm, 597, rfl⟩
abbrev main_v502 : Ref sig .tc := ⟨.hbm, 598, rfl⟩
abbrev main_v503 : Ref sig .tc := ⟨.hbm, 599, rfl⟩

abbrev nD : Nat := 1
abbrev τ : Topo := Topo.v7x

variable {F : FTy → Type} [FloatOps F]

class Facts₀ : Prop where
  concatenates_S120000x96_S120000x96_S120000x192_d1 : Shape.Concatenates [S120000x96, S120000x96] S120000x192 1
  bcast_S_S96446x192 : S_.BroadcastsInDim S96446x192 (![] : Fin 0 → Fin S96446x192.rank)
  bcast_S120000_S120000x1_0 : S120000.BroadcastsInDim S120000x1 (![0] : Fin 1 → Fin S120000x1.rank)
  bcast_S_S120000x1 : S_.BroadcastsInDim S120000x1 (![] : Fin 0 → Fin S120000x1.rank)
  bcast_S_S96446x1 : S_.BroadcastsInDim S96446x1 (![] : Fin 0 → Fin S96446x1.rank)
  bcast_S96446x1_S96446x192_0_1 : S96446x1.BroadcastsInDim S96446x192 (![0, 1] : Fin 2 → Fin S96446x192.rank)
  bcast_S_S1x192 : S_.BroadcastsInDim S1x192 (![] : Fin 0 → Fin S1x192.rank)
  concatenates_S96446x192_S1x192_S96447x192_d0 : Shape.Concatenates [S96446x192, S1x192] S96447x192 0
  bcast_S_S96446x96 : S_.BroadcastsInDim S96446x96 (![] : Fin 0 → Fin S96446x96.rank)
  slices_S96446x27_S96446x1_0_0 : S96446x27.Slices ![0, 0] S96446x1
  shapeCasts_S96446x1_S96446 : S96446x1.ShapeCasts S96446
  bcast_S_S96446 : S_.BroadcastsInDim S96446 (![] : Fin 0 → Fin S96446.rank)
  bcast_S96446_S96446x1_0 : S96446.BroadcastsInDim S96446x1 (![0] : Fin 1 → Fin S96446x1.rank)
  slices_S27x192x96_S1x192x96_0_0_0 : S27x192x96.Slices ![0, 0, 0] S1x192x96
  shapeCasts_S1x192x96_S192x96 : S1x192x96.ShapeCasts S192x96
  slices_S96446x27_S96446x1_0_1 : S96446x27.Slices ![0, 1] S96446x1
  slices_S27x192x96_S1x192x96_1_0_0 : S27x192x96.Slices ![1, 0, 0] S1x192x96
  slices_S96446x27_S96446x1_0_2 : S96446x27.Slices ![0, 2] S96446x1
  slices_S27x192x96_S1x192x96_2_0_0 : S27x192x96.Slices ![2, 0, 0] S1x192x96
  slices_S96446x27_S96446x1_0_3 : S96446x27.Slices ![0, 3] S96446x1
  slices_S27x192x96_S1x192x96_3_0_0 : S27x192x96.Slices ![3, 0, 0] S1x192x96
  slices_S96446x27_S96446x1_0_4 : S96446x27.Slices ![0, 4] S96446x1
  slices_S27x192x96_S1x192x96_4_0_0 : S27x192x96.Slices ![4, 0, 0] S1x192x96
  slices_S96446x27_S96446x1_0_5 : S96446x27.Slices ![0, 5] S96446x1
  slices_S27x192x96_S1x192x96_5_0_0 : S27x192x96.Slices ![5, 0, 0] S1x192x96
  slices_S96446x27_S96446x1_0_6 : S96446x27.Slices ![0, 6] S96446x1
  slices_S27x192x96_S1x192x96_6_0_0 : S27x192x96.Slices ![6, 0, 0] S1x192x96
  slices_S96446x27_S96446x1_0_7 : S96446x27.Slices ![0, 7] S96446x1
  slices_S27x192x96_S1x192x96_7_0_0 : S27x192x96.Slices ![7, 0, 0] S1x192x96
  slices_S96446x27_S96446x1_0_8 : S96446x27.Slices ![0, 8] S96446x1
  slices_S27x192x96_S1x192x96_8_0_0 : S27x192x96.Slices ![8, 0, 0] S1x192x96
  slices_S96446x27_S96446x1_0_9 : S96446x27.Slices ![0, 9] S96446x1
  slices_S27x192x96_S1x192x96_9_0_0 : S27x192x96.Slices ![9, 0, 0] S1x192x96
  slices_S96446x27_S96446x1_0_10 : S96446x27.Slices ![0, 10] S96446x1
  slices_S27x192x96_S1x192x96_10_0_0 : S27x192x96.Slices ![10, 0, 0] S1x192x96
  slices_S96446x27_S96446x1_0_11 : S96446x27.Slices ![0, 11] S96446x1
  slices_S27x192x96_S1x192x96_11_0_0 : S27x192x96.Slices ![11, 0, 0] S1x192x96
  slices_S96446x27_S96446x1_0_12 : S96446x27.Slices ![0, 12] S96446x1
  slices_S27x192x96_S1x192x96_12_0_0 : S27x192x96.Slices ![12, 0, 0] S1x192x96
  slices_S96446x27_S96446x1_0_13 : S96446x27.Slices ![0, 13] S96446x1
  slices_S27x192x96_S1x192x96_13_0_0 : S27x192x96.Slices ![13, 0, 0] S1x192x96
  slices_S96446x27_S96446x1_0_14 : S96446x27.Slices ![0, 14] S96446x1
  slices_S27x192x96_S1x192x96_14_0_0 : S27x192x96.Slices ![14, 0, 0] S1x192x96
  slices_S96446x27_S96446x1_0_15 : S96446x27.Slices ![0, 15] S96446x1
  slices_S27x192x96_S1x192x96_15_0_0 : S27x192x96.Slices ![15, 0, 0] S1x192x96
  slices_S96446x27_S96446x1_0_16 : S96446x27.Slices ![0, 16] S96446x1
  slices_S27x192x96_S1x192x96_16_0_0 : S27x192x96.Slices ![16, 0, 0] S1x192x96
  slices_S96446x27_S96446x1_0_17 : S96446x27.Slices ![0, 17] S96446x1
  slices_S27x192x96_S1x192x96_17_0_0 : S27x192x96.Slices ![17, 0, 0] S1x192x96
  slices_S96446x27_S96446x1_0_18 : S96446x27.Slices ![0, 18] S96446x1
  slices_S27x192x96_S1x192x96_18_0_0 : S27x192x96.Slices ![18, 0, 0] S1x192x96
  slices_S96446x27_S96446x1_0_19 : S96446x27.Slices ![0, 19] S96446x1
  slices_S27x192x96_S1x192x96_19_0_0 : S27x192x96.Slices ![19, 0, 0] S1x192x96
  slices_S96446x27_S96446x1_0_20 : S96446x27.Slices ![0, 20] S96446x1
  slices_S27x192x96_S1x192x96_20_0_0 : S27x192x96.Slices ![20, 0, 0] S1x192x96
  slices_S96446x27_S96446x1_0_21 : S96446x27.Slices ![0, 21] S96446x1
  slices_S27x192x96_S1x192x96_21_0_0 : S27x192x96.Slices ![21, 0, 0] S1x192x96
  slices_S96446x27_S96446x1_0_22 : S96446x27.Slices ![0, 22] S96446x1
  slices_S27x192x96_S1x192x96_22_0_0 : S27x192x96.Slices ![22, 0, 0] S1x192x96
  slices_S96446x27_S96446x1_0_23 : S96446x27.Slices ![0, 23] S96446x1
  slices_S27x192x96_S1x192x96_23_0_0 : S27x192x96.Slices ![23, 0, 0] S1x192x96
  slices_S96446x27_S96446x1_0_24 : S96446x27.Slices ![0, 24] S96446x1
  slices_S27x192x96_S1x192x96_24_0_0 : S27x192x96.Slices ![24, 0, 0] S1x192x96
  slices_S96446x27_S96446x1_0_25 : S96446x27.Slices ![0, 25] S96446x1
  slices_S27x192x96_S1x192x96_25_0_0 : S27x192x96.Slices ![25, 0, 0] S1x192x96
  slices_S96446x27_S96446x1_0_26 : S96446x27.Slices ![0, 26] S96446x1
  slices_S27x192x96_S1x192x96_26_0_0 : S27x192x96.Slices ![26, 0, 0] S1x192x96
  reducesTo_S96446x96_S96_d0 : S96446x96.ReducesTo [0] S96
  h_S_ : 0 < S_.numel
  bcast_S_S96 : S_.BroadcastsInDim S96 (![] : Fin 0 → Fin S96.rank)
  bcast_S96_S1x96_1 : S96.BroadcastsInDim S1x96 (![1] : Fin 1 → Fin S1x96.rank)
  bcast_S1x96_S96446x96_0_1 : S1x96.BroadcastsInDim S96446x96 (![0, 1] : Fin 2 → Fin S96446x96.rank)
  bcast_S_S1x96 : S_.BroadcastsInDim S1x96 (![] : Fin 0 → Fin S1x96.rank)
  concatenates_S96446x96_S1x96_S96447x96_d0 : Shape.Concatenates [S96446x96, S1x96] S96447x96 0
  bcast_S_S120000x96 : S_.BroadcastsInDim S120000x96 (![] : Fin 0 → Fin S120000x96.rank)
  slices_S120000x8_S120000x1_0_0 : S120000x8.Slices ![0, 0] S120000x1
  shapeCasts_S120000x1_S120000 : S120000x1.ShapeCasts S120000
  bcast_S_S120000 : S_.BroadcastsInDim S120000 (![] : Fin 0 → Fin S120000.rank)
  bcast_S120000x1_S120000x96_0_1 : S120000x1.BroadcastsInDim S120000x96 (![0, 1] : Fin 2 → Fin S120000x96.rank)
  slices_S120000x8_S120000x1_0_1 : S120000x8.Slices ![0, 1] S120000x1
  slices_S120000x8_S120000x1_0_2 : S120000x8.Slices ![0, 2] S120000x1
  slices_S120000x8_S120000x1_0_3 : S120000x8.Slices ![0, 3] S120000x1
  slices_S120000x8_S120000x1_0_4 : S120000x8.Slices ![0, 4] S120000x1
  slices_S120000x8_S120000x1_0_5 : S120000x8.Slices ![0, 5] S120000x1
  slices_S120000x8_S120000x1_0_6 : S120000x8.Slices ![0, 6] S120000x1
  slices_S120000x8_S120000x1_0_7 : S120000x8.Slices ![0, 7] S120000x1
  bcast_S1x96_S120000x96_0_1 : S1x96.BroadcastsInDim S120000x96 (![0, 1] : Fin 2 → Fin S120000x96.rank)
  scatter_S96446x192_S120000x1_S120000x192_1_0_0_1_wf : ScatterDims.WF S96446x192 S120000x1 S120000x192 [1] [0] [0] 1
  scatter_S96446x1_S120000x1_S120000x1_1_0_0_1_wf : ScatterDims.WF S96446x1 S120000x1 S120000x1 [1] [0] [0] 1
  gather_S96447x192_S96446x1_S96446x192_1_0_n_n_0_1_1192_wf : GatherDims.WF S96447x192 S96446x1 S96446x192 [1] [0] [] [0] [] 1 ![1, 192]
  dot_S96446x192_S192x96_S96446x96_1_0_0_1_n_n_wf : DotDims.WF S96446x192 S192x96 S96446x96 [1] [0] [0] [1] [] []
  gather_S96447x96_S120000x1_S120000x96_1_0_n_n_0_1_196_wf : GatherDims.WF S96447x96 S120000x1 S120000x96 [1] [0] [] [0] [] 1 ![1, 96]
  dot_S120000x192_S192x96_S120000x96_1_0_0_1_n_n_wf : DotDims.WF S120000x192 S192x96 S120000x96 [1] [0] [0] [1] [] []

variable [Facts₀]

def scatter_S96446x192_S120000x1_S120000x192_1_0_0_1 : ScatterDims S96446x192 S120000x1 S120000x192 where
  updateWindowDims := [1]
  insertedWindowDims := [0]
  scatterDimsToOperandDims := [0]
  indexVectorDim := 1
  wf := scatter_S96446x192_S120000x1_S120000x192_1_0_0_1_wf
def scatter_S96446x1_S120000x1_S120000x1_1_0_0_1 : ScatterDims S96446x1 S120000x1 S120000x1 where
  updateWindowDims := [1]
  insertedWindowDims := [0]
  scatterDimsToOperandDims := [0]
  indexVectorDim := 1
  wf := scatter_S96446x1_S120000x1_S120000x1_1_0_0_1_wf
def gather_S96447x192_S96446x1_S96446x192_1_0_n_n_0_1_1192 : GatherDims S96447x192 S96446x1 S96446x192 where
  offsetDims := [1]
  collapsedSliceDims := [0]
  operandBatchingDims := []
  startIndicesBatchingDims := []
  startIndexMap := [0]
  indexVectorDim := 1
  sliceSizes := ![1, 192]
  wf := gather_S96447x192_S96446x1_S96446x192_1_0_n_n_0_1_1192_wf
def dot_S96446x192_S192x96_S96446x96_1_0_0_1_n_n : DotDims S96446x192 S192x96 S96446x96 where
  lhsContracting := [1]
  rhsContracting := [0]
  lhsNonContracting := [0]
  rhsNonContracting := [1]
  lhsBatch := []
  rhsBatch := []
  wf := dot_S96446x192_S192x96_S96446x96_1_0_0_1_n_n_wf
def gather_S96447x96_S120000x1_S120000x96_1_0_n_n_0_1_196 : GatherDims S96447x96 S120000x1 S120000x96 where
  offsetDims := [1]
  collapsedSliceDims := [0]
  operandBatchingDims := []
  startIndicesBatchingDims := []
  startIndexMap := [0]
  indexVectorDim := 1
  sliceSizes := ![1, 96]
  wf := gather_S96447x96_S120000x1_S120000x96_1_0_n_n_0_1_196_wf
def dot_S120000x192_S192x96_S120000x96_1_0_0_1_n_n : DotDims S120000x192 S192x96 S120000x96 where
  lhsContracting := [1]
  rhsContracting := [0]
  lhsNonContracting := [0]
  rhsNonContracting := [1]
  lhsBatch := []
  rhsBatch := []
  wf := dot_S120000x192_S192x96_S120000x96_1_0_0_1_n_n_wf

class Facts : Prop extends Facts₀ where

variable [Facts]
-- ==== Proof.RefRun.lean ====
import proofs.«412869_j60387240182488_3_alg».proof.Proof.RefOps

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The fold over a concatenation -/

/-- The contents after two lines run one after the other: the second line's fold from the first line's fold. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A property of every operation of two lines holds of every operation of their concatenation. -/
theorem forall_append {p : HloOp τ sig (Elt F) → Prop} {l₁ l₂ : List (HloOp τ sig (Elt F))}
    (h₁ : l₁.Forall p) (h₂ : l₂.Forall p) : (l₁ ++ l₂).Forall p :=
  List.forall_iff_forall_mem.mpr fun op hop =>
    (List.mem_append.mp hop).elim (List.forall_iff_forall_mem.mp h₁ op) (List.forall_iff_forall_mem.mp h₂ op)

/-! ## What a stretch leaves alone

An operation writes its one result buffer; a reference that is not that result keeps its contents. A stretch none of
whose results is among a list of references keeps every reference of the list. -/

/-- An operation whose only written buffer is the reference `y`, with `y` outside the list `L`, writes no
    reference of `L` (distinct references are distinct device buffers). -/
theorem keeps_of_writes {op : HloOp τ sig (Elt F)} {y : Ref sig .tc} (L : List (Ref sig .tc))
    (hw : op.writes = {Proc.devRef (τ := τ) .tc y}) (hy : y ∉ L) :
    ∀ b ∈ L, Proc.devRef (τ := τ) .tc b ∉ op.writes := by
  intro b hb hmem
  rw [hw, Finset.mem_singleton] at hmem
  exact hy (Proc.devRef_injective _ hmem ▸ hb)

/-- A line none of whose operations writes a reference of `L` keeps the contents of every reference of `L`. -/
theorem kept_of_forall {ops : List (HloOp τ sig (Elt F))} {L : List (Ref sig .tc)}
    (h : ops.Forall fun op => ∀ b ∈ L, Proc.devRef (τ := τ) .tc b ∉ op.writes)
    (U : Valuation τ sig (Elt F)) (b : Ref sig .tc) (hb : b ∈ L) :
    after ops U (Proc.devRef .tc b) = U (Proc.devRef .tc b) :=
  after_of_forall_not_mem ops U fun op hop => List.forall_iff_forall_mem.mp h op hop b hb

set_option maxRecDepth 8192 in
set_option maxHeartbeats 40000000 in
/-- No operation of `opsA` has one of these references as its result. -/
theorem opsA_keeps : (opsA : List (HloOp τ sig (Elt F))).Forall fun op =>
    ∀ b ∈ ([main_arg0, main_arg1, main_arg2, main_arg3, main_arg4, main_arg5, main_arg6, main_arg7, main_arg8, main_arg9, main_arg10] : List (Ref sig .tc)), Proc.devRef (τ := τ) .tc b ∉ op.writes :=
  ⟨keeps_of_writes _ (binary_writes ..) (by decide),
   keeps_of_writes _ (nullary_writes ..) (by decide),
   keeps_of_writes _ (unary_writes ..) (by decide),
   keeps_of_writes _ (unary_writes ..) (by decide),
   keeps_of_writes _ (ternary_writes ..) (by decide),
   keeps_of_writes _ (nullary_writes ..) (by decide),
   keeps_of_writes _ (unary_writes ..) (by decide),
   keeps_of_writes _ (nullary_writes ..) (by decide),
   keeps_of_writes _ (unary_writes ..) (by decide),
   keeps_of_writes _ (unary_writes ..) (by decide),
   keeps_of_writes _ (ternary_writes ..) (by decide),
   keeps_of_writes _ (nullary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide)⟩

/-- The stretch `opsA` leaves these references' contents as they were. -/
theorem keptA (U : Valuation τ sig (Elt F)) (b : Ref sig .tc)
    (hb : b ∈ ([main_arg0, main_arg1, main_arg2, main_arg3, main_arg4, main_arg5, main_arg6, main_arg7, main_arg8, main_arg9, main_arg10] : List (Ref sig .tc))) :
    after opsA U (Proc.devRef .tc b) = U (Proc.devRef .tc b) :=
  kept_of_forall opsA_keeps U b hb

set_option maxRecDepth 8192 in
set_option maxHeartbeats 40000000 in
/-- No operation of `opsB` has one of these references as its result. -/
theorem opsB_keeps : (opsB : List (HloOp τ sig (Elt F))).Forall fun op =>
    ∀ b ∈ ([main_v0, main_arg0, main_arg1, main_arg2, main_arg3, main_arg4, main_arg5, main_arg6, main_arg7, main_arg8, main_arg9, main_arg10] : List (Ref sig .tc)), Proc.devRef (τ := τ) .tc b ∉ op.writes :=
  ⟨keeps_of_writes _ (nullary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (reshape_writes ..) (by decide),
   keeps_of_writes _ (binary_writes ..) (by decide),
   keeps_of_writes _ (binary_writes ..) (by decide)⟩

/-- The stretch `opsB` leaves these references' contents as they were. -/
theorem keptB (U : Valuation τ sig (Elt F)) (b : Ref sig .tc)
    (hb : b ∈ ([main_v0, main_arg0, main_arg1, main_arg2, main_arg3, main_arg4, main_arg5, main_arg6, main_arg7, main_arg8, main_arg9, main_arg10] : List (Ref sig .tc))) :
    after opsB U (Proc.devRef .tc b) = U (Proc.devRef .tc b) :=
  kept_of_forall opsB_keeps U b hb

set_option maxRecDepth 8192 in
set_option maxHeartbeats 40000000 in
/-- No operation of `opsC` has one of these references as its result. -/
theorem opsC_keeps : (opsC : List (HloOp τ sig (Elt F))).Forall fun op =>
    ∀ b ∈ ([main_v365, main_v0, main_arg0, main_arg1, main_arg2, main_arg3, main_arg4, main_arg5, main_arg6, main_arg7, main_arg8, main_arg9, main_arg10] : List (Ref sig .tc)), Proc.devRef (τ := τ) .tc b ∉ op.writes :=
  ⟨keeps_of_writes _ (nullary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (unary_writes ..) (by decide),
   keeps_of_writes _ (unary_writes ..) (by decide),
   keeps_of_writes _ (binary_writes ..) (by decide),
   keeps_of_writes _ (binary_writes ..) (by decide),
   keeps_of_writes _ (nullary_writes ..) (by decide),
   keeps_of_writes _ (binary_writes ..) (by decide),
   keeps_of_writes _ (nullary_writes ..) (by decide),
   keeps_of_writes _ (unary_writes ..) (by decide),
   keeps_of_writes _ (binary_writes ..) (by decide)⟩

/-- The stretch `opsC` leaves these references' contents as they were. -/
theorem keptC (U : Valuation τ sig (Elt F)) (b : Ref sig .tc)
    (hb : b ∈ ([main_v365, main_v0, main_arg0, main_arg1, main_arg2, main_arg3, main_arg4, main_arg5, main_arg6, main_arg7, main_arg8, main_arg9, main_arg10] : List (Ref sig .tc))) :
    after opsC U (Proc.devRef .tc b) = U (Proc.devRef .tc b) :=
  kept_of_forall opsC_keeps U b hb

set_option maxRecDepth 8192 in
set_option maxHeartbeats 40000000 in
/-- No operation of `opsD` has one of these references as its result. -/
theorem opsD_keeps : (opsD : List (HloOp τ sig (Elt F))).Forall fun op =>
    ∀ b ∈ ([main_v0, main_arg0, main_arg1, main_arg2, main_arg3, main_arg4, main_arg5, main_arg6, main_arg7, main_arg8, main_arg9, main_arg10] : List (Ref sig .tc)), Proc.devRef (τ := τ) .tc b ∉ op.writes :=
  ⟨keeps_of_writes _ (unary_writes ..) (by decide),
   keeps_of_writes _ (unary_writes ..) (by decide),
   keeps_of_writes _ (binary_writes ..) (by decide),
   keeps_of_writes _ (unary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (unary_writes ..) (by decide),
   keeps_of_writes _ (unary_writes ..) (by decide),
   keeps_of_writes _ (unary_writes ..) (by decide),
   keeps_of_writes _ (binary_writes ..) (by decide),
   keeps_of_writes _ (unary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide)⟩

/-- The stretch `opsD` leaves these references' contents as they were. -/
theorem keptD (U : Valuation τ sig (Elt F)) (b : Ref sig .tc)
    (hb : b ∈ ([main_v0, main_arg0, main_arg1, main_arg2, main_arg3, main_arg4, main_arg5, main_arg6, main_arg7, main_arg8, main_arg9, main_arg10] : List (Ref sig .tc))) :
    after opsD U (Proc.devRef .tc b) = U (Proc.devRef .tc b) :=
  kept_of_forall opsD_keeps U b hb

set_option maxRecDepth 8192 in
set_option maxHeartbeats 40000000 in
/-- No operation of `opsE` has one of these references as its result. -/
theorem opsE_keeps : (opsE : List (HloOp τ sig (Elt F))).Forall fun op =>
    ∀ b ∈ ([main_v0, main_arg0, main_arg1, main_arg2, main_arg3, main_arg4, main_arg5, main_arg6, main_arg7, main_arg8, main_arg9, main_arg10] : List (Ref sig .tc)), Proc.devRef (τ := τ) .tc b ∉ op.writes :=
  ⟨keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide),
   keeps_of_writes _ (unary_writes ..) (by decide),
   keeps_of_writes _ (unary_writes ..) (by decide),
   keeps_of_writes _ (reshape_writes ..) (by decide),
   keeps_of_writes _ (nullary_writes ..) (by decide),
   keeps_of_writes _ (unary_writes ..) (by decide),
   keeps_of_writes _ (binary_writes ..) (by decide),
   keeps_of_writes _ (nullary_writes ..) (by decide),
   keeps_of_writes _ (unary_writes ..) (by decide),
   keeps_of_writes _ (binary_writes ..) (by decide),
   keeps_of_writes _ (ternary_writes ..) (by decide),
   keeps_of_writes _ (unary_writes ..) (by decide),
   keeps_of_writes _ (binary_writes ..) (by decide),
   keeps_of_writes _ (unary_writes ..) (by decide),
   keeps_of_writes _ (binary_writes ..) (by decide),
   keeps_of_writes _ (binary_writes ..) (by decide)⟩

/-- The stretch `opsE` leaves these references' contents as they were. -/
theorem keptE (U : Valuation τ sig (Elt F)) (b : Ref sig .tc)
    (hb : b ∈ ([main_v0, main_arg0, main_arg1, main_arg2, main_arg3, main_arg4, main_arg5, main_arg6, main_arg7, main_arg8, main_arg9, main_arg10] : List (Ref sig .tc))) :
    after opsE U (Proc.devRef .tc b) = U (Proc.devRef .tc b) :=
  kept_of_forall opsE_keeps U b hb

set_option maxRecDepth 8192 in
set_option maxHeartbeats 40000000 in
/-- No operation of `opsF` has one of these references as its result. -/
theorem opsF_keeps : (opsF : List (HloOp τ sig (Elt F))).Forall fun op =>
    ∀ b ∈ ([main_arg0, main_arg1, main_arg2, main_arg3, main_arg4, main_arg5, main_arg6, main_arg7, main_arg8, main_arg9, main_arg10] : List (Ref sig .tc)), Proc.devRef (τ := τ) .tc b ∉ op.writes :=
  ⟨keeps_of_writes _ (binary_writes ..) (by decide),
   keeps_of_writes _ (binary_writes ..) (by decide),
   keeps_of_writes _ (unary_writes ..) (by decide),
   keeps_of_writes _ (unary_writes ..) (by decide),
   keeps_of_writes _ (binary_writes ..) (by decide)⟩

/-- The stretch `opsF` leaves these references' contents as they were. -/
theorem keptF (U : Valuation τ sig (Elt F)) (b : Ref sig .tc)
    (hb : b ∈ ([main_arg0, main_arg1, main_arg2, main_arg3, main_arg4, main_arg5, main_arg6, main_arg7, main_arg8, main_arg9, main_arg10] : List (Ref sig .tc))) :
    after opsF U (Proc.devRef .tc b) = U (Proc.devRef .tc b) :=
  kept_of_forall opsF_keeps U b hb

/-! ## The whole line from its six stretches -/

/-- Every operation of @main touches TensorCore references only: each stretch's fact, joined over the concatenation. -/
theorem ops_sub : (ops : List (HloOp τ sig (Elt F))).Forall fun op => op.bufs ⊆ tcRefs τ sig :=
  forall_append opsA_sub (forall_append opsB_sub (forall_append opsC_sub (forall_append opsD_sub (forall_append opsE_sub (opsF_sub)))))

/-- No operation of @main allocates a buffer: each stretch's fact, joined over the concatenation. -/
theorem ops_fresh : (ops : List (HloOp τ sig (Elt F))).Forall fun op => op.fresh = ∅ :=
  forall_append opsA_fresh (forall_append opsB_fresh (forall_append opsC_fresh (forall_append opsD_fresh (forall_append opsE_fresh (opsF_fresh)))))

/-- The contents after @main's operations: the six stretches' folds, one inside the other. -/
theorem after_ops (V : Valuation τ sig (Elt F)) :
    after ops V = after opsF (after opsE (after opsD (after opsC (after opsB (after opsA V))))) :=
  (after_append opsA _ V).trans <| (after_append opsB _ _).trans <| (after_append opsC _ _).trans <|
    (after_append opsD _ _).trans <| after_append opsE opsF _

/-- An argument of @main is the result of no operation: all six stretches keep it. -/
theorem ops_kept (V : Valuation τ sig (Elt F)) (b : Ref sig .tc)
    (hb : b ∈ ([main_arg0, main_arg1, main_arg2, main_arg3, main_arg4, main_arg5, main_arg6, main_arg7, main_arg8, main_arg9, main_arg10] : List (Ref sig .tc))) :
    after ops V (Proc.devRef .tc b) = V (Proc.devRef .tc b) :=
  have hb₁ : b ∈ ([main_v0, main_arg0, main_arg1, main_arg2, main_arg3, main_arg4, main_arg5, main_arg6, main_arg7, main_arg8, main_arg9, main_arg10] : List (Ref sig .tc)) := List.mem_cons_of_mem _ hb
  have hb₂ : b ∈ ([main_v365, main_v0, main_arg0, main_arg1, main_arg2, main_arg3, main_arg4, main_arg5, main_arg6, main_arg7, main_arg8, main_arg9, main_arg10] : List (Ref sig .tc)) := List.mem_cons_of_mem _ hb₁
  (congrFun (after_ops V) _).trans <| (keptF _ b hb).trans <| (keptE _ b hb₁).trans <| (keptD _ b hb₁).trans <|
    (keptC _ b hb₂).trans <| (keptB _ b hb₁).trans <| keptA V b hb

/-- On every device, for any float values, from any memory with zero counters: every weakly fair execution of
    @main terminates with the result buffer at the six stretches' folds over the launch contents, one inside the
    other, and the arguments unchanged. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v503)
          = after opsF (after opsE (after opsD (after opsC (after opsB (after opsA (launchContents m c)))))) (Proc.devRef .tc main_v503)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v503).trans (congrFun (after_ops _) _),
      (h c main_arg0).trans (ops_kept (launchContents m c) main_arg0 (by decide)),
      (h c main_arg1).trans (ops_kept (launchContents m c) main_arg1 (by decide)),
      (h c main_arg2).trans (ops_kept (launchContents m c) main_arg2 (by decide)),
      (h c main_arg3).trans (ops_kept (launchContents m c) main_arg3 (by decide)),
      (h c main_arg4).trans (ops_kept (launchContents m c) main_arg4 (by decide)),
      (h c main_arg5).trans (ops_kept (launchContents m c) main_arg5 (by decide)),
      (h c main_arg6).trans (ops_kept (launchContents m c) main_arg6 (by decide)),
      (h c main_arg7).trans (ops_kept (launchContents m c) main_arg7 (by decide)),
      (h c main_arg8).trans (ops_kept (launchContents m c) main_arg8 (by decide)),
      (h c main_arg9).trans (ops_kept (launchContents m c) main_arg9 (by decide)),
      (h c main_arg10).trans (ops_kept (launchContents m c) main_arg10 (by decide))⟩)
    (run_seq scopedRefs_eq scopedSems_eq defs main (fun _ => ops) main_eq (fun _ => ops_sub) m ρ
      (fun _ => List.forall_iff_forall_mem.mp ops_fresh))

end Cert.ReferenceIdeal.Stages

end
-- ==== Proof.PreRange.lean ====
/-
  The precondition's index range, decoded. The printed predicate ends in two reductions by "and" over the
  [96446, 27] table of neighbour indices: every word is at least 0, and every word is at most 96446, both
  read signed. The predicate is a chain of "and"s of one-index words that is stated to be 1, so each of its
  conjuncts is 1; a reduction by "and" over all axes that is 1 met a 1 at every index; and a signed compare
  word that is 1 says the inequality of the two words' signed values. The constants read signed are 0 and 96446.
-/
import proofs.«412869_j60387240182488_3_alg».proof.Defs
import proofs.«412869_j60387240182488_3_alg».proof.Proof.Gen.Pre_finite_inputs
import Idealize.ShloMosaic.Lib.ReduceAll

noncomputable section

namespace Cert.Bridge.PreRange

open Idealize.ShloMosaic Idealize.SL.Sem

/-- The rank-0 shape has one index. -/
instance subsingleton_scalar_idx : Subsingleton Cert.Pre_finite_inputs.S_.Idx :=
  ⟨fun a b => funext fun d => d.elim0⟩

/-- The last stretch of the predicate, stated to be all ones, bounds every word of the index table:
    its third conjunct is "every word ≥ 0", its fourth "every word ≤ 96446" (signed). -/
theorem part2_range {F : FTy → Type} [FloatOps F] [Cert.Pre_finite_inputs.Facts]
    (a7 : FVec F Cert.Pre_finite_inputs.S120000x8 .f32) (a9 : IVec Cert.Pre_finite_inputs.S96446x27 32)
    (v33 : IVec Cert.Pre_finite_inputs.S_ 1)
    (h : Cert.Pre_finite_inputs.fn_part2 (F := F) a7 a9 v33 = fun _ => 1#1)
    (i : Cert.Pre_finite_inputs.S96446x27.Idx) :
    0 ≤ (a9 i).toInt ∧ (a9 i).toInt ≤ 96446 := by
  have e := congrFun h (fun a => a.elim0 : Cert.Pre_finite_inputs.S_.Idx)
  dsimp only [Cert.Pre_finite_inputs.fn_part2] at e
  simp only [Idealize.ShloMosaic.andi, IntOp.andi_eq_one] at e
  obtain ⟨⟨-, h0⟩, h1⟩ := e
  have g0 := Host.reduce_andi_all _ _ _ _ _ h0 i
  have g1 := Host.reduce_andi_all _ _ _ _ _ h1 i
  simp only [Idealize.ShloMosaic.cmpi, broadcastInDim, constantI] at g0 g1
  rw [IntOp.cmpi_sge] at g0
  rw [IntOp.cmpi_sle] at g1
  have z0 : (0#32 : BitVec 32).toInt = 0 := by decide
  have z1 : (96446#32 : BitVec 32).toInt = 96446 := by decide
  rw [z0] at g0
  rw [z1] at g1
  exact ⟨g0, g1⟩

/-- The kernel's precondition bounds every neighbour index: 0 ≤ nbr ≤ 96446, read signed. -/
theorem nbr_range [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) (i : Cert.KernelIdeal.S96446x27.Idx) :
    0 ≤ (m ((c.tc : Thread Cert.KernelIdeal.nD Cert.KernelIdeal.τ).loc Cert.KernelIdeal.main_arg9) i).toInt
      ∧ (m ((c.tc : Thread Cert.KernelIdeal.nD Cert.KernelIdeal.τ).loc Cert.KernelIdeal.main_arg9) i).toInt ≤ 96446 :=
  part2_range (F := Ideal) _ _ _ (hpre c) i

end Cert.Bridge.PreRange

end
-- ==== Proof.Names.lean ====
import proofs.«412869_j60387240182488_3_alg».proof.KernelIdeal
import proofs.«412869_j60387240182488_3_alg».proof.ReferenceIdeal
import Idealize.ShloMosaic.Lib.StableHlo.Run
import Idealize.ShloMosaic.PureOps.Ideal

/-!
# Names shared by the comparison of the two programs

A valuation of each program's buffers, a buffer named as a device reference, and the eleven argument buffers of
each program listed in order (features of the points, features of the queries, the 27 filter taps, scale, shift, the
linear layer and its bias, the corner weights, the voxel of each point, the neighbour table, the corner table).
-/

noncomputable section

namespace Cert.Bridge

open Idealize.ShloMosaic Idealize.ShloMosaic.StableHlo

/-- The kernel program's buffers, valued over the extended reals. -/
abbrev KVal := Valuation Cert.KernelIdeal.τ Cert.KernelIdeal.sig (Elt Ideal)
/-- The reference program's buffers, valued over the extended reals. -/
abbrev RVal := Valuation Cert.ReferenceIdeal.τ Cert.ReferenceIdeal.sig (Elt Ideal)
/-- A buffer of the kernel program as a device reference. -/
abbrev kd (b : Ref Cert.KernelIdeal.sig .tc) : DevRef Cert.KernelIdeal.τ Cert.KernelIdeal.sig := Proc.devRef (τ := Cert.KernelIdeal.τ) .tc b
/-- A buffer of the reference program as a device reference. -/
abbrev rd (b : Ref Cert.ReferenceIdeal.sig .tc) : DevRef Cert.ReferenceIdeal.τ Cert.ReferenceIdeal.sig := Proc.devRef (τ := Cert.ReferenceIdeal.τ) .tc b

/-- The kernel program's argument buffers, in order. -/
abbrev argsK : List (Ref Cert.KernelIdeal.sig .tc) :=
  [Cert.KernelIdeal.main_arg0, Cert.KernelIdeal.main_arg1, Cert.KernelIdeal.main_arg2, Cert.KernelIdeal.main_arg3, Cert.KernelIdeal.main_arg4, Cert.KernelIdeal.main_arg5,
   Cert.KernelIdeal.main_arg6, Cert.KernelIdeal.main_arg7, Cert.KernelIdeal.main_arg8, Cert.KernelIdeal.main_arg9, Cert.KernelIdeal.main_arg10]
/-- The reference program's argument buffers, in order. -/
abbrev argsR : List (Ref Cert.ReferenceIdeal.sig .tc) :=
  [Cert.ReferenceIdeal.main_arg0, Cert.ReferenceIdeal.main_arg1, Cert.ReferenceIdeal.main_arg2, Cert.ReferenceIdeal.main_arg3, Cert.ReferenceIdeal.main_arg4, Cert.ReferenceIdeal.main_arg5,
   Cert.ReferenceIdeal.main_arg6, Cert.ReferenceIdeal.main_arg7, Cert.ReferenceIdeal.main_arg8, Cert.ReferenceIdeal.main_arg9, Cert.ReferenceIdeal.main_arg10]

end Cert.Bridge

end
-- ==== Proof.Common.lean ====
import Idealize.ShloMosaic.PureOps.Ideal
import Idealize.ShloMosaic.Lib.ValueIdx

/-!
# One entry of the normalised, clamped feature

Both programs send an accumulated feature `x` of a voxel to `max (γ · (x − μ) · rsqrt (σ² + ε) + β) 0`, with the channel's
scale `γ`, shift `β`, mean `μ` and variance `σ²`, and `ε` the single-precision word `0x3727C5AC`, read over the extended
reals. The product is grouped as both programs group it: `(γ · (x − μ)) · rsqrt (σ² + ε)`.
-/

noncomputable section

namespace Cert.Bridge

open Idealize.ShloMosaic

/-- An entry of a buffer of floats, named as the extended real it is: the buffer's element type only unfolds to `EReal`,
    and arithmetic is found on the name, not through the unfolding. -/
abbrev re (x : EReal) : EReal := x

/-- `max ((γ · (x − μ)) · rsqrt (σ² + ε) + β) 0` on the extended reals. -/
def bn (x g b mu var : EReal) : EReal :=
  max (g * (x - mu) * Ideal.rsqrt (var + Ideal.ofBits .f32 0x3727C5AC#32) + b) 0

end Cert.Bridge

end
-- ==== Proof.KKept.lean ====
import proofs.«412869_j60387240182488_3_alg».proof.Proof.Gen.KernelIdeal.Launch
import proofs.«412869_j60387240182488_3_alg».proof.Proof.Names
import Idealize.ShloMosaic.Lib.StableHlo.Run
import Idealize.ShloMosaic.PureOps.Ideal

/-!
# The buffers a host stretch of the kernel leaves as it finds them

Each host operation of the kernel writes ONE buffer, the buffer of the tensor value it defines, and leaves every other
buffer of the device as it was. A stretch of operations therefore leaves a buffer untouched as soon as that buffer is the
result of none of its operations. The eleven arguments of the program are the result of no operation at all, so every
stretch keeps them. Likewise the padding of the voxel table does not rewrite the reshaped filter matrix `main_v22`, and
the padding of the accumulated features does not rewrite the per-channel mean `main_v380` and variance `main_v387`.

The statements are over any contents `V` of the device's buffers at the stretch's start. Each proof walks its stretch
once, operation by operation: the operation's written set is the singleton of its result (the definition of its
builder), the result is a reference other than the kept ones (a comparison of references), and distinct references are
distinct buffers of the device (`Proc.devRef_injective`).
-/

noncomputable section

namespace Cert.Bridge.KKept

open Idealize.ShloMosaic Idealize.ShloMosaic.StableHlo
open Cert.KernelIdeal Cert.KernelIdeal.Gen

section Walk

variable {τ : Topo} {sig : RefSig} {Val : EltTy → Type}

/-- The stretch `ops` keeps the buffers of the references `L`: from any contents, each of them holds afterwards what it
    held before. -/
structure Keeps (L : List (Ref sig .tc)) (ops : List (HloOp τ sig Val)) : Prop where
  keeps : ∀ (V : Valuation τ sig Val), ∀ b ∈ L, after ops V (Proc.devRef .tc b) = V (Proc.devRef .tc b)

/-- The empty stretch keeps every buffer. -/
theorem Keeps.nil (L : List (Ref sig .tc)) : Keeps (τ := τ) (Val := Val) L [] := ⟨fun _ _ _ => rfl⟩

/-- One more operation in front: if its written set is the singleton of reference `y`, `y` is none of the references
    `L`, and the rest of the stretch keeps the buffers of `L`, then so does the whole. The operation leaves a buffer
    outside its written set as it was (`HloOp.result_of_not_mem`), and a buffer of `L` is outside it because distinct
    references are distinct buffers of the device (`Proc.devRef_injective`). -/
theorem Keeps.cons {L : List (Ref sig .tc)} {op : HloOp τ sig Val} {ops : List (HloOp τ sig Val)} {y : Ref sig .tc}
    (hw : op.writes = {Proc.devRef .tc y}) (hy : y ∉ L) (ih : Keeps L ops) : Keeps L (op :: ops) := by
  refine ⟨fun V b hb => ?_⟩
  rw [after_cons, ih.keeps _ b hb]
  refine op.result_of_not_mem V fun h => hy ?_
  rw [hw, Finset.mem_singleton] at h
  exact Proc.devRef_injective _ h ▸ hb

end Walk

/-- The walk along a stretch: `Keeps.cons` once per operation (its written set is the singleton of its result by the
    builder's definition; the result is compared with the kept references), then `Keeps.nil`. -/
local macro "walk_stretch" : tactic =>
  `(tactic| (repeat (refine Keeps.cons rfl (by decide) ?_)
             exact Keeps.nil _))

/-! ## The eleven arguments: the result of no operation, kept by every stretch -/

/-- No operation of `hostOps0` (the voxel means of the two feature arrays, their concatenation and cast, the zero row, the filter taps transposed,
    reshaped and cast, and an integer constant: 30 operations) has an argument as its result. -/
theorem keeps_hostOps0 : Keeps argsK (hostOps0 (F := Ideal)) := by
  walk_stretch
theorem kept_hostOps0 (V : KVal) (b : Ref Cert.KernelIdeal.sig .tc) (hb : b ∈ argsK) :
    after (hostOps0 (F := Ideal)) V (kd b) = V (kd b) :=
  keeps_hostOps0.keeps V b hb

/-- No operation of `hostOps0_1` (the fill value, and the voxel table padded with 321 rows of it) has an argument as its result. -/
theorem keeps_hostOps0_1 : Keeps argsK (hostOps0_1 (F := Ideal)) := by
  walk_stretch
theorem kept_hostOps0_1 (V : KVal) (b : Ref Cert.KernelIdeal.sig .tc) (hb : b ∈ argsK) :
    after (hostOps0_1 (F := Ideal)) V (kd b) = V (kd b) :=
  keeps_hostOps0_1.keeps V b hb

/-- No operation of `hostOps1` (the 27 taps gathered and summed, the per-channel mean and variance, and an integer constant: 423 operations) has an argument as its result. -/
theorem keeps_hostOps1 : Keeps argsK (hostOps1 (F := Ideal)) := by
  walk_stretch
theorem kept_hostOps1 (V : KVal) (b : Ref Cert.KernelIdeal.sig .tc) (hb : b ∈ argsK) :
    after (hostOps1 (F := Ideal)) V (kd b) = V (kd b) :=
  keeps_hostOps1.keeps V b hb

/-- No operation of `hostOps1_1` (the fill value, and the accumulated features padded with 834 rows of it) has an argument as its result. -/
theorem keeps_hostOps1_1 : Keeps argsK (hostOps1_1 (F := Ideal)) := by
  walk_stretch
theorem kept_hostOps1_1 (V : KVal) (b : Ref Cert.KernelIdeal.sig .tc) (hb : b ∈ argsK) :
    after (hostOps1_1 (F := Ideal)) V (kd b) = V (kd b) :=
  keeps_hostOps1_1.keeps V b hb

/-- No operation of `hostOps2` (the normalised features cut back to the voxels, the zero row, the 8 weighted corners summed, and an integer
    constant: 124 operations) has an argument as its result. -/
theorem keeps_hostOps2 : Keeps argsK (hostOps2 (F := Ideal)) := by
  walk_stretch
theorem kept_hostOps2 (V : KVal) (b : Ref Cert.KernelIdeal.sig .tc) (hb : b ∈ argsK) :
    after (hostOps2 (F := Ideal)) V (kd b) = V (kd b) :=
  keeps_hostOps2.keeps V b hb

/-- No operation of `hostOps2_1` (the fill value, and the interpolated features padded by no row) has an argument as its result. -/
theorem keeps_hostOps2_1 : Keeps argsK (hostOps2_1 (F := Ideal)) := by
  walk_stretch
theorem kept_hostOps2_1 (V : KVal) (b : Ref Cert.KernelIdeal.sig .tc) (hb : b ∈ argsK) :
    after (hostOps2_1 (F := Ideal)) V (kd b) = V (kd b) :=
  keeps_hostOps2_1.keeps V b hb

/-- No operation of `hostOps2_2` (one integer constant) has an argument as its result. -/
theorem keeps_hostOps2_2 : Keeps argsK (hostOps2_2 (F := Ideal)) := by
  walk_stretch
theorem kept_hostOps2_2 (V : KVal) (b : Ref Cert.KernelIdeal.sig .tc) (hb : b ∈ argsK) :
    after (hostOps2_2 (F := Ideal)) V (kd b) = V (kd b) :=
  keeps_hostOps2_2.keeps V b hb

/-- No operation of `hostOps2_3` (the fill value, and the first feature array padded by no row) has an argument as its result. -/
theorem keeps_hostOps2_3 : Keeps argsK (hostOps2_3 (F := Ideal)) := by
  walk_stretch
theorem kept_hostOps2_3 (V : KVal) (b : Ref Cert.KernelIdeal.sig .tc) (hb : b ∈ argsK) :
    after (hostOps2_3 (F := Ideal)) V (kd b) = V (kd b) :=
  keeps_hostOps2_3.keeps V b hb

/-- No operation of `hostOps2_4` (one integer constant) has an argument as its result. -/
theorem keeps_hostOps2_4 : Keeps argsK (hostOps2_4 (F := Ideal)) := by
  walk_stretch
theorem kept_hostOps2_4 (V : KVal) (b : Ref Cert.KernelIdeal.sig .tc) (hb : b ∈ argsK) :
    after (hostOps2_4 (F := Ideal)) V (kd b) = V (kd b) :=
  keeps_hostOps2_4.keeps V b hb

/-- No operation of `hostOps2_5` (the fill value, and the second feature array padded by no row) has an argument as its result. -/
theorem keeps_hostOps2_5 : Keeps argsK (hostOps2_5 (F := Ideal)) := by
  walk_stretch
theorem kept_hostOps2_5 (V : KVal) (b : Ref Cert.KernelIdeal.sig .tc) (hb : b ∈ argsK) :
    after (hostOps2_5 (F := Ideal)) V (kd b) = V (kd b) :=
  keeps_hostOps2_5.keeps V b hb

/-- No operation of `hostOps2_6` (the two halves of the linear layer's matrix, cut and cast) has an argument as its result. -/
theorem keeps_hostOps2_6 : Keeps argsK (hostOps2_6 (F := Ideal)) := by
  walk_stretch
theorem kept_hostOps2_6 (V : KVal) (b : Ref Cert.KernelIdeal.sig .tc) (hb : b ∈ argsK) :
    after (hostOps2_6 (F := Ideal)) V (kd b) = V (kd b) :=
  keeps_hostOps2_6.keeps V b hb

/-! ## Two more buffers a padding keeps -/

/-- The padding of the voxel table writes its fill value and the padded table `main_v23`, not the reshaped filter
    matrix `main_v22`. -/
theorem keeps_hostOps0_1' : Keeps [Cert.KernelIdeal.main_v22] (hostOps0_1 (F := Ideal)) := by
  walk_stretch
theorem kept_hostOps0_1' (V : KVal) :
    after (hostOps0_1 (F := Ideal)) V (kd Cert.KernelIdeal.main_v22) = V (kd Cert.KernelIdeal.main_v22) :=
  keeps_hostOps0_1'.keeps V _ List.mem_cons_self

/-- The padding of the accumulated features writes its fill value and the padded array `main_v388`, not the
    per-channel mean `main_v380` nor the variance `main_v387`. -/
theorem keeps_hostOps1_1' : Keeps [Cert.KernelIdeal.main_v380, Cert.KernelIdeal.main_v387] (hostOps1_1 (F := Ideal)) := by
  walk_stretch
theorem kept_hostOps1_1' (V : KVal) (b : Ref Cert.KernelIdeal.sig .tc)
    (hb : b ∈ [Cert.KernelIdeal.main_v380, Cert.KernelIdeal.main_v387]) :
    after (hostOps1_1 (F := Ideal)) V (kd b) = V (kd b) :=
  keeps_hostOps1_1'.keeps V b hb

end Cert.Bridge.KKept

end
-- ==== Proof.StageA.lean ====
import proofs.«412869_j60387240182488_3_alg».proof.Proof.Gen.KernelIdeal.Launch
import proofs.«412869_j60387240182488_3_alg».proof.Proof.RefOps
import proofs.«412869_j60387240182488_3_alg».proof.Proof.Common
import proofs.«412869_j60387240182488_3_alg».proof.Proof.Names
import Idealize.ShloMosaic.Lib.StableHlo.Run
import Idealize.ShloMosaic.Lib.Pipeline.Value
import Idealize.ShloMosaic.Lib.ValueIdx
import Idealize.ShloMosaic.Lib.KernelVsHost
import Idealize.ShloMosaic.Lib.IdealHost

/-!
# The padded table of voxel means

Both programs average the features of the points of each voxel: the sum, over the points whose voxel number is `r`, of the
point's feature in column `c`, over the larger of the voxel's point count and one. The kernel program averages the point
features and the query features apart (96 columns each) and lays the two tables side by side; the reference lays the
features side by side first (192 columns) and averages once. An accumulating scatter of whole rows at entry `(r, c)`
reads only column `c` of the updates, so the two agree column by column; the divisor is the same array on both sides.
Row 96446 is zero on both sides, and the kernel's 321 further rows of padding are not compared.
-/

noncomputable section

namespace Cert.Bridge.StageA

open Idealize.ShloMosaic Idealize.ShloMosaic.TcCoe Idealize.SL.Sem Idealize.ShloMosaic.StableHlo
open Idealize.ShloMosaic.ValueIdx
open Cert.Bridge
open scoped BigOperators

/-- The dimension numbers of a scatter of whole rows: update `(n, c)` goes to row `idx[n, 0]`, column `c`. -/
abbrev rowScatter (M N C : Nat) (wf : ScatterDims.WF ⟨2, ![M, C]⟩ ⟨2, ![N, 1]⟩ ⟨2, ![N, C]⟩ [1] [0] [0] 1) :
    ScatterDims ⟨2, ![M, C]⟩ ⟨2, ![N, 1]⟩ ⟨2, ![N, C]⟩ where
  updateWindowDims := [1]
  insertedWindowDims := [0]
  scatterDimsToOperandDims := [0]
  indexVectorDim := 1
  wf := wf

/-- Where update `j` reads its row number. -/
abbrev segIdx {N C : Nat} (j : (⟨2, ![N, C]⟩ : Shape).Idx) : (⟨2, ![N, 1]⟩ : Shape).Idx :=
  ix2 (⟨(j 0).val, idx2_lt0 j⟩ : Fin N) (0 : Fin 1)

section RowScatter
variable {M N C w : Nat} (wf : ScatterDims.WF ⟨2, ![M, C]⟩ ⟨2, ![N, 1]⟩ ⟨2, ![N, C]⟩ [1] [0] [0] 1)

theorem rowScatter_start0 (j : (⟨2, ![N, C]⟩ : Shape).Idx) (idx : IVec ⟨2, ![N, 1]⟩ w) :
    (rowScatter M N C wf).start j idx 0 = (idx (segIdx j)).toInt := by
  unfold ScatterDims.start
  rw [dif_pos (show (0 : Fin 2) ∈ (rowScatter M N C wf).scatterDimsToOperandDims from List.mem_singleton.mpr rfl)]
  have hsi : (rowScatter M N C wf).siIdx j ⟨List.idxOf (0 : Fin 2) (rowScatter M N C wf).scatterDimsToOperandDims,
      List.idxOf_lt_length_iff.2 (List.mem_singleton.mpr rfl)⟩ = segIdx j := by
    funext b; refine Fin.ext ?_
    match b with
    | ⟨0, _⟩ => rfl
    | ⟨1, _⟩ => rfl
  rw [hsi]

theorem rowScatter_start1 (j : (⟨2, ![N, C]⟩ : Shape).Idx) (idx : IVec ⟨2, ![N, 1]⟩ w) :
    (rowScatter M N C wf).start j idx 1 = 0 := by
  unfold ScatterDims.start
  rw [dif_neg]
  intro h
  have := List.mem_singleton.mp h
  exact absurd (congrArg Fin.val this) Nat.one_ne_zero

theorem rowScatter_window0 (j : (⟨2, ![N, C]⟩ : Shape).Idx) :
    (rowScatter M N C wf).window j 0 = 0 := by
  unfold ScatterDims.window
  rw [dif_neg]
  intro h
  have h2 := (List.mem_filter.mp h).2
  simp at h2

theorem rowScatter_window1 (j : (⟨2, ![N, C]⟩ : Shape).Idx) :
    (rowScatter M N C wf).window j 1 = (j 1).val := by
  unfold ScatterDims.window
  have hm : (1 : Fin (⟨2, ![M, C]⟩ : Shape).rank) ∈ (rowScatter M N C wf).sKept := List.mem_filter.mpr ⟨List.mem_finRange _, by simp⟩
  rw [dif_pos hm]
  rfl

end RowScatter

section RowScatterIdx
variable {M N C w : Nat} (wf : ScatterDims.WF ⟨2, ![M, C]⟩ ⟨2, ![N, 1]⟩ ⟨2, ![N, C]⟩ [1] [0] [0] 1)

/-- Update `j` lands on operand entry `i` exactly when its row number is `i`'s row and its column is `i`'s column. -/
theorem rowScatter_resultIdx_iff (j : (⟨2, ![N, C]⟩ : Shape).Idx) (idx : IVec ⟨2, ![N, 1]⟩ w) (i : (⟨2, ![M, C]⟩ : Shape).Idx) :
    (rowScatter M N C wf).resultIdx? j idx = some i ↔ (idx (segIdx j)).toInt = ((i 0).val : Int) ∧ (j 1).val = (i 1).val := by
  unfold ScatterDims.resultIdx?
  constructor
  · intro h
    split at h
    · next hh =>
      have e := Option.some.inj h
      have e0 := congrArg (fun f => (f 0).val) e
      have e1 := congrArg (fun f => (f 1).val) e
      have h0 := hh 0
      simp only [rowScatter_start0, rowScatter_start1, rowScatter_window0, rowScatter_window1] at e0 e1 h0
      constructor
      · omega
      · omega
    · exact absurd h (by simp)
  · rintro ⟨h0, h1⟩
    have hi0 : (i 0).val < M := idx2_lt0 i
    have hj1 : (j 1).val < C := idx2_lt1 j
    have hh : ∀ a, 0 ≤ (rowScatter M N C wf).start j idx a + (rowScatter M N C wf).window j a
        ∧ (rowScatter M N C wf).start j idx a + (rowScatter M N C wf).window j a < ((⟨2, ![M, C]⟩ : Shape).size a : Int) := by
      intro a
      match a with
      | ⟨0, _⟩ =>
        show 0 ≤ (rowScatter M N C wf).start j idx 0 + (rowScatter M N C wf).window j 0
          ∧ (rowScatter M N C wf).start j idx 0 + (rowScatter M N C wf).window j 0 < (M : Int)
        rw [rowScatter_start0, rowScatter_window0]; omega
      | ⟨1, _⟩ =>
        show 0 ≤ (rowScatter M N C wf).start j idx 1 + (rowScatter M N C wf).window j 1
          ∧ (rowScatter M N C wf).start j idx 1 + (rowScatter M N C wf).window j 1 < (C : Int)
        rw [rowScatter_start1, rowScatter_window1]; omega
    rw [dif_pos hh]
    congr 1
    funext a
    refine Fin.ext ?_
    match a with
    | ⟨0, _⟩ =>
      show ((rowScatter M N C wf).start j idx 0 + (rowScatter M N C wf).window j 0).toNat = (i 0).val
      rw [rowScatter_start0, rowScatter_window0]; omega
    | ⟨1, _⟩ =>
      show ((rowScatter M N C wf).start j idx 1 + (rowScatter M N C wf).window j 1).toNat = (i 1).val
      rw [rowScatter_start1, rowScatter_window1]; omega

end RowScatterIdx

section RowScatterAdd
variable {M N C w : Nat} (wf : ScatterDims.WF ⟨2, ![M, C]⟩ ⟨2, ![N, 1]⟩ ⟨2, ![N, C]⟩ [1] [0] [0] 1)

/-- The accumulating scatter of whole rows read at `(r, c)`: the operand's entry plus the sum, over the update rows whose
    row number is `r`, of their entries in column `c`. -/
theorem rowScatterAdd_apply (x : (⟨2, ![M, C]⟩ : Shape).Idx → EReal) (idx : IVec ⟨2, ![N, 1]⟩ w)
    (upd : (⟨2, ![N, C]⟩ : Shape).Idx → EReal) (r : Fin M) (c : Fin C) :
    Ideal.hostScatterAdd (rowScatter M N C wf) x idx upd (ix2 r c)
      = x (ix2 r c) + ∑ n ∈ Finset.univ.filter (fun n : Fin N => (idx (ix2 n (0 : Fin 1))).toInt = (r.val : Int)), upd (ix2 n c) := by
  show x (ix2 r c) + ∑ j ∈ Finset.univ.filter (fun j => (rowScatter M N C wf).resultIdx? j idx = some (ix2 r c)), upd j = _
  congr 1
  rw [Finset.filter_congr (fun j _ => rowScatter_resultIdx_iff wf j idx (ix2 r c)), Finset.sum_filter, sum_idx2, Finset.sum_filter]
  refine Finset.sum_congr rfl fun n _ => ?_
  show ∑ b : Fin C, (if (idx (ix2 n (0 : Fin 1))).toInt = (r.val : Int) ∧ b.val = c.val then upd (ix2 n b) else 0) = _
  by_cases hn : (idx (ix2 n (0 : Fin 1))).toInt = (r.val : Int)
  · simp only [hn, true_and, if_true]
    rw [Finset.sum_eq_single c]
    · simp
    · intro b _ hb; rw [if_neg (fun e => hb (Fin.ext e))]
    · intro h; exact absurd (Finset.mem_univ c) h
  · simp only [hn, false_and, if_false]; exact Finset.sum_const_zero

end RowScatterAdd

section Mean
variable {M N C : Nat}

/-- One entry of a scatter-mean: the rows of `a` whose row number (read off `seg`) is `r`, summed in column `c` onto the
    splat constant, over the divisor's entry for row `r`. -/
theorem mean_entry (d : ScatterDims ⟨2, ![M, C]⟩ ⟨2, ![N, 1]⟩ ⟨2, ![N, C]⟩)
    (wf : ScatterDims.WF ⟨2, ![M, C]⟩ ⟨2, ![N, 1]⟩ ⟨2, ![N, C]⟩ [1] [0] [0] 1) (hd : d = rowScatter M N C wf)
    (hb0 : (⟨0, ![]⟩ : Shape).BroadcastsInDim ⟨2, ![M, C]⟩ ![])
    (hb1 : (⟨1, ![N]⟩ : Shape).BroadcastsInDim ⟨2, ![N, 1]⟩ ![0])
    (hb2 : (⟨2, ![M, 1]⟩ : Shape).BroadcastsInDim ⟨2, ![M, C]⟩ ![0, 1])
    (z : BitVec 32) (seg : IVec ⟨1, ![N]⟩ 32) (a : FVec Ideal ⟨2, ![N, C]⟩ .f32) (cnt : FVec Ideal ⟨2, ![M, 1]⟩ .f32)
    (r : Fin M) (c : Fin C) :
    Host.divf (Host.scatterAdd d (broadcastInDim ⟨2, ![M, C]⟩ ![] hb0 (constant (F := Ideal) ⟨0, ![]⟩ .f32 z))
        (broadcastInDim ⟨2, ![N, 1]⟩ ![0] hb1 seg) a) (broadcastInDim ⟨2, ![M, C]⟩ ![0, 1] hb2 cnt) (ix2 r c)
      = Ideal.div (Ideal.ofBits .f32 z + ∑ n ∈ Finset.univ.filter (fun n : Fin N => (seg (ix1 n)).toInt = (r.val : Int)), a (ix2 n c))
          (cnt (ix2 r (0 : Fin 1))) := by
  subst hd
  have e1 : ∀ n : Fin N, broadcastInDim ⟨2, ![N, 1]⟩ ![0] hb1 seg (ix2 n (0 : Fin 1)) = seg (ix1 n) := fun n =>
    broadcastInDim_apply ![0] hb1 seg (ix2 n (0 : Fin 1)) (ix1 n) (fun b => by
      match b with
      | ⟨0, _⟩ =>
        show n.val = if N = 1 then 0 else n.val
        split
        · have := n.isLt; omega
        · rfl)
  show Ideal.div (Ideal.hostScatterAdd (rowScatter M N C wf) _ _ a (ix2 r c)) (broadcastInDim ⟨2, ![M, C]⟩ ![0, 1] hb2 cnt (ix2 r c)) = _
  rw [rowScatterAdd_apply wf, broadcastInDim_apply ![0, 1] hb2 cnt (ix2 r c) (ix2 r (0 : Fin 1)) (fun b => by
    match b with
    | ⟨0, _⟩ =>
      show r.val = if M = 1 then 0 else r.val
      split
      · have := r.isLt; omega
      · rfl
    | ⟨1, _⟩ =>
      show (0 : Nat) = if (1 : Nat) = 1 then 0 else c.val
      rw [if_pos rfl])]
  simp only [e1]
  rfl

end Mean

section Concat
variable {α : Type}

/-- Two arrays laid side by side, read in a column of the first … -/
theorem concat_cols_left {N A B T : Nat} (hc : Shape.Concatenates [(⟨2, ![N, A]⟩ : Shape), ⟨2, ![N, B]⟩] ⟨2, ![N, T]⟩ 1)
    (x₁ : (⟨2, ![N, A]⟩ : Shape).Idx → α) (x₂ : (⟨2, ![N, B]⟩ : Shape).Idx → α) (n : Fin N) (c : Fin T) (h : c.val < A) :
    concatenate ⟨2, ![N, T]⟩ 1 [⟨⟨2, ![N, A]⟩, x₁⟩, ⟨⟨2, ![N, B]⟩, x₂⟩] hc (ix2 n c) = x₁ (ix2 n (⟨c.val, h⟩ : Fin A)) :=
  concatenate_pair_apply_left 1 x₁ x₂ hc (ix2 n c) rfl (ix2 n (⟨c.val, h⟩ : Fin A)) (fun b => by
    match b with
    | ⟨0, _⟩ => rfl
    | ⟨1, _⟩ => rfl)

/-- … and in a column of the second. -/
theorem concat_cols_right {N A B T : Nat} (hc : Shape.Concatenates [(⟨2, ![N, A]⟩ : Shape), ⟨2, ![N, B]⟩] ⟨2, ![N, T]⟩ 1)
    (x₁ : (⟨2, ![N, A]⟩ : Shape).Idx → α) (x₂ : (⟨2, ![N, B]⟩ : Shape).Idx → α) (n : Fin N) (c : Fin T) (h : A ≤ c.val)
    (h' : c.val - A < B) :
    concatenate ⟨2, ![N, T]⟩ 1 [⟨⟨2, ![N, A]⟩, x₁⟩, ⟨⟨2, ![N, B]⟩, x₂⟩] hc (ix2 n c) = x₂ (ix2 n (⟨c.val - A, h'⟩ : Fin B)) :=
  concatenate_pair_apply_right 1 x₁ x₂ hc (ix2 n c) rfl rfl (ix2 n (⟨c.val - A, h'⟩ : Fin B)) (fun b hb => by
    match b, hb with
    | ⟨0, _⟩, _ => rfl
    | ⟨1, _⟩, hb => exact absurd rfl hb) (by show c.val - A + A = c.val; omega)

/-- Two arrays stacked, read in a row of the first … -/
theorem concat_rows_left {A B T C : Nat} (hc : Shape.Concatenates [(⟨2, ![A, C]⟩ : Shape), ⟨2, ![B, C]⟩] ⟨2, ![T, C]⟩ 0)
    (x₁ : (⟨2, ![A, C]⟩ : Shape).Idx → α) (x₂ : (⟨2, ![B, C]⟩ : Shape).Idx → α) (r : Fin T) (c : Fin C) (h : r.val < A) :
    concatenate ⟨2, ![T, C]⟩ 0 [⟨⟨2, ![A, C]⟩, x₁⟩, ⟨⟨2, ![B, C]⟩, x₂⟩] hc (ix2 r c) = x₁ (ix2 (⟨r.val, h⟩ : Fin A) c) :=
  concatenate_pair_apply_left 0 x₁ x₂ hc (ix2 r c) rfl (ix2 (⟨r.val, h⟩ : Fin A) c) (fun b => by
    match b with
    | ⟨0, _⟩ => rfl
    | ⟨1, _⟩ => rfl)

/-- … and in a row of the second. -/
theorem concat_rows_right {A B T C : Nat} (hc : Shape.Concatenates [(⟨2, ![A, C]⟩ : Shape), ⟨2, ![B, C]⟩] ⟨2, ![T, C]⟩ 0)
    (x₁ : (⟨2, ![A, C]⟩ : Shape).Idx → α) (x₂ : (⟨2, ![B, C]⟩ : Shape).Idx → α) (r : Fin T) (c : Fin C) (h : A ≤ r.val)
    (h' : r.val - A < B) :
    concatenate ⟨2, ![T, C]⟩ 0 [⟨⟨2, ![A, C]⟩, x₁⟩, ⟨⟨2, ![B, C]⟩, x₂⟩] hc (ix2 r c) = x₂ (ix2 (⟨r.val - A, h'⟩ : Fin B) c) :=
  concatenate_pair_apply_right 0 x₁ x₂ hc (ix2 r c) rfl rfl (ix2 (⟨r.val - A, h'⟩ : Fin B) c) (fun b hb => by
    match b, hb with
    | ⟨0, _⟩, hb => exact absurd rfl hb
    | ⟨1, _⟩, _ => rfl) (by show r.val - A + A = r.val; omega)

end Concat

section Agree

open Cert.KernelIdeal.Gen Cert.ReferenceIdeal.Stages

set_option maxHeartbeats 16000000 in
set_option maxRecDepth 16384 in
/-- The kernel's padded table of voxel means agrees with the reference's on the reference's 96447 rows. -/
theorem vpad_agree (W : KVal) (U : RVal)
    (h0 : U (rd Cert.ReferenceIdeal.main_arg0) = W (kd Cert.KernelIdeal.main_arg0))
    (h1 : U (rd Cert.ReferenceIdeal.main_arg1) = W (kd Cert.KernelIdeal.main_arg1))
    (h8 : U (rd Cert.ReferenceIdeal.main_arg8) = W (kd Cert.KernelIdeal.main_arg8))
    (r : Fin 96447) (c : Fin 192) :
    after (hostOps0_1 (F := Ideal)) (after hostOps0 W) (kd Cert.KernelIdeal.main_v23) (ix2 (⟨r.val, by omega⟩ : Fin 96768) c)
      = after (opsA (F := Ideal)) U (rd Cert.ReferenceIdeal.main_v13) (ix2 r c) := by
  after_results
  simp only [TRef.ofBuf, TRef.toBuf, cast_eq]
  rw [h0, h1, h8]
  -- the padding adds rows past the table only
  refine (pad_apply_of_inside ![0, 0] ![321, 0] ![0, 0] _ _ _ _ _ (ix2 r c) ?_).trans ?_
  · intro a
    match a with
    | ⟨0, _⟩ => show r.val = 0 + r.val * (0 + 1); omega
    | ⟨1, _⟩ => show c.val = 0 + c.val * (0 + 1); omega
  by_cases hr : r.val < 96446
  · -- a row of means
    refine (concat_rows_left _ _ _ r c hr).trans ?_
    refine Eq.trans ?_ (concat_rows_left _ _ _ r c hr).symm
    refine (truncf_apply (φ := .f32) (ψ := .bf16) _ bitsLt_bf16_f32 _).trans ?_
    by_cases hc : c.val < 96
    · refine (concat_cols_left _ _ _ _ c hc).trans ?_
      refine (mean_entry Cert.KernelIdeal.scatter_S96446x96_S120000x1_S120000x96_1_0_0_1
        Cert.KernelIdeal.Gen.scatter_S96446x96_S120000x1_S120000x96_1_0_0_1_wf rfl _ _ _ _ _ _ _ _ _).trans ?_
      refine Eq.trans ?_ (mean_entry Cert.ReferenceIdeal.scatter_S96446x192_S120000x1_S120000x192_1_0_0_1
        Cert.ReferenceIdeal.Gen.scatter_S96446x192_S120000x1_S120000x192_1_0_0_1_wf rfl _ _ _ _ _ _ _ _ _).symm
      refine congrArg₂ Ideal.div (congrArg (Ideal.ofBits .f32 0x00000000#32 + ·) (Finset.sum_congr rfl fun n _ => ?_)) rfl
      exact (concat_cols_left _ _ _ n c hc).symm
    · have hc' : 96 ≤ c.val := Nat.le_of_not_lt hc
      have hc2 : c.val - 96 < 96 := by have := c.isLt; omega
      refine (concat_cols_right _ _ _ _ c hc' hc2).trans ?_
      refine (mean_entry Cert.KernelIdeal.scatter_S96446x96_S120000x1_S120000x96_1_0_0_1
        Cert.KernelIdeal.Gen.scatter_S96446x96_S120000x1_S120000x96_1_0_0_1_wf rfl _ _ _ _ _ _ _ _ _).trans ?_
      refine Eq.trans ?_ (mean_entry Cert.ReferenceIdeal.scatter_S96446x192_S120000x1_S120000x192_1_0_0_1
        Cert.ReferenceIdeal.Gen.scatter_S96446x192_S120000x1_S120000x192_1_0_0_1_wf rfl _ _ _ _ _ _ _ _ _).symm
      refine congrArg₂ Ideal.div (congrArg (Ideal.ofBits .f32 0x00000000#32 + ·) (Finset.sum_congr rfl fun n _ => ?_)) rfl
      exact (concat_cols_right _ _ _ n c hc' hc2).symm
  · -- the zero row
    have hr' : 96446 ≤ r.val := Nat.le_of_not_lt hr
    refine (concat_rows_right _ _ _ r c hr' (by have := r.isLt; omega)).trans ?_
    refine Eq.trans ?_ (concat_rows_right _ _ _ r c hr' (by have := r.isLt; omega)).symm
    show Ideal.ofBits .bf16 0x0000#16 = Ideal.ofBits .f32 0x00000000#32
    rw [Ideal.ofBits_zero_bf16, Ideal.ofBits_zero_f32]

end Agree

end Cert.Bridge.StageA

end
-- ==== Proof.StageAW.lean ====
import proofs.«412869_j60387240182488_3_alg».proof.Proof.Gen.KernelIdeal.Launch
import proofs.«412869_j60387240182488_3_alg».proof.Proof.Names
import Idealize.ShloMosaic.Lib.StableHlo.Run
import Idealize.ShloMosaic.Lib.Pipeline.Value
import Idealize.ShloMosaic.Lib.ValueIdx

/-!
# The flattened filter

The kernel program lays the 27 filter taps, each a matrix of 192 rows and 96 columns, side by side: it swaps the tap axis with the
row axis, reads the result row by row as one matrix of 192 rows and 27 · 96 = 2592 columns, and narrows it (the identity at the
extended reals). Column `k · 96 + h` of row `c` of that matrix is therefore entry `(c, h)` of tap `k`. The zero padding of the
voxel table that follows does not write the matrix.
-/

noncomputable section

namespace Cert.Bridge.StageA

open Cert.KernelIdeal Cert.KernelIdeal.Gen
open Idealize.ShloMosaic Idealize.ShloMosaic.StableHlo Idealize.ShloMosaic.ValueIdx Idealize.SL.Sem
open Cert.Bridge (KVal kd)

/-- Swap, flatten, narrow, read at `(c, k · 96 + h)`: the flattening keeps the row-major position, `(c · 27 + k) · 96 + h` on both
    sides, and the swap sends `(c, k, h)` back to `(k, c, h)`. -/
theorem flatten_apply (x : FVec Ideal S27x192x96 .f32) (c : Fin 192) (k : Fin 27) (h : Fin 96) :
    (truncf .bf16 (shapeCast S192x2592 (transpose S192x27x96 [1, 0, 2] x transposes_S27x192x96_S192x27x96_1_0_2) shapeCasts_S192x27x96_S192x2592) bitsLt_bf16_f32 : FVec Ideal S192x2592 .bf16)
        (ix2 c (⟨k.val * 96 + h.val, by omega⟩ : Fin 2592))
      = x (ix3 k c h) := by
  rw [truncf_apply]
  refine (shapeCast_apply _ _ _ (ix3 c k h) (by
    rw [Shape.rowMajor_val_three, Shape.rowMajor_val_two]
    show (c.val * 27 + k.val) * 96 + h.val = c.val * 2592 + (k.val * 96 + h.val)
    omega)).trans ?_
  exact transpose_apply _ _ _ _ _ (fun b => match b with | ⟨0, _⟩ => rfl | ⟨1, _⟩ => rfl | ⟨2, _⟩ => rfl)

/-- The padding of the voxel table writes two other buffers: the flattened filter stays. -/
theorem pad_keeps_flat (X : KVal) : after (hostOps0_1 (F := Ideal)) X (kd main_v22) = X (kd main_v22) := by
  after_results

/-- The flattened filter after the first stretch and the padding: entry `(c, k · 96 + h)` is entry `(c, h)` of tap `k`. -/
theorem wflat_eq (W : KVal) (c : Fin 192) (k : Fin 27) (h : Fin 96) :
    after (hostOps0_1 (F := Ideal)) (after hostOps0 W) (kd main_v22) (ix2 c (⟨k.val * 96 + h.val, by omega⟩ : Fin 2592)) = W (kd main_arg2) (ix3 k c h) := by
  rw [pad_keeps_flat]
  refine Eq.trans ?_ (flatten_apply (W (kd main_arg2)) c k h)
  after_results
  rfl

end Cert.Bridge.StageA

end
-- ==== Proof.StageC.lean ====
import proofs.«412869_j60387240182488_3_alg».proof.Proof.Gen.KernelIdeal.Launch
import proofs.«412869_j60387240182488_3_alg».proof.Proof.RefOps
import Idealize.ShloMosaic.PureOps.Ideal

/-!
# Mean and variance of the accumulated feature, on both sides

After the 27 taps both programs hold the accumulated feature `acc` (96446 voxels by 96 channels). Each then computes,
channel by channel, the mean `μ = (∑ over voxels of acc) / 96446` and the variance `σ² = (∑ over voxels of (acc − μ)²) / 96446`
by the same fourteen operations: a sum over axis 0 from the zero word, a division by the broadcast word `0x47BC5F00` (96446),
two broadcasts of `μ` back to the full shape, a subtraction, a square, a second sum and a second division. The kernel's
second host stretch ends with these fourteen operations (and one integer constant that no later operation of the stretch
reads); the reference's third stretch is exactly these fourteen. So both results are one and the same function of `acc`,
and equal accumulated features give equal means and equal variances. No arithmetic is opened: the two chains are compared
as terms over an arbitrary float model, where they differ only in the names of the shape constants.
-/

noncomputable section

namespace Cert.Bridge.StageC

open Idealize.ShloMosaic Idealize.ShloMosaic.TcCoe Idealize.ShloMosaic.StableHlo Idealize.SL.Sem

section KernelTail

open Cert.KernelIdeal Cert.KernelIdeal.Gen

variable {F : FTy → Type} [FloatOps F]

/-- The last fifteen operations of the kernel's second host stretch: the mean (into `main_v380`) and the variance (into
    `main_v387`) of `main_v377`, then an integer constant. -/
abbrev statOps : List (HloOp τ sig (Elt F)) :=
  ( StableHlo.nullary main_cst_60 (constant S_ .f32 0x00000000#32)
  :: StableHlo.binary main_v377 main_cst_60 main_v378 ((fun x v => Host.reduceAdd x v reducesTo_S96446x96_S96_d0 h_S_) : (⟨S96446x96, .f32⟩ : BufTy).Contents (Elt F) → (⟨S_, .f32⟩ : BufTy).Contents (Elt F) → (⟨S96, .f32⟩ : BufTy).Contents (Elt F))
  :: StableHlo.nullary main_cst_61 (constant S_ .f32 0x47BC5F00#32)
  :: StableHlo.unary main_cst_61 main_v379 (broadcastInDim S96 ![] bcast_S_S96 : (⟨S_, .f32⟩ : BufTy).Contents (Elt F) → (⟨S96, .f32⟩ : BufTy).Contents (Elt F))
  :: StableHlo.binary main_v378 main_v379 main_v380 (Host.divf : (⟨S96, .f32⟩ : BufTy).Contents (Elt F) → (⟨S96, .f32⟩ : BufTy).Contents (Elt F) → (⟨S96, .f32⟩ : BufTy).Contents (Elt F))
  :: StableHlo.unary main_v380 main_v381 (broadcastInDim S1x96 ![1] bcast_S96_S1x96_1 : (⟨S96, .f32⟩ : BufTy).Contents (Elt F) → (⟨S1x96, .f32⟩ : BufTy).Contents (Elt F))
  :: StableHlo.unary main_v381 main_v382 (broadcastInDim S96446x96 ![0, 1] bcast_S1x96_S96446x96_0_1 : (⟨S1x96, .f32⟩ : BufTy).Contents (Elt F) → (⟨S96446x96, .f32⟩ : BufTy).Contents (Elt F))
  :: StableHlo.binary main_v377 main_v382 main_v383 (subf : (⟨S96446x96, .f32⟩ : BufTy).Contents (Elt F) → (⟨S96446x96, .f32⟩ : BufTy).Contents (Elt F) → (⟨S96446x96, .f32⟩ : BufTy).Contents (Elt F))
  :: StableHlo.binary main_v383 main_v383 main_v384 (mulf : (⟨S96446x96, .f32⟩ : BufTy).Contents (Elt F) → (⟨S96446x96, .f32⟩ : BufTy).Contents (Elt F) → (⟨S96446x96, .f32⟩ : BufTy).Contents (Elt F))
  :: StableHlo.nullary main_cst_62 (constant S_ .f32 0x00000000#32)
  :: StableHlo.binary main_v384 main_cst_62 main_v385 ((fun x v => Host.reduceAdd x v reducesTo_S96446x96_S96_d0 h_S_) : (⟨S96446x96, .f32⟩ : BufTy).Contents (Elt F) → (⟨S_, .f32⟩ : BufTy).Contents (Elt F) → (⟨S96, .f32⟩ : BufTy).Contents (Elt F))
  :: StableHlo.nullary main_cst_63 (constant S_ .f32 0x47BC5F00#32)
  :: StableHlo.unary main_cst_63 main_v386 (broadcastInDim S96 ![] bcast_S_S96 : (⟨S_, .f32⟩ : BufTy).Contents (Elt F) → (⟨S96, .f32⟩ : BufTy).Contents (Elt F))
  :: StableHlo.binary main_v385 main_v386 main_v387 (Host.divf : (⟨S96, .f32⟩ : BufTy).Contents (Elt F) → (⟨S96, .f32⟩ : BufTy).Contents (Elt F) → (⟨S96, .f32⟩ : BufTy).Contents (Elt F))
  :: StableHlo.nullary main_c_64 (constantI S_ 32 0#32)
  :: [] )

/-- The second host stretch, from its operation 408 on, is `statOps` (both are literal lists). -/
theorem drop_eq : (Cert.KernelIdeal.Gen.hostOps1 (F := F)).drop 408 = statOps := rfl

end KernelTail

section Agree

variable {F : FTy → Type} [FloatOps F]

local notation "kd" => Proc.devRef (τ := Cert.KernelIdeal.τ) (sig := Cert.KernelIdeal.sig) Proc.tc
local notation "rd" => Proc.devRef (τ := Cert.ReferenceIdeal.τ) (sig := Cert.ReferenceIdeal.sig) Proc.tc

/-- Two lines of operations run one after the other are their concatenation run as one. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- The second host stretch is its first 408 operations followed by `statOps`. -/
theorem split (W : Valuation Cert.KernelIdeal.τ Cert.KernelIdeal.sig (Elt F)) :
    after (Cert.KernelIdeal.Gen.hostOps1 (F := F)) W
      = after statOps (after ((Cert.KernelIdeal.Gen.hostOps1 (F := F)).take 408) W) :=
  (congrArg (fun l => after l W) (List.take_append_drop 408 (Cert.KernelIdeal.Gen.hostOps1 (F := F))).symm).trans
    ((after_app _ _ W).trans
      (congrArg (fun l => after l (after ((Cert.KernelIdeal.Gen.hostOps1 (F := F)).take 408) W)) drop_eq))

/-- None of the last fifteen operations writes the accumulated feature. -/
theorem acc_kept (X : Valuation Cert.KernelIdeal.τ Cert.KernelIdeal.sig (Elt F)) :
    after statOps X (kd Cert.KernelIdeal.main_v377) = X (kd Cert.KernelIdeal.main_v377) := by
  dsimp only [statOps]
  after_results

/-- Over any float model: the kernel's last fifteen operations and the reference's fourteen compute the same mean and the
    same variance from equal accumulated features (the two composed terms are one term, up to the names of the shapes). -/
theorem tail_agree (X : Valuation Cert.KernelIdeal.τ Cert.KernelIdeal.sig (Elt F)) (U : Valuation Cert.ReferenceIdeal.τ Cert.ReferenceIdeal.sig (Elt F))
    (h : X (kd Cert.KernelIdeal.main_v377) = U (rd Cert.ReferenceIdeal.main_v365)) :
    after statOps X (kd Cert.KernelIdeal.main_v380) = after (Cert.ReferenceIdeal.Stages.opsC (F := F)) U (rd Cert.ReferenceIdeal.main_v368)
    ∧ after statOps X (kd Cert.KernelIdeal.main_v387) = after (Cert.ReferenceIdeal.Stages.opsC (F := F)) U (rd Cert.ReferenceIdeal.main_v375) := by
  constructor
  · dsimp only [statOps, Cert.ReferenceIdeal.Stages.opsC]
    after_results
    rw [h]
  · dsimp only [statOps, Cert.ReferenceIdeal.Stages.opsC]
    after_results_simp
    rw [h]

end Agree

/-- Equal accumulated features after the taps give equal channel means and equal channel variances. -/
theorem stats_agree (W : Valuation Cert.KernelIdeal.τ Cert.KernelIdeal.sig (Elt Ideal))
    (U : Valuation Cert.ReferenceIdeal.τ Cert.ReferenceIdeal.sig (Elt Ideal))
    (hacc : after (Cert.KernelIdeal.Gen.hostOps1 (F := Ideal)) W (Proc.devRef (τ := Cert.KernelIdeal.τ) .tc Cert.KernelIdeal.main_v377)
      = U (Proc.devRef (τ := Cert.ReferenceIdeal.τ) .tc Cert.ReferenceIdeal.main_v365)) :
    after (Cert.KernelIdeal.Gen.hostOps1 (F := Ideal)) W (Proc.devRef (τ := Cert.KernelIdeal.τ) .tc Cert.KernelIdeal.main_v380)
      = after (Cert.ReferenceIdeal.Stages.opsC (F := Ideal)) U (Proc.devRef (τ := Cert.ReferenceIdeal.τ) .tc Cert.ReferenceIdeal.main_v368)
    ∧ after (Cert.KernelIdeal.Gen.hostOps1 (F := Ideal)) W (Proc.devRef (τ := Cert.KernelIdeal.τ) .tc Cert.KernelIdeal.main_v387)
      = after (Cert.ReferenceIdeal.Stages.opsC (F := Ideal)) U (Proc.devRef (τ := Cert.ReferenceIdeal.τ) .tc Cert.ReferenceIdeal.main_v375) := by
  have hs := split (F := Ideal) W
  generalize after ((Cert.KernelIdeal.Gen.hostOps1 (F := Ideal)).take 408) W = X at hs
  have hX : X (Proc.devRef (τ := Cert.KernelIdeal.τ) .tc Cert.KernelIdeal.main_v377)
      = U (Proc.devRef (τ := Cert.ReferenceIdeal.τ) .tc Cert.ReferenceIdeal.main_v365) :=
    ((acc_kept X).symm.trans (congrFun hs _).symm).trans hacc
  obtain ⟨h1, h2⟩ := tail_agree X U hX
  exact ⟨(congrFun hs _).trans h1, (congrFun hs _).trans h2⟩

end Cert.Bridge.StageC

end
-- ==== Proof.TapRef.lean ====
/-
  One tap of the reference, read at an index. The tap reads the padded table of voxel means at the rows a column of
  neighbour indices names and multiplies the gathered rows by one [192, 96] slice of the weights. The index column is
  first wrapped (a negative word has 96447 added) and then, by the gather, read signed and clamped into the table's
  rows [0, 96446]; for a word already in [0, 96446] neither changes it. So output entry (r, h) is the sum over the 192
  channels c of table[nbr r, c] * weights[c, h].
-/
import proofs.«412869_j60387240182488_3_alg».proof.ReferenceIdeal
import Idealize.ShloMosaic.Lib.ValueIdx
import Idealize.ShloMosaic.Lib.StackMember
import Idealize.ShloMosaic.Lib.Affine

noncomputable section

open scoped BigOperators

namespace Cert.Bridge.TapRef

open Idealize.ShloMosaic Idealize.ShloMosaic.ValueIdx

/-- The dimension numbers of a gather of whole rows of an [N, C] table at an [R, 1] array of row indices: offset
    axis 1, collapsed axis 0, start index map [0], index vector axis 1, slices [1, C]. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Such a gather reads, at (r, c), the table at row idx[r, 0] — read signed and clamped into [0, N - 1] — and
    column c. -/
theorem gather_rows_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowsDims N C R wf) x idx y
      = x (ix2 (⟨min (idx (ix2 (⟨(y 0).val, idx2_lt0 y⟩ : Fin R) (⟨0, Nat.one_pos⟩ : Fin 1))).toInt.toNat (N - 1), by omega⟩ : Fin N)
            (⟨(y 1).val, idx2_lt1 y⟩ : Fin C)) := by
  unfold Host.gather
  congr 1
  funext a
  refine Fin.ext ?_
  match a with
  | ⟨0, _⟩ =>
    show (rowsDims N C R wf).start y idx 0 + (rowsDims N C R wf).batchCoord y 0 + (rowsDims N C R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx y ⟨List.idxOf (0 : Fin 2) (rowsDims N C R wf).startIndexMap,
        List.idxOf_lt_length_iff.2 (List.mem_singleton.mpr rfl)⟩
          = ix2 (⟨(y 0).val, idx2_lt0 y⟩ : Fin R) (⟨0, Nat.one_pos⟩ : Fin 1) := by
      funext b; refine Fin.ext ?_
      match b with
      | ⟨0, _⟩ => rfl
      | ⟨1, _⟩ => rfl
    rw [hsi]
    rfl
  | ⟨1, _⟩ =>
    show (rowsDims N C R wf).start y idx 1 + (rowsDims N C R wf).batchCoord y 1 + (rowsDims N C R wf).offCoord y 1 = (y 1).val
    rw [GatherDims.batchCoord_eq_zero _ _ _ List.not_mem_nil]
    have hs : (rowsDims N C R wf).start y idx 1 = 0 := by
      unfold GatherDims.start
      rw [dif_neg (show ¬ (1 : Fin 2) ∈ ([0] : List (Fin 2)) from by decide)]
    rw [hs]
    simp only [Nat.add_zero, Nat.zero_add]
    unfold GatherDims.offCoord
    rw [dif_pos ((GatherDims.mem_sKept _ _).2 ⟨(show (1 : Fin 2) ∉ ([0] : List (Fin 2)) from by decide), List.not_mem_nil⟩)]
    rfl

/-- A column array [N, 1] made from a vector [N] by a broadcast along axis 0 reads, at (a, 0), the vector at a. -/
theorem bcast_col_apply {α : Type} {N : Nat} (hN : N ≠ 1)
    (h : (⟨1, ![N]⟩ : Shape).BroadcastsInDim ⟨2, ![N, 1]⟩ (![0] : Fin 1 → Fin 2))
    (f : (⟨1, ![N]⟩ : Shape).Idx → α) (a : Fin N) (z : Fin 1) :
    broadcastInDim (⟨2, ![N, 1]⟩ : Shape) (![0] : Fin 1 → Fin 2) h f (ix2 a z) = f (ix1 a) := by
  unfold broadcastInDim
  congr 1
  funext a'
  match a' with
  | ⟨0, _⟩ =>
    split
    · rename_i h1
      exact absurd h1 hN
    · rfl

/-- The wrap of a signed word (a negative word has p added) leaves a nonnegative word as it is. -/
theorem wrap_nonneg (v p : BitVec 32) (hv : 0 ≤ v.toInt) :
    Scalar.select (IntOp.cmpi .slt v 0#32) (IntOp.addi v p) v = v := by
  unfold Scalar.select
  rw [if_neg]
  intro hc
  have hc' : v.toInt < (0#32 : BitVec 32).toInt := IntOp.cmpi_slt.1 hc
  rw [show (0#32 : BitVec 32).toInt = 0 from by decide] at hc'
  omega

/-- ONE TAP OF THE REFERENCE AT AN INDEX: the gathered rows of the padded table times one slice of the weights, at
    (r, h), is the sum over the channels c of table[nbr r, c] * weights[c, h], when every neighbour word is in
    [0, 96446] read signed (so that neither the wrap nor the gather's clamp changes it). -/
theorem tap_apply [Cert.ReferenceIdeal.Facts]
    (vpad : Cert.ReferenceIdeal.S96447x192.Idx → EReal) (n : Cert.ReferenceIdeal.S96446.Idx → BitVec 32)
    (hn : ∀ j, 0 ≤ (n j).toInt ∧ (n j).toInt ≤ 96446)
    (Wk : Cert.ReferenceIdeal.S192x96.Idx → EReal) (i : Cert.ReferenceIdeal.S96446x96.Idx) :
    Host.dotGeneral (F := Ideal) (φ₁ := .f32) (φ₂ := .f32) Cert.ReferenceIdeal.dot_S96446x192_S192x96_S96446x96_1_0_0_1_n_n none
      (Host.gather Cert.ReferenceIdeal.gather_S96447x192_S96446x1_S96446x192_1_0_n_n_0_1_1192 vpad
        (broadcastInDim Cert.ReferenceIdeal.S96446x1 ![0] Cert.ReferenceIdeal.Facts₀.bcast_S96446_S96446x1_0
          (select (cmpi .slt n (broadcastInDim Cert.ReferenceIdeal.S96446 ![] Cert.ReferenceIdeal.Facts₀.bcast_S_S96446 (constantI Cert.ReferenceIdeal.S_ 32 0#32)))
            (addi n (broadcastInDim Cert.ReferenceIdeal.S96446 ![] Cert.ReferenceIdeal.Facts₀.bcast_S_S96446 (constantI Cert.ReferenceIdeal.S_ 32 96447#32)))
            n)))
      Wk i
    = ∑ c : Fin 192, vpad (ix2 (⟨(n (ix1 (i 0))).toInt.toNat, by have := hn (ix1 (i 0)); omega⟩ : Fin 96447) c) * Wk (ix2 c (i 1)) := by
  have key : ∀ (a : Fin 96446) (b : Fin 96),
      Host.dotGeneral (F := Ideal) (φ₁ := .f32) (φ₂ := .f32) Cert.ReferenceIdeal.dot_S96446x192_S192x96_S96446x96_1_0_0_1_n_n none
        (Host.gather Cert.ReferenceIdeal.gather_S96447x192_S96446x1_S96446x192_1_0_n_n_0_1_1192 vpad
          (broadcastInDim Cert.ReferenceIdeal.S96446x1 ![0] Cert.ReferenceIdeal.Facts₀.bcast_S96446_S96446x1_0
            (select (cmpi .slt n (broadcastInDim Cert.ReferenceIdeal.S96446 ![] Cert.ReferenceIdeal.Facts₀.bcast_S_S96446 (constantI Cert.ReferenceIdeal.S_ 32 0#32)))
              (addi n (broadcastInDim Cert.ReferenceIdeal.S96446 ![] Cert.ReferenceIdeal.Facts₀.bcast_S_S96446 (constantI Cert.ReferenceIdeal.S_ 32 96447#32)))
              n)))
        Wk (ix2 a b)
      = ∑ c : Fin 192, vpad (ix2 (⟨(n (ix1 a)).toInt.toNat, by have := hn (ix1 a); omega⟩ : Fin 96447) c) * Wk (ix2 c b) := by
    intro a b
    -- the product's dimension numbers are the plain M×K by K×N ones; the gather's are the whole-rows ones
    have hd : Cert.ReferenceIdeal.dot_S96446x192_S192x96_S96446x96_1_0_0_1_n_n = DotDims.plain 96446 192 96 := rfl
    have hg : Cert.ReferenceIdeal.gather_S96447x192_S96446x1_S96446x192_1_0_n_n_0_1_1192
        = rowsDims 96447 192 96446 Cert.ReferenceIdeal.Facts₀.gather_S96447x192_S96446x1_S96446x192_1_0_n_n_0_1_1192_wf := rfl
    rw [hd, hg, StackMember.dotGeneral_plain_apply]
    refine Finset.sum_congr rfl fun c _ => ?_
    congr 1
    rw [gather_rows_apply (by decide)]
    -- the index word at (a, 0): the wrapped word of n at a, which is n at a
    have hw : ∀ z : Fin 1, (broadcastInDim Cert.ReferenceIdeal.S96446x1 ![0] Cert.ReferenceIdeal.Facts₀.bcast_S96446_S96446x1_0
            (select (cmpi .slt n (broadcastInDim Cert.ReferenceIdeal.S96446 ![] Cert.ReferenceIdeal.Facts₀.bcast_S_S96446 (constantI Cert.ReferenceIdeal.S_ 32 0#32)))
              (addi n (broadcastInDim Cert.ReferenceIdeal.S96446 ![] Cert.ReferenceIdeal.Facts₀.bcast_S_S96446 (constantI Cert.ReferenceIdeal.S_ 32 96447#32)))
              n)) (ix2 a z) = n (ix1 a) := fun z =>
      (bcast_col_apply (by decide) _ _ a z).trans (wrap_nonneg _ _ (hn (ix1 a)).1)
    congr 1
    funext ax
    refine Fin.ext ?_
    match ax with
    | ⟨0, _⟩ =>
      show min (_ : BitVec 32).toInt.toNat (96447 - 1) = (n (ix1 a)).toInt.toNat
      have := hn (ix1 a)
      erw [hw]
      omega
    | ⟨1, _⟩ => rfl
  obtain ⟨a, b, rfl⟩ : ∃ (a : Fin 96446) (b : Fin 96), i = ix2 a b := ⟨i 0, i 1, eq_ix2 i⟩
  exact key a b

end Cert.Bridge.TapRef

end
-- ==== Proof.AccRef.lean ====
import proofs.«412869_j60387240182488_3_alg».proof.Proof.RefOps
import proofs.«412869_j60387240182488_3_alg».proof.Proof.Common
import proofs.«412869_j60387240182488_3_alg».proof.Proof.Names
import proofs.«412869_j60387240182488_3_alg».proof.Proof.TapRef
import Idealize.ShloMosaic.Lib.IdealHost
import Idealize.ShloMosaic.Lib.ValueIdx
import Idealize.ShloMosaic.Lib.Pipeline.Value

/-!
# The reference's accumulated feature, entry by entry

The reference starts from the zero array and adds 27 taps. Tap `k` takes column `k` of the neighbour table, gathers the
rows of the padded table of voxel means that column names, and multiplies the gathered rows by slice `k` of the filter.
Where every neighbour entry lies in `[0, 96446]` the gather neither wraps nor clamps, so entry `(p, q)` of the result is

  `0 + ∑ₖ ∑_c table[nbr[p, k], c] · filter[k, c, q]`,

the outer sum taken from the left in the order of the taps (`acc27`), the inner one over the 192 channels.
-/

noncomputable section

open scoped BigOperators

namespace Cert.Bridge

open Idealize.ShloMosaic

/-- The zero word plus 27 terms, added from the left in order: how both programs accumulate their taps. -/
def acc27 (f : Fin 27 → EReal) : EReal :=
  Ideal.ofBits .f32 0x00000000#32 + f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26

namespace AccRef

open Idealize.ShloMosaic.StableHlo Idealize.ShloMosaic.ValueIdx Idealize.SL.Sem

section Generic

variable {F : FTy → Type} [FloatOps F]

/-- Column `k` of the neighbour table as a vector of 96446 words. -/
def nbrCol (k : Nat) (hs2 : Cert.ReferenceIdeal.S96446x27.Slices ![0, k] Cert.ReferenceIdeal.S96446x1)
    (n : IVec Cert.ReferenceIdeal.S96446x27 32) : IVec Cert.ReferenceIdeal.S96446 32 :=
  shapeCast Cert.ReferenceIdeal.S96446 (extractStridedSlice Cert.ReferenceIdeal.S96446x1 ![0, k] n hs2) Cert.ReferenceIdeal.Gen.shapeCasts_S96446x1_S96446

/-- Slice `k` of the filter as a [192, 96] matrix. -/
def wSlice (k : Nat) (hs3 : Cert.ReferenceIdeal.S27x192x96.Slices ![k, 0, 0] Cert.ReferenceIdeal.S1x192x96)
    (Wc : FVec F Cert.ReferenceIdeal.S27x192x96 .f32) : FVec F Cert.ReferenceIdeal.S192x96 .f32 :=
  shapeCast Cert.ReferenceIdeal.S192x96 (extractStridedSlice Cert.ReferenceIdeal.S1x192x96 ![k, 0, 0] Wc hs3) Cert.ReferenceIdeal.Gen.shapeCasts_S1x192x96_S192x96

/-- Tap `k` of the reference as one function of the padded table, the filter and the neighbour table. -/
def rtap (k : Nat) (hs2 : Cert.ReferenceIdeal.S96446x27.Slices ![0, k] Cert.ReferenceIdeal.S96446x1)
    (hs3 : Cert.ReferenceIdeal.S27x192x96.Slices ![k, 0, 0] Cert.ReferenceIdeal.S1x192x96)
    (vpad : FVec F Cert.ReferenceIdeal.S96447x192 .f32) (Wc : FVec F Cert.ReferenceIdeal.S27x192x96 .f32) (n : IVec Cert.ReferenceIdeal.S96446x27 32) :
    FVec F Cert.ReferenceIdeal.S96446x96 .f32 :=
  Host.dotGeneral Cert.ReferenceIdeal.dot_S96446x192_S192x96_S96446x96_1_0_0_1_n_n none
    (Host.gather Cert.ReferenceIdeal.gather_S96447x192_S96446x1_S96446x192_1_0_n_n_0_1_1192 vpad
      (broadcastInDim Cert.ReferenceIdeal.S96446x1 ![0] Cert.ReferenceIdeal.Gen.bcast_S96446_S96446x1_0
        (select
          (cmpi .slt (nbrCol k hs2 n)
            (broadcastInDim Cert.ReferenceIdeal.S96446 ![] Cert.ReferenceIdeal.Gen.bcast_S_S96446 (constantI Cert.ReferenceIdeal.S_ 32 0#32)))
          (addi (nbrCol k hs2 n)
            (broadcastInDim Cert.ReferenceIdeal.S96446 ![] Cert.ReferenceIdeal.Gen.bcast_S_S96446 (constantI Cert.ReferenceIdeal.S_ 32 96447#32)))
          (nbrCol k hs2 n))))
    (wSlice k hs3 Wc)

/-- The zero array plus the 27 taps, added from the left in order. -/
def chain (vpad : FVec F Cert.ReferenceIdeal.S96447x192 .f32) (Wc : FVec F Cert.ReferenceIdeal.S27x192x96 .f32) (n : IVec Cert.ReferenceIdeal.S96446x27 32) :
    FVec F Cert.ReferenceIdeal.S96446x96 .f32 :=
  (addf (addf (addf (addf (addf (addf (addf (addf (addf (addf (addf (addf (addf (addf (addf (addf (addf (addf (addf (addf (addf (addf (addf (addf (addf (addf (addf (broadcastInDim Cert.ReferenceIdeal.S96446x96 ![] Cert.ReferenceIdeal.Gen.bcast_S_S96446x96 (constant (F := F) Cert.ReferenceIdeal.S_ .f32 0x00000000#32))
      (rtap 0 Cert.ReferenceIdeal.Gen.slices_S96446x27_S96446x1_0_0 Cert.ReferenceIdeal.Gen.slices_S27x192x96_S1x192x96_0_0_0 vpad Wc n))
      (rtap 1 Cert.ReferenceIdeal.Gen.slices_S96446x27_S96446x1_0_1 Cert.ReferenceIdeal.Gen.slices_S27x192x96_S1x192x96_1_0_0 vpad Wc n))
      (rtap 2 Cert.ReferenceIdeal.Gen.slices_S96446x27_S96446x1_0_2 Cert.ReferenceIdeal.Gen.slices_S27x192x96_S1x192x96_2_0_0 vpad Wc n))
      (rtap 3 Cert.ReferenceIdeal.Gen.slices_S96446x27_S96446x1_0_3 Cert.ReferenceIdeal.Gen.slices_S27x192x96_S1x192x96_3_0_0 vpad Wc n))
      (rtap 4 Cert.ReferenceIdeal.Gen.slices_S96446x27_S96446x1_0_4 Cert.ReferenceIdeal.Gen.slices_S27x192x96_S1x192x96_4_0_0 vpad Wc n))
      (rtap 5 Cert.ReferenceIdeal.Gen.slices_S96446x27_S96446x1_0_5 Cert.ReferenceIdeal.Gen.slices_S27x192x96_S1x192x96_5_0_0 vpad Wc n))
      (rtap 6 Cert.ReferenceIdeal.Gen.slices_S96446x27_S96446x1_0_6 Cert.ReferenceIdeal.Gen.slices_S27x192x96_S1x192x96_6_0_0 vpad Wc n))
      (rtap 7 Cert.ReferenceIdeal.Gen.slices_S96446x27_S96446x1_0_7 Cert.ReferenceIdeal.Gen.slices_S27x192x96_S1x192x96_7_0_0 vpad Wc n))
      (rtap 8 Cert.ReferenceIdeal.Gen.slices_S96446x27_S96446x1_0_8 Cert.ReferenceIdeal.Gen.slices_S27x192x96_S1x192x96_8_0_0 vpad Wc n))
      (rtap 9 Cert.ReferenceIdeal.Gen.slices_S96446x27_S96446x1_0_9 Cert.ReferenceIdeal.Gen.slices_S27x192x96_S1x192x96_9_0_0 vpad Wc n))
      (rtap 10 Cert.ReferenceIdeal.Gen.slices_S96446x27_S96446x1_0_10 Cert.ReferenceIdeal.Gen.slices_S27x192x96_S1x192x96_10_0_0 vpad Wc n))
      (rtap 11 Cert.ReferenceIdeal.Gen.slices_S96446x27_S96446x1_0_11 Cert.ReferenceIdeal.Gen.slices_S27x192x96_S1x192x96_11_0_0 vpad Wc n))
      (rtap 12 Cert.ReferenceIdeal.Gen.slices_S96446x27_S96446x1_0_12 Cert.ReferenceIdeal.Gen.slices_S27x192x96_S1x192x96_12_0_0 vpad Wc n))
      (rtap 13 Cert.ReferenceIdeal.Gen.slices_S96446x27_S96446x1_0_13 Cert.ReferenceIdeal.Gen.slices_S27x192x96_S1x192x96_13_0_0 vpad Wc n))
      (rtap 14 Cert.ReferenceIdeal.Gen.slices_S96446x27_S96446x1_0_14 Cert.ReferenceIdeal.Gen.slices_S27x192x96_S1x192x96_14_0_0 vpad Wc n))
      (rtap 15 Cert.ReferenceIdeal.Gen.slices_S96446x27_S96446x1_0_15 Cert.ReferenceIdeal.Gen.slices_S27x192x96_S1x192x96_15_0_0 vpad Wc n))
      (rtap 16 Cert.ReferenceIdeal.Gen.slices_S96446x27_S96446x1_0_16 Cert.ReferenceIdeal.Gen.slices_S27x192x96_S1x192x96_16_0_0 vpad Wc n))
      (rtap 17 Cert.ReferenceIdeal.Gen.slices_S96446x27_S96446x1_0_17 Cert.ReferenceIdeal.Gen.slices_S27x192x96_S1x192x96_17_0_0 vpad Wc n))
      (rtap 18 Cert.ReferenceIdeal.Gen.slices_S96446x27_S96446x1_0_18 Cert.ReferenceIdeal.Gen.slices_S27x192x96_S1x192x96_18_0_0 vpad Wc n))
      (rtap 19 Cert.ReferenceIdeal.Gen.slices_S96446x27_S96446x1_0_19 Cert.ReferenceIdeal.Gen.slices_S27x192x96_S1x192x96_19_0_0 vpad Wc n))
      (rtap 20 Cert.ReferenceIdeal.Gen.slices_S96446x27_S96446x1_0_20 Cert.ReferenceIdeal.Gen.slices_S27x192x96_S1x192x96_20_0_0 vpad Wc n))
      (rtap 21 Cert.ReferenceIdeal.Gen.slices_S96446x27_S96446x1_0_21 Cert.ReferenceIdeal.Gen.slices_S27x192x96_S1x192x96_21_0_0 vpad Wc n))
      (rtap 22 Cert.ReferenceIdeal.Gen.slices_S96446x27_S96446x1_0_22 Cert.ReferenceIdeal.Gen.slices_S27x192x96_S1x192x96_22_0_0 vpad Wc n))
      (rtap 23 Cert.ReferenceIdeal.Gen.slices_S96446x27_S96446x1_0_23 Cert.ReferenceIdeal.Gen.slices_S27x192x96_S1x192x96_23_0_0 vpad Wc n))
      (rtap 24 Cert.ReferenceIdeal.Gen.slices_S96446x27_S96446x1_0_24 Cert.ReferenceIdeal.Gen.slices_S27x192x96_S1x192x96_24_0_0 vpad Wc n))
      (rtap 25 Cert.ReferenceIdeal.Gen.slices_S96446x27_S96446x1_0_25 Cert.ReferenceIdeal.Gen.slices_S27x192x96_S1x192x96_25_0_0 vpad Wc n))
      (rtap 26 Cert.ReferenceIdeal.Gen.slices_S96446x27_S96446x1_0_26 Cert.ReferenceIdeal.Gen.slices_S27x192x96_S1x192x96_26_0_0 vpad Wc n))

end Generic

/-- Column `k` at row `p` is the table's entry `(p, k)`. -/
theorem nbrCol_apply (k : Nat) (hk : k < 27) (hs2 : Cert.ReferenceIdeal.S96446x27.Slices ![0, k] Cert.ReferenceIdeal.S96446x1)
    (n : IVec Cert.ReferenceIdeal.S96446x27 32) (p : Fin 96446) :
    nbrCol k hs2 n (ix1 p) = n (ix2 p (⟨k, hk⟩ : Fin 27)) := by
  unfold nbrCol
  refine (shapeCast_apply _ _ (ix1 p) (ix2 p (0 : Fin 1)) ?_).trans ?_
  · rw [Shape.rowMajor_val_two, Shape.rowMajor_val_one]
    show p.val * 1 + 0 = p.val
    omega
  · exact extractStridedSlice_apply ![0, k] n hs2 (ix2 p (0 : Fin 1)) (ix2 p (⟨k, hk⟩ : Fin 27)) (fun a => match a with
      | ⟨0, _⟩ => by show p.val = 0 + p.val; omega
      | ⟨1, _⟩ => by show k = k + 0; omega)

/-- Slice `k` of the filter at `(c, h)` is the filter's entry `(k, c, h)`. -/
theorem wSlice_apply (k : Nat) (hk : k < 27) (hs3 : Cert.ReferenceIdeal.S27x192x96.Slices ![k, 0, 0] Cert.ReferenceIdeal.S1x192x96)
    (Wc : FVec Ideal Cert.ReferenceIdeal.S27x192x96 .f32) (c : Fin 192) (h : Fin 96) :
    wSlice k hs3 Wc (ix2 c h) = Wc (ix3 (⟨k, hk⟩ : Fin 27) c h) := by
  unfold wSlice
  refine (shapeCast_apply _ _ (ix2 c h) (ix3 (0 : Fin 1) c h) ?_).trans ?_
  · rw [Shape.rowMajor_val_two, Shape.rowMajor_val_three]
    show (0 * 192 + c.val) * 96 + h.val = c.val * 96 + h.val
    omega
  · exact extractStridedSlice_apply ![k, 0, 0] Wc hs3 (ix3 (0 : Fin 1) c h) (ix3 (⟨k, hk⟩ : Fin 27) c h) (fun a => match a with
      | ⟨0, _⟩ => by show k = k + 0; omega
      | ⟨1, _⟩ => by show c.val = 0 + c.val; omega
      | ⟨2, _⟩ => by show h.val = 0 + h.val; omega)

/-- Where the neighbour entries lie in `[0, 96446]`, tap `k` at `(p, q)` is `∑_c table[nbr[p, k], c] · filter[k, c, q]`. -/
theorem rtap_apply (k : Nat) (hk : k < 27) (hs2 : Cert.ReferenceIdeal.S96446x27.Slices ![0, k] Cert.ReferenceIdeal.S96446x1)
    (hs3 : Cert.ReferenceIdeal.S27x192x96.Slices ![k, 0, 0] Cert.ReferenceIdeal.S1x192x96)
    (vpad : FVec Ideal Cert.ReferenceIdeal.S96447x192 .f32) (Wc : FVec Ideal Cert.ReferenceIdeal.S27x192x96 .f32) (n : IVec Cert.ReferenceIdeal.S96446x27 32)
    (hrange : ∀ i, 0 ≤ (n i).toInt ∧ (n i).toInt ≤ 96446) (p : Fin 96446) (q : Fin 96) :
    rtap k hs2 hs3 vpad Wc n (ix2 p q)
      = ∑ c : Fin 192, re (vpad (ix2 (⟨(n (ix2 p (⟨k, hk⟩ : Fin 27))).toInt.toNat,
            by have := (hrange (ix2 p (⟨k, hk⟩ : Fin 27))).2; omega⟩ : Fin 96447) c)) * re (Wc (ix3 (⟨k, hk⟩ : Fin 27) c q)) := by
  have hn' : ∀ j, 0 ≤ (nbrCol k hs2 n j).toInt ∧ (nbrCol k hs2 n j).toInt ≤ 96446 := fun j => by
    obtain ⟨a, rfl⟩ : ∃ a : Fin 96446, j = ix1 a := ⟨j 0, eq_ix1 j⟩
    rw [nbrCol_apply k hk]; exact hrange _
  unfold rtap
  refine (Cert.Bridge.TapRef.tap_apply vpad (nbrCol k hs2 n) hn' (wSlice k hs3 Wc) (ix2 p q)).trans ?_
  refine Finset.sum_congr rfl fun c _ => ?_
  refine congrArg₂ (fun a b : EReal => a * b) ?_ (wSlice_apply k hk hs3 Wc c q)
  refine congrArg (fun r => vpad (ix2 r c)) (Fin.ext ?_)
  show (nbrCol k hs2 n (ix1 p)).toInt.toNat = (n (ix2 p (⟨k, hk⟩ : Fin 27))).toInt.toNat
  rw [nbrCol_apply k hk]

/-- The whole sum at `(p, q)`: the zero word plus the 27 taps' entries, from the left. -/
theorem chain_apply (vpad : FVec Ideal Cert.ReferenceIdeal.S96447x192 .f32) (Wc : FVec Ideal Cert.ReferenceIdeal.S27x192x96 .f32) (n : IVec Cert.ReferenceIdeal.S96446x27 32)
    (hrange : ∀ i, 0 ≤ (n i).toInt ∧ (n i).toInt ≤ 96446) (p : Fin 96446) (q : Fin 96) :
    chain vpad Wc n (ix2 p q)
      = acc27 (fun k : Fin 27 => ∑ c : Fin 192, re (vpad (ix2 (⟨(n (ix2 p k)).toInt.toNat,
            by have := (hrange (ix2 p k)).2; omega⟩ : Fin 96447) c)) * re (Wc (ix3 k c q))) := by
  unfold chain
  simp only [addf_apply]
  rw [rtap_apply 0 (by decide) _ _ vpad Wc n hrange p q,
    rtap_apply 1 (by decide) _ _ vpad Wc n hrange p q,
    rtap_apply 2 (by decide) _ _ vpad Wc n hrange p q,
    rtap_apply 3 (by decide) _ _ vpad Wc n hrange p q,
    rtap_apply 4 (by decide) _ _ vpad Wc n hrange p q,
    rtap_apply 5 (by decide) _ _ vpad Wc n hrange p q,
    rtap_apply 6 (by decide) _ _ vpad Wc n hrange p q,
    rtap_apply 7 (by decide) _ _ vpad Wc n hrange p q,
    rtap_apply 8 (by decide) _ _ vpad Wc n hrange p q,
    rtap_apply 9 (by decide) _ _ vpad Wc n hrange p q,
    rtap_apply 10 (by decide) _ _ vpad Wc n hrange p q,
    rtap_apply 11 (by decide) _ _ vpad Wc n hrange p q,
    rtap_apply 12 (by decide) _ _ vpad Wc n hrange p q,
    rtap_apply 13 (by decide) _ _ vpad Wc n hrange p q,
    rtap_apply 14 (by decide) _ _ vpad Wc n hrange p q,
    rtap_apply 15 (by decide) _ _ vpad Wc n hrange p q,
    rtap_apply 16 (by decide) _ _ vpad Wc n hrange p q,
    rtap_apply 17 (by decide) _ _ vpad Wc n hrange p q,
    rtap_apply 18 (by decide) _ _ vpad Wc n hrange p q,
    rtap_apply 19 (by decide) _ _ vpad Wc n hrange p q,
    rtap_apply 20 (by decide) _ _ vpad Wc n hrange p q,
    rtap_apply 21 (by decide) _ _ vpad Wc n hrange p q,
    rtap_apply 22 (by decide) _ _ vpad Wc n hrange p q,
    rtap_apply 23 (by decide) _ _ vpad Wc n hrange p q,
    rtap_apply 24 (by decide) _ _ vpad Wc n hrange p q,
    rtap_apply 25 (by decide) _ _ vpad Wc n hrange p q,
    rtap_apply 26 (by decide) _ _ vpad Wc n hrange p q]
  rw [broadcastInDim_scalar_apply, constant_apply]
  rfl

section Chunks

open Cert.ReferenceIdeal Cert.ReferenceIdeal.Gen Idealize.ShloMosaic.TcCoe

variable {F : FTy → Type} [FloatOps F]

/-- The stretch's first two operations: the zero array the sum starts from. -/
abbrev pre : List (HloOp τ sig (Elt F)) :=
  ( nullary main_cst_4 (constant S_ .f32 0x00000000#32)
  :: unary main_cst_4 main_v14 (broadcastInDim S96446x96 ![] bcast_S_S96446x96 : (⟨S_, .f32⟩ : BufTy).Contents (Elt F) → (⟨S96446x96, .f32⟩ : BufTy).Contents (Elt F))
  :: [] )

/-- The fifteen operations of tap 0. -/
abbrev tapOps0 : List (HloOp τ sig (Elt F)) :=
  ( unary main_arg9 main_v15 ((extractStridedSlice S96446x1 ![0, 0] · slices_S96446x27_S96446x1_0_0) : (⟨S96446x27, .i32⟩ : BufTy).Contents (Elt F) → (⟨S96446x1, .i32⟩ : BufTy).Contents (Elt F))
  :: reshape main_v15 main_v16 rfl shapeCasts_S96446x1_S96446
  :: nullary main_c (constantI S_ 32 0#32)
  :: unary main_c main_v17 (broadcastInDim S96446 ![] bcast_S_S96446 : (⟨S_, .i32⟩ : BufTy).Contents (Elt F) → (⟨S96446, .i32⟩ : BufTy).Contents (Elt F))
  :: binary main_v16 main_v17 main_v18 (cmpi .slt : (⟨S96446, .i32⟩ : BufTy).Contents (Elt F) → (⟨S96446, .i32⟩ : BufTy).Contents (Elt F) → (⟨S96446, .i1⟩ : BufTy).Contents (Elt F))
  :: nullary main_c_5 (constantI S_ 32 96447#32)
  :: unary main_c_5 main_v19 (broadcastInDim S96446 ![] bcast_S_S96446 : (⟨S_, .i32⟩ : BufTy).Contents (Elt F) → (⟨S96446, .i32⟩ : BufTy).Contents (Elt F))
  :: binary main_v16 main_v19 main_v20 (addi : (⟨S96446, .i32⟩ : BufTy).Contents (Elt F) → (⟨S96446, .i32⟩ : BufTy).Contents (Elt F) → (⟨S96446, .i32⟩ : BufTy).Contents (Elt F))
  :: ternary main_v18 main_v20 main_v16 main_v21 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v21 main_v22 (broadcastInDim S96446x1 ![0] bcast_S96446_S96446x1_0 : (⟨S96446, .i32⟩ : BufTy).Contents (Elt F) → (⟨S96446x1, .i32⟩ : BufTy).Contents (Elt F))
  :: binary main_v13 main_v22 main_v23 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v24 ((extractStridedSlice S1x192x96 ![0, 0, 0] · slices_S27x192x96_S1x192x96_0_0_0) : (⟨S27x192x96, .f32⟩ : BufTy).Contents (Elt F) → (⟨S1x192x96, .f32⟩ : BufTy).Contents (Elt F))
  :: reshape main_v24 main_v25 rfl shapeCasts_S1x192x96_S192x96
  :: binary main_v23 main_v25 main_v26 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v14 main_v26 main_v27 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 1. -/
abbrev tapOps1 : List (HloOp τ sig (Elt F)) :=
  ( unary main_arg9 main_v28 ((extractStridedSlice S96446x1 ![0, 1] · slices_S96446x27_S96446x1_0_1) : (⟨S96446x27, .i32⟩ : BufTy).Contents (Elt F) → (⟨S96446x1, .i32⟩ : BufTy).Contents (Elt F))
  :: reshape main_v28 main_v29 rfl shapeCasts_S96446x1_S96446
  :: nullary main_c_6 (constantI S_ 32 0#32)
  :: unary main_c_6 main_v30 (broadcastInDim S96446 ![] bcast_S_S96446 : (⟨S_, .i32⟩ : BufTy).Contents (Elt F) → (⟨S96446, .i32⟩ : BufTy).Contents (Elt F))
  :: binary main_v29 main_v30 main_v31 (cmpi .slt : (⟨S96446, .i32⟩ : BufTy).Contents (Elt F) → (⟨S96446, .i32⟩ : BufTy).Contents (Elt F) → (⟨S96446, .i1⟩ : BufTy).Contents (Elt F))
  :: nullary main_c_7 (constantI S_ 32 96447#32)
  :: unary main_c_7 main_v32 (broadcastInDim S96446 ![] bcast_S_S96446 : (⟨S_, .i32⟩ : BufTy).Contents (Elt F) → (⟨S96446, .i32⟩ : BufTy).Contents (Elt F))
  :: binary main_v29 main_v32 main_v33 (addi : (⟨S96446, .i32⟩ : BufTy).Contents (Elt F) → (⟨S96446, .i32⟩ : BufTy).Contents (Elt F) → (⟨S96446, .i32⟩ : BufTy).Contents (Elt F))
  :: ternary main_v31 main_v33 main_v29 main_v34 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v34 main_v35 (broadcastInDim S96446x1 ![0] bcast_S96446_S96446x1_0 : (⟨S96446, .i32⟩ : BufTy).Contents (Elt F) → (⟨S96446x1, .i32⟩ : BufTy).Contents (Elt F))
  :: binary main_v13 main_v35 main_v36 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v37 ((extractStridedSlice S1x192x96 ![1, 0, 0] · slices_S27x192x96_S1x192x96_1_0_0) : (⟨S27x192x96, .f32⟩ : BufTy).Contents (Elt F) → (⟨S1x192x96, .f32⟩ : BufTy).Contents (Elt F))
  :: reshape main_v37 main_v38 rfl shapeCasts_S1x192x96_S192x96
  :: binary main_v36 main_v38 main_v39 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v27 main_v39 main_v40 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 2. -/
abbrev tapOps2 : List (HloOp τ sig (Elt F)) :=
  ( unary main_arg9 main_v41 ((extractStridedSlice S96446x1 ![0, 2] · slices_S96446x27_S96446x1_0_2) : (⟨S96446x27, .i32⟩ : BufTy).Contents (Elt F) → (⟨S96446x1, .i32⟩ : BufTy).Contents (Elt F))
  :: reshape main_v41 main_v42 rfl shapeCasts_S96446x1_S96446
  :: nullary main_c_8 (constantI S_ 32 0#32)
  :: unary main_c_8 main_v43 (broadcastInDim S96446 ![] bcast_S_S96446 : (⟨S_, .i32⟩ : BufTy).Contents (Elt F) → (⟨S96446, .i32⟩ : BufTy).Contents (Elt F))
  :: binary main_v42 main_v43 main_v44 (cmpi .slt : (⟨S96446, .i32⟩ : BufTy).Contents (Elt F) → (⟨S96446, .i32⟩ : BufTy).Contents (Elt F) → (⟨S96446, .i1⟩ : BufTy).Contents (Elt F))
  :: nullary main_c_9 (constantI S_ 32 96447#32)
  :: unary main_c_9 main_v45 (broadcastInDim S96446 ![] bcast_S_S96446 : (⟨S_, .i32⟩ : BufTy).Contents (Elt F) → (⟨S96446, .i32⟩ : BufTy).Contents (Elt F))
  :: binary main_v42 main_v45 main_v46 (addi : (⟨S96446, .i32⟩ : BufTy).Contents (Elt F) → (⟨S96446, .i32⟩ : BufTy).Contents (Elt F) → (⟨S96446, .i32⟩ : BufTy).Contents (Elt F))
  :: ternary main_v44 main_v46 main_v42 main_v47 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v47 main_v48 (broadcastInDim S96446x1 ![0] bcast_S96446_S96446x1_0 : (⟨S96446, .i32⟩ : BufTy).Contents (Elt F) → (⟨S96446x1, .i32⟩ : BufTy).Contents (Elt F))
  :: binary main_v13 main_v48 main_v49 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v50 ((extractStridedSlice S1x192x96 ![2, 0, 0] · slices_S27x192x96_S1x192x96_2_0_0) : (⟨S27x192x96, .f32⟩ : BufTy).Contents (Elt F) → (⟨S1x192x96, .f32⟩ : BufTy).Contents (Elt F))
  :: reshape main_v50 main_v51 rfl shapeCasts_S1x192x96_S192x96
  :: binary main_v49 main_v51 main_v52 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v40 main_v52 main_v53 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 3. -/
abbrev tapOps3 : List (HloOp τ sig (Elt F)) :=
  ( unary main_arg9 main_v54 ((extractStridedSlice S96446x1 ![0, 3] · slices_S96446x27_S96446x1_0_3) : (⟨S96446x27, .i32⟩ : BufTy).Contents (Elt F) → (⟨S96446x1, .i32⟩ : BufTy).Contents (Elt F))
  :: reshape main_v54 main_v55 rfl shapeCasts_S96446x1_S96446
  :: nullary main_c_10 (constantI S_ 32 0#32)
  :: unary main_c_10 main_v56 (broadcastInDim S96446 ![] bcast_S_S96446 : (⟨S_, .i32⟩ : BufTy).Contents (Elt F) → (⟨S96446, .i32⟩ : BufTy).Contents (Elt F))
  :: binary main_v55 main_v56 main_v57 (cmpi .slt : (⟨S96446, .i32⟩ : BufTy).Contents (Elt F) → (⟨S96446, .i32⟩ : BufTy).Contents (Elt F) → (⟨S96446, .i1⟩ : BufTy).Contents (Elt F))
  :: nullary main_c_11 (constantI S_ 32 96447#32)
  :: unary main_c_11 main_v58 (broadcastInDim S96446 ![] bcast_S_S96446 : (⟨S_, .i32⟩ : BufTy).Contents (Elt F) → (⟨S96446, .i32⟩ : BufTy).Contents (Elt F))
  :: binary main_v55 main_v58 main_v59 (addi : (⟨S96446, .i32⟩ : BufTy).Contents (Elt F) → (⟨S96446, .i32⟩ : BufTy).Contents (Elt F) → (⟨S96446, .i32⟩ : BufTy).Contents (Elt F))
  :: ternary main_v57 main_v59 main_v55 main_v60 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v60 main_v61 (broadcastInDim S96446x1 ![0] bcast_S96446_S96446x1_0 : (⟨S96446, .i32⟩ : BufTy).Contents (Elt F) → (⟨S96446x1, .i32⟩ : BufTy).Contents (Elt F))
  :: binary main_v13 main_v61 main_v62 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v63 ((extractStridedSlice S1x192x96 ![3, 0, 0] · slices_S27x192x96_S1x192x96_3_0_0) : (⟨S27x192x96, .f32⟩ : BufTy).Contents (Elt F) → (⟨S1x192x96, .f32⟩ : BufTy).Contents (Elt F))
  :: reshape main_v63 main_v64 rfl shapeCasts_S1x192x96_S192x96
  :: binary main_v62 main_v64 main_v65 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v53 main_v65 main_v66 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 4. -/
abbrev tapOps4 : List (HloOp τ sig (Elt F)) :=
  ( unary main_arg9 main_v67 ((extractStridedSlice S96446x1 ![0, 4] · slices_S96446x27_S96446x1_0_4) : (⟨S96446x27, .i32⟩ : BufTy).Contents (Elt F) → (⟨S96446x1, .i32⟩ : BufTy).Contents (Elt F))
  :: reshape main_v67 main_v68 rfl shapeCasts_S96446x1_S96446
  :: nullary main_c_12 (constantI S_ 32 0#32)
  :: unary main_c_12 main_v69 (broadcastInDim S96446 ![] bcast_S_S96446 : (⟨S_, .i32⟩ : BufTy).Contents (Elt F) → (⟨S96446, .i32⟩ : BufTy).Contents (Elt F))
  :: binary main_v68 main_v69 main_v70 (cmpi .slt : (⟨S96446, .i32⟩ : BufTy).Contents (Elt F) → (⟨S96446, .i32⟩ : BufTy).Contents (Elt F) → (⟨S96446, .i1⟩ : BufTy).Contents (Elt F))
  :: nullary main_c_13 (constantI S_ 32 96447#32)
  :: unary main_c_13 main_v71 (broadcastInDim S96446 ![] bcast_S_S96446 : (⟨S_, .i32⟩ : BufTy).Contents (Elt F) → (⟨S96446, .i32⟩ : BufTy).Contents (Elt F))
  :: binary main_v68 main_v71 main_v72 (addi : (⟨S96446, .i32⟩ : BufTy).Contents (Elt F) → (⟨S96446, .i32⟩ : BufTy).Contents (Elt F) → (⟨S96446, .i32⟩ : BufTy).Contents (Elt F))
  :: ternary main_v70 main_v72 main_v68 main_v73 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v73 main_v74 (broadcastInDim S96446x1 ![0] bcast_S96446_S96446x1_0 : (⟨S96446, .i32⟩ : BufTy).Contents (Elt F) → (⟨S96446x1, .i32⟩ : BufTy).Contents (Elt F))
  :: binary main_v13 main_v74 main_v75 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v76 ((extractStridedSlice S1x192x96 ![4, 0, 0] · slices_S27x192x96_S1x192x96_4_0_0) : (⟨S27x192x96, .f32⟩ : BufTy).Contents (Elt F) → (⟨S1x192x96, .f32⟩ : BufTy).Contents (Elt F))
  :: reshape main_v76 main_v77 rfl shapeCasts_S1x192x96_S192x96
  :: binary main_v75 main_v77 main_v78 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v66 main_v78 main_v79 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 5. -/
abbrev tapOps5 : List (HloOp τ sig (Elt F)) :=
  ( unary main_arg9 main_v80 ((extractStridedSlice S96446x1 ![0, 5] · slices_S96446x27_S96446x1_0_5) : (⟨S96446x27, .i32⟩ : BufTy).Contents (Elt F) → (⟨S96446x1, .i32⟩ : BufTy).Contents (Elt F))
  :: reshape main_v80 main_v81 rfl shapeCasts_S96446x1_S96446
  :: nullary main_c_14 (constantI S_ 32 0#32)
  :: unary main_c_14 main_v82 (broadcastInDim S96446 ![] bcast_S_S96446 : (⟨S_, .i32⟩ : BufTy).Contents (Elt F) → (⟨S96446, .i32⟩ : BufTy).Contents (Elt F))
  :: binary main_v81 main_v82 main_v83 (cmpi .slt : (⟨S96446, .i32⟩ : BufTy).Contents (Elt F) → (⟨S96446, .i32⟩ : BufTy).Contents (Elt F) → (⟨S96446, .i1⟩ : BufTy).Contents (Elt F))
  :: nullary main_c_15 (constantI S_ 32 96447#32)
  :: unary main_c_15 main_v84 (broadcastInDim S96446 ![] bcast_S_S96446 : (⟨S_, .i32⟩ : BufTy).Contents (Elt F) → (⟨S96446, .i32⟩ : BufTy).Contents (Elt F))
  :: binary main_v81 main_v84 main_v85 (addi : (⟨S96446, .i32⟩ : BufTy).Contents (Elt F) → (⟨S96446, .i32⟩ : BufTy).Contents (Elt F) → (⟨S96446, .i32⟩ : BufTy).Contents (Elt F))
  :: ternary main_v83 main_v85 main_v81 main_v86 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v86 main_v87 (broadcastInDim S96446x1 ![0] bcast_S96446_S96446x1_0 : (⟨S96446, .i32⟩ : BufTy).Contents (Elt F) → (⟨S96446x1, .i32⟩ : BufTy).Contents (Elt F))
  :: binary main_v13 main_v87 main_v88 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v89 ((extractStridedSlice S1x192x96 ![5, 0, 0] · slices_S27x192x96_S1x192x96_5_0_0) : (⟨S27x192x96, .f32⟩ : BufTy).Contents (Elt F) → (⟨S1x192x96, .f32⟩ : BufTy).Contents (Elt F))
  :: reshape main_v89 main_v90 rfl shapeCasts_S1x192x96_S192x96
  :: binary main_v88 main_v90 main_v91 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v79 main_v91 main_v92 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 6. -/
abbrev tapOps6 : List (HloOp τ sig (Elt F)) :=
  ( unary main_arg9 main_v93 ((extractStridedSlice S96446x1 ![0, 6] · slices_S96446x27_S96446x1_0_6) : (⟨S96446x27, .i32⟩ : BufTy).Contents (Elt F) → (⟨S96446x1, .i32⟩ : BufTy).Contents (Elt F))
  :: reshape main_v93 main_v94 rfl shapeCasts_S96446x1_S96446
  :: nullary main_c_16 (constantI S_ 32 0#32)
  :: unary main_c_16 main_v95 (broadcastInDim S96446 ![] bcast_S_S96446 : (⟨S_, .i32⟩ : BufTy).Contents (Elt F) → (⟨S96446, .i32⟩ : BufTy).Contents (Elt F))
  :: binary main_v94 main_v95 main_v96 (cmpi .slt : (⟨S96446, .i32⟩ : BufTy).Contents (Elt F) → (⟨S96446, .i32⟩ : BufTy).Contents (Elt F) → (⟨S96446, .i1⟩ : BufTy).Contents (Elt F))
  :: nullary main_c_17 (constantI S_ 32 96447#32)
  :: unary main_c_17 main_v97 (broadcastInDim S96446 ![] bcast_S_S96446 : (⟨S_, .i32⟩ : BufTy).Contents (Elt F) → (⟨S96446, .i32⟩ : BufTy).Contents (Elt F))
  :: binary main_v94 main_v97 main_v98 (addi : (⟨S96446, .i32⟩ : BufTy).Contents (Elt F) → (⟨S96446, .i32⟩ : BufTy).Contents (Elt F) → (⟨S96446, .i32⟩ : BufTy).Contents (Elt F))
  :: ternary main_v96 main_v98 main_v94 main_v99 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v99 main_v100 (broadcastInDim S96446x1 ![0] bcast_S96446_S96446x1_0 : (⟨S96446, .i32⟩ : BufTy).Contents (Elt F) → (⟨S96446x1, .i32⟩ : BufTy).Contents (Elt F))
  :: binary main_v13 main_v100 main_v101 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v102 ((extractStridedSlice S1x192x96 ![6, 0, 0] · slices_S27x192x96_S1x192x96_6_0_0) : (⟨S27x192x96, .f32⟩ : BufTy).Contents (Elt F) → (⟨S1x192x96, .f32⟩ : BufTy).Contents (Elt F))
  :: reshape main_v102 main_v103 rfl shapeCasts_S1x192x96_S192x96
  :: binary main_v101 main_v103 main_v104 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v92 main_v104 main_v105 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 7. -/
abbrev tapOps7 : List (HloOp τ sig (Elt F)) :=
  ( unary main_arg9 main_v106 ((extractStridedSlice S96446x1 ![0, 7] · slices_S96446x27_S96446x1_0_7) : (⟨S96446x27, .i32⟩ : BufTy).Contents (Elt F) → (⟨S96446x1, .i32⟩ : BufTy).Contents (Elt F))
  :: reshape main_v106 main_v107 rfl shapeCasts_S96446x1_S96446
  :: nullary main_c_18 (constantI S_ 32 0#32)
  :: unary main_c_18 main_v108 (broadcastInDim S96446 ![] bcast_S_S96446 : (⟨S_, .i32⟩ : BufTy).Contents (Elt F) → (⟨S96446, .i32⟩ : BufTy).Contents (Elt F))
  :: binary main_v107 main_v108 main_v109 (cmpi .slt : (⟨S96446, .i32⟩ : BufTy).Contents (Elt F) → (⟨S96446, .i32⟩ : BufTy).Contents (Elt F) → (⟨S96446, .i1⟩ : BufTy).Contents (Elt F))
  :: nullary main_c_19 (constantI S_ 32 96447#32)
  :: unary main_c_19 main_v110 (broadcastInDim S96446 ![] bcast_S_S96446 : (⟨S_, .i32⟩ : BufTy).Contents (Elt F) → (⟨S96446, .i32⟩ : BufTy).Contents (Elt F))
  :: binary main_v107 main_v110 main_v111 (addi : (⟨S96446, .i32⟩ : BufTy).Contents (Elt F) → (⟨S96446, .i32⟩ : BufTy).Contents (Elt F) → (⟨S96446, .i32⟩ : BufTy).Contents (Elt F))
  :: ternary main_v109 main_v111 main_v107 main_v112 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v112 main_v113 (broadcastInDim S96446x1 ![0] bcast_S96446_S96446x1_0 : (⟨S96446, .i32⟩ : BufTy).Contents (Elt F) → (⟨S96446x1, .i32⟩ : BufTy).Contents (Elt F))
  :: binary main_v13 main_v113 main_v114 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v115 ((extractStridedSlice S1x192x96 ![7, 0, 0] · slices_S27x192x96_S1x192x96_7_0_0) : (⟨S27x192x96, .f32⟩ : BufTy).Contents (Elt F) → (⟨S1x192x96, .f32⟩ : BufTy).Contents (Elt F))
  :: reshape main_v115 main_v116 rfl shapeCasts_S1x192x96_S192x96
  :: binary main_v114 main_v116 main_v117 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v105 main_v117 main_v118 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 8. -/
abbrev tapOps8 : List (HloOp τ sig (Elt F)) :=
  ( unary main_arg9 main_v119 ((extractStridedSlice S96446x1 ![0, 8] · slices_S96446x27_S96446x1_0_8) : (⟨S96446x27, .i32⟩ : BufTy).Contents (Elt F) → (⟨S96446x1, .i32⟩ : BufTy).Contents (Elt F))
  :: reshape main_v119 main_v120 rfl shapeCasts_S96446x1_S96446
  :: nullary main_c_20 (constantI S_ 32 0#32)
  :: unary main_c_20 main_v121 (broadcastInDim S96446 ![] bcast_S_S96446 : (⟨S_, .i32⟩ : BufTy).Contents (Elt F) → (⟨S96446, .i32⟩ : BufTy).Contents (Elt F))
  :: binary main_v120 main_v121 main_v122 (cmpi .slt : (⟨S96446, .i32⟩ : BufTy).Contents (Elt F) → (⟨S96446, .i32⟩ : BufTy).Contents (Elt F) → (⟨S96446, .i1⟩ : BufTy).Contents (Elt F))
  :: nullary main_c_21 (constantI S_ 32 96447#32)
  :: unary main_c_21 main_v123 (broadcastInDim S96446 ![] bcast_S_S96446 : (⟨S_, .i32⟩ : BufTy).Contents (Elt F) → (⟨S96446, .i32⟩ : BufTy).Contents (Elt F))
  :: binary main_v120 main_v123 main_v124 (addi : (⟨S96446, .i32⟩ : BufTy).Contents (Elt F) → (⟨S96446, .i32⟩ : BufTy).Contents (Elt F) → (⟨S96446, .i32⟩ : BufTy).Contents (Elt F))
  :: ternary main_v122 main_v124 main_v120 main_v125 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v125 main_v126 (broadcastInDim S96446x1 ![0] bcast_S96446_S96446x1_0 : (⟨S96446, .i32⟩ : BufTy).Contents (Elt F) → (⟨S96446x1, .i32⟩ : BufTy).Contents (Elt F))
  :: binary main_v13 main_v126 main_v127 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v128 ((extractStridedSlice S1x192x96 ![8, 0, 0] · slices_S27x192x96_S1x192x96_8_0_0) : (⟨S27x192x96, .f32⟩ : BufTy).Contents (Elt F) → (⟨S1x192x96, .f32⟩ : BufTy).Contents (Elt F))
  :: reshape main_v128 main_v129 rfl shapeCasts_S1x192x96_S192x96
  :: binary main_v127 main_v129 main_v130 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v118 main_v130 main_v131 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 9. -/
abbrev tapOps9 : List (HloOp τ sig (Elt F)) :=
  ( unary main_arg9 main_v132 ((extractStridedSlice S96446x1 ![0, 9] · slices_S96446x27_S96446x1_0_9) : (⟨S96446x27, .i32⟩ : BufTy).Contents (Elt F) → (⟨S96446x1, .i32⟩ : BufTy).Contents (Elt F))
  :: reshape main_v132 main_v133 rfl shapeCasts_S96446x1_S96446
  :: nullary main_c_22 (constantI S_ 32 0#32)
  :: unary main_c_22 main_v134 (broadcastInDim S96446 ![] bcast_S_S96446 : (⟨S_, .i32⟩ : BufTy).Contents (Elt F) → (⟨S96446, .i32⟩ : BufTy).Contents (Elt F))
  :: binary main_v133 main_v134 main_v135 (cmpi .slt : (⟨S96446, .i32⟩ : BufTy).Contents (Elt F) → (⟨S96446, .i32⟩ : BufTy).Contents (Elt F) → (⟨S96446, .i1⟩ : BufTy).Contents (Elt F))
  :: nullary main_c_23 (constantI S_ 32 96447#32)
  :: unary main_c_23 main_v136 (broadcastInDim S96446 ![] bcast_S_S96446 : (⟨S_, .i32⟩ : BufTy).Contents (Elt F) → (⟨S96446, .i32⟩ : BufTy).Contents (Elt F))
  :: binary main_v133 main_v136 main_v137 (addi : (⟨S96446, .i32⟩ : BufTy).Contents (Elt F) → (⟨S96446, .i32⟩ : BufTy).Contents (Elt F) → (⟨S96446, .i32⟩ : BufTy).Contents (Elt F))
  :: ternary main_v135 main_v137 main_v133 main_v138 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v138 main_v139 (broadcastInDim S96446x1 ![0] bcast_S96446_S96446x1_0 : (⟨S96446, .i32⟩ : BufTy).Contents (Elt F) → (⟨S96446x1, .i32⟩ : BufTy).Contents (Elt F))
  :: binary main_v13 main_v139 main_v140 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v141 ((extractStridedSlice S1x192x96 ![9, 0, 0] · slices_S27x192x96_S1x192x96_9_0_0) : (⟨S27x192x96, .f32⟩ : BufTy).Contents (Elt F) → (⟨S1x192x96, .f32⟩ : BufTy).Contents (Elt F))
  :: reshape main_v141 main_v142 rfl shapeCasts_S1x192x96_S192x96
  :: binary main_v140 main_v142 main_v143 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v131 main_v143 main_v144 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 10. -/
abbrev tapOps10 : List (HloOp τ sig (Elt F)) :=
  ( unary main_arg9 main_v145 ((extractStridedSlice S96446x1 ![0, 10] · slices_S96446x27_S96446x1_0_10) : (⟨S96446x27, .i32⟩ : BufTy).Contents (Elt F) → (⟨S96446x1, .i32⟩ : BufTy).Contents (Elt F))
  :: reshape main_v145 main_v146 rfl shapeCasts_S96446x1_S96446
  :: nullary main_c_24 (constantI S_ 32 0#32)
  :: unary main_c_24 main_v147 (broadcastInDim S96446 ![] bcast_S_S96446 : (⟨S_, .i32⟩ : BufTy).Contents (Elt F) → (⟨S96446, .i32⟩ : BufTy).Contents (Elt F))
  :: binary main_v146 main_v147 main_v148 (cmpi .slt : (⟨S96446, .i32⟩ : BufTy).Contents (Elt F) → (⟨S96446, .i32⟩ : BufTy).Contents (Elt F) → (⟨S96446, .i1⟩ : BufTy).Contents (Elt F))
  :: nullary main_c_25 (constantI S_ 32 96447#32)
  :: unary main_c_25 main_v149 (broadcastInDim S96446 ![] bcast_S_S96446 : (⟨S_, .i32⟩ : BufTy).Contents (Elt F) → (⟨S96446, .i32⟩ : BufTy).Contents (Elt F))
  :: binary main_v146 main_v149 main_v150 (addi : (⟨S96446, .i32⟩ : BufTy).Contents (Elt F) → (⟨S96446, .i32⟩ : BufTy).Contents (Elt F) → (⟨S96446, .i32⟩ : BufTy).Contents (Elt F))
  :: ternary main_v148 main_v150 main_v146 main_v151 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v151 main_v152 (broadcastInDim S96446x1 ![0] bcast_S96446_S96446x1_0 : (⟨S96446, .i32⟩ : BufTy).Contents (Elt F) → (⟨S96446x1, .i32⟩ : BufTy).Contents (Elt F))
  :: binary main_v13 main_v152 main_v153 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v154 ((extractStridedSlice S1x192x96 ![10, 0, 0] · slices_S27x192x96_S1x192x96_10_0_0) : (⟨S27x192x96, .f32⟩ : BufTy).Contents (Elt F) → (⟨S1x192x96, .f32⟩ : BufTy).Contents (Elt F))
  :: reshape main_v154 main_v155 rfl shapeCasts_S1x192x96_S192x96
  :: binary main_v153 main_v155 main_v156 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v144 main_v156 main_v157 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 11. -/
abbrev tapOps11 : List (HloOp τ sig (Elt F)) :=
  ( unary main_arg9 main_v158 ((extractStridedSlice S96446x1 ![0, 11] · slices_S96446x27_S96446x1_0_11) : (⟨S96446x27, .i32⟩ : BufTy).Contents (Elt F) → (⟨S96446x1, .i32⟩ : BufTy).Contents (Elt F))
  :: reshape main_v158 main_v159 rfl shapeCasts_S96446x1_S96446
  :: nullary main_c_26 (constantI S_ 32 0#32)
  :: unary main_c_26 main_v160 (broadcastInDim S96446 ![] bcast_S_S96446 : (⟨S_, .i32⟩ : BufTy).Contents (Elt F) → (⟨S96446, .i32⟩ : BufTy).Contents (Elt F))
  :: binary main_v159 main_v160 main_v161 (cmpi .slt : (⟨S96446, .i32⟩ : BufTy).Contents (Elt F) → (⟨S96446, .i32⟩ : BufTy).Contents (Elt F) → (⟨S96446, .i1⟩ : BufTy).Contents (Elt F))
  :: nullary main_c_27 (constantI S_ 32 96447#32)
  :: unary main_c_27 main_v162 (broadcastInDim S96446 ![] bcast_S_S96446 : (⟨S_, .i32⟩ : BufTy).Contents (Elt F) → (⟨S96446, .i32⟩ : BufTy).Contents (Elt F))
  :: binary main_v159 main_v162 main_v163 (addi : (⟨S96446, .i32⟩ : BufTy).Contents (Elt F) → (⟨S96446, .i32⟩ : BufTy).Contents (Elt F) → (⟨S96446, .i32⟩ : BufTy).Contents (Elt F))
  :: ternary main_v161 main_v163 main_v159 main_v164 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v164 main_v165 (broadcastInDim S96446x1 ![0] bcast_S96446_S96446x1_0 : (⟨S96446, .i32⟩ : BufTy).Contents (Elt F) → (⟨S96446x1, .i32⟩ : BufTy).Contents (Elt F))
  :: binary main_v13 main_v165 main_v166 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v167 ((extractStridedSlice S1x192x96 ![11, 0, 0] · slices_S27x192x96_S1x192x96_11_0_0) : (⟨S27x192x96, .f32⟩ : BufTy).Contents (Elt F) → (⟨S1x192x96, .f32⟩ : BufTy).Contents (Elt F))
  :: reshape main_v167 main_v168 rfl shapeCasts_S1x192x96_S192x96
  :: binary main_v166 main_v168 main_v169 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v157 main_v169 main_v170 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 12. -/
abbrev tapOps12 : List (HloOp τ sig (Elt F)) :=
  ( unary main_arg9 main_v171 ((extractStridedSlice S96446x1 ![0, 12] · slices_S96446x27_S96446x1_0_12) : (⟨S96446x27, .i32⟩ : BufTy).Contents (Elt F) → (⟨S96446x1, .i32⟩ : BufTy).Contents (Elt F))
  :: reshape main_v171 main_v172 rfl shapeCasts_S96446x1_S96446
  :: nullary main_c_28 (constantI S_ 32 0#32)
  :: unary main_c_28 main_v173 (broadcastInDim S96446 ![] bcast_S_S96446 : (⟨S_, .i32⟩ : BufTy).Contents (Elt F) → (⟨S96446, .i32⟩ : BufTy).Contents (Elt F))
  :: binary main_v172 main_v173 main_v174 (cmpi .slt : (⟨S96446, .i32⟩ : BufTy).Contents (Elt F) → (⟨S96446, .i32⟩ : BufTy).Contents (Elt F) → (⟨S96446, .i1⟩ : BufTy).Contents (Elt F))
  :: nullary main_c_29 (constantI S_ 32 96447#32)
  :: unary main_c_29 main_v175 (broadcastInDim S96446 ![] bcast_S_S96446 : (⟨S_, .i32⟩ : BufTy).Contents (Elt F) → (⟨S96446, .i32⟩ : BufTy).Contents (Elt F))
  :: binary main_v172 main_v175 main_v176 (addi : (⟨S96446, .i32⟩ : BufTy).Contents (Elt F) → (⟨S96446, .i32⟩ : BufTy).Contents (Elt F) → (⟨S96446, .i32⟩ : BufTy).Contents (Elt F))
  :: ternary main_v174 main_v176 main_v172 main_v177 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v177 main_v178 (broadcastInDim S96446x1 ![0] bcast_S96446_S96446x1_0 : (⟨S96446, .i32⟩ : BufTy).Contents (Elt F) → (⟨S96446x1, .i32⟩ : BufTy).Contents (Elt F))
  :: binary main_v13 main_v178 main_v179 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v180 ((extractStridedSlice S1x192x96 ![12, 0, 0] · slices_S27x192x96_S1x192x96_12_0_0) : (⟨S27x192x96, .f32⟩ : BufTy).Contents (Elt F) → (⟨S1x192x96, .f32⟩ : BufTy).Contents (Elt F))
  :: reshape main_v180 main_v181 rfl shapeCasts_S1x192x96_S192x96
  :: binary main_v179 main_v181 main_v182 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v170 main_v182 main_v183 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 13. -/
abbrev tapOps13 : List (HloOp τ sig (Elt F)) :=
  ( unary main_arg9 main_v184 ((extractStridedSlice S96446x1 ![0, 13] · slices_S96446x27_S96446x1_0_13) : (⟨S96446x27, .i32⟩ : BufTy).Contents (Elt F) → (⟨S96446x1, .i32⟩ : BufTy).Contents (Elt F))
  :: reshape main_v184 main_v185 rfl shapeCasts_S96446x1_S96446
  :: nullary main_c_30 (constantI S_ 32 0#32)
  :: unary main_c_30 main_v186 (broadcastInDim S96446 ![] bcast_S_S96446 : (⟨S_, .i32⟩ : BufTy).Contents (Elt F) → (⟨S96446, .i32⟩ : BufTy).Contents (Elt F))
  :: binary main_v185 main_v186 main_v187 (cmpi .slt : (⟨S96446, .i32⟩ : BufTy).Contents (Elt F) → (⟨S96446, .i32⟩ : BufTy).Contents (Elt F) → (⟨S96446, .i1⟩ : BufTy).Contents (Elt F))
  :: nullary main_c_31 (constantI S_ 32 96447#32)
  :: unary main_c_31 main_v188 (broadcastInDim S96446 ![] bcast_S_S96446 : (⟨S_, .i32⟩ : BufTy).Contents (Elt F) → (⟨S96446, .i32⟩ : BufTy).Contents (Elt F))
  :: binary main_v185 main_v188 main_v189 (addi : (⟨S96446, .i32⟩ : BufTy).Contents (Elt F) → (⟨S96446, .i32⟩ : BufTy).Contents (Elt F) → (⟨S96446, .i32⟩ : BufTy).Contents (Elt F))
  :: ternary main_v187 main_v189 main_v185 main_v190 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v190 main_v191 (broadcastInDim S96446x1 ![0] bcast_S96446_S96446x1_0 : (⟨S96446, .i32⟩ : BufTy).Contents (Elt F) → (⟨S96446x1, .i32⟩ : BufTy).Contents (Elt F))
  :: binary main_v13 main_v191 main_v192 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v193 ((extractStridedSlice S1x192x96 ![13, 0, 0] · slices_S27x192x96_S1x192x96_13_0_0) : (⟨S27x192x96, .f32⟩ : BufTy).Contents (Elt F) → (⟨S1x192x96, .f32⟩ : BufTy).Contents (Elt F))
  :: reshape main_v193 main_v194 rfl shapeCasts_S1x192x96_S192x96
  :: binary main_v192 main_v194 main_v195 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v183 main_v195 main_v196 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 14. -/
abbrev tapOps14 : List (HloOp τ sig (Elt F)) :=
  ( unary main_arg9 main_v197 ((extractStridedSlice S96446x1 ![0, 14] · slices_S96446x27_S96446x1_0_14) : (⟨S96446x27, .i32⟩ : BufTy).Contents (Elt F) → (⟨S96446x1, .i32⟩ : BufTy).Contents (Elt F))
  :: reshape main_v197 main_v198 rfl shapeCasts_S96446x1_S96446
  :: nullary main_c_32 (constantI S_ 32 0#32)
  :: unary main_c_32 main_v199 (broadcastInDim S96446 ![] bcast_S_S96446 : (⟨S_, .i32⟩ : BufTy).Contents (Elt F) → (⟨S96446, .i32⟩ : BufTy).Contents (Elt F))
  :: binary main_v198 main_v199 main_v200 (cmpi .slt : (⟨S96446, .i32⟩ : BufTy).Contents (Elt F) → (⟨S96446, .i32⟩ : BufTy).Contents (Elt F) → (⟨S96446, .i1⟩ : BufTy).Contents (Elt F))
  :: nullary main_c_33 (constantI S_ 32 96447#32)
  :: unary main_c_33 main_v201 (broadcastInDim S96446 ![] bcast_S_S96446 : (⟨S_, .i32⟩ : BufTy).Contents (Elt F) → (⟨S96446, .i32⟩ : BufTy).Contents (Elt F))
  :: binary main_v198 main_v201 main_v202 (addi : (⟨S96446, .i32⟩ : BufTy).Contents (Elt F) → (⟨S96446, .i32⟩ : BufTy).Contents (Elt F) → (⟨S96446, .i32⟩ : BufTy).Contents (Elt F))
  :: ternary main_v200 main_v202 main_v198 main_v203 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v203 main_v204 (broadcastInDim S96446x1 ![0] bcast_S96446_S96446x1_0 : (⟨S96446, .i32⟩ : BufTy).Contents (Elt F) → (⟨S96446x1, .i32⟩ : BufTy).Contents (Elt F))
  :: binary main_v13 main_v204 main_v205 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v206 ((extractStridedSlice S1x192x96 ![14, 0, 0] · slices_S27x192x96_S1x192x96_14_0_0) : (⟨S27x192x96, .f32⟩ : BufTy).Contents (Elt F) → (⟨S1x192x96, .f32⟩ : BufTy).Contents (Elt F))
  :: reshape main_v206 main_v207 rfl shapeCasts_S1x192x96_S192x96
  :: binary main_v205 main_v207 main_v208 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v196 main_v208 main_v209 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 15. -/
abbrev tapOps15 : List (HloOp τ sig (Elt F)) :=
  ( unary main_arg9 main_v210 ((extractStridedSlice S96446x1 ![0, 15] · slices_S96446x27_S96446x1_0_15) : (⟨S96446x27, .i32⟩ : BufTy).Contents (Elt F) → (⟨S96446x1, .i32⟩ : BufTy).Contents (Elt F))
  :: reshape main_v210 main_v211 rfl shapeCasts_S96446x1_S96446
  :: nullary main_c_34 (constantI S_ 32 0#32)
  :: unary main_c_34 main_v212 (broadcastInDim S96446 ![] bcast_S_S96446 : (⟨S_, .i32⟩ : BufTy).Contents (Elt F) → (⟨S96446, .i32⟩ : BufTy).Contents (Elt F))
  :: binary main_v211 main_v212 main_v213 (cmpi .slt : (⟨S96446, .i32⟩ : BufTy).Contents (Elt F) → (⟨S96446, .i32⟩ : BufTy).Contents (Elt F) → (⟨S96446, .i1⟩ : BufTy).Contents (Elt F))
  :: nullary main_c_35 (constantI S_ 32 96447#32)
  :: unary main_c_35 main_v214 (broadcastInDim S96446 ![] bcast_S_S96446 : (⟨S_, .i32⟩ : BufTy).Contents (Elt F) → (⟨S96446, .i32⟩ : BufTy).Contents (Elt F))
  :: binary main_v211 main_v214 main_v215 (addi : (⟨S96446, .i32⟩ : BufTy).Contents (Elt F) → (⟨S96446, .i32⟩ : BufTy).Contents (Elt F) → (⟨S96446, .i32⟩ : BufTy).Contents (Elt F))
  :: ternary main_v213 main_v215 main_v211 main_v216 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v216 main_v217 (broadcastInDim S96446x1 ![0] bcast_S96446_S96446x1_0 : (⟨S96446, .i32⟩ : BufTy).Contents (Elt F) → (⟨S96446x1, .i32⟩ : BufTy).Contents (Elt F))
  :: binary main_v13 main_v217 main_v218 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v219 ((extractStridedSlice S1x192x96 ![15, 0, 0] · slices_S27x192x96_S1x192x96_15_0_0) : (⟨S27x192x96, .f32⟩ : BufTy).Contents (Elt F) → (⟨S1x192x96, .f32⟩ : BufTy).Contents (Elt F))
  :: reshape main_v219 main_v220 rfl shapeCasts_S1x192x96_S192x96
  :: binary main_v218 main_v220 main_v221 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v209 main_v221 main_v222 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 16. -/
abbrev tapOps16 : List (HloOp τ sig (Elt F)) :=
  ( unary main_arg9 main_v223 ((extractStridedSlice S96446x1 ![0, 16] · slices_S96446x27_S96446x1_0_16) : (⟨S96446x27, .i32⟩ : BufTy).Contents (Elt F) → (⟨S96446x1, .i32⟩ : BufTy).Contents (Elt F))
  :: reshape main_v223 main_v224 rfl shapeCasts_S96446x1_S96446
  :: nullary main_c_36 (constantI S_ 32 0#32)
  :: unary main_c_36 main_v225 (broadcastInDim S96446 ![] bcast_S_S96446 : (⟨S_, .i32⟩ : BufTy).Contents (Elt F) → (⟨S96446, .i32⟩ : BufTy).Contents (Elt F))
  :: binary main_v224 main_v225 main_v226 (cmpi .slt : (⟨S96446, .i32⟩ : BufTy).Contents (Elt F) → (⟨S96446, .i32⟩ : BufTy).Contents (Elt F) → (⟨S96446, .i1⟩ : BufTy).Contents (Elt F))
  :: nullary main_c_37 (constantI S_ 32 96447#32)
  :: unary main_c_37 main_v227 (broadcastInDim S96446 ![] bcast_S_S96446 : (⟨S_, .i32⟩ : BufTy).Contents (Elt F) → (⟨S96446, .i32⟩ : BufTy).Contents (Elt F))
  :: binary main_v224 main_v227 main_v228 (addi : (⟨S96446, .i32⟩ : BufTy).Contents (Elt F) → (⟨S96446, .i32⟩ : BufTy).Contents (Elt F) → (⟨S96446, .i32⟩ : BufTy).Contents (Elt F))
  :: ternary main_v226 main_v228 main_v224 main_v229 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v229 main_v230 (broadcastInDim S96446x1 ![0] bcast_S96446_S96446x1_0 : (⟨S96446, .i32⟩ : BufTy).Contents (Elt F) → (⟨S96446x1, .i32⟩ : BufTy).Contents (Elt F))
  :: binary main_v13 main_v230 main_v231 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v232 ((extractStridedSlice S1x192x96 ![16, 0, 0] · slices_S27x192x96_S1x192x96_16_0_0) : (⟨S27x192x96, .f32⟩ : BufTy).Contents (Elt F) → (⟨S1x192x96, .f32⟩ : BufTy).Contents (Elt F))
  :: reshape main_v232 main_v233 rfl shapeCasts_S1x192x96_S192x96
  :: binary main_v231 main_v233 main_v234 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v222 main_v234 main_v235 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 17. -/
abbrev tapOps17 : List (HloOp τ sig (Elt F)) :=
  ( unary main_arg9 main_v236 ((extractStridedSlice S96446x1 ![0, 17] · slices_S96446x27_S96446x1_0_17) : (⟨S96446x27, .i32⟩ : BufTy).Contents (Elt F) → (⟨S96446x1, .i32⟩ : BufTy).Contents (Elt F))
  :: reshape main_v236 main_v237 rfl shapeCasts_S96446x1_S96446
  :: nullary main_c_38 (constantI S_ 32 0#32)
  :: unary main_c_38 main_v238 (broadcastInDim S96446 ![] bcast_S_S96446 : (⟨S_, .i32⟩ : BufTy).Contents (Elt F) → (⟨S96446, .i32⟩ : BufTy).Contents (Elt F))
  :: binary main_v237 main_v238 main_v239 (cmpi .slt : (⟨S96446, .i32⟩ : BufTy).Contents (Elt F) → (⟨S96446, .i32⟩ : BufTy).Contents (Elt F) → (⟨S96446, .i1⟩ : BufTy).Contents (Elt F))
  :: nullary main_c_39 (constantI S_ 32 96447#32)
  :: unary main_c_39 main_v240 (broadcastInDim S96446 ![] bcast_S_S96446 : (⟨S_, .i32⟩ : BufTy).Contents (Elt F) → (⟨S96446, .i32⟩ : BufTy).Contents (Elt F))
  :: binary main_v237 main_v240 main_v241 (addi : (⟨S96446, .i32⟩ : BufTy).Contents (Elt F) → (⟨S96446, .i32⟩ : BufTy).Contents (Elt F) → (⟨S96446, .i32⟩ : BufTy).Contents (Elt F))
  :: ternary main_v239 main_v241 main_v237 main_v242 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v242 main_v243 (broadcastInDim S96446x1 ![0] bcast_S96446_S96446x1_0 : (⟨S96446, .i32⟩ : BufTy).Contents (Elt F) → (⟨S96446x1, .i32⟩ : BufTy).Contents (Elt F))
  :: binary main_v13 main_v243 main_v244 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v245 ((extractStridedSlice S1x192x96 ![17, 0, 0] · slices_S27x192x96_S1x192x96_17_0_0) : (⟨S27x192x96, .f32⟩ : BufTy).Contents (Elt F) → (⟨S1x192x96, .f32⟩ : BufTy).Contents (Elt F))
  :: reshape main_v245 main_v246 rfl shapeCasts_S1x192x96_S192x96
  :: binary main_v244 main_v246 main_v247 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v235 main_v247 main_v248 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 18. -/
abbrev tapOps18 : List (HloOp τ sig (Elt F)) :=
  ( unary main_arg9 main_v249 ((extractStridedSlice S96446x1 ![0, 18] · slices_S96446x27_S96446x1_0_18) : (⟨S96446x27, .i32⟩ : BufTy).Contents (Elt F) → (⟨S96446x1, .i32⟩ : BufTy).Contents (Elt F))
  :: reshape main_v249 main_v250 rfl shapeCasts_S96446x1_S96446
  :: nullary main_c_40 (constantI S_ 32 0#32)
  :: unary main_c_40 main_v251 (broadcastInDim S96446 ![] bcast_S_S96446 : (⟨S_, .i32⟩ : BufTy).Contents (Elt F) → (⟨S96446, .i32⟩ : BufTy).Contents (Elt F))
  :: binary main_v250 main_v251 main_v252 (cmpi .slt : (⟨S96446, .i32⟩ : BufTy).Contents (Elt F) → (⟨S96446, .i32⟩ : BufTy).Contents (Elt F) → (⟨S96446, .i1⟩ : BufTy).Contents (Elt F))
  :: nullary main_c_41 (constantI S_ 32 96447#32)
  :: unary main_c_41 main_v253 (broadcastInDim S96446 ![] bcast_S_S96446 : (⟨S_, .i32⟩ : BufTy).Contents (Elt F) → (⟨S96446, .i32⟩ : BufTy).Contents (Elt F))
  :: binary main_v250 main_v253 main_v254 (addi : (⟨S96446, .i32⟩ : BufTy).Contents (Elt F) → (⟨S96446, .i32⟩ : BufTy).Contents (Elt F) → (⟨S96446, .i32⟩ : BufTy).Contents (Elt F))
  :: ternary main_v252 main_v254 main_v250 main_v255 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v255 main_v256 (broadcastInDim S96446x1 ![0] bcast_S96446_S96446x1_0 : (⟨S96446, .i32⟩ : BufTy).Contents (Elt F) → (⟨S96446x1, .i32⟩ : BufTy).Contents (Elt F))
  :: binary main_v13 main_v256 main_v257 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v258 ((extractStridedSlice S1x192x96 ![18, 0, 0] · slices_S27x192x96_S1x192x96_18_0_0) : (⟨S27x192x96, .f32⟩ : BufTy).Contents (Elt F) → (⟨S1x192x96, .f32⟩ : BufTy).Contents (Elt F))
  :: reshape main_v258 main_v259 rfl shapeCasts_S1x192x96_S192x96
  :: binary main_v257 main_v259 main_v260 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v248 main_v260 main_v261 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 19. -/
abbrev tapOps19 : List (HloOp τ sig (Elt F)) :=
  ( unary main_arg9 main_v262 ((extractStridedSlice S96446x1 ![0, 19] · slices_S96446x27_S96446x1_0_19) : (⟨S96446x27, .i32⟩ : BufTy).Contents (Elt F) → (⟨S96446x1, .i32⟩ : BufTy).Contents (Elt F))
  :: reshape main_v262 main_v263 rfl shapeCasts_S96446x1_S96446
  :: nullary main_c_42 (constantI S_ 32 0#32)
  :: unary main_c_42 main_v264 (broadcastInDim S96446 ![] bcast_S_S96446 : (⟨S_, .i32⟩ : BufTy).Contents (Elt F) → (⟨S96446, .i32⟩ : BufTy).Contents (Elt F))
  :: binary main_v263 main_v264 main_v265 (cmpi .slt : (⟨S96446, .i32⟩ : BufTy).Contents (Elt F) → (⟨S96446, .i32⟩ : BufTy).Contents (Elt F) → (⟨S96446, .i1⟩ : BufTy).Contents (Elt F))
  :: nullary main_c_43 (constantI S_ 32 96447#32)
  :: unary main_c_43 main_v266 (broadcastInDim S96446 ![] bcast_S_S96446 : (⟨S_, .i32⟩ : BufTy).Contents (Elt F) → (⟨S96446, .i32⟩ : BufTy).Contents (Elt F))
  :: binary main_v263 main_v266 main_v267 (addi : (⟨S96446, .i32⟩ : BufTy).Contents (Elt F) → (⟨S96446, .i32⟩ : BufTy).Contents (Elt F) → (⟨S96446, .i32⟩ : BufTy).Contents (Elt F))
  :: ternary main_v265 main_v267 main_v263 main_v268 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v268 main_v269 (broadcastInDim S96446x1 ![0] bcast_S96446_S96446x1_0 : (⟨S96446, .i32⟩ : BufTy).Contents (Elt F) → (⟨S96446x1, .i32⟩ : BufTy).Contents (Elt F))
  :: binary main_v13 main_v269 main_v270 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v271 ((extractStridedSlice S1x192x96 ![19, 0, 0] · slices_S27x192x96_S1x192x96_19_0_0) : (⟨S27x192x96, .f32⟩ : BufTy).Contents (Elt F) → (⟨S1x192x96, .f32⟩ : BufTy).Contents (Elt F))
  :: reshape main_v271 main_v272 rfl shapeCasts_S1x192x96_S192x96
  :: binary main_v270 main_v272 main_v273 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v261 main_v273 main_v274 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 20. -/
abbrev tapOps20 : List (HloOp τ sig (Elt F)) :=
  ( unary main_arg9 main_v275 ((extractStridedSlice S96446x1 ![0, 20] · slices_S96446x27_S96446x1_0_20) : (⟨S96446x27, .i32⟩ : BufTy).Contents (Elt F) → (⟨S96446x1, .i32⟩ : BufTy).Contents (Elt F))
  :: reshape main_v275 main_v276 rfl shapeCasts_S96446x1_S96446
  :: nullary main_c_44 (constantI S_ 32 0#32)
  :: unary main_c_44 main_v277 (broadcastInDim S96446 ![] bcast_S_S96446 : (⟨S_, .i32⟩ : BufTy).Contents (Elt F) → (⟨S96446, .i32⟩ : BufTy).Contents (Elt F))
  :: binary main_v276 main_v277 main_v278 (cmpi .slt : (⟨S96446, .i32⟩ : BufTy).Contents (Elt F) → (⟨S96446, .i32⟩ : BufTy).Contents (Elt F) → (⟨S96446, .i1⟩ : BufTy).Contents (Elt F))
  :: nullary main_c_45 (constantI S_ 32 96447#32)
  :: unary main_c_45 main_v279 (broadcastInDim S96446 ![] bcast_S_S96446 : (⟨S_, .i32⟩ : BufTy).Contents (Elt F) → (⟨S96446, .i32⟩ : BufTy).Contents (Elt F))
  :: binary main_v276 main_v279 main_v280 (addi : (⟨S96446, .i32⟩ : BufTy).Contents (Elt F) → (⟨S96446, .i32⟩ : BufTy).Contents (Elt F) → (⟨S96446, .i32⟩ : BufTy).Contents (Elt F))
  :: ternary main_v278 main_v280 main_v276 main_v281 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v281 main_v282 (broadcastInDim S96446x1 ![0] bcast_S96446_S96446x1_0 : (⟨S96446, .i32⟩ : BufTy).Contents (Elt F) → (⟨S96446x1, .i32⟩ : BufTy).Contents (Elt F))
  :: binary main_v13 main_v282 main_v283 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v284 ((extractStridedSlice S1x192x96 ![20, 0, 0] · slices_S27x192x96_S1x192x96_20_0_0) : (⟨S27x192x96, .f32⟩ : BufTy).Contents (Elt F) → (⟨S1x192x96, .f32⟩ : BufTy).Contents (Elt F))
  :: reshape main_v284 main_v285 rfl shapeCasts_S1x192x96_S192x96
  :: binary main_v283 main_v285 main_v286 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v274 main_v286 main_v287 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 21. -/
abbrev tapOps21 : List (HloOp τ sig (Elt F)) :=
  ( unary main_arg9 main_v288 ((extractStridedSlice S96446x1 ![0, 21] · slices_S96446x27_S96446x1_0_21) : (⟨S96446x27, .i32⟩ : BufTy).Contents (Elt F) → (⟨S96446x1, .i32⟩ : BufTy).Contents (Elt F))
  :: reshape main_v288 main_v289 rfl shapeCasts_S96446x1_S96446
  :: nullary main_c_46 (constantI S_ 32 0#32)
  :: unary main_c_46 main_v290 (broadcastInDim S96446 ![] bcast_S_S96446 : (⟨S_, .i32⟩ : BufTy).Contents (Elt F) → (⟨S96446, .i32⟩ : BufTy).Contents (Elt F))
  :: binary main_v289 main_v290 main_v291 (cmpi .slt : (⟨S96446, .i32⟩ : BufTy).Contents (Elt F) → (⟨S96446, .i32⟩ : BufTy).Contents (Elt F) → (⟨S96446, .i1⟩ : BufTy).Contents (Elt F))
  :: nullary main_c_47 (constantI S_ 32 96447#32)
  :: unary main_c_47 main_v292 (broadcastInDim S96446 ![] bcast_S_S96446 : (⟨S_, .i32⟩ : BufTy).Contents (Elt F) → (⟨S96446, .i32⟩ : BufTy).Contents (Elt F))
  :: binary main_v289 main_v292 main_v293 (addi : (⟨S96446, .i32⟩ : BufTy).Contents (Elt F) → (⟨S96446, .i32⟩ : BufTy).Contents (Elt F) → (⟨S96446, .i32⟩ : BufTy).Contents (Elt F))
  :: ternary main_v291 main_v293 main_v289 main_v294 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v294 main_v295 (broadcastInDim S96446x1 ![0] bcast_S96446_S96446x1_0 : (⟨S96446, .i32⟩ : BufTy).Contents (Elt F) → (⟨S96446x1, .i32⟩ : BufTy).Contents (Elt F))
  :: binary main_v13 main_v295 main_v296 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v297 ((extractStridedSlice S1x192x96 ![21, 0, 0] · slices_S27x192x96_S1x192x96_21_0_0) : (⟨S27x192x96, .f32⟩ : BufTy).Contents (Elt F) → (⟨S1x192x96, .f32⟩ : BufTy).Contents (Elt F))
  :: reshape main_v297 main_v298 rfl shapeCasts_S1x192x96_S192x96
  :: binary main_v296 main_v298 main_v299 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v287 main_v299 main_v300 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 22. -/
abbrev tapOps22 : List (HloOp τ sig (Elt F)) :=
  ( unary main_arg9 main_v301 ((extractStridedSlice S96446x1 ![0, 22] · slices_S96446x27_S96446x1_0_22) : (⟨S96446x27, .i32⟩ : BufTy).Contents (Elt F) → (⟨S96446x1, .i32⟩ : BufTy).Contents (Elt F))
  :: reshape main_v301 main_v302 rfl shapeCasts_S96446x1_S96446
  :: nullary main_c_48 (constantI S_ 32 0#32)
  :: unary main_c_48 main_v303 (broadcastInDim S96446 ![] bcast_S_S96446 : (⟨S_, .i32⟩ : BufTy).Contents (Elt F) → (⟨S96446, .i32⟩ : BufTy).Contents (Elt F))
  :: binary main_v302 main_v303 main_v304 (cmpi .slt : (⟨S96446, .i32⟩ : BufTy).Contents (Elt F) → (⟨S96446, .i32⟩ : BufTy).Contents (Elt F) → (⟨S96446, .i1⟩ : BufTy).Contents (Elt F))
  :: nullary main_c_49 (constantI S_ 32 96447#32)
  :: unary main_c_49 main_v305 (broadcastInDim S96446 ![] bcast_S_S96446 : (⟨S_, .i32⟩ : BufTy).Contents (Elt F) → (⟨S96446, .i32⟩ : BufTy).Contents (Elt F))
  :: binary main_v302 main_v305 main_v306 (addi : (⟨S96446, .i32⟩ : BufTy).Contents (Elt F) → (⟨S96446, .i32⟩ : BufTy).Contents (Elt F) → (⟨S96446, .i32⟩ : BufTy).Contents (Elt F))
  :: ternary main_v304 main_v306 main_v302 main_v307 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v307 main_v308 (broadcastInDim S96446x1 ![0] bcast_S96446_S96446x1_0 : (⟨S96446, .i32⟩ : BufTy).Contents (Elt F) → (⟨S96446x1, .i32⟩ : BufTy).Contents (Elt F))
  :: binary main_v13 main_v308 main_v309 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v310 ((extractStridedSlice S1x192x96 ![22, 0, 0] · slices_S27x192x96_S1x192x96_22_0_0) : (⟨S27x192x96, .f32⟩ : BufTy).Contents (Elt F) → (⟨S1x192x96, .f32⟩ : BufTy).Contents (Elt F))
  :: reshape main_v310 main_v311 rfl shapeCasts_S1x192x96_S192x96
  :: binary main_v309 main_v311 main_v312 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v300 main_v312 main_v313 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 23. -/
abbrev tapOps23 : List (HloOp τ sig (Elt F)) :=
  ( unary main_arg9 main_v314 ((extractStridedSlice S96446x1 ![0, 23] · slices_S96446x27_S96446x1_0_23) : (⟨S96446x27, .i32⟩ : BufTy).Contents (Elt F) → (⟨S96446x1, .i32⟩ : BufTy).Contents (Elt F))
  :: reshape main_v314 main_v315 rfl shapeCasts_S96446x1_S96446
  :: nullary main_c_50 (constantI S_ 32 0#32)
  :: unary main_c_50 main_v316 (broadcastInDim S96446 ![] bcast_S_S96446 : (⟨S_, .i32⟩ : BufTy).Contents (Elt F) → (⟨S96446, .i32⟩ : BufTy).Contents (Elt F))
  :: binary main_v315 main_v316 main_v317 (cmpi .slt : (⟨S96446, .i32⟩ : BufTy).Contents (Elt F) → (⟨S96446, .i32⟩ : BufTy).Contents (Elt F) → (⟨S96446, .i1⟩ : BufTy).Contents (Elt F))
  :: nullary main_c_51 (constantI S_ 32 96447#32)
  :: unary main_c_51 main_v318 (broadcastInDim S96446 ![] bcast_S_S96446 : (⟨S_, .i32⟩ : BufTy).Contents (Elt F) → (⟨S96446, .i32⟩ : BufTy).Contents (Elt F))
  :: binary main_v315 main_v318 main_v319 (addi : (⟨S96446, .i32⟩ : BufTy).Contents (Elt F) → (⟨S96446, .i32⟩ : BufTy).Contents (Elt F) → (⟨S96446, .i32⟩ : BufTy).Contents (Elt F))
  :: ternary main_v317 main_v319 main_v315 main_v320 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v320 main_v321 (broadcastInDim S96446x1 ![0] bcast_S96446_S96446x1_0 : (⟨S96446, .i32⟩ : BufTy).Contents (Elt F) → (⟨S96446x1, .i32⟩ : BufTy).Contents (Elt F))
  :: binary main_v13 main_v321 main_v322 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v323 ((extractStridedSlice S1x192x96 ![23, 0, 0] · slices_S27x192x96_S1x192x96_23_0_0) : (⟨S27x192x96, .f32⟩ : BufTy).Contents (Elt F) → (⟨S1x192x96, .f32⟩ : BufTy).Contents (Elt F))
  :: reshape main_v323 main_v324 rfl shapeCasts_S1x192x96_S192x96
  :: binary main_v322 main_v324 main_v325 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v313 main_v325 main_v326 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 24. -/
abbrev tapOps24 : List (HloOp τ sig (Elt F)) :=
  ( unary main_arg9 main_v327 ((extractStridedSlice S96446x1 ![0, 24] · slices_S96446x27_S96446x1_0_24) : (⟨S96446x27, .i32⟩ : BufTy).Contents (Elt F) → (⟨S96446x1, .i32⟩ : BufTy).Contents (Elt F))
  :: reshape main_v327 main_v328 rfl shapeCasts_S96446x1_S96446
  :: nullary main_c_52 (constantI S_ 32 0#32)
  :: unary main_c_52 main_v329 (broadcastInDim S96446 ![] bcast_S_S96446 : (⟨S_, .i32⟩ : BufTy).Contents (Elt F) → (⟨S96446, .i32⟩ : BufTy).Contents (Elt F))
  :: binary main_v328 main_v329 main_v330 (cmpi .slt : (⟨S96446, .i32⟩ : BufTy).Contents (Elt F) → (⟨S96446, .i32⟩ : BufTy).Contents (Elt F) → (⟨S96446, .i1⟩ : BufTy).Contents (Elt F))
  :: nullary main_c_53 (constantI S_ 32 96447#32)
  :: unary main_c_53 main_v331 (broadcastInDim S96446 ![] bcast_S_S96446 : (⟨S_, .i32⟩ : BufTy).Contents (Elt F) → (⟨S96446, .i32⟩ : BufTy).Contents (Elt F))
  :: binary main_v328 main_v331 main_v332 (addi : (⟨S96446, .i32⟩ : BufTy).Contents (Elt F) → (⟨S96446, .i32⟩ : BufTy).Contents (Elt F) → (⟨S96446, .i32⟩ : BufTy).Contents (Elt F))
  :: ternary main_v330 main_v332 main_v328 main_v333 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v333 main_v334 (broadcastInDim S96446x1 ![0] bcast_S96446_S96446x1_0 : (⟨S96446, .i32⟩ : BufTy).Contents (Elt F) → (⟨S96446x1, .i32⟩ : BufTy).Contents (Elt F))
  :: binary main_v13 main_v334 main_v335 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v336 ((extractStridedSlice S1x192x96 ![24, 0, 0] · slices_S27x192x96_S1x192x96_24_0_0) : (⟨S27x192x96, .f32⟩ : BufTy).Contents (Elt F) → (⟨S1x192x96, .f32⟩ : BufTy).Contents (Elt F))
  :: reshape main_v336 main_v337 rfl shapeCasts_S1x192x96_S192x96
  :: binary main_v335 main_v337 main_v338 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v326 main_v338 main_v339 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 25. -/
abbrev tapOps25 : List (HloOp τ sig (Elt F)) :=
  ( unary main_arg9 main_v340 ((extractStridedSlice S96446x1 ![0, 25] · slices_S96446x27_S96446x1_0_25) : (⟨S96446x27, .i32⟩ : BufTy).Contents (Elt F) → (⟨S96446x1, .i32⟩ : BufTy).Contents (Elt F))
  :: reshape main_v340 main_v341 rfl shapeCasts_S96446x1_S96446
  :: nullary main_c_54 (constantI S_ 32 0#32)
  :: unary main_c_54 main_v342 (broadcastInDim S96446 ![] bcast_S_S96446 : (⟨S_, .i32⟩ : BufTy).Contents (Elt F) → (⟨S96446, .i32⟩ : BufTy).Contents (Elt F))
  :: binary main_v341 main_v342 main_v343 (cmpi .slt : (⟨S96446, .i32⟩ : BufTy).Contents (Elt F) → (⟨S96446, .i32⟩ : BufTy).Contents (Elt F) → (⟨S96446, .i1⟩ : BufTy).Contents (Elt F))
  :: nullary main_c_55 (constantI S_ 32 96447#32)
  :: unary main_c_55 main_v344 (broadcastInDim S96446 ![] bcast_S_S96446 : (⟨S_, .i32⟩ : BufTy).Contents (Elt F) → (⟨S96446, .i32⟩ : BufTy).Contents (Elt F))
  :: binary main_v341 main_v344 main_v345 (addi : (⟨S96446, .i32⟩ : BufTy).Contents (Elt F) → (⟨S96446, .i32⟩ : BufTy).Contents (Elt F) → (⟨S96446, .i32⟩ : BufTy).Contents (Elt F))
  :: ternary main_v343 main_v345 main_v341 main_v346 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v346 main_v347 (broadcastInDim S96446x1 ![0] bcast_S96446_S96446x1_0 : (⟨S96446, .i32⟩ : BufTy).Contents (Elt F) → (⟨S96446x1, .i32⟩ : BufTy).Contents (Elt F))
  :: binary main_v13 main_v347 main_v348 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v349 ((extractStridedSlice S1x192x96 ![25, 0, 0] · slices_S27x192x96_S1x192x96_25_0_0) : (⟨S27x192x96, .f32⟩ : BufTy).Contents (Elt F) → (⟨S1x192x96, .f32⟩ : BufTy).Contents (Elt F))
  :: reshape main_v349 main_v350 rfl shapeCasts_S1x192x96_S192x96
  :: binary main_v348 main_v350 main_v351 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v339 main_v351 main_v352 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 26. -/
abbrev tapOps26 : List (HloOp τ sig (Elt F)) :=
  ( unary main_arg9 main_v353 ((extractStridedSlice S96446x1 ![0, 26] · slices_S96446x27_S96446x1_0_26) : (⟨S96446x27, .i32⟩ : BufTy).Contents (Elt F) → (⟨S96446x1, .i32⟩ : BufTy).Contents (Elt F))
  :: reshape main_v353 main_v354 rfl shapeCasts_S96446x1_S96446
  :: nullary main_c_56 (constantI S_ 32 0#32)
  :: unary main_c_56 main_v355 (broadcastInDim S96446 ![] bcast_S_S96446 : (⟨S_, .i32⟩ : BufTy).Contents (Elt F) → (⟨S96446, .i32⟩ : BufTy).Contents (Elt F))
  :: binary main_v354 main_v355 main_v356 (cmpi .slt : (⟨S96446, .i32⟩ : BufTy).Contents (Elt F) → (⟨S96446, .i32⟩ : BufTy).Contents (Elt F) → (⟨S96446, .i1⟩ : BufTy).Contents (Elt F))
  :: nullary main_c_57 (constantI S_ 32 96447#32)
  :: unary main_c_57 main_v357 (broadcastInDim S96446 ![] bcast_S_S96446 : (⟨S_, .i32⟩ : BufTy).Contents (Elt F) → (⟨S96446, .i32⟩ : BufTy).Contents (Elt F))
  :: binary main_v354 main_v357 main_v358 (addi : (⟨S96446, .i32⟩ : BufTy).Contents (Elt F) → (⟨S96446, .i32⟩ : BufTy).Contents (Elt F) → (⟨S96446, .i32⟩ : BufTy).Contents (Elt F))
  :: ternary main_v356 main_v358 main_v354 main_v359 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: unary main_v359 main_v360 (broadcastInDim S96446x1 ![0] bcast_S96446_S96446x1_0 : (⟨S96446, .i32⟩ : BufTy).Contents (Elt F) → (⟨S96446x1, .i32⟩ : BufTy).Contents (Elt F))
  :: binary main_v13 main_v360 main_v361 ((fun x i => Host.gather gather_S96447x192_S96446x1_S96446x192_1_0_n_n_0_1_1192 x i) : (⟨S96447x192, .f32⟩ : BufTy).Contents (Elt F) → (⟨S96446x1, .i32⟩ : BufTy).Contents (Elt F) → (⟨S96446x192, .f32⟩ : BufTy).Contents (Elt F))
  :: unary main_arg2 main_v362 ((extractStridedSlice S1x192x96 ![26, 0, 0] · slices_S27x192x96_S1x192x96_26_0_0) : (⟨S27x192x96, .f32⟩ : BufTy).Contents (Elt F) → (⟨S1x192x96, .f32⟩ : BufTy).Contents (Elt F))
  :: reshape main_v362 main_v363 rfl shapeCasts_S1x192x96_S192x96
  :: binary main_v361 main_v363 main_v364 ((fun l r => Host.dotGeneral dot_S96446x192_S192x96_S96446x96_1_0_0_1_n_n none l r) : (⟨S96446x192, .f32⟩ : BufTy).Contents (Elt F) → (⟨S192x96, .f32⟩ : BufTy).Contents (Elt F) → (⟨S96446x96, .f32⟩ : BufTy).Contents (Elt F))
  :: binary main_v352 main_v364 main_v365 (addf : (⟨S96446x96, .f32⟩ : BufTy).Contents (Elt F) → (⟨S96446x96, .f32⟩ : BufTy).Contents (Elt F) → (⟨S96446x96, .f32⟩ : BufTy).Contents (Elt F))
  :: [] )

set_option maxRecDepth 100000 in
/-- The stretch is the two opening operations followed by the 27 taps (literal lists on both sides). -/
theorem opsB_split : (Cert.ReferenceIdeal.Stages.opsB (F := F)) = pre ++ (tapOps0 ++ (tapOps1 ++ (tapOps2 ++ (tapOps3 ++ (tapOps4 ++ (tapOps5 ++ (tapOps6 ++ (tapOps7 ++ (tapOps8 ++ (tapOps9 ++ (tapOps10 ++ (tapOps11 ++ (tapOps12 ++ (tapOps13 ++ (tapOps14 ++ (tapOps15 ++ (tapOps16 ++ (tapOps17 ++ (tapOps18 ++ (tapOps19 ++ (tapOps20 ++ (tapOps21 ++ (tapOps22 ++ (tapOps23 ++ (tapOps24 ++ (tapOps25 ++ (tapOps26))))))))))))))))))))))))))) := rfl

end Chunks

section Steps

variable {F : FTy → Type} [FloatOps F]

/-- Two lines of operations run one after the other are their concatenation run as one. -/
theorem after_app {τ : Topo} {sig : RefSig} {Val : EltTy → Type} :
    ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- The two opening operations leave the zero array in `main_v14` and the three tables alone. -/
theorem pre_step (U : Valuation Cert.ReferenceIdeal.τ Cert.ReferenceIdeal.sig (Elt F)) :
    after pre U (Proc.devRef (τ := Cert.ReferenceIdeal.τ) .tc Cert.ReferenceIdeal.main_v14) = (broadcastInDim Cert.ReferenceIdeal.S96446x96 ![] Cert.ReferenceIdeal.Gen.bcast_S_S96446x96 (constant (F := F) Cert.ReferenceIdeal.S_ .f32 0x00000000#32))
    ∧ after pre U (Proc.devRef (τ := Cert.ReferenceIdeal.τ) .tc Cert.ReferenceIdeal.main_v13) = U (Proc.devRef (τ := Cert.ReferenceIdeal.τ) .tc Cert.ReferenceIdeal.main_v13)
    ∧ after pre U (Proc.devRef (τ := Cert.ReferenceIdeal.τ) .tc Cert.ReferenceIdeal.main_arg2) = U (Proc.devRef (τ := Cert.ReferenceIdeal.τ) .tc Cert.ReferenceIdeal.main_arg2)
    ∧ after pre U (Proc.devRef (τ := Cert.ReferenceIdeal.τ) .tc Cert.ReferenceIdeal.main_arg9) = U (Proc.devRef (τ := Cert.ReferenceIdeal.τ) .tc Cert.ReferenceIdeal.main_arg9) := by
  refine ⟨?_, ?_, ?_, ?_⟩
  · dsimp only [pre]; after_results_simp
  · dsimp only [pre]; after_results_simp
  · dsimp only [pre]; after_results_simp
  · dsimp only [pre]; after_results_simp

/-- Tap 0 adds its term to the running sum and leaves the padded table, the filter and the neighbour table alone. -/
theorem step0 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v14) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps0 X (Proc.devRef (τ := Cert.ReferenceIdeal.τ) .tc Cert.ReferenceIdeal.main_v27) = addf A (rtap 0 Cert.ReferenceIdeal.Gen.slices_S96446x27_S96446x1_0_0 Cert.ReferenceIdeal.Gen.slices_S27x192x96_S1x192x96_0_0_0 Y Wc n)
    ∧ after tapOps0 X (Proc.devRef (τ := Cert.ReferenceIdeal.τ) .tc Cert.ReferenceIdeal.main_v13) = Y ∧ after tapOps0 X (Proc.devRef (τ := Cert.ReferenceIdeal.τ) .tc Cert.ReferenceIdeal.main_arg2) = Wc ∧ after tapOps0 X (Proc.devRef (τ := Cert.ReferenceIdeal.τ) .tc Cert.ReferenceIdeal.main_arg9) = n := by
  subst hA hY hW hn
  refine ⟨?_, ?_, ?_, ?_⟩
  · dsimp only [tapOps0]; after_results_simp; rfl
  · dsimp only [tapOps0]; after_results_simp
  · dsimp only [tapOps0]; after_results_simp
  · dsimp only [tapOps0]; after_results_simp

/-- Tap 1 adds its term to the running sum and leaves the padded table, the filter and the neighbour table alone. -/
theorem step1 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v27) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps1 X (Proc.devRef (τ := Cert.ReferenceIdeal.τ) .tc Cert.ReferenceIdeal.main_v40) = addf A (rtap 1 Cert.ReferenceIdeal.Gen.slices_S96446x27_S96446x1_0_1 Cert.ReferenceIdeal.Gen.slices_S27x192x96_S1x192x96_1_0_0 Y Wc n)
    ∧ after tapOps1 X (Proc.devRef (τ := Cert.ReferenceIdeal.τ) .tc Cert.ReferenceIdeal.main_v13) = Y ∧ after tapOps1 X (Proc.devRef (τ := Cert.ReferenceIdeal.τ) .tc Cert.ReferenceIdeal.main_arg2) = Wc ∧ after tapOps1 X (Proc.devRef (τ := Cert.ReferenceIdeal.τ) .tc Cert.ReferenceIdeal.main_arg9) = n := by
  subst hA hY hW hn
  refine ⟨?_, ?_, ?_, ?_⟩
  · dsimp only [tapOps1]; after_results_simp; rfl
  · dsimp only [tapOps1]; after_results_simp
  · dsimp only [tapOps1]; after_results_simp
  · dsimp only [tapOps1]; after_results_simp

/-- Tap 2 adds its term to the running sum and leaves the padded table, the filter and the neighbour table alone. -/
theorem step2 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v40) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps2 X (Proc.devRef (τ := Cert.ReferenceIdeal.τ) .tc Cert.ReferenceIdeal.main_v53) = addf A (rtap 2 Cert.ReferenceIdeal.Gen.slices_S96446x27_S96446x1_0_2 Cert.ReferenceIdeal.Gen.slices_S27x192x96_S1x192x96_2_0_0 Y Wc n)
    ∧ after tapOps2 X (Proc.devRef (τ := Cert.ReferenceIdeal.τ) .tc Cert.ReferenceIdeal.main_v13) = Y ∧ after tapOps2 X (Proc.devRef (τ := Cert.ReferenceIdeal.τ) .tc Cert.ReferenceIdeal.main_arg2) = Wc ∧ after tapOps2 X (Proc.devRef (τ := Cert.ReferenceIdeal.τ) .tc Cert.ReferenceIdeal.main_arg9) = n := by
  subst hA hY hW hn
  refine ⟨?_, ?_, ?_, ?_⟩
  · dsimp only [tapOps2]; after_results_simp; rfl
  · dsimp only [tapOps2]; after_results_simp
  · dsimp only [tapOps2]; after_results_simp
  · dsimp only [tapOps2]; after_results_simp

/-- Tap 3 adds its term to the running sum and leaves the padded table, the filter and the neighbour table alone. -/
theorem step3 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v53) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps3 X (Proc.devRef (τ := Cert.ReferenceIdeal.τ) .tc Cert.ReferenceIdeal.main_v66) = addf A (rtap 3 Cert.ReferenceIdeal.Gen.slices_S96446x27_S96446x1_0_3 Cert.ReferenceIdeal.Gen.slices_S27x192x96_S1x192x96_3_0_0 Y Wc n)
    ∧ after tapOps3 X (Proc.devRef (τ := Cert.ReferenceIdeal.τ) .tc Cert.ReferenceIdeal.main_v13) = Y ∧ after tapOps3 X (Proc.devRef (τ := Cert.ReferenceIdeal.τ) .tc Cert.ReferenceIdeal.main_arg2) = Wc ∧ after tapOps3 X (Proc.devRef (τ := Cert.ReferenceIdeal.τ) .tc Cert.ReferenceIdeal.main_arg9) = n := by
  subst hA hY hW hn
  refine ⟨?_, ?_, ?_, ?_⟩
  · dsimp only [tapOps3]; after_results_simp; rfl
  · dsimp only [tapOps3]; after_results_simp
  · dsimp only [tapOps3]; after_results_simp
  · dsimp only [tapOps3]; after_results_simp

/-- Tap 4 adds its term to the running sum and leaves the padded table, the filter and the neighbour table alone. -/
theorem step4 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v66) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps4 X (Proc.devRef (τ := Cert.ReferenceIdeal.τ) .tc Cert.ReferenceIdeal.main_v79) = addf A (rtap 4 Cert.ReferenceIdeal.Gen.slices_S96446x27_S96446x1_0_4 Cert.ReferenceIdeal.Gen.slices_S27x192x96_S1x192x96_4_0_0 Y Wc n)
    ∧ after tapOps4 X (Proc.devRef (τ := Cert.ReferenceIdeal.τ) .tc Cert.ReferenceIdeal.main_v13) = Y ∧ after tapOps4 X (Proc.devRef (τ := Cert.ReferenceIdeal.τ) .tc Cert.ReferenceIdeal.main_arg2) = Wc ∧ after tapOps4 X (Proc.devRef (τ := Cert.ReferenceIdeal.τ) .tc Cert.ReferenceIdeal.main_arg9) = n := by
  subst hA hY hW hn
  refine ⟨?_, ?_, ?_, ?_⟩
  · dsimp only [tapOps4]; after_results_simp; rfl
  · dsimp only [tapOps4]; after_results_simp
  · dsimp only [tapOps4]; after_results_simp
  · dsimp only [tapOps4]; after_results_simp

/-- Tap 5 adds its term to the running sum and leaves the padded table, the filter and the neighbour table alone. -/
theorem step5 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v79) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps5 X (Proc.devRef (τ := Cert.ReferenceIdeal.τ) .tc Cert.ReferenceIdeal.main_v92) = addf A (rtap 5 Cert.ReferenceIdeal.Gen.slices_S96446x27_S96446x1_0_5 Cert.ReferenceIdeal.Gen.slices_S27x192x96_S1x192x96_5_0_0 Y Wc n)
    ∧ after tapOps5 X (Proc.devRef (τ := Cert.ReferenceIdeal.τ) .tc Cert.ReferenceIdeal.main_v13) = Y ∧ after tapOps5 X (Proc.devRef (τ := Cert.ReferenceIdeal.τ) .tc Cert.ReferenceIdeal.main_arg2) = Wc ∧ after tapOps5 X (Proc.devRef (τ := Cert.ReferenceIdeal.τ) .tc Cert.ReferenceIdeal.main_arg9) = n := by
  subst hA hY hW hn
  refine ⟨?_, ?_, ?_, ?_⟩
  · dsimp only [tapOps5]; after_results_simp; rfl
  · dsimp only [tapOps5]; after_results_simp
  · dsimp only [tapOps5]; after_results_simp
  · dsimp only [tapOps5]; after_results_simp

/-- Tap 6 adds its term to the running sum and leaves the padded table, the filter and the neighbour table alone. -/
theorem step6 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v92) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps6 X (Proc.devRef (τ := Cert.ReferenceIdeal.τ) .tc Cert.ReferenceIdeal.main_v105) = addf A (rtap 6 Cert.ReferenceIdeal.Gen.slices_S96446x27_S96446x1_0_6 Cert.ReferenceIdeal.Gen.slices_S27x192x96_S1x192x96_6_0_0 Y Wc n)
    ∧ after tapOps6 X (Proc.devRef (τ := Cert.ReferenceIdeal.τ) .tc Cert.ReferenceIdeal.main_v13) = Y ∧ after tapOps6 X (Proc.devRef (τ := Cert.ReferenceIdeal.τ) .tc Cert.ReferenceIdeal.main_arg2) = Wc ∧ after tapOps6 X (Proc.devRef (τ := Cert.ReferenceIdeal.τ) .tc Cert.ReferenceIdeal.main_arg9) = n := by
  subst hA hY hW hn
  refine ⟨?_, ?_, ?_, ?_⟩
  · dsimp only [tapOps6]; after_results_simp; rfl
  · dsimp only [tapOps6]; after_results_simp
  · dsimp only [tapOps6]; after_results_simp
  · dsimp only [tapOps6]; after_results_simp

/-- Tap 7 adds its term to the running sum and leaves the padded table, the filter and the neighbour table alone. -/
theorem step7 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v105) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps7 X (Proc.devRef (τ := Cert.ReferenceIdeal.τ) .tc Cert.ReferenceIdeal.main_v118) = addf A (rtap 7 Cert.ReferenceIdeal.Gen.slices_S96446x27_S96446x1_0_7 Cert.ReferenceIdeal.Gen.slices_S27x192x96_S1x192x96_7_0_0 Y Wc n)
    ∧ after tapOps7 X (Proc.devRef (τ := Cert.ReferenceIdeal.τ) .tc Cert.ReferenceIdeal.main_v13) = Y ∧ after tapOps7 X (Proc.devRef (τ := Cert.ReferenceIdeal.τ) .tc Cert.ReferenceIdeal.main_arg2) = Wc ∧ after tapOps7 X (Proc.devRef (τ := Cert.ReferenceIdeal.τ) .tc Cert.ReferenceIdeal.main_arg9) = n := by
  subst hA hY hW hn
  refine ⟨?_, ?_, ?_, ?_⟩
  · dsimp only [tapOps7]; after_results_simp; rfl
  · dsimp only [tapOps7]; after_results_simp
  · dsimp only [tapOps7]; after_results_simp
  · dsimp only [tapOps7]; after_results_simp

/-- Tap 8 adds its term to the running sum and leaves the padded table, the filter and the neighbour table alone. -/
theorem step8 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v118) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps8 X (Proc.devRef (τ := Cert.ReferenceIdeal.τ) .tc Cert.ReferenceIdeal.main_v131) = addf A (rtap 8 Cert.ReferenceIdeal.Gen.slices_S96446x27_S96446x1_0_8 Cert.ReferenceIdeal.Gen.slices_S27x192x96_S1x192x96_8_0_0 Y Wc n)
    ∧ after tapOps8 X (Proc.devRef (τ := Cert.ReferenceIdeal.τ) .tc Cert.ReferenceIdeal.main_v13) = Y ∧ after tapOps8 X (Proc.devRef (τ := Cert.ReferenceIdeal.τ) .tc Cert.ReferenceIdeal.main_arg2) = Wc ∧ after tapOps8 X (Proc.devRef (τ := Cert.ReferenceIdeal.τ) .tc Cert.ReferenceIdeal.main_arg9) = n := by
  subst hA hY hW hn
  refine ⟨?_, ?_, ?_, ?_⟩
  · dsimp only [tapOps8]; after_results_simp; rfl
  · dsimp only [tapOps8]; after_results_simp
  · dsimp only [tapOps8]; after_results_simp
  · dsimp only [tapOps8]; after_results_simp

/-- Tap 9 adds its term to the running sum and leaves the padded table, the filter and the neighbour table alone. -/
theorem step9 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v131) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps9 X (Proc.devRef (τ := Cert.ReferenceIdeal.τ) .tc Cert.ReferenceIdeal.main_v144) = addf A (rtap 9 Cert.ReferenceIdeal.Gen.slices_S96446x27_S96446x1_0_9 Cert.ReferenceIdeal.Gen.slices_S27x192x96_S1x192x96_9_0_0 Y Wc n)
    ∧ after tapOps9 X (Proc.devRef (τ := Cert.ReferenceIdeal.τ) .tc Cert.ReferenceIdeal.main_v13) = Y ∧ after tapOps9 X (Proc.devRef (τ := Cert.ReferenceIdeal.τ) .tc Cert.ReferenceIdeal.main_arg2) = Wc ∧ after tapOps9 X (Proc.devRef (τ := Cert.ReferenceIdeal.τ) .tc Cert.ReferenceIdeal.main_arg9) = n := by
  subst hA hY hW hn
  refine ⟨?_, ?_, ?_, ?_⟩
  · dsimp only [tapOps9]; after_results_simp; rfl
  · dsimp only [tapOps9]; after_results_simp
  · dsimp only [tapOps9]; after_results_simp
  · dsimp only [tapOps9]; after_results_simp

/-- Tap 10 adds its term to the running sum and leaves the padded table, the filter and the neighbour table alone. -/
theorem step10 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v144) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps10 X (Proc.devRef (τ := Cert.ReferenceIdeal.τ) .tc Cert.ReferenceIdeal.main_v157) = addf A (rtap 10 Cert.ReferenceIdeal.Gen.slices_S96446x27_S96446x1_0_10 Cert.ReferenceIdeal.Gen.slices_S27x192x96_S1x192x96_10_0_0 Y Wc n)
    ∧ after tapOps10 X (Proc.devRef (τ := Cert.ReferenceIdeal.τ) .tc Cert.ReferenceIdeal.main_v13) = Y ∧ after tapOps10 X (Proc.devRef (τ := Cert.ReferenceIdeal.τ) .tc Cert.ReferenceIdeal.main_arg2) = Wc ∧ after tapOps10 X (Proc.devRef (τ := Cert.ReferenceIdeal.τ) .tc Cert.ReferenceIdeal.main_arg9) = n := by
  subst hA hY hW hn
  refine ⟨?_, ?_, ?_, ?_⟩
  · dsimp only [tapOps10]; after_results_simp; rfl
  · dsimp only [tapOps10]; after_results_simp
  · dsimp only [tapOps10]; after_results_simp
  · dsimp only [tapOps10]; after_results_simp

/-- Tap 11 adds its term to the running sum and leaves the padded table, the filter and the neighbour table alone. -/
theorem step11 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v157) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps11 X (Proc.devRef (τ := Cert.ReferenceIdeal.τ) .tc Cert.ReferenceIdeal.main_v170) = addf A (rtap 11 Cert.ReferenceIdeal.Gen.slices_S96446x27_S96446x1_0_11 Cert.ReferenceIdeal.Gen.slices_S27x192x96_S1x192x96_11_0_0 Y Wc n)
    ∧ after tapOps11 X (Proc.devRef (τ := Cert.ReferenceIdeal.τ) .tc Cert.ReferenceIdeal.main_v13) = Y ∧ after tapOps11 X (Proc.devRef (τ := Cert.ReferenceIdeal.τ) .tc Cert.ReferenceIdeal.main_arg2) = Wc ∧ after tapOps11 X (Proc.devRef (τ := Cert.ReferenceIdeal.τ) .tc Cert.ReferenceIdeal.main_arg9) = n := by
  subst hA hY hW hn
  refine ⟨?_, ?_, ?_, ?_⟩
  · dsimp only [tapOps11]; after_results_simp; rfl
  · dsimp only [tapOps11]; after_results_simp
  · dsimp only [tapOps11]; after_results_simp
  · dsimp only [tapOps11]; after_results_simp

/-- Tap 12 adds its term to the running sum and leaves the padded table, the filter and the neighbour table alone. -/
theorem step12 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v170) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps12 X (Proc.devRef (τ := Cert.ReferenceIdeal.τ) .tc Cert.ReferenceIdeal.main_v183) = addf A (rtap 12 Cert.ReferenceIdeal.Gen.slices_S96446x27_S96446x1_0_12 Cert.ReferenceIdeal.Gen.slices_S27x192x96_S1x192x96_12_0_0 Y Wc n)
    ∧ after tapOps12 X (Proc.devRef (τ := Cert.ReferenceIdeal.τ) .tc Cert.ReferenceIdeal.main_v13) = Y ∧ after tapOps12 X (Proc.devRef (τ := Cert.ReferenceIdeal.τ) .tc Cert.ReferenceIdeal.main_arg2) = Wc ∧ after tapOps12 X (Proc.devRef (τ := Cert.ReferenceIdeal.τ) .tc Cert.ReferenceIdeal.main_arg9) = n := by
  subst hA hY hW hn
  refine ⟨?_, ?_, ?_, ?_⟩
  · dsimp only [tapOps12]; after_results_simp; rfl
  · dsimp only [tapOps12]; after_results_simp
  · dsimp only [tapOps12]; after_results_simp
  · dsimp only [tapOps12]; after_results_simp

/-- Tap 13 adds its term to the running sum and leaves the padded table, the filter and the neighbour table alone. -/
theorem step13 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v183) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps13 X (Proc.devRef (τ := Cert.ReferenceIdeal.τ) .tc Cert.ReferenceIdeal.main_v196) = addf A (rtap 13 Cert.ReferenceIdeal.Gen.slices_S96446x27_S96446x1_0_13 Cert.ReferenceIdeal.Gen.slices_S27x192x96_S1x192x96_13_0_0 Y Wc n)
    ∧ after tapOps13 X (Proc.devRef (τ := Cert.ReferenceIdeal.τ) .tc Cert.ReferenceIdeal.main_v13) = Y ∧ after tapOps13 X (Proc.devRef (τ := Cert.ReferenceIdeal.τ) .tc Cert.ReferenceIdeal.main_arg2) = Wc ∧ after tapOps13 X (Proc.devRef (τ := Cert.ReferenceIdeal.τ) .tc Cert.ReferenceIdeal.main_arg9) = n := by
  subst hA hY hW hn
  refine ⟨?_, ?_, ?_, ?_⟩
  · dsimp only [tapOps13]; after_results_simp; rfl
  · dsimp only [tapOps13]; after_results_simp
  · dsimp only [tapOps13]; after_results_simp
  · dsimp only [tapOps13]; after_results_simp

/-- Tap 14 adds its term to the running sum and leaves the padded table, the filter and the neighbour table alone. -/
theorem step14 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v196) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps14 X (Proc.devRef (τ := Cert.ReferenceIdeal.τ) .tc Cert.ReferenceIdeal.main_v209) = addf A (rtap 14 Cert.ReferenceIdeal.Gen.slices_S96446x27_S96446x1_0_14 Cert.ReferenceIdeal.Gen.slices_S27x192x96_S1x192x96_14_0_0 Y Wc n)
    ∧ after tapOps14 X (Proc.devRef (τ := Cert.ReferenceIdeal.τ) .tc Cert.ReferenceIdeal.main_v13) = Y ∧ after tapOps14 X (Proc.devRef (τ := Cert.ReferenceIdeal.τ) .tc Cert.ReferenceIdeal.main_arg2) = Wc ∧ after tapOps14 X (Proc.devRef (τ := Cert.ReferenceIdeal.τ) .tc Cert.ReferenceIdeal.main_arg9) = n := by
  subst hA hY hW hn
  refine ⟨?_, ?_, ?_, ?_⟩
  · dsimp only [tapOps14]; after_results_simp; rfl
  · dsimp only [tapOps14]; after_results_simp
  · dsimp only [tapOps14]; after_results_simp
  · dsimp only [tapOps14]; after_results_simp

/-- Tap 15 adds its term to the running sum and leaves the padded table, the filter and the neighbour table alone. -/
theorem step15 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v209) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps15 X (Proc.devRef (τ := Cert.ReferenceIdeal.τ) .tc Cert.ReferenceIdeal.main_v222) = addf A (rtap 15 Cert.ReferenceIdeal.Gen.slices_S96446x27_S96446x1_0_15 Cert.ReferenceIdeal.Gen.slices_S27x192x96_S1x192x96_15_0_0 Y Wc n)
    ∧ after tapOps15 X (Proc.devRef (τ := Cert.ReferenceIdeal.τ) .tc Cert.ReferenceIdeal.main_v13) = Y ∧ after tapOps15 X (Proc.devRef (τ := Cert.ReferenceIdeal.τ) .tc Cert.ReferenceIdeal.main_arg2) = Wc ∧ after tapOps15 X (Proc.devRef (τ := Cert.ReferenceIdeal.τ) .tc Cert.ReferenceIdeal.main_arg9) = n := by
  subst hA hY hW hn
  refine ⟨?_, ?_, ?_, ?_⟩
  · dsimp only [tapOps15]; after_results_simp; rfl
  · dsimp only [tapOps15]; after_results_simp
  · dsimp only [tapOps15]; after_results_simp
  · dsimp only [tapOps15]; after_results_simp

/-- Tap 16 adds its term to the running sum and leaves the padded table, the filter and the neighbour table alone. -/
theorem step16 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v222) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps16 X (Proc.devRef (τ := Cert.ReferenceIdeal.τ) .tc Cert.ReferenceIdeal.main_v235) = addf A (rtap 16 Cert.ReferenceIdeal.Gen.slices_S96446x27_S96446x1_0_16 Cert.ReferenceIdeal.Gen.slices_S27x192x96_S1x192x96_16_0_0 Y Wc n)
    ∧ after tapOps16 X (Proc.devRef (τ := Cert.ReferenceIdeal.τ) .tc Cert.ReferenceIdeal.main_v13) = Y ∧ after tapOps16 X (Proc.devRef (τ := Cert.ReferenceIdeal.τ) .tc Cert.ReferenceIdeal.main_arg2) = Wc ∧ after tapOps16 X (Proc.devRef (τ := Cert.ReferenceIdeal.τ) .tc Cert.ReferenceIdeal.main_arg9) = n := by
  subst hA hY hW hn
  refine ⟨?_, ?_, ?_, ?_⟩
  · dsimp only [tapOps16]; after_results_simp; rfl
  · dsimp only [tapOps16]; after_results_simp
  · dsimp only [tapOps16]; after_results_simp
  · dsimp only [tapOps16]; after_results_simp

/-- Tap 17 adds its term to the running sum and leaves the padded table, the filter and the neighbour table alone. -/
theorem step17 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v235) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps17 X (Proc.devRef (τ := Cert.ReferenceIdeal.τ) .tc Cert.ReferenceIdeal.main_v248) = addf A (rtap 17 Cert.ReferenceIdeal.Gen.slices_S96446x27_S96446x1_0_17 Cert.ReferenceIdeal.Gen.slices_S27x192x96_S1x192x96_17_0_0 Y Wc n)
    ∧ after tapOps17 X (Proc.devRef (τ := Cert.ReferenceIdeal.τ) .tc Cert.ReferenceIdeal.main_v13) = Y ∧ after tapOps17 X (Proc.devRef (τ := Cert.ReferenceIdeal.τ) .tc Cert.ReferenceIdeal.main_arg2) = Wc ∧ after tapOps17 X (Proc.devRef (τ := Cert.ReferenceIdeal.τ) .tc Cert.ReferenceIdeal.main_arg9) = n := by
  subst hA hY hW hn
  refine ⟨?_, ?_, ?_, ?_⟩
  · dsimp only [tapOps17]; after_results_simp; rfl
  · dsimp only [tapOps17]; after_results_simp
  · dsimp only [tapOps17]; after_results_simp
  · dsimp only [tapOps17]; after_results_simp

/-- Tap 18 adds its term to the running sum and leaves the padded table, the filter and the neighbour table alone. -/
theorem step18 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v248) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps18 X (Proc.devRef (τ := Cert.ReferenceIdeal.τ) .tc Cert.ReferenceIdeal.main_v261) = addf A (rtap 18 Cert.ReferenceIdeal.Gen.slices_S96446x27_S96446x1_0_18 Cert.ReferenceIdeal.Gen.slices_S27x192x96_S1x192x96_18_0_0 Y Wc n)
    ∧ after tapOps18 X (Proc.devRef (τ := Cert.ReferenceIdeal.τ) .tc Cert.ReferenceIdeal.main_v13) = Y ∧ after tapOps18 X (Proc.devRef (τ := Cert.ReferenceIdeal.τ) .tc Cert.ReferenceIdeal.main_arg2) = Wc ∧ after tapOps18 X (Proc.devRef (τ := Cert.ReferenceIdeal.τ) .tc Cert.ReferenceIdeal.main_arg9) = n := by
  subst hA hY hW hn
  refine ⟨?_, ?_, ?_, ?_⟩
  · dsimp only [tapOps18]; after_results_simp; rfl
  · dsimp only [tapOps18]; after_results_simp
  · dsimp only [tapOps18]; after_results_simp
  · dsimp only [tapOps18]; after_results_simp

/-- Tap 19 adds its term to the running sum and leaves the padded table, the filter and the neighbour table alone. -/
theorem step19 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v261) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps19 X (Proc.devRef (τ := Cert.ReferenceIdeal.τ) .tc Cert.ReferenceIdeal.main_v274) = addf A (rtap 19 Cert.ReferenceIdeal.Gen.slices_S96446x27_S96446x1_0_19 Cert.ReferenceIdeal.Gen.slices_S27x192x96_S1x192x96_19_0_0 Y Wc n)
    ∧ after tapOps19 X (Proc.devRef (τ := Cert.ReferenceIdeal.τ) .tc Cert.ReferenceIdeal.main_v13) = Y ∧ after tapOps19 X (Proc.devRef (τ := Cert.ReferenceIdeal.τ) .tc Cert.ReferenceIdeal.main_arg2) = Wc ∧ after tapOps19 X (Proc.devRef (τ := Cert.ReferenceIdeal.τ) .tc Cert.ReferenceIdeal.main_arg9) = n := by
  subst hA hY hW hn
  refine ⟨?_, ?_, ?_, ?_⟩
  · dsimp only [tapOps19]; after_results_simp; rfl
  · dsimp only [tapOps19]; after_results_simp
  · dsimp only [tapOps19]; after_results_simp
  · dsimp only [tapOps19]; after_results_simp

/-- Tap 20 adds its term to the running sum and leaves the padded table, the filter and the neighbour table alone. -/
theorem step20 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v274) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps20 X (Proc.devRef (τ := Cert.ReferenceIdeal.τ) .tc Cert.ReferenceIdeal.main_v287) = addf A (rtap 20 Cert.ReferenceIdeal.Gen.slices_S96446x27_S96446x1_0_20 Cert.ReferenceIdeal.Gen.slices_S27x192x96_S1x192x96_20_0_0 Y Wc n)
    ∧ after tapOps20 X (Proc.devRef (τ := Cert.ReferenceIdeal.τ) .tc Cert.ReferenceIdeal.main_v13) = Y ∧ after tapOps20 X (Proc.devRef (τ := Cert.ReferenceIdeal.τ) .tc Cert.ReferenceIdeal.main_arg2) = Wc ∧ after tapOps20 X (Proc.devRef (τ := Cert.ReferenceIdeal.τ) .tc Cert.ReferenceIdeal.main_arg9) = n := by
  subst hA hY hW hn
  refine ⟨?_, ?_, ?_, ?_⟩
  · dsimp only [tapOps20]; after_results_simp; rfl
  · dsimp only [tapOps20]; after_results_simp
  · dsimp only [tapOps20]; after_results_simp
  · dsimp only [tapOps20]; after_results_simp

/-- Tap 21 adds its term to the running sum and leaves the padded table, the filter and the neighbour table alone. -/
theorem step21 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v287) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps21 X (Proc.devRef (τ := Cert.ReferenceIdeal.τ) .tc Cert.ReferenceIdeal.main_v300) = addf A (rtap 21 Cert.ReferenceIdeal.Gen.slices_S96446x27_S96446x1_0_21 Cert.ReferenceIdeal.Gen.slices_S27x192x96_S1x192x96_21_0_0 Y Wc n)
    ∧ after tapOps21 X (Proc.devRef (τ := Cert.ReferenceIdeal.τ) .tc Cert.ReferenceIdeal.main_v13) = Y ∧ after tapOps21 X (Proc.devRef (τ := Cert.ReferenceIdeal.τ) .tc Cert.ReferenceIdeal.main_arg2) = Wc ∧ after tapOps21 X (Proc.devRef (τ := Cert.ReferenceIdeal.τ) .tc Cert.ReferenceIdeal.main_arg9) = n := by
  subst hA hY hW hn
  refine ⟨?_, ?_, ?_, ?_⟩
  · dsimp only [tapOps21]; after_results_simp; rfl
  · dsimp only [tapOps21]; after_results_simp
  · dsimp only [tapOps21]; after_results_simp
  · dsimp only [tapOps21]; after_results_simp

/-- Tap 22 adds its term to the running sum and leaves the padded table, the filter and the neighbour table alone. -/
theorem step22 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v300) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps22 X (Proc.devRef (τ := Cert.ReferenceIdeal.τ) .tc Cert.ReferenceIdeal.main_v313) = addf A (rtap 22 Cert.ReferenceIdeal.Gen.slices_S96446x27_S96446x1_0_22 Cert.ReferenceIdeal.Gen.slices_S27x192x96_S1x192x96_22_0_0 Y Wc n)
    ∧ after tapOps22 X (Proc.devRef (τ := Cert.ReferenceIdeal.τ) .tc Cert.ReferenceIdeal.main_v13) = Y ∧ after tapOps22 X (Proc.devRef (τ := Cert.ReferenceIdeal.τ) .tc Cert.ReferenceIdeal.main_arg2) = Wc ∧ after tapOps22 X (Proc.devRef (τ := Cert.ReferenceIdeal.τ) .tc Cert.ReferenceIdeal.main_arg9) = n := by
  subst hA hY hW hn
  refine ⟨?_, ?_, ?_, ?_⟩
  · dsimp only [tapOps22]; after_results_simp; rfl
  · dsimp only [tapOps22]; after_results_simp
  · dsimp only [tapOps22]; after_results_simp
  · dsimp only [tapOps22]; after_results_simp

/-- Tap 23 adds its term to the running sum and leaves the padded table, the filter and the neighbour table alone. -/
theorem step23 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v313) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps23 X (Proc.devRef (τ := Cert.ReferenceIdeal.τ) .tc Cert.ReferenceIdeal.main_v326) = addf A (rtap 23 Cert.ReferenceIdeal.Gen.slices_S96446x27_S96446x1_0_23 Cert.ReferenceIdeal.Gen.slices_S27x192x96_S1x192x96_23_0_0 Y Wc n)
    ∧ after tapOps23 X (Proc.devRef (τ := Cert.ReferenceIdeal.τ) .tc Cert.ReferenceIdeal.main_v13) = Y ∧ after tapOps23 X (Proc.devRef (τ := Cert.ReferenceIdeal.τ) .tc Cert.ReferenceIdeal.main_arg2) = Wc ∧ after tapOps23 X (Proc.devRef (τ := Cert.ReferenceIdeal.τ) .tc Cert.ReferenceIdeal.main_arg9) = n := by
  subst hA hY hW hn
  refine ⟨?_, ?_, ?_, ?_⟩
  · dsimp only [tapOps23]; after_results_simp; rfl
  · dsimp only [tapOps23]; after_results_simp
  · dsimp only [tapOps23]; after_results_simp
  · dsimp only [tapOps23]; after_results_simp

/-- Tap 24 adds its term to the running sum and leaves the padded table, the filter and the neighbour table alone. -/
theorem step24 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v326) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps24 X (Proc.devRef (τ := Cert.ReferenceIdeal.τ) .tc Cert.ReferenceIdeal.main_v339) = addf A (rtap 24 Cert.ReferenceIdeal.Gen.slices_S96446x27_S96446x1_0_24 Cert.ReferenceIdeal.Gen.slices_S27x192x96_S1x192x96_24_0_0 Y Wc n)
    ∧ after tapOps24 X (Proc.devRef (τ := Cert.ReferenceIdeal.τ) .tc Cert.ReferenceIdeal.main_v13) = Y ∧ after tapOps24 X (Proc.devRef (τ := Cert.ReferenceIdeal.τ) .tc Cert.ReferenceIdeal.main_arg2) = Wc ∧ after tapOps24 X (Proc.devRef (τ := Cert.ReferenceIdeal.τ) .tc Cert.ReferenceIdeal.main_arg9) = n := by
  subst hA hY hW hn
  refine ⟨?_, ?_, ?_, ?_⟩
  · dsimp only [tapOps24]; after_results_simp; rfl
  · dsimp only [tapOps24]; after_results_simp
  · dsimp only [tapOps24]; after_results_simp
  · dsimp only [tapOps24]; after_results_simp

/-- Tap 25 adds its term to the running sum and leaves the padded table, the filter and the neighbour table alone. -/
theorem step25 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v339) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps25 X (Proc.devRef (τ := Cert.ReferenceIdeal.τ) .tc Cert.ReferenceIdeal.main_v352) = addf A (rtap 25 Cert.ReferenceIdeal.Gen.slices_S96446x27_S96446x1_0_25 Cert.ReferenceIdeal.Gen.slices_S27x192x96_S1x192x96_25_0_0 Y Wc n)
    ∧ after tapOps25 X (Proc.devRef (τ := Cert.ReferenceIdeal.τ) .tc Cert.ReferenceIdeal.main_v13) = Y ∧ after tapOps25 X (Proc.devRef (τ := Cert.ReferenceIdeal.τ) .tc Cert.ReferenceIdeal.main_arg2) = Wc ∧ after tapOps25 X (Proc.devRef (τ := Cert.ReferenceIdeal.τ) .tc Cert.ReferenceIdeal.main_arg9) = n := by
  subst hA hY hW hn
  refine ⟨?_, ?_, ?_, ?_⟩
  · dsimp only [tapOps25]; after_results_simp; rfl
  · dsimp only [tapOps25]; after_results_simp
  · dsimp only [tapOps25]; after_results_simp
  · dsimp only [tapOps25]; after_results_simp

/-- Tap 26 adds its term to the running sum and leaves the padded table, the filter and the neighbour table alone. -/
theorem step26 (X : Valuation Cert.ReferenceIdeal.τ Cert.ReferenceIdeal.sig (Elt F)) (A : FVec F Cert.ReferenceIdeal.S96446x96 .f32) (Y : FVec F Cert.ReferenceIdeal.S96447x192 .f32)
    (Wc : FVec F Cert.ReferenceIdeal.S27x192x96 .f32) (n : IVec Cert.ReferenceIdeal.S96446x27 32)
    (hA : X (Proc.devRef (τ := Cert.ReferenceIdeal.τ) .tc Cert.ReferenceIdeal.main_v352) = A) (hY : X (Proc.devRef (τ := Cert.ReferenceIdeal.τ) .tc Cert.ReferenceIdeal.main_v13) = Y) (hW : X (Proc.devRef (τ := Cert.ReferenceIdeal.τ) .tc Cert.ReferenceIdeal.main_arg2) = Wc) (hn : X (Proc.devRef (τ := Cert.ReferenceIdeal.τ) .tc Cert.ReferenceIdeal.main_arg9) = n) :
    after tapOps26 X (Proc.devRef (τ := Cert.ReferenceIdeal.τ) .tc Cert.ReferenceIdeal.main_v365) = addf A (rtap 26 Cert.ReferenceIdeal.Gen.slices_S96446x27_S96446x1_0_26 Cert.ReferenceIdeal.Gen.slices_S27x192x96_S1x192x96_26_0_0 Y Wc n)
    ∧ after tapOps26 X (Proc.devRef (τ := Cert.ReferenceIdeal.τ) .tc Cert.ReferenceIdeal.main_v13) = Y ∧ after tapOps26 X (Proc.devRef (τ := Cert.ReferenceIdeal.τ) .tc Cert.ReferenceIdeal.main_arg2) = Wc ∧ after tapOps26 X (Proc.devRef (τ := Cert.ReferenceIdeal.τ) .tc Cert.ReferenceIdeal.main_arg9) = n := by
  subst hA hY hW hn
  refine ⟨?_, ?_, ?_, ?_⟩
  · dsimp only [tapOps26]; after_results_simp; rfl
  · dsimp only [tapOps26]; after_results_simp
  · dsimp only [tapOps26]; after_results_simp
  · dsimp only [tapOps26]; after_results_simp

/-- Over any float model: the reference's second stretch leaves in `main_v365` the zero array plus the 27 taps of the
    padded table `main_v13`, the filter `main_arg2` and the neighbour table `main_arg9` it found. -/
theorem acc_eq (U : Valuation Cert.ReferenceIdeal.τ Cert.ReferenceIdeal.sig (Elt F)) :
    after (Cert.ReferenceIdeal.Stages.opsB (F := F)) U (Proc.devRef (τ := Cert.ReferenceIdeal.τ) .tc Cert.ReferenceIdeal.main_v365)
      = chain (U (Proc.devRef (τ := Cert.ReferenceIdeal.τ) .tc Cert.ReferenceIdeal.main_v13)) (U (Proc.devRef (τ := Cert.ReferenceIdeal.τ) .tc Cert.ReferenceIdeal.main_arg2)) (U (Proc.devRef (τ := Cert.ReferenceIdeal.τ) .tc Cert.ReferenceIdeal.main_arg9)) := by
  rw [opsB_split]
  simp only [after_app]
  unfold chain
  have s := pre_step U
  have s0 := step0 _ _ _ _ _ s.1 s.2.1 s.2.2.1 s.2.2.2
  have s1 := step1 _ _ _ _ _ s0.1 s0.2.1 s0.2.2.1 s0.2.2.2
  have s2 := step2 _ _ _ _ _ s1.1 s1.2.1 s1.2.2.1 s1.2.2.2
  have s3 := step3 _ _ _ _ _ s2.1 s2.2.1 s2.2.2.1 s2.2.2.2
  have s4 := step4 _ _ _ _ _ s3.1 s3.2.1 s3.2.2.1 s3.2.2.2
  have s5 := step5 _ _ _ _ _ s4.1 s4.2.1 s4.2.2.1 s4.2.2.2
  have s6 := step6 _ _ _ _ _ s5.1 s5.2.1 s5.2.2.1 s5.2.2.2
  have s7 := step7 _ _ _ _ _ s6.1 s6.2.1 s6.2.2.1 s6.2.2.2
  have s8 := step8 _ _ _ _ _ s7.1 s7.2.1 s7.2.2.1 s7.2.2.2
  have s9 := step9 _ _ _ _ _ s8.1 s8.2.1 s8.2.2.1 s8.2.2.2
  have s10 := step10 _ _ _ _ _ s9.1 s9.2.1 s9.2.2.1 s9.2.2.2
  have s11 := step11 _ _ _ _ _ s10.1 s10.2.1 s10.2.2.1 s10.2.2.2
  have s12 := step12 _ _ _ _ _ s11.1 s11.2.1 s11.2.2.1 s11.2.2.2
  have s13 := step13 _ _ _ _ _ s12.1 s12.2.1 s12.2.2.1 s12.2.2.2
  have s14 := step14 _ _ _ _ _ s13.1 s13.2.1 s13.2.2.1 s13.2.2.2
  have s15 := step15 _ _ _ _ _ s14.1 s14.2.1 s14.2.2.1 s14.2.2.2
  have s16 := step16 _ _ _ _ _ s15.1 s15.2.1 s15.2.2.1 s15.2.2.2
  have s17 := step17 _ _ _ _ _ s16.1 s16.2.1 s16.2.2.1 s16.2.2.2
  have s18 := step18 _ _ _ _ _ s17.1 s17.2.1 s17.2.2.1 s17.2.2.2
  have s19 := step19 _ _ _ _ _ s18.1 s18.2.1 s18.2.2.1 s18.2.2.2
  have s20 := step20 _ _ _ _ _ s19.1 s19.2.1 s19.2.2.1 s19.2.2.2
  have s21 := step21 _ _ _ _ _ s20.1 s20.2.1 s20.2.2.1 s20.2.2.2
  have s22 := step22 _ _ _ _ _ s21.1 s21.2.1 s21.2.2.1 s21.2.2.2
  have s23 := step23 _ _ _ _ _ s22.1 s22.2.1 s22.2.2.1 s22.2.2.2
  have s24 := step24 _ _ _ _ _ s23.1 s23.2.1 s23.2.2.1 s23.2.2.2
  have s25 := step25 _ _ _ _ _ s24.1 s24.2.1 s24.2.2.1 s24.2.2.2
  have s26 := step26 _ _ _ _ _ s25.1 s25.2.1 s25.2.2.1 s25.2.2.2
  exact s26.1

end Steps

/-- THE REFERENCE'S ACCUMULATED FEATURE AT `(p, q)`, where every neighbour entry lies in `[0, 96446]`: the zero word plus,
    tap by tap from the left, `∑_c table[nbr[p, k], c] · filter[k, c, q]`. -/
theorem ref_acc_apply (U : RVal) (n : IVec Cert.ReferenceIdeal.S96446x27 32) (hn : U (rd Cert.ReferenceIdeal.main_arg9) = n)
    (hrange : ∀ i, 0 ≤ (n i).toInt ∧ (n i).toInt ≤ 96446) (p : Fin 96446) (q : Fin 96) :
    after (Cert.ReferenceIdeal.Stages.opsB (F := Ideal)) U (rd Cert.ReferenceIdeal.main_v365) (ix2 p q)
      = acc27 (fun k : Fin 27 => ∑ c : Fin 192,
          re (U (rd Cert.ReferenceIdeal.main_v13) (ix2 (⟨(n (ix2 p k)).toInt.toNat, by have := (hrange (ix2 p k)).2; omega⟩ : Fin 96447) c))
            * re (U (rd Cert.ReferenceIdeal.main_arg2) (ix3 k c q))) := by
  subst hn
  exact (congrFun (acc_eq (F := Ideal) U) (ix2 p q)).trans (chain_apply _ _ _ hrange p q)

end AccRef

end Cert.Bridge

end
-- ==== Proof.StageB.lean ====
import proofs.«412869_j60387240182488_3_alg».proof.Proof.Gen.KernelIdeal.Launch
import proofs.«412869_j60387240182488_3_alg».proof.Proof.RefOps
import proofs.«412869_j60387240182488_3_alg».proof.Proof.Common
import proofs.«412869_j60387240182488_3_alg».proof.Proof.Names
import proofs.«412869_j60387240182488_3_alg».proof.Proof.StageC
import proofs.«412869_j60387240182488_3_alg».proof.Proof.AccRef
import Idealize.ShloMosaic.Lib.IdealHost
import Idealize.ShloMosaic.Lib.ValueIdx
import Idealize.ShloMosaic.Lib.ValueLayout
import Idealize.ShloMosaic.Lib.Pipeline.Value
import Idealize.ShloMosaic.PureOps.Ideal.Laws

/-!
# The accumulated feature: the kernel's 27 taps against the reference's

Both programs add 27 taps to a zero table, in the same order. The kernel has multiplied the padded table of voxel means by
all 27 filter slices at once, into a product table `Y` of 96768 rows and 27 × 96 columns; its tap `k` gathers, for each
voxel `p`, row `nbr[p, k]` of column block `k` of `Y`. The reference's tap `k` gathers row `nbr[p, k]` of the padded
table and multiplies it by filter slice `k`. Where every neighbour entry lies in `[0, 96446]` neither gather wraps or
clamps, and where each entry of `Y` on the first 96447 rows is the product it stands for, entry `(p, q)` of both sums is

  `0 + ∑ₖ ∑_c table[nbr[p, k], c] · filter[k, c, q]`

with the outer sum taken from the left in the order of the taps.
-/

noncomputable section

open scoped BigOperators

namespace Cert.Bridge.StageB

open Idealize.ShloMosaic Idealize.ShloMosaic.TcCoe Idealize.ShloMosaic.StableHlo Idealize.ShloMosaic.ValueIdx
open Idealize.SL.Sem

/-! ## One kernel tap, read at an index

Tap `k` of the kernel takes column block `k` of the product table `Y` (rows × 27 × 96), takes column `k` of the
neighbour table, sends a negative entry `x` to `x + 96768` and leaves the others, and gathers the rows of the block the
entries name. Where the entry is in `[0, 96446]` nothing wraps and nothing is clamped: the result at `(p, q)` is
`Y[nbr[p, k], k, q]`. -/

section Gather
variable {α : Type}

/-- The row gather of a table of 96768 rows by a column of start indices: entry `(i, h)` reads row `idx[i, 0]`, taken as a
    signed number and clamped into the table, at column `h`. -/
theorem gather_row (x : Cert.KernelIdeal.S96768x96.Idx → α) (idx : IVec Cert.KernelIdeal.S96446x1 32) (i : Fin 96446) (h : Fin 96) :
    Host.gather Cert.KernelIdeal.gather_S96768x96_S96446x1_S96446x96_1_0_n_n_0_1_196 x idx (ix2 i h)
      = x (ix2 (⟨min (idx (ix2 i (0 : Fin 1))).toInt.toNat 96767, by omega⟩ : Fin 96768) h) := by
  unfold Host.gather
  refine congrArg x (funext fun a => Fin.ext ?_)
  match a with
  | ⟨0, _⟩ =>
    show GatherDims.start _ (ix2 i h) idx 0 + GatherDims.batchCoord _ (ix2 i h) 0 + GatherDims.offCoord _ (ix2 i h) 0 = _
    rw [GatherDims.batchCoord_eq_zero _ _ _ (by decide), GatherDims.offCoord_eq_zero _ _ _ (by decide)]
    simp only [Nat.add_zero]
    unfold GatherDims.start
    rw [dif_pos (show (0 : Fin 2) ∈ Cert.KernelIdeal.gather_S96768x96_S96446x1_S96446x96_1_0_n_n_0_1_196.startIndexMap by decide)]
    have hsi : Cert.KernelIdeal.gather_S96768x96_S96446x1_S96446x96_1_0_n_n_0_1_196.siIdx (ix2 i h)
        ⟨List.idxOf (0 : Fin 2) Cert.KernelIdeal.gather_S96768x96_S96446x1_S96446x96_1_0_n_n_0_1_196.startIndexMap,
          List.idxOf_lt_length_iff.2 (by decide)⟩ = ix2 i (0 : Fin 1) := by
      funext b; refine Fin.ext ?_
      match b with
      | ⟨0, _⟩ => rfl
      | ⟨1, _⟩ => rfl
    rw [hsi]
    rfl
  | ⟨1, _⟩ =>
    show GatherDims.start _ (ix2 i h) idx 1 + GatherDims.batchCoord _ (ix2 i h) 1 + GatherDims.offCoord _ (ix2 i h) 1 = _
    rw [GatherDims.batchCoord_eq_zero _ _ _ (by decide)]
    unfold GatherDims.start
    rw [dif_neg (show ¬ (1 : Fin 2) ∈ Cert.KernelIdeal.gather_S96768x96_S96446x1_S96446x96_1_0_n_n_0_1_196.startIndexMap by decide)]
    unfold GatherDims.offCoord
    rw [dif_pos (show (1 : Fin 2) ∈ Cert.KernelIdeal.gather_S96768x96_S96446x1_S96446x96_1_0_n_n_0_1_196.sKept by decide)]
    simp only [Nat.zero_add, Nat.add_zero]
    rfl

end Gather

section Gather
variable {α : Type}

/-- The same with the row named: any `r` whose value is the clamped start index. -/
theorem gather_row_of_eq (x : Cert.KernelIdeal.S96768x96.Idx → α) (idx : IVec Cert.KernelIdeal.S96446x1 32) (i : Fin 96446) (h : Fin 96)
    (r : Fin 96768) (hr : r.val = min (idx (ix2 i (0 : Fin 1))).toInt.toNat 96767) :
    Host.gather Cert.KernelIdeal.gather_S96768x96_S96446x1_S96446x96_1_0_n_n_0_1_196 x idx (ix2 i h) = x (ix2 r h) := by
  rw [gather_row]
  exact congrArg (fun r => x (ix2 r h)) (Fin.ext hr.symm)

end Gather

/-- A word that is not negative as a signed number is not below zero. -/
theorem cmpi_slt_zero_of_nonneg (x : BitVec 32) (h : 0 ≤ x.toInt) : IntOp.cmpi .slt x 0#32 = 0#1 := by
  have hs : x.slt 0#32 = false := by
    simp only [BitVec.slt, BitVec.toInt_zero, decide_eq_false_iff_not, not_lt]
    exact h
  unfold IntOp.cmpi
  simp only [hs]
  rfl

/-- Column `k` of the neighbour table as a vector of 96446 words. -/
def nbrCol (k : Nat) (hs2 : Cert.KernelIdeal.S96446x27.Slices ![0, k] Cert.KernelIdeal.S96446x1)
    (n : IVec Cert.KernelIdeal.S96446x27 32) : IVec Cert.KernelIdeal.S96446 32 :=
  shapeCast Cert.KernelIdeal.S96446 (extractStridedSlice Cert.KernelIdeal.S96446x1 ![0, k] n hs2)
    Cert.KernelIdeal.Gen.shapeCasts_S96446x1_S96446

theorem nbrCol_apply (k : Nat) (hk : k < 27) (hs2 : Cert.KernelIdeal.S96446x27.Slices ![0, k] Cert.KernelIdeal.S96446x1)
    (n : IVec Cert.KernelIdeal.S96446x27 32) (p : Fin 96446) :
    nbrCol k hs2 n (ix1 p) = n (ix2 p (⟨k, hk⟩ : Fin 27)) := by
  unfold nbrCol
  refine (shapeCast_apply _ _ (ix1 p) (ix2 p (0 : Fin 1)) ?_).trans ?_
  · rw [Shape.rowMajor_val_two, Shape.rowMajor_val_one]
    show p.val * 1 + 0 = p.val
    omega
  · exact extractStridedSlice_apply ![0, k] n hs2 (ix2 p (0 : Fin 1)) (ix2 p (⟨k, hk⟩ : Fin 27)) (fun a => match a with
      | ⟨0, _⟩ => by show p.val = 0 + p.val; omega
      | ⟨1, _⟩ => by show k = k + 0; omega)

/-- Tap `k` of the kernel as one function of the product table `Y` and the neighbour table `n`. -/
def ktap (k : Nat) (hs3 : Cert.KernelIdeal.S96768x27x96.Slices ![0, k, 0] Cert.KernelIdeal.S96768x1x96)
    (hs2 : Cert.KernelIdeal.S96446x27.Slices ![0, k] Cert.KernelIdeal.S96446x1)
    (Y : FVec Ideal Cert.KernelIdeal.S96768x27x96 .bf16) (n : IVec Cert.KernelIdeal.S96446x27 32) :
    FVec Ideal Cert.KernelIdeal.S96446x96 .f32 :=
  extf .f32
    (Host.gather Cert.KernelIdeal.gather_S96768x96_S96446x1_S96446x96_1_0_n_n_0_1_196
      (shapeCast Cert.KernelIdeal.S96768x96 (extractStridedSlice Cert.KernelIdeal.S96768x1x96 ![0, k, 0] Y hs3)
        Cert.KernelIdeal.Gen.shapeCasts_S96768x1x96_S96768x96)
      (broadcastInDim Cert.KernelIdeal.S96446x1 ![0] Cert.KernelIdeal.Gen.bcast_S96446_S96446x1_0
        (select
          (cmpi .slt (nbrCol k hs2 n)
            (broadcastInDim Cert.KernelIdeal.S96446 ![] Cert.KernelIdeal.Gen.bcast_S_S96446 (constantI Cert.KernelIdeal.S_ 32 0#32)))
          (addi (nbrCol k hs2 n)
            (broadcastInDim Cert.KernelIdeal.S96446 ![] Cert.KernelIdeal.Gen.bcast_S_S96446 (constantI Cert.KernelIdeal.S_ 32 96768#32)))
          (nbrCol k hs2 n))))
    Cert.KernelIdeal.Gen.bitsLt_bf16_f32

/-- Where the neighbour entry is in `[0, 96446]`, tap `k` at `(p, q)` is `Y[nbr[p, k], k, q]`. -/
theorem ktap_apply (k : Nat) (hk : k < 27) (hs3 : Cert.KernelIdeal.S96768x27x96.Slices ![0, k, 0] Cert.KernelIdeal.S96768x1x96)
    (hs2 : Cert.KernelIdeal.S96446x27.Slices ![0, k] Cert.KernelIdeal.S96446x1)
    (Y : FVec Ideal Cert.KernelIdeal.S96768x27x96 .bf16) (n : IVec Cert.KernelIdeal.S96446x27 32) (p : Fin 96446) (q : Fin 96)
    (h0 : 0 ≤ (n (ix2 p (⟨k, hk⟩ : Fin 27))).toInt) (h1 : (n (ix2 p (⟨k, hk⟩ : Fin 27))).toInt ≤ 96446) :
    ktap k hs3 hs2 Y n (ix2 p q)
      = Y (ix3 (⟨(n (ix2 p (⟨k, hk⟩ : Fin 27))).toInt.toNat, by omega⟩ : Fin 96768) (⟨k, hk⟩ : Fin 27) q) := by
  unfold ktap
  rw [extf_apply]
  have hidx : (broadcastInDim Cert.KernelIdeal.S96446x1 ![0] Cert.KernelIdeal.Gen.bcast_S96446_S96446x1_0
        (select
          (cmpi .slt (nbrCol k hs2 n)
            (broadcastInDim Cert.KernelIdeal.S96446 ![] Cert.KernelIdeal.Gen.bcast_S_S96446 (constantI Cert.KernelIdeal.S_ 32 0#32)))
          (addi (nbrCol k hs2 n)
            (broadcastInDim Cert.KernelIdeal.S96446 ![] Cert.KernelIdeal.Gen.bcast_S_S96446 (constantI Cert.KernelIdeal.S_ 32 96768#32)))
          (nbrCol k hs2 n))) (ix2 p (0 : Fin 1)) = n (ix2 p (⟨k, hk⟩ : Fin 27)) := by
    refine (broadcastInDim_apply _ _ _ (ix2 p (0 : Fin 1)) (ix1 p) (fun a => ?_)).trans ?_
    · match a with
      | ⟨0, _⟩ => rfl
    · rw [select_apply]
      have hc : cmpi .slt (nbrCol k hs2 n)
            (broadcastInDim Cert.KernelIdeal.S96446 ![] Cert.KernelIdeal.Gen.bcast_S_S96446 (constantI Cert.KernelIdeal.S_ 32 0#32)) (ix1 p) = 0#1 := by
        show IntOp.cmpi .slt (nbrCol k hs2 n (ix1 p)) 0#32 = 0#1
        rw [nbrCol_apply k hk]
        exact cmpi_slt_zero_of_nonneg _ h0
      rw [hc, select_zero, nbrCol_apply k hk]
  refine (gather_row_of_eq _ _ p q (⟨(n (ix2 p (⟨k, hk⟩ : Fin 27))).toInt.toNat, by omega⟩ : Fin 96768) ?_).trans ?_
  · rw [hidx]
    show (n (ix2 p (⟨k, hk⟩ : Fin 27))).toInt.toNat = min (n (ix2 p (⟨k, hk⟩ : Fin 27))).toInt.toNat 96767
    omega
  · refine (shapeCast_apply _ _ (ix2 (⟨(n (ix2 p (⟨k, hk⟩ : Fin 27))).toInt.toNat, by omega⟩ : Fin 96768) q)
      (ix3 (⟨(n (ix2 p (⟨k, hk⟩ : Fin 27))).toInt.toNat, by omega⟩ : Fin 96768) (0 : Fin 1) q) ?_).trans ?_
    · rw [Shape.rowMajor_val_two, Shape.rowMajor_val_three]
      show ((n (ix2 p (⟨k, hk⟩ : Fin 27))).toInt.toNat * 1 + 0) * 96 + q.val = (n (ix2 p (⟨k, hk⟩ : Fin 27))).toInt.toNat * 96 + q.val
      omega
    · exact extractStridedSlice_apply ![0, k, 0] Y hs3 _ _ (fun a => match a with
        | ⟨0, _⟩ => by show (n (ix2 p (⟨k, hk⟩ : Fin 27))).toInt.toNat = 0 + (n (ix2 p (⟨k, hk⟩ : Fin 27))).toInt.toNat; omega
        | ⟨1, _⟩ => by show k = k + 0; omega
        | ⟨2, _⟩ => by show q.val = 0 + q.val; omega)

/-- The kernel's 27 taps added up in the program's order, from the zero table, as one function of the product table and the
    neighbour table. -/
def kacc (Y : FVec Ideal Cert.KernelIdeal.S96768x27x96 .bf16) (n : IVec Cert.KernelIdeal.S96446x27 32) : FVec Ideal Cert.KernelIdeal.S96446x96 .f32 :=
  (addf (addf (addf (addf (addf (addf (addf (addf (addf (addf (addf (addf (addf (addf (addf (addf (addf (addf (addf (addf (addf (addf (addf (addf (addf (addf (addf (broadcastInDim Cert.KernelIdeal.S96446x96 ![] Cert.KernelIdeal.Gen.bcast_S_S96446x96 (constant (F := Ideal) Cert.KernelIdeal.S_ .f32 0x00000000#32))
    (ktap 0 Cert.KernelIdeal.Gen.slices_S96768x27x96_S96768x1x96_0_0_0 Cert.KernelIdeal.Gen.slices_S96446x27_S96446x1_0_0 Y n))
    (ktap 1 Cert.KernelIdeal.Gen.slices_S96768x27x96_S96768x1x96_0_1_0 Cert.KernelIdeal.Gen.slices_S96446x27_S96446x1_0_1 Y n))
    (ktap 2 Cert.KernelIdeal.Gen.slices_S96768x27x96_S96768x1x96_0_2_0 Cert.KernelIdeal.Gen.slices_S96446x27_S96446x1_0_2 Y n))
    (ktap 3 Cert.KernelIdeal.Gen.slices_S96768x27x96_S96768x1x96_0_3_0 Cert.KernelIdeal.Gen.slices_S96446x27_S96446x1_0_3 Y n))
    (ktap 4 Cert.KernelIdeal.Gen.slices_S96768x27x96_S96768x1x96_0_4_0 Cert.KernelIdeal.Gen.slices_S96446x27_S96446x1_0_4 Y n))
    (ktap 5 Cert.KernelIdeal.Gen.slices_S96768x27x96_S96768x1x96_0_5_0 Cert.KernelIdeal.Gen.slices_S96446x27_S96446x1_0_5 Y n))
    (ktap 6 Cert.KernelIdeal.Gen.slices_S96768x27x96_S96768x1x96_0_6_0 Cert.KernelIdeal.Gen.slices_S96446x27_S96446x1_0_6 Y n))
    (ktap 7 Cert.KernelIdeal.Gen.slices_S96768x27x96_S96768x1x96_0_7_0 Cert.KernelIdeal.Gen.slices_S96446x27_S96446x1_0_7 Y n))
    (ktap 8 Cert.KernelIdeal.Gen.slices_S96768x27x96_S96768x1x96_0_8_0 Cert.KernelIdeal.Gen.slices_S96446x27_S96446x1_0_8 Y n))
    (ktap 9 Cert.KernelIdeal.Gen.slices_S96768x27x96_S96768x1x96_0_9_0 Cert.KernelIdeal.Gen.slices_S96446x27_S96446x1_0_9 Y n))
    (ktap 10 Cert.KernelIdeal.Gen.slices_S96768x27x96_S96768x1x96_0_10_0 Cert.KernelIdeal.Gen.slices_S96446x27_S96446x1_0_10 Y n))
    (ktap 11 Cert.KernelIdeal.Gen.slices_S96768x27x96_S96768x1x96_0_11_0 Cert.KernelIdeal.Gen.slices_S96446x27_S96446x1_0_11 Y n))
    (ktap 12 Cert.KernelIdeal.Gen.slices_S96768x27x96_S96768x1x96_0_12_0 Cert.KernelIdeal.Gen.slices_S96446x27_S96446x1_0_12 Y n))
    (ktap 13 Cert.KernelIdeal.Gen.slices_S96768x27x96_S96768x1x96_0_13_0 Cert.KernelIdeal.Gen.slices_S96446x27_S96446x1_0_13 Y n))
    (ktap 14 Cert.KernelIdeal.Gen.slices_S96768x27x96_S96768x1x96_0_14_0 Cert.KernelIdeal.Gen.slices_S96446x27_S96446x1_0_14 Y n))
    (ktap 15 Cert.KernelIdeal.Gen.slices_S96768x27x96_S96768x1x96_0_15_0 Cert.KernelIdeal.Gen.slices_S96446x27_S96446x1_0_15 Y n))
    (ktap 16 Cert.KernelIdeal.Gen.slices_S96768x27x96_S96768x1x96_0_16_0 Cert.KernelIdeal.Gen.slices_S96446x27_S96446x1_0_16 Y n))
    (ktap 17 Cert.KernelIdeal.Gen.slices_S96768x27x96_S96768x1x96_0_17_0 Cert.KernelIdeal.Gen.slices_S96446x27_S96446x1_0_17 Y n))
    (ktap 18 Cert.KernelIdeal.Gen.slices_S96768x27x96_S96768x1x96_0_18_0 Cert.KernelIdeal.Gen.slices_S96446x27_S96446x1_0_18 Y n))
    (ktap 19 Cert.KernelIdeal.Gen.slices_S96768x27x96_S96768x1x96_0_19_0 Cert.KernelIdeal.Gen.slices_S96446x27_S96446x1_0_19 Y n))
    (ktap 20 Cert.KernelIdeal.Gen.slices_S96768x27x96_S96768x1x96_0_20_0 Cert.KernelIdeal.Gen.slices_S96446x27_S96446x1_0_20 Y n))
    (ktap 21 Cert.KernelIdeal.Gen.slices_S96768x27x96_S96768x1x96_0_21_0 Cert.KernelIdeal.Gen.slices_S96446x27_S96446x1_0_21 Y n))
    (ktap 22 Cert.KernelIdeal.Gen.slices_S96768x27x96_S96768x1x96_0_22_0 Cert.KernelIdeal.Gen.slices_S96446x27_S96446x1_0_22 Y n))
    (ktap 23 Cert.KernelIdeal.Gen.slices_S96768x27x96_S96768x1x96_0_23_0 Cert.KernelIdeal.Gen.slices_S96446x27_S96446x1_0_23 Y n))
    (ktap 24 Cert.KernelIdeal.Gen.slices_S96768x27x96_S96768x1x96_0_24_0 Cert.KernelIdeal.Gen.slices_S96446x27_S96446x1_0_24 Y n))
    (ktap 25 Cert.KernelIdeal.Gen.slices_S96768x27x96_S96768x1x96_0_25_0 Cert.KernelIdeal.Gen.slices_S96446x27_S96446x1_0_25 Y n))
    (ktap 26 Cert.KernelIdeal.Gen.slices_S96768x27x96_S96768x1x96_0_26_0 Cert.KernelIdeal.Gen.slices_S96446x27_S96446x1_0_26 Y n))

theorem kacc_apply (Y : FVec Ideal Cert.KernelIdeal.S96768x27x96 .bf16) (n : IVec Cert.KernelIdeal.S96446x27 32)
    (hrange : ∀ i, 0 ≤ (n i).toInt ∧ (n i).toInt ≤ 96446) (p : Fin 96446) (q : Fin 96) :
    kacc Y n (ix2 p q)
      = acc27 (fun k : Fin 27 => Y (ix3 (⟨(n (ix2 p k)).toInt.toNat, by have := (hrange (ix2 p k)).1; have := (hrange (ix2 p k)).2; omega⟩ : Fin 96768) k q)) := by
  unfold kacc
  simp only [addf_apply]
  rw [ktap_apply 0 (by omega) _ _ Y n p q (hrange _).1 (hrange _).2,
    ktap_apply 1 (by omega) _ _ Y n p q (hrange _).1 (hrange _).2,
    ktap_apply 2 (by omega) _ _ Y n p q (hrange _).1 (hrange _).2,
    ktap_apply 3 (by omega) _ _ Y n p q (hrange _).1 (hrange _).2,
    ktap_apply 4 (by omega) _ _ Y n p q (hrange _).1 (hrange _).2,
    ktap_apply 5 (by omega) _ _ Y n p q (hrange _).1 (hrange _).2,
    ktap_apply 6 (by omega) _ _ Y n p q (hrange _).1 (hrange _).2,
    ktap_apply 7 (by omega) _ _ Y n p q (hrange _).1 (hrange _).2,
    ktap_apply 8 (by omega) _ _ Y n p q (hrange _).1 (hrange _).2,
    ktap_apply 9 (by omega) _ _ Y n p q (hrange _).1 (hrange _).2,
    ktap_apply 10 (by omega) _ _ Y n p q (hrange _).1 (hrange _).2,
    ktap_apply 11 (by omega) _ _ Y n p q (hrange _).1 (hrange _).2,
    ktap_apply 12 (by omega) _ _ Y n p q (hrange _).1 (hrange _).2,
    ktap_apply 13 (by omega) _ _ Y n p q (hrange _).1 (hrange _).2,
    ktap_apply 14 (by omega) _ _ Y n p q (hrange _).1 (hrange _).2,
    ktap_apply 15 (by omega) _ _ Y n p q (hrange _).1 (hrange _).2,
    ktap_apply 16 (by omega) _ _ Y n p q (hrange _).1 (hrange _).2,
    ktap_apply 17 (by omega) _ _ Y n p q (hrange _).1 (hrange _).2,
    ktap_apply 18 (by omega) _ _ Y n p q (hrange _).1 (hrange _).2,
    ktap_apply 19 (by omega) _ _ Y n p q (hrange _).1 (hrange _).2,
    ktap_apply 20 (by omega) _ _ Y n p q (hrange _).1 (hrange _).2,
    ktap_apply 21 (by omega) _ _ Y n p q (hrange _).1 (hrange _).2,
    ktap_apply 22 (by omega) _ _ Y n p q (hrange _).1 (hrange _).2,
    ktap_apply 23 (by omega) _ _ Y n p q (hrange _).1 (hrange _).2,
    ktap_apply 24 (by omega) _ _ Y n p q (hrange _).1 (hrange _).2,
    ktap_apply 25 (by omega) _ _ Y n p q (hrange _).1 (hrange _).2,
    ktap_apply 26 (by omega) _ _ Y n p q (hrange _).1 (hrange _).2]
  rfl

/-! ## The kernel's host stretch cut at the taps

The first 408 operations of the stretch are three opening operations (the product table re-laid as rows × 27 × 96, and a zero
table) and then, 27 times, the same fifteen operations on other buffers: tap `k` reads the re-laid table, the neighbour
table and the sum so far, and writes the next sum. -/

section Cut

open Cert.KernelIdeal Cert.KernelIdeal.Gen

variable {F : FTy → Type} [FloatOps F]

/-- The opening operations: the re-laid table `main_v25` and the zero table `main_v26`. -/
abbrev opening : List (HloOp τ sig (Elt F)) :=
  ( StableHlo.reshape main_v24 main_v25 rfl shapeCasts_S96768x2592_S96768x27x96
  :: StableHlo.nullary main_cst_5 (constant S_ .f32 0x00000000#32)
  :: StableHlo.unary main_cst_5 main_v26 (broadcastInDim S96446x96 ![] bcast_S_S96446x96 : (⟨S_, .f32⟩ : BufTy).Contents (Elt F) → (⟨S96446x96, .f32⟩ : BufTy).Contents (Elt F))
  :: [] )

/-- The fifteen operations of tap 0. -/
abbrev tap0 : List (HloOp τ sig (Elt F)) :=
  ( StableHlo.unary main_v25 main_v27 ((extractStridedSlice S96768x1x96 ![0, 0, 0] · slices_S96768x27x96_S96768x1x96_0_0_0) : (⟨S96768x27x96, .bf16⟩ : BufTy).Contents (Elt F) → (⟨S96768x1x96, .bf16⟩ : BufTy).Contents (Elt F))
  :: StableHlo.reshape main_v27 main_v28 rfl shapeCasts_S96768x1x96_S96768x96
  :: StableHlo.unary main_arg9 main_v29 ((extractStridedSlice S96446x1 ![0, 0] · slices_S96446x27_S96446x1_0_0) : (⟨S96446x27, .i32⟩ : BufTy).Contents (Elt F) → (⟨S96446x1, .i32⟩ : BufTy).Contents (Elt F))
  :: StableHlo.reshape main_v29 main_v30 rfl shapeCasts_S96446x1_S96446
  :: StableHlo.nullary main_c_6 (constantI S_ 32 0#32)
  :: StableHlo.unary main_c_6 main_v31 (broadcastInDim S96446 ![] bcast_S_S96446 : (⟨S_, .i32⟩ : BufTy).Contents (Elt F) → (⟨S96446, .i32⟩ : BufTy).Contents (Elt F))
  :: StableHlo.binary main_v30 main_v31 main_v32 (cmpi .slt : (⟨S96446, .i32⟩ : BufTy).Contents (Elt F) → (⟨S96446, .i32⟩ : BufTy).Contents (Elt F) → (⟨S96446, .i1⟩ : BufTy).Contents (Elt F))
  :: StableHlo.nullary main_c_7 (constantI S_ 32 96768#32)
  :: StableHlo.unary main_c_7 main_v33 (broadcastInDim S96446 ![] bcast_S_S96446 : (⟨S_, .i32⟩ : BufTy).Contents (Elt F) → (⟨S96446, .i32⟩ : BufTy).Contents (Elt F))
  :: StableHlo.binary main_v30 main_v33 main_v34 (addi : (⟨S96446, .i32⟩ : BufTy).Contents (Elt F) → (⟨S96446, .i32⟩ : BufTy).Contents (Elt F) → (⟨S96446, .i32⟩ : BufTy).Contents (Elt F))
  :: StableHlo.ternary main_v32 main_v34 main_v30 main_v35 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v35 main_v36 (broadcastInDim S96446x1 ![0] bcast_S96446_S96446x1_0 : (⟨S96446, .i32⟩ : BufTy).Contents (Elt F) → (⟨S96446x1, .i32⟩ : BufTy).Contents (Elt F))
  :: StableHlo.binary main_v28 main_v36 main_v37 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v37 main_v38 ((extf .f32 · bitsLt_bf16_f32) : (⟨S96446x96, .bf16⟩ : BufTy).Contents (Elt F) → (⟨S96446x96, .f32⟩ : BufTy).Contents (Elt F))
  :: StableHlo.binary main_v26 main_v38 main_v39 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 1. -/
abbrev tap1 : List (HloOp τ sig (Elt F)) :=
  ( StableHlo.unary main_v25 main_v40 ((extractStridedSlice S96768x1x96 ![0, 1, 0] · slices_S96768x27x96_S96768x1x96_0_1_0) : (⟨S96768x27x96, .bf16⟩ : BufTy).Contents (Elt F) → (⟨S96768x1x96, .bf16⟩ : BufTy).Contents (Elt F))
  :: StableHlo.reshape main_v40 main_v41 rfl shapeCasts_S96768x1x96_S96768x96
  :: StableHlo.unary main_arg9 main_v42 ((extractStridedSlice S96446x1 ![0, 1] · slices_S96446x27_S96446x1_0_1) : (⟨S96446x27, .i32⟩ : BufTy).Contents (Elt F) → (⟨S96446x1, .i32⟩ : BufTy).Contents (Elt F))
  :: StableHlo.reshape main_v42 main_v43 rfl shapeCasts_S96446x1_S96446
  :: StableHlo.nullary main_c_8 (constantI S_ 32 0#32)
  :: StableHlo.unary main_c_8 main_v44 (broadcastInDim S96446 ![] bcast_S_S96446 : (⟨S_, .i32⟩ : BufTy).Contents (Elt F) → (⟨S96446, .i32⟩ : BufTy).Contents (Elt F))
  :: StableHlo.binary main_v43 main_v44 main_v45 (cmpi .slt : (⟨S96446, .i32⟩ : BufTy).Contents (Elt F) → (⟨S96446, .i32⟩ : BufTy).Contents (Elt F) → (⟨S96446, .i1⟩ : BufTy).Contents (Elt F))
  :: StableHlo.nullary main_c_9 (constantI S_ 32 96768#32)
  :: StableHlo.unary main_c_9 main_v46 (broadcastInDim S96446 ![] bcast_S_S96446 : (⟨S_, .i32⟩ : BufTy).Contents (Elt F) → (⟨S96446, .i32⟩ : BufTy).Contents (Elt F))
  :: StableHlo.binary main_v43 main_v46 main_v47 (addi : (⟨S96446, .i32⟩ : BufTy).Contents (Elt F) → (⟨S96446, .i32⟩ : BufTy).Contents (Elt F) → (⟨S96446, .i32⟩ : BufTy).Contents (Elt F))
  :: StableHlo.ternary main_v45 main_v47 main_v43 main_v48 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v48 main_v49 (broadcastInDim S96446x1 ![0] bcast_S96446_S96446x1_0 : (⟨S96446, .i32⟩ : BufTy).Contents (Elt F) → (⟨S96446x1, .i32⟩ : BufTy).Contents (Elt F))
  :: StableHlo.binary main_v41 main_v49 main_v50 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v50 main_v51 ((extf .f32 · bitsLt_bf16_f32) : (⟨S96446x96, .bf16⟩ : BufTy).Contents (Elt F) → (⟨S96446x96, .f32⟩ : BufTy).Contents (Elt F))
  :: StableHlo.binary main_v39 main_v51 main_v52 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 2. -/
abbrev tap2 : List (HloOp τ sig (Elt F)) :=
  ( StableHlo.unary main_v25 main_v53 ((extractStridedSlice S96768x1x96 ![0, 2, 0] · slices_S96768x27x96_S96768x1x96_0_2_0) : (⟨S96768x27x96, .bf16⟩ : BufTy).Contents (Elt F) → (⟨S96768x1x96, .bf16⟩ : BufTy).Contents (Elt F))
  :: StableHlo.reshape main_v53 main_v54 rfl shapeCasts_S96768x1x96_S96768x96
  :: StableHlo.unary main_arg9 main_v55 ((extractStridedSlice S96446x1 ![0, 2] · slices_S96446x27_S96446x1_0_2) : (⟨S96446x27, .i32⟩ : BufTy).Contents (Elt F) → (⟨S96446x1, .i32⟩ : BufTy).Contents (Elt F))
  :: StableHlo.reshape main_v55 main_v56 rfl shapeCasts_S96446x1_S96446
  :: StableHlo.nullary main_c_10 (constantI S_ 32 0#32)
  :: StableHlo.unary main_c_10 main_v57 (broadcastInDim S96446 ![] bcast_S_S96446 : (⟨S_, .i32⟩ : BufTy).Contents (Elt F) → (⟨S96446, .i32⟩ : BufTy).Contents (Elt F))
  :: StableHlo.binary main_v56 main_v57 main_v58 (cmpi .slt : (⟨S96446, .i32⟩ : BufTy).Contents (Elt F) → (⟨S96446, .i32⟩ : BufTy).Contents (Elt F) → (⟨S96446, .i1⟩ : BufTy).Contents (Elt F))
  :: StableHlo.nullary main_c_11 (constantI S_ 32 96768#32)
  :: StableHlo.unary main_c_11 main_v59 (broadcastInDim S96446 ![] bcast_S_S96446 : (⟨S_, .i32⟩ : BufTy).Contents (Elt F) → (⟨S96446, .i32⟩ : BufTy).Contents (Elt F))
  :: StableHlo.binary main_v56 main_v59 main_v60 (addi : (⟨S96446, .i32⟩ : BufTy).Contents (Elt F) → (⟨S96446, .i32⟩ : BufTy).Contents (Elt F) → (⟨S96446, .i32⟩ : BufTy).Contents (Elt F))
  :: StableHlo.ternary main_v58 main_v60 main_v56 main_v61 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v61 main_v62 (broadcastInDim S96446x1 ![0] bcast_S96446_S96446x1_0 : (⟨S96446, .i32⟩ : BufTy).Contents (Elt F) → (⟨S96446x1, .i32⟩ : BufTy).Contents (Elt F))
  :: StableHlo.binary main_v54 main_v62 main_v63 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v63 main_v64 ((extf .f32 · bitsLt_bf16_f32) : (⟨S96446x96, .bf16⟩ : BufTy).Contents (Elt F) → (⟨S96446x96, .f32⟩ : BufTy).Contents (Elt F))
  :: StableHlo.binary main_v52 main_v64 main_v65 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 3. -/
abbrev tap3 : List (HloOp τ sig (Elt F)) :=
  ( StableHlo.unary main_v25 main_v66 ((extractStridedSlice S96768x1x96 ![0, 3, 0] · slices_S96768x27x96_S96768x1x96_0_3_0) : (⟨S96768x27x96, .bf16⟩ : BufTy).Contents (Elt F) → (⟨S96768x1x96, .bf16⟩ : BufTy).Contents (Elt F))
  :: StableHlo.reshape main_v66 main_v67 rfl shapeCasts_S96768x1x96_S96768x96
  :: StableHlo.unary main_arg9 main_v68 ((extractStridedSlice S96446x1 ![0, 3] · slices_S96446x27_S96446x1_0_3) : (⟨S96446x27, .i32⟩ : BufTy).Contents (Elt F) → (⟨S96446x1, .i32⟩ : BufTy).Contents (Elt F))
  :: StableHlo.reshape main_v68 main_v69 rfl shapeCasts_S96446x1_S96446
  :: StableHlo.nullary main_c_12 (constantI S_ 32 0#32)
  :: StableHlo.unary main_c_12 main_v70 (broadcastInDim S96446 ![] bcast_S_S96446 : (⟨S_, .i32⟩ : BufTy).Contents (Elt F) → (⟨S96446, .i32⟩ : BufTy).Contents (Elt F))
  :: StableHlo.binary main_v69 main_v70 main_v71 (cmpi .slt : (⟨S96446, .i32⟩ : BufTy).Contents (Elt F) → (⟨S96446, .i32⟩ : BufTy).Contents (Elt F) → (⟨S96446, .i1⟩ : BufTy).Contents (Elt F))
  :: StableHlo.nullary main_c_13 (constantI S_ 32 96768#32)
  :: StableHlo.unary main_c_13 main_v72 (broadcastInDim S96446 ![] bcast_S_S96446 : (⟨S_, .i32⟩ : BufTy).Contents (Elt F) → (⟨S96446, .i32⟩ : BufTy).Contents (Elt F))
  :: StableHlo.binary main_v69 main_v72 main_v73 (addi : (⟨S96446, .i32⟩ : BufTy).Contents (Elt F) → (⟨S96446, .i32⟩ : BufTy).Contents (Elt F) → (⟨S96446, .i32⟩ : BufTy).Contents (Elt F))
  :: StableHlo.ternary main_v71 main_v73 main_v69 main_v74 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v74 main_v75 (broadcastInDim S96446x1 ![0] bcast_S96446_S96446x1_0 : (⟨S96446, .i32⟩ : BufTy).Contents (Elt F) → (⟨S96446x1, .i32⟩ : BufTy).Contents (Elt F))
  :: StableHlo.binary main_v67 main_v75 main_v76 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v76 main_v77 ((extf .f32 · bitsLt_bf16_f32) : (⟨S96446x96, .bf16⟩ : BufTy).Contents (Elt F) → (⟨S96446x96, .f32⟩ : BufTy).Contents (Elt F))
  :: StableHlo.binary main_v65 main_v77 main_v78 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 4. -/
abbrev tap4 : List (HloOp τ sig (Elt F)) :=
  ( StableHlo.unary main_v25 main_v79 ((extractStridedSlice S96768x1x96 ![0, 4, 0] · slices_S96768x27x96_S96768x1x96_0_4_0) : (⟨S96768x27x96, .bf16⟩ : BufTy).Contents (Elt F) → (⟨S96768x1x96, .bf16⟩ : BufTy).Contents (Elt F))
  :: StableHlo.reshape main_v79 main_v80 rfl shapeCasts_S96768x1x96_S96768x96
  :: StableHlo.unary main_arg9 main_v81 ((extractStridedSlice S96446x1 ![0, 4] · slices_S96446x27_S96446x1_0_4) : (⟨S96446x27, .i32⟩ : BufTy).Contents (Elt F) → (⟨S96446x1, .i32⟩ : BufTy).Contents (Elt F))
  :: StableHlo.reshape main_v81 main_v82 rfl shapeCasts_S96446x1_S96446
  :: StableHlo.nullary main_c_14 (constantI S_ 32 0#32)
  :: StableHlo.unary main_c_14 main_v83 (broadcastInDim S96446 ![] bcast_S_S96446 : (⟨S_, .i32⟩ : BufTy).Contents (Elt F) → (⟨S96446, .i32⟩ : BufTy).Contents (Elt F))
  :: StableHlo.binary main_v82 main_v83 main_v84 (cmpi .slt : (⟨S96446, .i32⟩ : BufTy).Contents (Elt F) → (⟨S96446, .i32⟩ : BufTy).Contents (Elt F) → (⟨S96446, .i1⟩ : BufTy).Contents (Elt F))
  :: StableHlo.nullary main_c_15 (constantI S_ 32 96768#32)
  :: StableHlo.unary main_c_15 main_v85 (broadcastInDim S96446 ![] bcast_S_S96446 : (⟨S_, .i32⟩ : BufTy).Contents (Elt F) → (⟨S96446, .i32⟩ : BufTy).Contents (Elt F))
  :: StableHlo.binary main_v82 main_v85 main_v86 (addi : (⟨S96446, .i32⟩ : BufTy).Contents (Elt F) → (⟨S96446, .i32⟩ : BufTy).Contents (Elt F) → (⟨S96446, .i32⟩ : BufTy).Contents (Elt F))
  :: StableHlo.ternary main_v84 main_v86 main_v82 main_v87 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v87 main_v88 (broadcastInDim S96446x1 ![0] bcast_S96446_S96446x1_0 : (⟨S96446, .i32⟩ : BufTy).Contents (Elt F) → (⟨S96446x1, .i32⟩ : BufTy).Contents (Elt F))
  :: StableHlo.binary main_v80 main_v88 main_v89 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v89 main_v90 ((extf .f32 · bitsLt_bf16_f32) : (⟨S96446x96, .bf16⟩ : BufTy).Contents (Elt F) → (⟨S96446x96, .f32⟩ : BufTy).Contents (Elt F))
  :: StableHlo.binary main_v78 main_v90 main_v91 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 5. -/
abbrev tap5 : List (HloOp τ sig (Elt F)) :=
  ( StableHlo.unary main_v25 main_v92 ((extractStridedSlice S96768x1x96 ![0, 5, 0] · slices_S96768x27x96_S96768x1x96_0_5_0) : (⟨S96768x27x96, .bf16⟩ : BufTy).Contents (Elt F) → (⟨S96768x1x96, .bf16⟩ : BufTy).Contents (Elt F))
  :: StableHlo.reshape main_v92 main_v93 rfl shapeCasts_S96768x1x96_S96768x96
  :: StableHlo.unary main_arg9 main_v94 ((extractStridedSlice S96446x1 ![0, 5] · slices_S96446x27_S96446x1_0_5) : (⟨S96446x27, .i32⟩ : BufTy).Contents (Elt F) → (⟨S96446x1, .i32⟩ : BufTy).Contents (Elt F))
  :: StableHlo.reshape main_v94 main_v95 rfl shapeCasts_S96446x1_S96446
  :: StableHlo.nullary main_c_16 (constantI S_ 32 0#32)
  :: StableHlo.unary main_c_16 main_v96 (broadcastInDim S96446 ![] bcast_S_S96446 : (⟨S_, .i32⟩ : BufTy).Contents (Elt F) → (⟨S96446, .i32⟩ : BufTy).Contents (Elt F))
  :: StableHlo.binary main_v95 main_v96 main_v97 (cmpi .slt : (⟨S96446, .i32⟩ : BufTy).Contents (Elt F) → (⟨S96446, .i32⟩ : BufTy).Contents (Elt F) → (⟨S96446, .i1⟩ : BufTy).Contents (Elt F))
  :: StableHlo.nullary main_c_17 (constantI S_ 32 96768#32)
  :: StableHlo.unary main_c_17 main_v98 (broadcastInDim S96446 ![] bcast_S_S96446 : (⟨S_, .i32⟩ : BufTy).Contents (Elt F) → (⟨S96446, .i32⟩ : BufTy).Contents (Elt F))
  :: StableHlo.binary main_v95 main_v98 main_v99 (addi : (⟨S96446, .i32⟩ : BufTy).Contents (Elt F) → (⟨S96446, .i32⟩ : BufTy).Contents (Elt F) → (⟨S96446, .i32⟩ : BufTy).Contents (Elt F))
  :: StableHlo.ternary main_v97 main_v99 main_v95 main_v100 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v100 main_v101 (broadcastInDim S96446x1 ![0] bcast_S96446_S96446x1_0 : (⟨S96446, .i32⟩ : BufTy).Contents (Elt F) → (⟨S96446x1, .i32⟩ : BufTy).Contents (Elt F))
  :: StableHlo.binary main_v93 main_v101 main_v102 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v102 main_v103 ((extf .f32 · bitsLt_bf16_f32) : (⟨S96446x96, .bf16⟩ : BufTy).Contents (Elt F) → (⟨S96446x96, .f32⟩ : BufTy).Contents (Elt F))
  :: StableHlo.binary main_v91 main_v103 main_v104 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 6. -/
abbrev tap6 : List (HloOp τ sig (Elt F)) :=
  ( StableHlo.unary main_v25 main_v105 ((extractStridedSlice S96768x1x96 ![0, 6, 0] · slices_S96768x27x96_S96768x1x96_0_6_0) : (⟨S96768x27x96, .bf16⟩ : BufTy).Contents (Elt F) → (⟨S96768x1x96, .bf16⟩ : BufTy).Contents (Elt F))
  :: StableHlo.reshape main_v105 main_v106 rfl shapeCasts_S96768x1x96_S96768x96
  :: StableHlo.unary main_arg9 main_v107 ((extractStridedSlice S96446x1 ![0, 6] · slices_S96446x27_S96446x1_0_6) : (⟨S96446x27, .i32⟩ : BufTy).Contents (Elt F) → (⟨S96446x1, .i32⟩ : BufTy).Contents (Elt F))
  :: StableHlo.reshape main_v107 main_v108 rfl shapeCasts_S96446x1_S96446
  :: StableHlo.nullary main_c_18 (constantI S_ 32 0#32)
  :: StableHlo.unary main_c_18 main_v109 (broadcastInDim S96446 ![] bcast_S_S96446 : (⟨S_, .i32⟩ : BufTy).Contents (Elt F) → (⟨S96446, .i32⟩ : BufTy).Contents (Elt F))
  :: StableHlo.binary main_v108 main_v109 main_v110 (cmpi .slt : (⟨S96446, .i32⟩ : BufTy).Contents (Elt F) → (⟨S96446, .i32⟩ : BufTy).Contents (Elt F) → (⟨S96446, .i1⟩ : BufTy).Contents (Elt F))
  :: StableHlo.nullary main_c_19 (constantI S_ 32 96768#32)
  :: StableHlo.unary main_c_19 main_v111 (broadcastInDim S96446 ![] bcast_S_S96446 : (⟨S_, .i32⟩ : BufTy).Contents (Elt F) → (⟨S96446, .i32⟩ : BufTy).Contents (Elt F))
  :: StableHlo.binary main_v108 main_v111 main_v112 (addi : (⟨S96446, .i32⟩ : BufTy).Contents (Elt F) → (⟨S96446, .i32⟩ : BufTy).Contents (Elt F) → (⟨S96446, .i32⟩ : BufTy).Contents (Elt F))
  :: StableHlo.ternary main_v110 main_v112 main_v108 main_v113 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v113 main_v114 (broadcastInDim S96446x1 ![0] bcast_S96446_S96446x1_0 : (⟨S96446, .i32⟩ : BufTy).Contents (Elt F) → (⟨S96446x1, .i32⟩ : BufTy).Contents (Elt F))
  :: StableHlo.binary main_v106 main_v114 main_v115 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v115 main_v116 ((extf .f32 · bitsLt_bf16_f32) : (⟨S96446x96, .bf16⟩ : BufTy).Contents (Elt F) → (⟨S96446x96, .f32⟩ : BufTy).Contents (Elt F))
  :: StableHlo.binary main_v104 main_v116 main_v117 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 7. -/
abbrev tap7 : List (HloOp τ sig (Elt F)) :=
  ( StableHlo.unary main_v25 main_v118 ((extractStridedSlice S96768x1x96 ![0, 7, 0] · slices_S96768x27x96_S96768x1x96_0_7_0) : (⟨S96768x27x96, .bf16⟩ : BufTy).Contents (Elt F) → (⟨S96768x1x96, .bf16⟩ : BufTy).Contents (Elt F))
  :: StableHlo.reshape main_v118 main_v119 rfl shapeCasts_S96768x1x96_S96768x96
  :: StableHlo.unary main_arg9 main_v120 ((extractStridedSlice S96446x1 ![0, 7] · slices_S96446x27_S96446x1_0_7) : (⟨S96446x27, .i32⟩ : BufTy).Contents (Elt F) → (⟨S96446x1, .i32⟩ : BufTy).Contents (Elt F))
  :: StableHlo.reshape main_v120 main_v121 rfl shapeCasts_S96446x1_S96446
  :: StableHlo.nullary main_c_20 (constantI S_ 32 0#32)
  :: StableHlo.unary main_c_20 main_v122 (broadcastInDim S96446 ![] bcast_S_S96446 : (⟨S_, .i32⟩ : BufTy).Contents (Elt F) → (⟨S96446, .i32⟩ : BufTy).Contents (Elt F))
  :: StableHlo.binary main_v121 main_v122 main_v123 (cmpi .slt : (⟨S96446, .i32⟩ : BufTy).Contents (Elt F) → (⟨S96446, .i32⟩ : BufTy).Contents (Elt F) → (⟨S96446, .i1⟩ : BufTy).Contents (Elt F))
  :: StableHlo.nullary main_c_21 (constantI S_ 32 96768#32)
  :: StableHlo.unary main_c_21 main_v124 (broadcastInDim S96446 ![] bcast_S_S96446 : (⟨S_, .i32⟩ : BufTy).Contents (Elt F) → (⟨S96446, .i32⟩ : BufTy).Contents (Elt F))
  :: StableHlo.binary main_v121 main_v124 main_v125 (addi : (⟨S96446, .i32⟩ : BufTy).Contents (Elt F) → (⟨S96446, .i32⟩ : BufTy).Contents (Elt F) → (⟨S96446, .i32⟩ : BufTy).Contents (Elt F))
  :: StableHlo.ternary main_v123 main_v125 main_v121 main_v126 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v126 main_v127 (broadcastInDim S96446x1 ![0] bcast_S96446_S96446x1_0 : (⟨S96446, .i32⟩ : BufTy).Contents (Elt F) → (⟨S96446x1, .i32⟩ : BufTy).Contents (Elt F))
  :: StableHlo.binary main_v119 main_v127 main_v128 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v128 main_v129 ((extf .f32 · bitsLt_bf16_f32) : (⟨S96446x96, .bf16⟩ : BufTy).Contents (Elt F) → (⟨S96446x96, .f32⟩ : BufTy).Contents (Elt F))
  :: StableHlo.binary main_v117 main_v129 main_v130 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 8. -/
abbrev tap8 : List (HloOp τ sig (Elt F)) :=
  ( StableHlo.unary main_v25 main_v131 ((extractStridedSlice S96768x1x96 ![0, 8, 0] · slices_S96768x27x96_S96768x1x96_0_8_0) : (⟨S96768x27x96, .bf16⟩ : BufTy).Contents (Elt F) → (⟨S96768x1x96, .bf16⟩ : BufTy).Contents (Elt F))
  :: StableHlo.reshape main_v131 main_v132 rfl shapeCasts_S96768x1x96_S96768x96
  :: StableHlo.unary main_arg9 main_v133 ((extractStridedSlice S96446x1 ![0, 8] · slices_S96446x27_S96446x1_0_8) : (⟨S96446x27, .i32⟩ : BufTy).Contents (Elt F) → (⟨S96446x1, .i32⟩ : BufTy).Contents (Elt F))
  :: StableHlo.reshape main_v133 main_v134 rfl shapeCasts_S96446x1_S96446
  :: StableHlo.nullary main_c_22 (constantI S_ 32 0#32)
  :: StableHlo.unary main_c_22 main_v135 (broadcastInDim S96446 ![] bcast_S_S96446 : (⟨S_, .i32⟩ : BufTy).Contents (Elt F) → (⟨S96446, .i32⟩ : BufTy).Contents (Elt F))
  :: StableHlo.binary main_v134 main_v135 main_v136 (cmpi .slt : (⟨S96446, .i32⟩ : BufTy).Contents (Elt F) → (⟨S96446, .i32⟩ : BufTy).Contents (Elt F) → (⟨S96446, .i1⟩ : BufTy).Contents (Elt F))
  :: StableHlo.nullary main_c_23 (constantI S_ 32 96768#32)
  :: StableHlo.unary main_c_23 main_v137 (broadcastInDim S96446 ![] bcast_S_S96446 : (⟨S_, .i32⟩ : BufTy).Contents (Elt F) → (⟨S96446, .i32⟩ : BufTy).Contents (Elt F))
  :: StableHlo.binary main_v134 main_v137 main_v138 (addi : (⟨S96446, .i32⟩ : BufTy).Contents (Elt F) → (⟨S96446, .i32⟩ : BufTy).Contents (Elt F) → (⟨S96446, .i32⟩ : BufTy).Contents (Elt F))
  :: StableHlo.ternary main_v136 main_v138 main_v134 main_v139 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v139 main_v140 (broadcastInDim S96446x1 ![0] bcast_S96446_S96446x1_0 : (⟨S96446, .i32⟩ : BufTy).Contents (Elt F) → (⟨S96446x1, .i32⟩ : BufTy).Contents (Elt F))
  :: StableHlo.binary main_v132 main_v140 main_v141 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v141 main_v142 ((extf .f32 · bitsLt_bf16_f32) : (⟨S96446x96, .bf16⟩ : BufTy).Contents (Elt F) → (⟨S96446x96, .f32⟩ : BufTy).Contents (Elt F))
  :: StableHlo.binary main_v130 main_v142 main_v143 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 9. -/
abbrev tap9 : List (HloOp τ sig (Elt F)) :=
  ( StableHlo.unary main_v25 main_v144 ((extractStridedSlice S96768x1x96 ![0, 9, 0] · slices_S96768x27x96_S96768x1x96_0_9_0) : (⟨S96768x27x96, .bf16⟩ : BufTy).Contents (Elt F) → (⟨S96768x1x96, .bf16⟩ : BufTy).Contents (Elt F))
  :: StableHlo.reshape main_v144 main_v145 rfl shapeCasts_S96768x1x96_S96768x96
  :: StableHlo.unary main_arg9 main_v146 ((extractStridedSlice S96446x1 ![0, 9] · slices_S96446x27_S96446x1_0_9) : (⟨S96446x27, .i32⟩ : BufTy).Contents (Elt F) → (⟨S96446x1, .i32⟩ : BufTy).Contents (Elt F))
  :: StableHlo.reshape main_v146 main_v147 rfl shapeCasts_S96446x1_S96446
  :: StableHlo.nullary main_c_24 (constantI S_ 32 0#32)
  :: StableHlo.unary main_c_24 main_v148 (broadcastInDim S96446 ![] bcast_S_S96446 : (⟨S_, .i32⟩ : BufTy).Contents (Elt F) → (⟨S96446, .i32⟩ : BufTy).Contents (Elt F))
  :: StableHlo.binary main_v147 main_v148 main_v149 (cmpi .slt : (⟨S96446, .i32⟩ : BufTy).Contents (Elt F) → (⟨S96446, .i32⟩ : BufTy).Contents (Elt F) → (⟨S96446, .i1⟩ : BufTy).Contents (Elt F))
  :: StableHlo.nullary main_c_25 (constantI S_ 32 96768#32)
  :: StableHlo.unary main_c_25 main_v150 (broadcastInDim S96446 ![] bcast_S_S96446 : (⟨S_, .i32⟩ : BufTy).Contents (Elt F) → (⟨S96446, .i32⟩ : BufTy).Contents (Elt F))
  :: StableHlo.binary main_v147 main_v150 main_v151 (addi : (⟨S96446, .i32⟩ : BufTy).Contents (Elt F) → (⟨S96446, .i32⟩ : BufTy).Contents (Elt F) → (⟨S96446, .i32⟩ : BufTy).Contents (Elt F))
  :: StableHlo.ternary main_v149 main_v151 main_v147 main_v152 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v152 main_v153 (broadcastInDim S96446x1 ![0] bcast_S96446_S96446x1_0 : (⟨S96446, .i32⟩ : BufTy).Contents (Elt F) → (⟨S96446x1, .i32⟩ : BufTy).Contents (Elt F))
  :: StableHlo.binary main_v145 main_v153 main_v154 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v154 main_v155 ((extf .f32 · bitsLt_bf16_f32) : (⟨S96446x96, .bf16⟩ : BufTy).Contents (Elt F) → (⟨S96446x96, .f32⟩ : BufTy).Contents (Elt F))
  :: StableHlo.binary main_v143 main_v155 main_v156 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 10. -/
abbrev tap10 : List (HloOp τ sig (Elt F)) :=
  ( StableHlo.unary main_v25 main_v157 ((extractStridedSlice S96768x1x96 ![0, 10, 0] · slices_S96768x27x96_S96768x1x96_0_10_0) : (⟨S96768x27x96, .bf16⟩ : BufTy).Contents (Elt F) → (⟨S96768x1x96, .bf16⟩ : BufTy).Contents (Elt F))
  :: StableHlo.reshape main_v157 main_v158 rfl shapeCasts_S96768x1x96_S96768x96
  :: StableHlo.unary main_arg9 main_v159 ((extractStridedSlice S96446x1 ![0, 10] · slices_S96446x27_S96446x1_0_10) : (⟨S96446x27, .i32⟩ : BufTy).Contents (Elt F) → (⟨S96446x1, .i32⟩ : BufTy).Contents (Elt F))
  :: StableHlo.reshape main_v159 main_v160 rfl shapeCasts_S96446x1_S96446
  :: StableHlo.nullary main_c_26 (constantI S_ 32 0#32)
  :: StableHlo.unary main_c_26 main_v161 (broadcastInDim S96446 ![] bcast_S_S96446 : (⟨S_, .i32⟩ : BufTy).Contents (Elt F) → (⟨S96446, .i32⟩ : BufTy).Contents (Elt F))
  :: StableHlo.binary main_v160 main_v161 main_v162 (cmpi .slt : (⟨S96446, .i32⟩ : BufTy).Contents (Elt F) → (⟨S96446, .i32⟩ : BufTy).Contents (Elt F) → (⟨S96446, .i1⟩ : BufTy).Contents (Elt F))
  :: StableHlo.nullary main_c_27 (constantI S_ 32 96768#32)
  :: StableHlo.unary main_c_27 main_v163 (broadcastInDim S96446 ![] bcast_S_S96446 : (⟨S_, .i32⟩ : BufTy).Contents (Elt F) → (⟨S96446, .i32⟩ : BufTy).Contents (Elt F))
  :: StableHlo.binary main_v160 main_v163 main_v164 (addi : (⟨S96446, .i32⟩ : BufTy).Contents (Elt F) → (⟨S96446, .i32⟩ : BufTy).Contents (Elt F) → (⟨S96446, .i32⟩ : BufTy).Contents (Elt F))
  :: StableHlo.ternary main_v162 main_v164 main_v160 main_v165 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v165 main_v166 (broadcastInDim S96446x1 ![0] bcast_S96446_S96446x1_0 : (⟨S96446, .i32⟩ : BufTy).Contents (Elt F) → (⟨S96446x1, .i32⟩ : BufTy).Contents (Elt F))
  :: StableHlo.binary main_v158 main_v166 main_v167 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v167 main_v168 ((extf .f32 · bitsLt_bf16_f32) : (⟨S96446x96, .bf16⟩ : BufTy).Contents (Elt F) → (⟨S96446x96, .f32⟩ : BufTy).Contents (Elt F))
  :: StableHlo.binary main_v156 main_v168 main_v169 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 11. -/
abbrev tap11 : List (HloOp τ sig (Elt F)) :=
  ( StableHlo.unary main_v25 main_v170 ((extractStridedSlice S96768x1x96 ![0, 11, 0] · slices_S96768x27x96_S96768x1x96_0_11_0) : (⟨S96768x27x96, .bf16⟩ : BufTy).Contents (Elt F) → (⟨S96768x1x96, .bf16⟩ : BufTy).Contents (Elt F))
  :: StableHlo.reshape main_v170 main_v171 rfl shapeCasts_S96768x1x96_S96768x96
  :: StableHlo.unary main_arg9 main_v172 ((extractStridedSlice S96446x1 ![0, 11] · slices_S96446x27_S96446x1_0_11) : (⟨S96446x27, .i32⟩ : BufTy).Contents (Elt F) → (⟨S96446x1, .i32⟩ : BufTy).Contents (Elt F))
  :: StableHlo.reshape main_v172 main_v173 rfl shapeCasts_S96446x1_S96446
  :: StableHlo.nullary main_c_28 (constantI S_ 32 0#32)
  :: StableHlo.unary main_c_28 main_v174 (broadcastInDim S96446 ![] bcast_S_S96446 : (⟨S_, .i32⟩ : BufTy).Contents (Elt F) → (⟨S96446, .i32⟩ : BufTy).Contents (Elt F))
  :: StableHlo.binary main_v173 main_v174 main_v175 (cmpi .slt : (⟨S96446, .i32⟩ : BufTy).Contents (Elt F) → (⟨S96446, .i32⟩ : BufTy).Contents (Elt F) → (⟨S96446, .i1⟩ : BufTy).Contents (Elt F))
  :: StableHlo.nullary main_c_29 (constantI S_ 32 96768#32)
  :: StableHlo.unary main_c_29 main_v176 (broadcastInDim S96446 ![] bcast_S_S96446 : (⟨S_, .i32⟩ : BufTy).Contents (Elt F) → (⟨S96446, .i32⟩ : BufTy).Contents (Elt F))
  :: StableHlo.binary main_v173 main_v176 main_v177 (addi : (⟨S96446, .i32⟩ : BufTy).Contents (Elt F) → (⟨S96446, .i32⟩ : BufTy).Contents (Elt F) → (⟨S96446, .i32⟩ : BufTy).Contents (Elt F))
  :: StableHlo.ternary main_v175 main_v177 main_v173 main_v178 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v178 main_v179 (broadcastInDim S96446x1 ![0] bcast_S96446_S96446x1_0 : (⟨S96446, .i32⟩ : BufTy).Contents (Elt F) → (⟨S96446x1, .i32⟩ : BufTy).Contents (Elt F))
  :: StableHlo.binary main_v171 main_v179 main_v180 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v180 main_v181 ((extf .f32 · bitsLt_bf16_f32) : (⟨S96446x96, .bf16⟩ : BufTy).Contents (Elt F) → (⟨S96446x96, .f32⟩ : BufTy).Contents (Elt F))
  :: StableHlo.binary main_v169 main_v181 main_v182 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 12. -/
abbrev tap12 : List (HloOp τ sig (Elt F)) :=
  ( StableHlo.unary main_v25 main_v183 ((extractStridedSlice S96768x1x96 ![0, 12, 0] · slices_S96768x27x96_S96768x1x96_0_12_0) : (⟨S96768x27x96, .bf16⟩ : BufTy).Contents (Elt F) → (⟨S96768x1x96, .bf16⟩ : BufTy).Contents (Elt F))
  :: StableHlo.reshape main_v183 main_v184 rfl shapeCasts_S96768x1x96_S96768x96
  :: StableHlo.unary main_arg9 main_v185 ((extractStridedSlice S96446x1 ![0, 12] · slices_S96446x27_S96446x1_0_12) : (⟨S96446x27, .i32⟩ : BufTy).Contents (Elt F) → (⟨S96446x1, .i32⟩ : BufTy).Contents (Elt F))
  :: StableHlo.reshape main_v185 main_v186 rfl shapeCasts_S96446x1_S96446
  :: StableHlo.nullary main_c_30 (constantI S_ 32 0#32)
  :: StableHlo.unary main_c_30 main_v187 (broadcastInDim S96446 ![] bcast_S_S96446 : (⟨S_, .i32⟩ : BufTy).Contents (Elt F) → (⟨S96446, .i32⟩ : BufTy).Contents (Elt F))
  :: StableHlo.binary main_v186 main_v187 main_v188 (cmpi .slt : (⟨S96446, .i32⟩ : BufTy).Contents (Elt F) → (⟨S96446, .i32⟩ : BufTy).Contents (Elt F) → (⟨S96446, .i1⟩ : BufTy).Contents (Elt F))
  :: StableHlo.nullary main_c_31 (constantI S_ 32 96768#32)
  :: StableHlo.unary main_c_31 main_v189 (broadcastInDim S96446 ![] bcast_S_S96446 : (⟨S_, .i32⟩ : BufTy).Contents (Elt F) → (⟨S96446, .i32⟩ : BufTy).Contents (Elt F))
  :: StableHlo.binary main_v186 main_v189 main_v190 (addi : (⟨S96446, .i32⟩ : BufTy).Contents (Elt F) → (⟨S96446, .i32⟩ : BufTy).Contents (Elt F) → (⟨S96446, .i32⟩ : BufTy).Contents (Elt F))
  :: StableHlo.ternary main_v188 main_v190 main_v186 main_v191 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v191 main_v192 (broadcastInDim S96446x1 ![0] bcast_S96446_S96446x1_0 : (⟨S96446, .i32⟩ : BufTy).Contents (Elt F) → (⟨S96446x1, .i32⟩ : BufTy).Contents (Elt F))
  :: StableHlo.binary main_v184 main_v192 main_v193 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v193 main_v194 ((extf .f32 · bitsLt_bf16_f32) : (⟨S96446x96, .bf16⟩ : BufTy).Contents (Elt F) → (⟨S96446x96, .f32⟩ : BufTy).Contents (Elt F))
  :: StableHlo.binary main_v182 main_v194 main_v195 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 13. -/
abbrev tap13 : List (HloOp τ sig (Elt F)) :=
  ( StableHlo.unary main_v25 main_v196 ((extractStridedSlice S96768x1x96 ![0, 13, 0] · slices_S96768x27x96_S96768x1x96_0_13_0) : (⟨S96768x27x96, .bf16⟩ : BufTy).Contents (Elt F) → (⟨S96768x1x96, .bf16⟩ : BufTy).Contents (Elt F))
  :: StableHlo.reshape main_v196 main_v197 rfl shapeCasts_S96768x1x96_S96768x96
  :: StableHlo.unary main_arg9 main_v198 ((extractStridedSlice S96446x1 ![0, 13] · slices_S96446x27_S96446x1_0_13) : (⟨S96446x27, .i32⟩ : BufTy).Contents (Elt F) → (⟨S96446x1, .i32⟩ : BufTy).Contents (Elt F))
  :: StableHlo.reshape main_v198 main_v199 rfl shapeCasts_S96446x1_S96446
  :: StableHlo.nullary main_c_32 (constantI S_ 32 0#32)
  :: StableHlo.unary main_c_32 main_v200 (broadcastInDim S96446 ![] bcast_S_S96446 : (⟨S_, .i32⟩ : BufTy).Contents (Elt F) → (⟨S96446, .i32⟩ : BufTy).Contents (Elt F))
  :: StableHlo.binary main_v199 main_v200 main_v201 (cmpi .slt : (⟨S96446, .i32⟩ : BufTy).Contents (Elt F) → (⟨S96446, .i32⟩ : BufTy).Contents (Elt F) → (⟨S96446, .i1⟩ : BufTy).Contents (Elt F))
  :: StableHlo.nullary main_c_33 (constantI S_ 32 96768#32)
  :: StableHlo.unary main_c_33 main_v202 (broadcastInDim S96446 ![] bcast_S_S96446 : (⟨S_, .i32⟩ : BufTy).Contents (Elt F) → (⟨S96446, .i32⟩ : BufTy).Contents (Elt F))
  :: StableHlo.binary main_v199 main_v202 main_v203 (addi : (⟨S96446, .i32⟩ : BufTy).Contents (Elt F) → (⟨S96446, .i32⟩ : BufTy).Contents (Elt F) → (⟨S96446, .i32⟩ : BufTy).Contents (Elt F))
  :: StableHlo.ternary main_v201 main_v203 main_v199 main_v204 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v204 main_v205 (broadcastInDim S96446x1 ![0] bcast_S96446_S96446x1_0 : (⟨S96446, .i32⟩ : BufTy).Contents (Elt F) → (⟨S96446x1, .i32⟩ : BufTy).Contents (Elt F))
  :: StableHlo.binary main_v197 main_v205 main_v206 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v206 main_v207 ((extf .f32 · bitsLt_bf16_f32) : (⟨S96446x96, .bf16⟩ : BufTy).Contents (Elt F) → (⟨S96446x96, .f32⟩ : BufTy).Contents (Elt F))
  :: StableHlo.binary main_v195 main_v207 main_v208 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 14. -/
abbrev tap14 : List (HloOp τ sig (Elt F)) :=
  ( StableHlo.unary main_v25 main_v209 ((extractStridedSlice S96768x1x96 ![0, 14, 0] · slices_S96768x27x96_S96768x1x96_0_14_0) : (⟨S96768x27x96, .bf16⟩ : BufTy).Contents (Elt F) → (⟨S96768x1x96, .bf16⟩ : BufTy).Contents (Elt F))
  :: StableHlo.reshape main_v209 main_v210 rfl shapeCasts_S96768x1x96_S96768x96
  :: StableHlo.unary main_arg9 main_v211 ((extractStridedSlice S96446x1 ![0, 14] · slices_S96446x27_S96446x1_0_14) : (⟨S96446x27, .i32⟩ : BufTy).Contents (Elt F) → (⟨S96446x1, .i32⟩ : BufTy).Contents (Elt F))
  :: StableHlo.reshape main_v211 main_v212 rfl shapeCasts_S96446x1_S96446
  :: StableHlo.nullary main_c_34 (constantI S_ 32 0#32)
  :: StableHlo.unary main_c_34 main_v213 (broadcastInDim S96446 ![] bcast_S_S96446 : (⟨S_, .i32⟩ : BufTy).Contents (Elt F) → (⟨S96446, .i32⟩ : BufTy).Contents (Elt F))
  :: StableHlo.binary main_v212 main_v213 main_v214 (cmpi .slt : (⟨S96446, .i32⟩ : BufTy).Contents (Elt F) → (⟨S96446, .i32⟩ : BufTy).Contents (Elt F) → (⟨S96446, .i1⟩ : BufTy).Contents (Elt F))
  :: StableHlo.nullary main_c_35 (constantI S_ 32 96768#32)
  :: StableHlo.unary main_c_35 main_v215 (broadcastInDim S96446 ![] bcast_S_S96446 : (⟨S_, .i32⟩ : BufTy).Contents (Elt F) → (⟨S96446, .i32⟩ : BufTy).Contents (Elt F))
  :: StableHlo.binary main_v212 main_v215 main_v216 (addi : (⟨S96446, .i32⟩ : BufTy).Contents (Elt F) → (⟨S96446, .i32⟩ : BufTy).Contents (Elt F) → (⟨S96446, .i32⟩ : BufTy).Contents (Elt F))
  :: StableHlo.ternary main_v214 main_v216 main_v212 main_v217 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v217 main_v218 (broadcastInDim S96446x1 ![0] bcast_S96446_S96446x1_0 : (⟨S96446, .i32⟩ : BufTy).Contents (Elt F) → (⟨S96446x1, .i32⟩ : BufTy).Contents (Elt F))
  :: StableHlo.binary main_v210 main_v218 main_v219 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v219 main_v220 ((extf .f32 · bitsLt_bf16_f32) : (⟨S96446x96, .bf16⟩ : BufTy).Contents (Elt F) → (⟨S96446x96, .f32⟩ : BufTy).Contents (Elt F))
  :: StableHlo.binary main_v208 main_v220 main_v221 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 15. -/
abbrev tap15 : List (HloOp τ sig (Elt F)) :=
  ( StableHlo.unary main_v25 main_v222 ((extractStridedSlice S96768x1x96 ![0, 15, 0] · slices_S96768x27x96_S96768x1x96_0_15_0) : (⟨S96768x27x96, .bf16⟩ : BufTy).Contents (Elt F) → (⟨S96768x1x96, .bf16⟩ : BufTy).Contents (Elt F))
  :: StableHlo.reshape main_v222 main_v223 rfl shapeCasts_S96768x1x96_S96768x96
  :: StableHlo.unary main_arg9 main_v224 ((extractStridedSlice S96446x1 ![0, 15] · slices_S96446x27_S96446x1_0_15) : (⟨S96446x27, .i32⟩ : BufTy).Contents (Elt F) → (⟨S96446x1, .i32⟩ : BufTy).Contents (Elt F))
  :: StableHlo.reshape main_v224 main_v225 rfl shapeCasts_S96446x1_S96446
  :: StableHlo.nullary main_c_36 (constantI S_ 32 0#32)
  :: StableHlo.unary main_c_36 main_v226 (broadcastInDim S96446 ![] bcast_S_S96446 : (⟨S_, .i32⟩ : BufTy).Contents (Elt F) → (⟨S96446, .i32⟩ : BufTy).Contents (Elt F))
  :: StableHlo.binary main_v225 main_v226 main_v227 (cmpi .slt : (⟨S96446, .i32⟩ : BufTy).Contents (Elt F) → (⟨S96446, .i32⟩ : BufTy).Contents (Elt F) → (⟨S96446, .i1⟩ : BufTy).Contents (Elt F))
  :: StableHlo.nullary main_c_37 (constantI S_ 32 96768#32)
  :: StableHlo.unary main_c_37 main_v228 (broadcastInDim S96446 ![] bcast_S_S96446 : (⟨S_, .i32⟩ : BufTy).Contents (Elt F) → (⟨S96446, .i32⟩ : BufTy).Contents (Elt F))
  :: StableHlo.binary main_v225 main_v228 main_v229 (addi : (⟨S96446, .i32⟩ : BufTy).Contents (Elt F) → (⟨S96446, .i32⟩ : BufTy).Contents (Elt F) → (⟨S96446, .i32⟩ : BufTy).Contents (Elt F))
  :: StableHlo.ternary main_v227 main_v229 main_v225 main_v230 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v230 main_v231 (broadcastInDim S96446x1 ![0] bcast_S96446_S96446x1_0 : (⟨S96446, .i32⟩ : BufTy).Contents (Elt F) → (⟨S96446x1, .i32⟩ : BufTy).Contents (Elt F))
  :: StableHlo.binary main_v223 main_v231 main_v232 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v232 main_v233 ((extf .f32 · bitsLt_bf16_f32) : (⟨S96446x96, .bf16⟩ : BufTy).Contents (Elt F) → (⟨S96446x96, .f32⟩ : BufTy).Contents (Elt F))
  :: StableHlo.binary main_v221 main_v233 main_v234 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 16. -/
abbrev tap16 : List (HloOp τ sig (Elt F)) :=
  ( StableHlo.unary main_v25 main_v235 ((extractStridedSlice S96768x1x96 ![0, 16, 0] · slices_S96768x27x96_S96768x1x96_0_16_0) : (⟨S96768x27x96, .bf16⟩ : BufTy).Contents (Elt F) → (⟨S96768x1x96, .bf16⟩ : BufTy).Contents (Elt F))
  :: StableHlo.reshape main_v235 main_v236 rfl shapeCasts_S96768x1x96_S96768x96
  :: StableHlo.unary main_arg9 main_v237 ((extractStridedSlice S96446x1 ![0, 16] · slices_S96446x27_S96446x1_0_16) : (⟨S96446x27, .i32⟩ : BufTy).Contents (Elt F) → (⟨S96446x1, .i32⟩ : BufTy).Contents (Elt F))
  :: StableHlo.reshape main_v237 main_v238 rfl shapeCasts_S96446x1_S96446
  :: StableHlo.nullary main_c_38 (constantI S_ 32 0#32)
  :: StableHlo.unary main_c_38 main_v239 (broadcastInDim S96446 ![] bcast_S_S96446 : (⟨S_, .i32⟩ : BufTy).Contents (Elt F) → (⟨S96446, .i32⟩ : BufTy).Contents (Elt F))
  :: StableHlo.binary main_v238 main_v239 main_v240 (cmpi .slt : (⟨S96446, .i32⟩ : BufTy).Contents (Elt F) → (⟨S96446, .i32⟩ : BufTy).Contents (Elt F) → (⟨S96446, .i1⟩ : BufTy).Contents (Elt F))
  :: StableHlo.nullary main_c_39 (constantI S_ 32 96768#32)
  :: StableHlo.unary main_c_39 main_v241 (broadcastInDim S96446 ![] bcast_S_S96446 : (⟨S_, .i32⟩ : BufTy).Contents (Elt F) → (⟨S96446, .i32⟩ : BufTy).Contents (Elt F))
  :: StableHlo.binary main_v238 main_v241 main_v242 (addi : (⟨S96446, .i32⟩ : BufTy).Contents (Elt F) → (⟨S96446, .i32⟩ : BufTy).Contents (Elt F) → (⟨S96446, .i32⟩ : BufTy).Contents (Elt F))
  :: StableHlo.ternary main_v240 main_v242 main_v238 main_v243 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v243 main_v244 (broadcastInDim S96446x1 ![0] bcast_S96446_S96446x1_0 : (⟨S96446, .i32⟩ : BufTy).Contents (Elt F) → (⟨S96446x1, .i32⟩ : BufTy).Contents (Elt F))
  :: StableHlo.binary main_v236 main_v244 main_v245 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v245 main_v246 ((extf .f32 · bitsLt_bf16_f32) : (⟨S96446x96, .bf16⟩ : BufTy).Contents (Elt F) → (⟨S96446x96, .f32⟩ : BufTy).Contents (Elt F))
  :: StableHlo.binary main_v234 main_v246 main_v247 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 17. -/
abbrev tap17 : List (HloOp τ sig (Elt F)) :=
  ( StableHlo.unary main_v25 main_v248 ((extractStridedSlice S96768x1x96 ![0, 17, 0] · slices_S96768x27x96_S96768x1x96_0_17_0) : (⟨S96768x27x96, .bf16⟩ : BufTy).Contents (Elt F) → (⟨S96768x1x96, .bf16⟩ : BufTy).Contents (Elt F))
  :: StableHlo.reshape main_v248 main_v249 rfl shapeCasts_S96768x1x96_S96768x96
  :: StableHlo.unary main_arg9 main_v250 ((extractStridedSlice S96446x1 ![0, 17] · slices_S96446x27_S96446x1_0_17) : (⟨S96446x27, .i32⟩ : BufTy).Contents (Elt F) → (⟨S96446x1, .i32⟩ : BufTy).Contents (Elt F))
  :: StableHlo.reshape main_v250 main_v251 rfl shapeCasts_S96446x1_S96446
  :: StableHlo.nullary main_c_40 (constantI S_ 32 0#32)
  :: StableHlo.unary main_c_40 main_v252 (broadcastInDim S96446 ![] bcast_S_S96446 : (⟨S_, .i32⟩ : BufTy).Contents (Elt F) → (⟨S96446, .i32⟩ : BufTy).Contents (Elt F))
  :: StableHlo.binary main_v251 main_v252 main_v253 (cmpi .slt : (⟨S96446, .i32⟩ : BufTy).Contents (Elt F) → (⟨S96446, .i32⟩ : BufTy).Contents (Elt F) → (⟨S96446, .i1⟩ : BufTy).Contents (Elt F))
  :: StableHlo.nullary main_c_41 (constantI S_ 32 96768#32)
  :: StableHlo.unary main_c_41 main_v254 (broadcastInDim S96446 ![] bcast_S_S96446 : (⟨S_, .i32⟩ : BufTy).Contents (Elt F) → (⟨S96446, .i32⟩ : BufTy).Contents (Elt F))
  :: StableHlo.binary main_v251 main_v254 main_v255 (addi : (⟨S96446, .i32⟩ : BufTy).Contents (Elt F) → (⟨S96446, .i32⟩ : BufTy).Contents (Elt F) → (⟨S96446, .i32⟩ : BufTy).Contents (Elt F))
  :: StableHlo.ternary main_v253 main_v255 main_v251 main_v256 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v256 main_v257 (broadcastInDim S96446x1 ![0] bcast_S96446_S96446x1_0 : (⟨S96446, .i32⟩ : BufTy).Contents (Elt F) → (⟨S96446x1, .i32⟩ : BufTy).Contents (Elt F))
  :: StableHlo.binary main_v249 main_v257 main_v258 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v258 main_v259 ((extf .f32 · bitsLt_bf16_f32) : (⟨S96446x96, .bf16⟩ : BufTy).Contents (Elt F) → (⟨S96446x96, .f32⟩ : BufTy).Contents (Elt F))
  :: StableHlo.binary main_v247 main_v259 main_v260 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 18. -/
abbrev tap18 : List (HloOp τ sig (Elt F)) :=
  ( StableHlo.unary main_v25 main_v261 ((extractStridedSlice S96768x1x96 ![0, 18, 0] · slices_S96768x27x96_S96768x1x96_0_18_0) : (⟨S96768x27x96, .bf16⟩ : BufTy).Contents (Elt F) → (⟨S96768x1x96, .bf16⟩ : BufTy).Contents (Elt F))
  :: StableHlo.reshape main_v261 main_v262 rfl shapeCasts_S96768x1x96_S96768x96
  :: StableHlo.unary main_arg9 main_v263 ((extractStridedSlice S96446x1 ![0, 18] · slices_S96446x27_S96446x1_0_18) : (⟨S96446x27, .i32⟩ : BufTy).Contents (Elt F) → (⟨S96446x1, .i32⟩ : BufTy).Contents (Elt F))
  :: StableHlo.reshape main_v263 main_v264 rfl shapeCasts_S96446x1_S96446
  :: StableHlo.nullary main_c_42 (constantI S_ 32 0#32)
  :: StableHlo.unary main_c_42 main_v265 (broadcastInDim S96446 ![] bcast_S_S96446 : (⟨S_, .i32⟩ : BufTy).Contents (Elt F) → (⟨S96446, .i32⟩ : BufTy).Contents (Elt F))
  :: StableHlo.binary main_v264 main_v265 main_v266 (cmpi .slt : (⟨S96446, .i32⟩ : BufTy).Contents (Elt F) → (⟨S96446, .i32⟩ : BufTy).Contents (Elt F) → (⟨S96446, .i1⟩ : BufTy).Contents (Elt F))
  :: StableHlo.nullary main_c_43 (constantI S_ 32 96768#32)
  :: StableHlo.unary main_c_43 main_v267 (broadcastInDim S96446 ![] bcast_S_S96446 : (⟨S_, .i32⟩ : BufTy).Contents (Elt F) → (⟨S96446, .i32⟩ : BufTy).Contents (Elt F))
  :: StableHlo.binary main_v264 main_v267 main_v268 (addi : (⟨S96446, .i32⟩ : BufTy).Contents (Elt F) → (⟨S96446, .i32⟩ : BufTy).Contents (Elt F) → (⟨S96446, .i32⟩ : BufTy).Contents (Elt F))
  :: StableHlo.ternary main_v266 main_v268 main_v264 main_v269 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v269 main_v270 (broadcastInDim S96446x1 ![0] bcast_S96446_S96446x1_0 : (⟨S96446, .i32⟩ : BufTy).Contents (Elt F) → (⟨S96446x1, .i32⟩ : BufTy).Contents (Elt F))
  :: StableHlo.binary main_v262 main_v270 main_v271 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v271 main_v272 ((extf .f32 · bitsLt_bf16_f32) : (⟨S96446x96, .bf16⟩ : BufTy).Contents (Elt F) → (⟨S96446x96, .f32⟩ : BufTy).Contents (Elt F))
  :: StableHlo.binary main_v260 main_v272 main_v273 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 19. -/
abbrev tap19 : List (HloOp τ sig (Elt F)) :=
  ( StableHlo.unary main_v25 main_v274 ((extractStridedSlice S96768x1x96 ![0, 19, 0] · slices_S96768x27x96_S96768x1x96_0_19_0) : (⟨S96768x27x96, .bf16⟩ : BufTy).Contents (Elt F) → (⟨S96768x1x96, .bf16⟩ : BufTy).Contents (Elt F))
  :: StableHlo.reshape main_v274 main_v275 rfl shapeCasts_S96768x1x96_S96768x96
  :: StableHlo.unary main_arg9 main_v276 ((extractStridedSlice S96446x1 ![0, 19] · slices_S96446x27_S96446x1_0_19) : (⟨S96446x27, .i32⟩ : BufTy).Contents (Elt F) → (⟨S96446x1, .i32⟩ : BufTy).Contents (Elt F))
  :: StableHlo.reshape main_v276 main_v277 rfl shapeCasts_S96446x1_S96446
  :: StableHlo.nullary main_c_44 (constantI S_ 32 0#32)
  :: StableHlo.unary main_c_44 main_v278 (broadcastInDim S96446 ![] bcast_S_S96446 : (⟨S_, .i32⟩ : BufTy).Contents (Elt F) → (⟨S96446, .i32⟩ : BufTy).Contents (Elt F))
  :: StableHlo.binary main_v277 main_v278 main_v279 (cmpi .slt : (⟨S96446, .i32⟩ : BufTy).Contents (Elt F) → (⟨S96446, .i32⟩ : BufTy).Contents (Elt F) → (⟨S96446, .i1⟩ : BufTy).Contents (Elt F))
  :: StableHlo.nullary main_c_45 (constantI S_ 32 96768#32)
  :: StableHlo.unary main_c_45 main_v280 (broadcastInDim S96446 ![] bcast_S_S96446 : (⟨S_, .i32⟩ : BufTy).Contents (Elt F) → (⟨S96446, .i32⟩ : BufTy).Contents (Elt F))
  :: StableHlo.binary main_v277 main_v280 main_v281 (addi : (⟨S96446, .i32⟩ : BufTy).Contents (Elt F) → (⟨S96446, .i32⟩ : BufTy).Contents (Elt F) → (⟨S96446, .i32⟩ : BufTy).Contents (Elt F))
  :: StableHlo.ternary main_v279 main_v281 main_v277 main_v282 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v282 main_v283 (broadcastInDim S96446x1 ![0] bcast_S96446_S96446x1_0 : (⟨S96446, .i32⟩ : BufTy).Contents (Elt F) → (⟨S96446x1, .i32⟩ : BufTy).Contents (Elt F))
  :: StableHlo.binary main_v275 main_v283 main_v284 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v284 main_v285 ((extf .f32 · bitsLt_bf16_f32) : (⟨S96446x96, .bf16⟩ : BufTy).Contents (Elt F) → (⟨S96446x96, .f32⟩ : BufTy).Contents (Elt F))
  :: StableHlo.binary main_v273 main_v285 main_v286 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 20. -/
abbrev tap20 : List (HloOp τ sig (Elt F)) :=
  ( StableHlo.unary main_v25 main_v287 ((extractStridedSlice S96768x1x96 ![0, 20, 0] · slices_S96768x27x96_S96768x1x96_0_20_0) : (⟨S96768x27x96, .bf16⟩ : BufTy).Contents (Elt F) → (⟨S96768x1x96, .bf16⟩ : BufTy).Contents (Elt F))
  :: StableHlo.reshape main_v287 main_v288 rfl shapeCasts_S96768x1x96_S96768x96
  :: StableHlo.unary main_arg9 main_v289 ((extractStridedSlice S96446x1 ![0, 20] · slices_S96446x27_S96446x1_0_20) : (⟨S96446x27, .i32⟩ : BufTy).Contents (Elt F) → (⟨S96446x1, .i32⟩ : BufTy).Contents (Elt F))
  :: StableHlo.reshape main_v289 main_v290 rfl shapeCasts_S96446x1_S96446
  :: StableHlo.nullary main_c_46 (constantI S_ 32 0#32)
  :: StableHlo.unary main_c_46 main_v291 (broadcastInDim S96446 ![] bcast_S_S96446 : (⟨S_, .i32⟩ : BufTy).Contents (Elt F) → (⟨S96446, .i32⟩ : BufTy).Contents (Elt F))
  :: StableHlo.binary main_v290 main_v291 main_v292 (cmpi .slt : (⟨S96446, .i32⟩ : BufTy).Contents (Elt F) → (⟨S96446, .i32⟩ : BufTy).Contents (Elt F) → (⟨S96446, .i1⟩ : BufTy).Contents (Elt F))
  :: StableHlo.nullary main_c_47 (constantI S_ 32 96768#32)
  :: StableHlo.unary main_c_47 main_v293 (broadcastInDim S96446 ![] bcast_S_S96446 : (⟨S_, .i32⟩ : BufTy).Contents (Elt F) → (⟨S96446, .i32⟩ : BufTy).Contents (Elt F))
  :: StableHlo.binary main_v290 main_v293 main_v294 (addi : (⟨S96446, .i32⟩ : BufTy).Contents (Elt F) → (⟨S96446, .i32⟩ : BufTy).Contents (Elt F) → (⟨S96446, .i32⟩ : BufTy).Contents (Elt F))
  :: StableHlo.ternary main_v292 main_v294 main_v290 main_v295 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v295 main_v296 (broadcastInDim S96446x1 ![0] bcast_S96446_S96446x1_0 : (⟨S96446, .i32⟩ : BufTy).Contents (Elt F) → (⟨S96446x1, .i32⟩ : BufTy).Contents (Elt F))
  :: StableHlo.binary main_v288 main_v296 main_v297 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v297 main_v298 ((extf .f32 · bitsLt_bf16_f32) : (⟨S96446x96, .bf16⟩ : BufTy).Contents (Elt F) → (⟨S96446x96, .f32⟩ : BufTy).Contents (Elt F))
  :: StableHlo.binary main_v286 main_v298 main_v299 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 21. -/
abbrev tap21 : List (HloOp τ sig (Elt F)) :=
  ( StableHlo.unary main_v25 main_v300 ((extractStridedSlice S96768x1x96 ![0, 21, 0] · slices_S96768x27x96_S96768x1x96_0_21_0) : (⟨S96768x27x96, .bf16⟩ : BufTy).Contents (Elt F) → (⟨S96768x1x96, .bf16⟩ : BufTy).Contents (Elt F))
  :: StableHlo.reshape main_v300 main_v301 rfl shapeCasts_S96768x1x96_S96768x96
  :: StableHlo.unary main_arg9 main_v302 ((extractStridedSlice S96446x1 ![0, 21] · slices_S96446x27_S96446x1_0_21) : (⟨S96446x27, .i32⟩ : BufTy).Contents (Elt F) → (⟨S96446x1, .i32⟩ : BufTy).Contents (Elt F))
  :: StableHlo.reshape main_v302 main_v303 rfl shapeCasts_S96446x1_S96446
  :: StableHlo.nullary main_c_48 (constantI S_ 32 0#32)
  :: StableHlo.unary main_c_48 main_v304 (broadcastInDim S96446 ![] bcast_S_S96446 : (⟨S_, .i32⟩ : BufTy).Contents (Elt F) → (⟨S96446, .i32⟩ : BufTy).Contents (Elt F))
  :: StableHlo.binary main_v303 main_v304 main_v305 (cmpi .slt : (⟨S96446, .i32⟩ : BufTy).Contents (Elt F) → (⟨S96446, .i32⟩ : BufTy).Contents (Elt F) → (⟨S96446, .i1⟩ : BufTy).Contents (Elt F))
  :: StableHlo.nullary main_c_49 (constantI S_ 32 96768#32)
  :: StableHlo.unary main_c_49 main_v306 (broadcastInDim S96446 ![] bcast_S_S96446 : (⟨S_, .i32⟩ : BufTy).Contents (Elt F) → (⟨S96446, .i32⟩ : BufTy).Contents (Elt F))
  :: StableHlo.binary main_v303 main_v306 main_v307 (addi : (⟨S96446, .i32⟩ : BufTy).Contents (Elt F) → (⟨S96446, .i32⟩ : BufTy).Contents (Elt F) → (⟨S96446, .i32⟩ : BufTy).Contents (Elt F))
  :: StableHlo.ternary main_v305 main_v307 main_v303 main_v308 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v308 main_v309 (broadcastInDim S96446x1 ![0] bcast_S96446_S96446x1_0 : (⟨S96446, .i32⟩ : BufTy).Contents (Elt F) → (⟨S96446x1, .i32⟩ : BufTy).Contents (Elt F))
  :: StableHlo.binary main_v301 main_v309 main_v310 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v310 main_v311 ((extf .f32 · bitsLt_bf16_f32) : (⟨S96446x96, .bf16⟩ : BufTy).Contents (Elt F) → (⟨S96446x96, .f32⟩ : BufTy).Contents (Elt F))
  :: StableHlo.binary main_v299 main_v311 main_v312 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 22. -/
abbrev tap22 : List (HloOp τ sig (Elt F)) :=
  ( StableHlo.unary main_v25 main_v313 ((extractStridedSlice S96768x1x96 ![0, 22, 0] · slices_S96768x27x96_S96768x1x96_0_22_0) : (⟨S96768x27x96, .bf16⟩ : BufTy).Contents (Elt F) → (⟨S96768x1x96, .bf16⟩ : BufTy).Contents (Elt F))
  :: StableHlo.reshape main_v313 main_v314 rfl shapeCasts_S96768x1x96_S96768x96
  :: StableHlo.unary main_arg9 main_v315 ((extractStridedSlice S96446x1 ![0, 22] · slices_S96446x27_S96446x1_0_22) : (⟨S96446x27, .i32⟩ : BufTy).Contents (Elt F) → (⟨S96446x1, .i32⟩ : BufTy).Contents (Elt F))
  :: StableHlo.reshape main_v315 main_v316 rfl shapeCasts_S96446x1_S96446
  :: StableHlo.nullary main_c_50 (constantI S_ 32 0#32)
  :: StableHlo.unary main_c_50 main_v317 (broadcastInDim S96446 ![] bcast_S_S96446 : (⟨S_, .i32⟩ : BufTy).Contents (Elt F) → (⟨S96446, .i32⟩ : BufTy).Contents (Elt F))
  :: StableHlo.binary main_v316 main_v317 main_v318 (cmpi .slt : (⟨S96446, .i32⟩ : BufTy).Contents (Elt F) → (⟨S96446, .i32⟩ : BufTy).Contents (Elt F) → (⟨S96446, .i1⟩ : BufTy).Contents (Elt F))
  :: StableHlo.nullary main_c_51 (constantI S_ 32 96768#32)
  :: StableHlo.unary main_c_51 main_v319 (broadcastInDim S96446 ![] bcast_S_S96446 : (⟨S_, .i32⟩ : BufTy).Contents (Elt F) → (⟨S96446, .i32⟩ : BufTy).Contents (Elt F))
  :: StableHlo.binary main_v316 main_v319 main_v320 (addi : (⟨S96446, .i32⟩ : BufTy).Contents (Elt F) → (⟨S96446, .i32⟩ : BufTy).Contents (Elt F) → (⟨S96446, .i32⟩ : BufTy).Contents (Elt F))
  :: StableHlo.ternary main_v318 main_v320 main_v316 main_v321 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v321 main_v322 (broadcastInDim S96446x1 ![0] bcast_S96446_S96446x1_0 : (⟨S96446, .i32⟩ : BufTy).Contents (Elt F) → (⟨S96446x1, .i32⟩ : BufTy).Contents (Elt F))
  :: StableHlo.binary main_v314 main_v322 main_v323 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v323 main_v324 ((extf .f32 · bitsLt_bf16_f32) : (⟨S96446x96, .bf16⟩ : BufTy).Contents (Elt F) → (⟨S96446x96, .f32⟩ : BufTy).Contents (Elt F))
  :: StableHlo.binary main_v312 main_v324 main_v325 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 23. -/
abbrev tap23 : List (HloOp τ sig (Elt F)) :=
  ( StableHlo.unary main_v25 main_v326 ((extractStridedSlice S96768x1x96 ![0, 23, 0] · slices_S96768x27x96_S96768x1x96_0_23_0) : (⟨S96768x27x96, .bf16⟩ : BufTy).Contents (Elt F) → (⟨S96768x1x96, .bf16⟩ : BufTy).Contents (Elt F))
  :: StableHlo.reshape main_v326 main_v327 rfl shapeCasts_S96768x1x96_S96768x96
  :: StableHlo.unary main_arg9 main_v328 ((extractStridedSlice S96446x1 ![0, 23] · slices_S96446x27_S96446x1_0_23) : (⟨S96446x27, .i32⟩ : BufTy).Contents (Elt F) → (⟨S96446x1, .i32⟩ : BufTy).Contents (Elt F))
  :: StableHlo.reshape main_v328 main_v329 rfl shapeCasts_S96446x1_S96446
  :: StableHlo.nullary main_c_52 (constantI S_ 32 0#32)
  :: StableHlo.unary main_c_52 main_v330 (broadcastInDim S96446 ![] bcast_S_S96446 : (⟨S_, .i32⟩ : BufTy).Contents (Elt F) → (⟨S96446, .i32⟩ : BufTy).Contents (Elt F))
  :: StableHlo.binary main_v329 main_v330 main_v331 (cmpi .slt : (⟨S96446, .i32⟩ : BufTy).Contents (Elt F) → (⟨S96446, .i32⟩ : BufTy).Contents (Elt F) → (⟨S96446, .i1⟩ : BufTy).Contents (Elt F))
  :: StableHlo.nullary main_c_53 (constantI S_ 32 96768#32)
  :: StableHlo.unary main_c_53 main_v332 (broadcastInDim S96446 ![] bcast_S_S96446 : (⟨S_, .i32⟩ : BufTy).Contents (Elt F) → (⟨S96446, .i32⟩ : BufTy).Contents (Elt F))
  :: StableHlo.binary main_v329 main_v332 main_v333 (addi : (⟨S96446, .i32⟩ : BufTy).Contents (Elt F) → (⟨S96446, .i32⟩ : BufTy).Contents (Elt F) → (⟨S96446, .i32⟩ : BufTy).Contents (Elt F))
  :: StableHlo.ternary main_v331 main_v333 main_v329 main_v334 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v334 main_v335 (broadcastInDim S96446x1 ![0] bcast_S96446_S96446x1_0 : (⟨S96446, .i32⟩ : BufTy).Contents (Elt F) → (⟨S96446x1, .i32⟩ : BufTy).Contents (Elt F))
  :: StableHlo.binary main_v327 main_v335 main_v336 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v336 main_v337 ((extf .f32 · bitsLt_bf16_f32) : (⟨S96446x96, .bf16⟩ : BufTy).Contents (Elt F) → (⟨S96446x96, .f32⟩ : BufTy).Contents (Elt F))
  :: StableHlo.binary main_v325 main_v337 main_v338 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 24. -/
abbrev tap24 : List (HloOp τ sig (Elt F)) :=
  ( StableHlo.unary main_v25 main_v339 ((extractStridedSlice S96768x1x96 ![0, 24, 0] · slices_S96768x27x96_S96768x1x96_0_24_0) : (⟨S96768x27x96, .bf16⟩ : BufTy).Contents (Elt F) → (⟨S96768x1x96, .bf16⟩ : BufTy).Contents (Elt F))
  :: StableHlo.reshape main_v339 main_v340 rfl shapeCasts_S96768x1x96_S96768x96
  :: StableHlo.unary main_arg9 main_v341 ((extractStridedSlice S96446x1 ![0, 24] · slices_S96446x27_S96446x1_0_24) : (⟨S96446x27, .i32⟩ : BufTy).Contents (Elt F) → (⟨S96446x1, .i32⟩ : BufTy).Contents (Elt F))
  :: StableHlo.reshape main_v341 main_v342 rfl shapeCasts_S96446x1_S96446
  :: StableHlo.nullary main_c_54 (constantI S_ 32 0#32)
  :: StableHlo.unary main_c_54 main_v343 (broadcastInDim S96446 ![] bcast_S_S96446 : (⟨S_, .i32⟩ : BufTy).Contents (Elt F) → (⟨S96446, .i32⟩ : BufTy).Contents (Elt F))
  :: StableHlo.binary main_v342 main_v343 main_v344 (cmpi .slt : (⟨S96446, .i32⟩ : BufTy).Contents (Elt F) → (⟨S96446, .i32⟩ : BufTy).Contents (Elt F) → (⟨S96446, .i1⟩ : BufTy).Contents (Elt F))
  :: StableHlo.nullary main_c_55 (constantI S_ 32 96768#32)
  :: StableHlo.unary main_c_55 main_v345 (broadcastInDim S96446 ![] bcast_S_S96446 : (⟨S_, .i32⟩ : BufTy).Contents (Elt F) → (⟨S96446, .i32⟩ : BufTy).Contents (Elt F))
  :: StableHlo.binary main_v342 main_v345 main_v346 (addi : (⟨S96446, .i32⟩ : BufTy).Contents (Elt F) → (⟨S96446, .i32⟩ : BufTy).Contents (Elt F) → (⟨S96446, .i32⟩ : BufTy).Contents (Elt F))
  :: StableHlo.ternary main_v344 main_v346 main_v342 main_v347 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v347 main_v348 (broadcastInDim S96446x1 ![0] bcast_S96446_S96446x1_0 : (⟨S96446, .i32⟩ : BufTy).Contents (Elt F) → (⟨S96446x1, .i32⟩ : BufTy).Contents (Elt F))
  :: StableHlo.binary main_v340 main_v348 main_v349 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v349 main_v350 ((extf .f32 · bitsLt_bf16_f32) : (⟨S96446x96, .bf16⟩ : BufTy).Contents (Elt F) → (⟨S96446x96, .f32⟩ : BufTy).Contents (Elt F))
  :: StableHlo.binary main_v338 main_v350 main_v351 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 25. -/
abbrev tap25 : List (HloOp τ sig (Elt F)) :=
  ( StableHlo.unary main_v25 main_v352 ((extractStridedSlice S96768x1x96 ![0, 25, 0] · slices_S96768x27x96_S96768x1x96_0_25_0) : (⟨S96768x27x96, .bf16⟩ : BufTy).Contents (Elt F) → (⟨S96768x1x96, .bf16⟩ : BufTy).Contents (Elt F))
  :: StableHlo.reshape main_v352 main_v353 rfl shapeCasts_S96768x1x96_S96768x96
  :: StableHlo.unary main_arg9 main_v354 ((extractStridedSlice S96446x1 ![0, 25] · slices_S96446x27_S96446x1_0_25) : (⟨S96446x27, .i32⟩ : BufTy).Contents (Elt F) → (⟨S96446x1, .i32⟩ : BufTy).Contents (Elt F))
  :: StableHlo.reshape main_v354 main_v355 rfl shapeCasts_S96446x1_S96446
  :: StableHlo.nullary main_c_56 (constantI S_ 32 0#32)
  :: StableHlo.unary main_c_56 main_v356 (broadcastInDim S96446 ![] bcast_S_S96446 : (⟨S_, .i32⟩ : BufTy).Contents (Elt F) → (⟨S96446, .i32⟩ : BufTy).Contents (Elt F))
  :: StableHlo.binary main_v355 main_v356 main_v357 (cmpi .slt : (⟨S96446, .i32⟩ : BufTy).Contents (Elt F) → (⟨S96446, .i32⟩ : BufTy).Contents (Elt F) → (⟨S96446, .i1⟩ : BufTy).Contents (Elt F))
  :: StableHlo.nullary main_c_57 (constantI S_ 32 96768#32)
  :: StableHlo.unary main_c_57 main_v358 (broadcastInDim S96446 ![] bcast_S_S96446 : (⟨S_, .i32⟩ : BufTy).Contents (Elt F) → (⟨S96446, .i32⟩ : BufTy).Contents (Elt F))
  :: StableHlo.binary main_v355 main_v358 main_v359 (addi : (⟨S96446, .i32⟩ : BufTy).Contents (Elt F) → (⟨S96446, .i32⟩ : BufTy).Contents (Elt F) → (⟨S96446, .i32⟩ : BufTy).Contents (Elt F))
  :: StableHlo.ternary main_v357 main_v359 main_v355 main_v360 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v360 main_v361 (broadcastInDim S96446x1 ![0] bcast_S96446_S96446x1_0 : (⟨S96446, .i32⟩ : BufTy).Contents (Elt F) → (⟨S96446x1, .i32⟩ : BufTy).Contents (Elt F))
  :: StableHlo.binary main_v353 main_v361 main_v362 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v362 main_v363 ((extf .f32 · bitsLt_bf16_f32) : (⟨S96446x96, .bf16⟩ : BufTy).Contents (Elt F) → (⟨S96446x96, .f32⟩ : BufTy).Contents (Elt F))
  :: StableHlo.binary main_v351 main_v363 main_v364 (addf : (⟨S96446x96, .f32⟩ : BufTy).Contents (Elt F) → (⟨S96446x96, .f32⟩ : BufTy).Contents (Elt F) → (⟨S96446x96, .f32⟩ : BufTy).Contents (Elt F))
  :: [] )

/-- The fifteen operations of tap 26. -/
abbrev tap26 : List (HloOp τ sig (Elt F)) :=
  ( StableHlo.unary main_v25 main_v365 ((extractStridedSlice S96768x1x96 ![0, 26, 0] · slices_S96768x27x96_S96768x1x96_0_26_0) : (⟨S96768x27x96, .bf16⟩ : BufTy).Contents (Elt F) → (⟨S96768x1x96, .bf16⟩ : BufTy).Contents (Elt F))
  :: StableHlo.reshape main_v365 main_v366 rfl shapeCasts_S96768x1x96_S96768x96
  :: StableHlo.unary main_arg9 main_v367 ((extractStridedSlice S96446x1 ![0, 26] · slices_S96446x27_S96446x1_0_26) : (⟨S96446x27, .i32⟩ : BufTy).Contents (Elt F) → (⟨S96446x1, .i32⟩ : BufTy).Contents (Elt F))
  :: StableHlo.reshape main_v367 main_v368 rfl shapeCasts_S96446x1_S96446
  :: StableHlo.nullary main_c_58 (constantI S_ 32 0#32)
  :: StableHlo.unary main_c_58 main_v369 (broadcastInDim S96446 ![] bcast_S_S96446 : (⟨S_, .i32⟩ : BufTy).Contents (Elt F) → (⟨S96446, .i32⟩ : BufTy).Contents (Elt F))
  :: StableHlo.binary main_v368 main_v369 main_v370 (cmpi .slt : (⟨S96446, .i32⟩ : BufTy).Contents (Elt F) → (⟨S96446, .i32⟩ : BufTy).Contents (Elt F) → (⟨S96446, .i1⟩ : BufTy).Contents (Elt F))
  :: StableHlo.nullary main_c_59 (constantI S_ 32 96768#32)
  :: StableHlo.unary main_c_59 main_v371 (broadcastInDim S96446 ![] bcast_S_S96446 : (⟨S_, .i32⟩ : BufTy).Contents (Elt F) → (⟨S96446, .i32⟩ : BufTy).Contents (Elt F))
  :: StableHlo.binary main_v368 main_v371 main_v372 (addi : (⟨S96446, .i32⟩ : BufTy).Contents (Elt F) → (⟨S96446, .i32⟩ : BufTy).Contents (Elt F) → (⟨S96446, .i32⟩ : BufTy).Contents (Elt F))
  :: StableHlo.ternary main_v370 main_v372 main_v368 main_v373 (select : (⟨S96446, .i1⟩ : BufTy).Contents (Elt F) → (⟨S96446, .i32⟩ : BufTy).Contents (Elt F) → (⟨S96446, .i32⟩ : BufTy).Contents (Elt F) → (⟨S96446, .i32⟩ : BufTy).Contents (Elt F))
  :: StableHlo.unary main_v373 main_v374 (broadcastInDim S96446x1 ![0] bcast_S96446_S96446x1_0 : (⟨S96446, .i32⟩ : BufTy).Contents (Elt F) → (⟨S96446x1, .i32⟩ : BufTy).Contents (Elt F))
  :: StableHlo.binary main_v366 main_v374 main_v375 ((fun x i => Host.gather gather_S96768x96_S96446x1_S96446x96_1_0_n_n_0_1_196 x i) : (⟨S96768x96, .bf16⟩ : BufTy).Contents (Elt F) → (⟨S96446x1, .i32⟩ : BufTy).Contents (Elt F) → (⟨S96446x96, .bf16⟩ : BufTy).Contents (Elt F))
  :: StableHlo.unary main_v375 main_v376 ((extf .f32 · bitsLt_bf16_f32) : (⟨S96446x96, .bf16⟩ : BufTy).Contents (Elt F) → (⟨S96446x96, .f32⟩ : BufTy).Contents (Elt F))
  :: StableHlo.binary main_v364 main_v376 main_v377 (addf : (⟨S96446x96, .f32⟩ : BufTy).Contents (Elt F) → (⟨S96446x96, .f32⟩ : BufTy).Contents (Elt F) → (⟨S96446x96, .f32⟩ : BufTy).Contents (Elt F))
  :: [] )

set_option maxRecDepth 100000 in
/-- The first 408 operations are the opening followed by the 27 taps (both sides are literal lists). -/
theorem take_eq : (Cert.KernelIdeal.Gen.hostOps1 (F := F)).take 408 = opening ++ (tap0 ++ (tap1 ++ (tap2 ++ (tap3 ++ (tap4 ++ (tap5 ++ (tap6 ++ (tap7 ++ (tap8 ++ (tap9 ++ (tap10 ++ (tap11 ++ (tap12 ++ (tap13 ++ (tap14 ++ (tap15 ++ (tap16 ++ (tap17 ++ (tap18 ++ (tap19 ++ (tap20 ++ (tap21 ++ (tap22 ++ (tap23 ++ (tap24 ++ (tap25 ++ (tap26))))))))))))))))))))))))))) := rfl

end Cut

/-! ## What each cut leaves

Each of the cuts is read over ANY contents `X` of the buffers before it: the opening writes the zero table and the re-laid
product table and leaves the neighbour table; tap `k` adds `ktap k` of the re-laid table and the neighbour table to the sum
so far, and leaves both tables. -/

section Steps

/-- The zero table the sum starts from. -/
abbrev zeroTable : FVec Ideal Cert.KernelIdeal.S96446x96 .f32 :=
  broadcastInDim Cert.KernelIdeal.S96446x96 ![] Cert.KernelIdeal.Gen.bcast_S_S96446x96 (constant (F := Ideal) Cert.KernelIdeal.S_ .f32 0x00000000#32)

theorem opening_res (W : KVal) :
    (after (opening (F := Ideal)) W (kd Cert.KernelIdeal.main_v26) : FVec Ideal Cert.KernelIdeal.S96446x96 .f32) = zeroTable
    ∧ (after (opening (F := Ideal)) W (kd Cert.KernelIdeal.main_v25) : FVec Ideal Cert.KernelIdeal.S96768x27x96 .bf16)
        = shapeCast Cert.KernelIdeal.S96768x27x96 (W (kd Cert.KernelIdeal.main_v24) : FVec Ideal Cert.KernelIdeal.S96768x2592 .bf16) Cert.KernelIdeal.Gen.shapeCasts_S96768x2592_S96768x27x96
    ∧ (after (opening (F := Ideal)) W (kd Cert.KernelIdeal.main_arg9) : IVec Cert.KernelIdeal.S96446x27 32) = W (kd Cert.KernelIdeal.main_arg9) := by
  refine ⟨?_, ?_, ?_⟩
  · dsimp only [opening]; after_results
  · dsimp only [opening]; after_results; rfl
  · dsimp only [opening]; after_results

set_option maxHeartbeats 4000000 in
theorem step0 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v26) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap0 (F := Ideal)) X (kd Cert.KernelIdeal.main_v39) : FVec Ideal Cert.KernelIdeal.S96446x96 .f32)
        = addf A (ktap 0 Cert.KernelIdeal.Gen.slices_S96768x27x96_S96768x1x96_0_0_0 Cert.KernelIdeal.Gen.slices_S96446x27_S96446x1_0_0 Y n)
    ∧ (after (tap0 (F := Ideal)) X (kd Cert.KernelIdeal.main_v25) : FVec Ideal Cert.KernelIdeal.S96768x27x96 .bf16) = Y
    ∧ (after (tap0 (F := Ideal)) X (kd Cert.KernelIdeal.main_arg9) : IVec Cert.KernelIdeal.S96446x27 32) = n := by
  subst hA hY hn
  refine ⟨?_, ?_, ?_⟩
  · dsimp only [tap0]; after_results_simp; rfl
  · dsimp only [tap0]; after_results_simp
  · dsimp only [tap0]; after_results_simp

set_option maxHeartbeats 4000000 in
theorem step1 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v39) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap1 (F := Ideal)) X (kd Cert.KernelIdeal.main_v52) : FVec Ideal Cert.KernelIdeal.S96446x96 .f32)
        = addf A (ktap 1 Cert.KernelIdeal.Gen.slices_S96768x27x96_S96768x1x96_0_1_0 Cert.KernelIdeal.Gen.slices_S96446x27_S96446x1_0_1 Y n)
    ∧ (after (tap1 (F := Ideal)) X (kd Cert.KernelIdeal.main_v25) : FVec Ideal Cert.KernelIdeal.S96768x27x96 .bf16) = Y
    ∧ (after (tap1 (F := Ideal)) X (kd Cert.KernelIdeal.main_arg9) : IVec Cert.KernelIdeal.S96446x27 32) = n := by
  subst hA hY hn
  refine ⟨?_, ?_, ?_⟩
  · dsimp only [tap1]; after_results_simp; rfl
  · dsimp only [tap1]; after_results_simp
  · dsimp only [tap1]; after_results_simp

set_option maxHeartbeats 4000000 in
theorem step2 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v52) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap2 (F := Ideal)) X (kd Cert.KernelIdeal.main_v65) : FVec Ideal Cert.KernelIdeal.S96446x96 .f32)
        = addf A (ktap 2 Cert.KernelIdeal.Gen.slices_S96768x27x96_S96768x1x96_0_2_0 Cert.KernelIdeal.Gen.slices_S96446x27_S96446x1_0_2 Y n)
    ∧ (after (tap2 (F := Ideal)) X (kd Cert.KernelIdeal.main_v25) : FVec Ideal Cert.KernelIdeal.S96768x27x96 .bf16) = Y
    ∧ (after (tap2 (F := Ideal)) X (kd Cert.KernelIdeal.main_arg9) : IVec Cert.KernelIdeal.S96446x27 32) = n := by
  subst hA hY hn
  refine ⟨?_, ?_, ?_⟩
  · dsimp only [tap2]; after_results_simp; rfl
  · dsimp only [tap2]; after_results_simp
  · dsimp only [tap2]; after_results_simp

set_option maxHeartbeats 4000000 in
theorem step3 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v65) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap3 (F := Ideal)) X (kd Cert.KernelIdeal.main_v78) : FVec Ideal Cert.KernelIdeal.S96446x96 .f32)
        = addf A (ktap 3 Cert.KernelIdeal.Gen.slices_S96768x27x96_S96768x1x96_0_3_0 Cert.KernelIdeal.Gen.slices_S96446x27_S96446x1_0_3 Y n)
    ∧ (after (tap3 (F := Ideal)) X (kd Cert.KernelIdeal.main_v25) : FVec Ideal Cert.KernelIdeal.S96768x27x96 .bf16) = Y
    ∧ (after (tap3 (F := Ideal)) X (kd Cert.KernelIdeal.main_arg9) : IVec Cert.KernelIdeal.S96446x27 32) = n := by
  subst hA hY hn
  refine ⟨?_, ?_, ?_⟩
  · dsimp only [tap3]; after_results_simp; rfl
  · dsimp only [tap3]; after_results_simp
  · dsimp only [tap3]; after_results_simp

set_option maxHeartbeats 4000000 in
theorem step4 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v78) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap4 (F := Ideal)) X (kd Cert.KernelIdeal.main_v91) : FVec Ideal Cert.KernelIdeal.S96446x96 .f32)
        = addf A (ktap 4 Cert.KernelIdeal.Gen.slices_S96768x27x96_S96768x1x96_0_4_0 Cert.KernelIdeal.Gen.slices_S96446x27_S96446x1_0_4 Y n)
    ∧ (after (tap4 (F := Ideal)) X (kd Cert.KernelIdeal.main_v25) : FVec Ideal Cert.KernelIdeal.S96768x27x96 .bf16) = Y
    ∧ (after (tap4 (F := Ideal)) X (kd Cert.KernelIdeal.main_arg9) : IVec Cert.KernelIdeal.S96446x27 32) = n := by
  subst hA hY hn
  refine ⟨?_, ?_, ?_⟩
  · dsimp only [tap4]; after_results_simp; rfl
  · dsimp only [tap4]; after_results_simp
  · dsimp only [tap4]; after_results_simp

set_option maxHeartbeats 4000000 in
theorem step5 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v91) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap5 (F := Ideal)) X (kd Cert.KernelIdeal.main_v104) : FVec Ideal Cert.KernelIdeal.S96446x96 .f32)
        = addf A (ktap 5 Cert.KernelIdeal.Gen.slices_S96768x27x96_S96768x1x96_0_5_0 Cert.KernelIdeal.Gen.slices_S96446x27_S96446x1_0_5 Y n)
    ∧ (after (tap5 (F := Ideal)) X (kd Cert.KernelIdeal.main_v25) : FVec Ideal Cert.KernelIdeal.S96768x27x96 .bf16) = Y
    ∧ (after (tap5 (F := Ideal)) X (kd Cert.KernelIdeal.main_arg9) : IVec Cert.KernelIdeal.S96446x27 32) = n := by
  subst hA hY hn
  refine ⟨?_, ?_, ?_⟩
  · dsimp only [tap5]; after_results_simp; rfl
  · dsimp only [tap5]; after_results_simp
  · dsimp only [tap5]; after_results_simp

set_option maxHeartbeats 4000000 in
theorem step6 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v104) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap6 (F := Ideal)) X (kd Cert.KernelIdeal.main_v117) : FVec Ideal Cert.KernelIdeal.S96446x96 .f32)
        = addf A (ktap 6 Cert.KernelIdeal.Gen.slices_S96768x27x96_S96768x1x96_0_6_0 Cert.KernelIdeal.Gen.slices_S96446x27_S96446x1_0_6 Y n)
    ∧ (after (tap6 (F := Ideal)) X (kd Cert.KernelIdeal.main_v25) : FVec Ideal Cert.KernelIdeal.S96768x27x96 .bf16) = Y
    ∧ (after (tap6 (F := Ideal)) X (kd Cert.KernelIdeal.main_arg9) : IVec Cert.KernelIdeal.S96446x27 32) = n := by
  subst hA hY hn
  refine ⟨?_, ?_, ?_⟩
  · dsimp only [tap6]; after_results_simp; rfl
  · dsimp only [tap6]; after_results_simp
  · dsimp only [tap6]; after_results_simp

set_option maxHeartbeats 4000000 in
theorem step7 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v117) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap7 (F := Ideal)) X (kd Cert.KernelIdeal.main_v130) : FVec Ideal Cert.KernelIdeal.S96446x96 .f32)
        = addf A (ktap 7 Cert.KernelIdeal.Gen.slices_S96768x27x96_S96768x1x96_0_7_0 Cert.KernelIdeal.Gen.slices_S96446x27_S96446x1_0_7 Y n)
    ∧ (after (tap7 (F := Ideal)) X (kd Cert.KernelIdeal.main_v25) : FVec Ideal Cert.KernelIdeal.S96768x27x96 .bf16) = Y
    ∧ (after (tap7 (F := Ideal)) X (kd Cert.KernelIdeal.main_arg9) : IVec Cert.KernelIdeal.S96446x27 32) = n := by
  subst hA hY hn
  refine ⟨?_, ?_, ?_⟩
  · dsimp only [tap7]; after_results_simp; rfl
  · dsimp only [tap7]; after_results_simp
  · dsimp only [tap7]; after_results_simp

set_option maxHeartbeats 4000000 in
theorem step8 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v130) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap8 (F := Ideal)) X (kd Cert.KernelIdeal.main_v143) : FVec Ideal Cert.KernelIdeal.S96446x96 .f32)
        = addf A (ktap 8 Cert.KernelIdeal.Gen.slices_S96768x27x96_S96768x1x96_0_8_0 Cert.KernelIdeal.Gen.slices_S96446x27_S96446x1_0_8 Y n)
    ∧ (after (tap8 (F := Ideal)) X (kd Cert.KernelIdeal.main_v25) : FVec Ideal Cert.KernelIdeal.S96768x27x96 .bf16) = Y
    ∧ (after (tap8 (F := Ideal)) X (kd Cert.KernelIdeal.main_arg9) : IVec Cert.KernelIdeal.S96446x27 32) = n := by
  subst hA hY hn
  refine ⟨?_, ?_, ?_⟩
  · dsimp only [tap8]; after_results_simp; rfl
  · dsimp only [tap8]; after_results_simp
  · dsimp only [tap8]; after_results_simp

set_option maxHeartbeats 4000000 in
theorem step9 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v143) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap9 (F := Ideal)) X (kd Cert.KernelIdeal.main_v156) : FVec Ideal Cert.KernelIdeal.S96446x96 .f32)
        = addf A (ktap 9 Cert.KernelIdeal.Gen.slices_S96768x27x96_S96768x1x96_0_9_0 Cert.KernelIdeal.Gen.slices_S96446x27_S96446x1_0_9 Y n)
    ∧ (after (tap9 (F := Ideal)) X (kd Cert.KernelIdeal.main_v25) : FVec Ideal Cert.KernelIdeal.S96768x27x96 .bf16) = Y
    ∧ (after (tap9 (F := Ideal)) X (kd Cert.KernelIdeal.main_arg9) : IVec Cert.KernelIdeal.S96446x27 32) = n := by
  subst hA hY hn
  refine ⟨?_, ?_, ?_⟩
  · dsimp only [tap9]; after_results_simp; rfl
  · dsimp only [tap9]; after_results_simp
  · dsimp only [tap9]; after_results_simp

set_option maxHeartbeats 4000000 in
theorem step10 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v156) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap10 (F := Ideal)) X (kd Cert.KernelIdeal.main_v169) : FVec Ideal Cert.KernelIdeal.S96446x96 .f32)
        = addf A (ktap 10 Cert.KernelIdeal.Gen.slices_S96768x27x96_S96768x1x96_0_10_0 Cert.KernelIdeal.Gen.slices_S96446x27_S96446x1_0_10 Y n)
    ∧ (after (tap10 (F := Ideal)) X (kd Cert.KernelIdeal.main_v25) : FVec Ideal Cert.KernelIdeal.S96768x27x96 .bf16) = Y
    ∧ (after (tap10 (F := Ideal)) X (kd Cert.KernelIdeal.main_arg9) : IVec Cert.KernelIdeal.S96446x27 32) = n := by
  subst hA hY hn
  refine ⟨?_, ?_, ?_⟩
  · dsimp only [tap10]; after_results_simp; rfl
  · dsimp only [tap10]; after_results_simp
  · dsimp only [tap10]; after_results_simp

set_option maxHeartbeats 4000000 in
theorem step11 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v169) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap11 (F := Ideal)) X (kd Cert.KernelIdeal.main_v182) : FVec Ideal Cert.KernelIdeal.S96446x96 .f32)
        = addf A (ktap 11 Cert.KernelIdeal.Gen.slices_S96768x27x96_S96768x1x96_0_11_0 Cert.KernelIdeal.Gen.slices_S96446x27_S96446x1_0_11 Y n)
    ∧ (after (tap11 (F := Ideal)) X (kd Cert.KernelIdeal.main_v25) : FVec Ideal Cert.KernelIdeal.S96768x27x96 .bf16) = Y
    ∧ (after (tap11 (F := Ideal)) X (kd Cert.KernelIdeal.main_arg9) : IVec Cert.KernelIdeal.S96446x27 32) = n := by
  subst hA hY hn
  refine ⟨?_, ?_, ?_⟩
  · dsimp only [tap11]; after_results_simp; rfl
  · dsimp only [tap11]; after_results_simp
  · dsimp only [tap11]; after_results_simp

set_option maxHeartbeats 4000000 in
theorem step12 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v182) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap12 (F := Ideal)) X (kd Cert.KernelIdeal.main_v195) : FVec Ideal Cert.KernelIdeal.S96446x96 .f32)
        = addf A (ktap 12 Cert.KernelIdeal.Gen.slices_S96768x27x96_S96768x1x96_0_12_0 Cert.KernelIdeal.Gen.slices_S96446x27_S96446x1_0_12 Y n)
    ∧ (after (tap12 (F := Ideal)) X (kd Cert.KernelIdeal.main_v25) : FVec Ideal Cert.KernelIdeal.S96768x27x96 .bf16) = Y
    ∧ (after (tap12 (F := Ideal)) X (kd Cert.KernelIdeal.main_arg9) : IVec Cert.KernelIdeal.S96446x27 32) = n := by
  subst hA hY hn
  refine ⟨?_, ?_, ?_⟩
  · dsimp only [tap12]; after_results_simp; rfl
  · dsimp only [tap12]; after_results_simp
  · dsimp only [tap12]; after_results_simp

set_option maxHeartbeats 4000000 in
theorem step13 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v195) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap13 (F := Ideal)) X (kd Cert.KernelIdeal.main_v208) : FVec Ideal Cert.KernelIdeal.S96446x96 .f32)
        = addf A (ktap 13 Cert.KernelIdeal.Gen.slices_S96768x27x96_S96768x1x96_0_13_0 Cert.KernelIdeal.Gen.slices_S96446x27_S96446x1_0_13 Y n)
    ∧ (after (tap13 (F := Ideal)) X (kd Cert.KernelIdeal.main_v25) : FVec Ideal Cert.KernelIdeal.S96768x27x96 .bf16) = Y
    ∧ (after (tap13 (F := Ideal)) X (kd Cert.KernelIdeal.main_arg9) : IVec Cert.KernelIdeal.S96446x27 32) = n := by
  subst hA hY hn
  refine ⟨?_, ?_, ?_⟩
  · dsimp only [tap13]; after_results_simp; rfl
  · dsimp only [tap13]; after_results_simp
  · dsimp only [tap13]; after_results_simp

set_option maxHeartbeats 4000000 in
theorem step14 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v208) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap14 (F := Ideal)) X (kd Cert.KernelIdeal.main_v221) : FVec Ideal Cert.KernelIdeal.S96446x96 .f32)
        = addf A (ktap 14 Cert.KernelIdeal.Gen.slices_S96768x27x96_S96768x1x96_0_14_0 Cert.KernelIdeal.Gen.slices_S96446x27_S96446x1_0_14 Y n)
    ∧ (after (tap14 (F := Ideal)) X (kd Cert.KernelIdeal.main_v25) : FVec Ideal Cert.KernelIdeal.S96768x27x96 .bf16) = Y
    ∧ (after (tap14 (F := Ideal)) X (kd Cert.KernelIdeal.main_arg9) : IVec Cert.KernelIdeal.S96446x27 32) = n := by
  subst hA hY hn
  refine ⟨?_, ?_, ?_⟩
  · dsimp only [tap14]; after_results_simp; rfl
  · dsimp only [tap14]; after_results_simp
  · dsimp only [tap14]; after_results_simp

set_option maxHeartbeats 4000000 in
theorem step15 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v221) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap15 (F := Ideal)) X (kd Cert.KernelIdeal.main_v234) : FVec Ideal Cert.KernelIdeal.S96446x96 .f32)
        = addf A (ktap 15 Cert.KernelIdeal.Gen.slices_S96768x27x96_S96768x1x96_0_15_0 Cert.KernelIdeal.Gen.slices_S96446x27_S96446x1_0_15 Y n)
    ∧ (after (tap15 (F := Ideal)) X (kd Cert.KernelIdeal.main_v25) : FVec Ideal Cert.KernelIdeal.S96768x27x96 .bf16) = Y
    ∧ (after (tap15 (F := Ideal)) X (kd Cert.KernelIdeal.main_arg9) : IVec Cert.KernelIdeal.S96446x27 32) = n := by
  subst hA hY hn
  refine ⟨?_, ?_, ?_⟩
  · dsimp only [tap15]; after_results_simp; rfl
  · dsimp only [tap15]; after_results_simp
  · dsimp only [tap15]; after_results_simp

set_option maxHeartbeats 4000000 in
theorem step16 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v234) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap16 (F := Ideal)) X (kd Cert.KernelIdeal.main_v247) : FVec Ideal Cert.KernelIdeal.S96446x96 .f32)
        = addf A (ktap 16 Cert.KernelIdeal.Gen.slices_S96768x27x96_S96768x1x96_0_16_0 Cert.KernelIdeal.Gen.slices_S96446x27_S96446x1_0_16 Y n)
    ∧ (after (tap16 (F := Ideal)) X (kd Cert.KernelIdeal.main_v25) : FVec Ideal Cert.KernelIdeal.S96768x27x96 .bf16) = Y
    ∧ (after (tap16 (F := Ideal)) X (kd Cert.KernelIdeal.main_arg9) : IVec Cert.KernelIdeal.S96446x27 32) = n := by
  subst hA hY hn
  refine ⟨?_, ?_, ?_⟩
  · dsimp only [tap16]; after_results_simp; rfl
  · dsimp only [tap16]; after_results_simp
  · dsimp only [tap16]; after_results_simp

set_option maxHeartbeats 4000000 in
theorem step17 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v247) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap17 (F := Ideal)) X (kd Cert.KernelIdeal.main_v260) : FVec Ideal Cert.KernelIdeal.S96446x96 .f32)
        = addf A (ktap 17 Cert.KernelIdeal.Gen.slices_S96768x27x96_S96768x1x96_0_17_0 Cert.KernelIdeal.Gen.slices_S96446x27_S96446x1_0_17 Y n)
    ∧ (after (tap17 (F := Ideal)) X (kd Cert.KernelIdeal.main_v25) : FVec Ideal Cert.KernelIdeal.S96768x27x96 .bf16) = Y
    ∧ (after (tap17 (F := Ideal)) X (kd Cert.KernelIdeal.main_arg9) : IVec Cert.KernelIdeal.S96446x27 32) = n := by
  subst hA hY hn
  refine ⟨?_, ?_, ?_⟩
  · dsimp only [tap17]; after_results_simp; rfl
  · dsimp only [tap17]; after_results_simp
  · dsimp only [tap17]; after_results_simp

set_option maxHeartbeats 4000000 in
theorem step18 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v260) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap18 (F := Ideal)) X (kd Cert.KernelIdeal.main_v273) : FVec Ideal Cert.KernelIdeal.S96446x96 .f32)
        = addf A (ktap 18 Cert.KernelIdeal.Gen.slices_S96768x27x96_S96768x1x96_0_18_0 Cert.KernelIdeal.Gen.slices_S96446x27_S96446x1_0_18 Y n)
    ∧ (after (tap18 (F := Ideal)) X (kd Cert.KernelIdeal.main_v25) : FVec Ideal Cert.KernelIdeal.S96768x27x96 .bf16) = Y
    ∧ (after (tap18 (F := Ideal)) X (kd Cert.KernelIdeal.main_arg9) : IVec Cert.KernelIdeal.S96446x27 32) = n := by
  subst hA hY hn
  refine ⟨?_, ?_, ?_⟩
  · dsimp only [tap18]; after_results_simp; rfl
  · dsimp only [tap18]; after_results_simp
  · dsimp only [tap18]; after_results_simp

set_option maxHeartbeats 4000000 in
theorem step19 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v273) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap19 (F := Ideal)) X (kd Cert.KernelIdeal.main_v286) : FVec Ideal Cert.KernelIdeal.S96446x96 .f32)
        = addf A (ktap 19 Cert.KernelIdeal.Gen.slices_S96768x27x96_S96768x1x96_0_19_0 Cert.KernelIdeal.Gen.slices_S96446x27_S96446x1_0_19 Y n)
    ∧ (after (tap19 (F := Ideal)) X (kd Cert.KernelIdeal.main_v25) : FVec Ideal Cert.KernelIdeal.S96768x27x96 .bf16) = Y
    ∧ (after (tap19 (F := Ideal)) X (kd Cert.KernelIdeal.main_arg9) : IVec Cert.KernelIdeal.S96446x27 32) = n := by
  subst hA hY hn
  refine ⟨?_, ?_, ?_⟩
  · dsimp only [tap19]; after_results_simp; rfl
  · dsimp only [tap19]; after_results_simp
  · dsimp only [tap19]; after_results_simp

set_option maxHeartbeats 4000000 in
theorem step20 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v286) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap20 (F := Ideal)) X (kd Cert.KernelIdeal.main_v299) : FVec Ideal Cert.KernelIdeal.S96446x96 .f32)
        = addf A (ktap 20 Cert.KernelIdeal.Gen.slices_S96768x27x96_S96768x1x96_0_20_0 Cert.KernelIdeal.Gen.slices_S96446x27_S96446x1_0_20 Y n)
    ∧ (after (tap20 (F := Ideal)) X (kd Cert.KernelIdeal.main_v25) : FVec Ideal Cert.KernelIdeal.S96768x27x96 .bf16) = Y
    ∧ (after (tap20 (F := Ideal)) X (kd Cert.KernelIdeal.main_arg9) : IVec Cert.KernelIdeal.S96446x27 32) = n := by
  subst hA hY hn
  refine ⟨?_, ?_, ?_⟩
  · dsimp only [tap20]; after_results_simp; rfl
  · dsimp only [tap20]; after_results_simp
  · dsimp only [tap20]; after_results_simp

set_option maxHeartbeats 4000000 in
theorem step21 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v299) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap21 (F := Ideal)) X (kd Cert.KernelIdeal.main_v312) : FVec Ideal Cert.KernelIdeal.S96446x96 .f32)
        = addf A (ktap 21 Cert.KernelIdeal.Gen.slices_S96768x27x96_S96768x1x96_0_21_0 Cert.KernelIdeal.Gen.slices_S96446x27_S96446x1_0_21 Y n)
    ∧ (after (tap21 (F := Ideal)) X (kd Cert.KernelIdeal.main_v25) : FVec Ideal Cert.KernelIdeal.S96768x27x96 .bf16) = Y
    ∧ (after (tap21 (F := Ideal)) X (kd Cert.KernelIdeal.main_arg9) : IVec Cert.KernelIdeal.S96446x27 32) = n := by
  subst hA hY hn
  refine ⟨?_, ?_, ?_⟩
  · dsimp only [tap21]; after_results_simp; rfl
  · dsimp only [tap21]; after_results_simp
  · dsimp only [tap21]; after_results_simp

set_option maxHeartbeats 4000000 in
theorem step22 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v312) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap22 (F := Ideal)) X (kd Cert.KernelIdeal.main_v325) : FVec Ideal Cert.KernelIdeal.S96446x96 .f32)
        = addf A (ktap 22 Cert.KernelIdeal.Gen.slices_S96768x27x96_S96768x1x96_0_22_0 Cert.KernelIdeal.Gen.slices_S96446x27_S96446x1_0_22 Y n)
    ∧ (after (tap22 (F := Ideal)) X (kd Cert.KernelIdeal.main_v25) : FVec Ideal Cert.KernelIdeal.S96768x27x96 .bf16) = Y
    ∧ (after (tap22 (F := Ideal)) X (kd Cert.KernelIdeal.main_arg9) : IVec Cert.KernelIdeal.S96446x27 32) = n := by
  subst hA hY hn
  refine ⟨?_, ?_, ?_⟩
  · dsimp only [tap22]; after_results_simp; rfl
  · dsimp only [tap22]; after_results_simp
  · dsimp only [tap22]; after_results_simp

set_option maxHeartbeats 4000000 in
theorem step23 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v325) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap23 (F := Ideal)) X (kd Cert.KernelIdeal.main_v338) : FVec Ideal Cert.KernelIdeal.S96446x96 .f32)
        = addf A (ktap 23 Cert.KernelIdeal.Gen.slices_S96768x27x96_S96768x1x96_0_23_0 Cert.KernelIdeal.Gen.slices_S96446x27_S96446x1_0_23 Y n)
    ∧ (after (tap23 (F := Ideal)) X (kd Cert.KernelIdeal.main_v25) : FVec Ideal Cert.KernelIdeal.S96768x27x96 .bf16) = Y
    ∧ (after (tap23 (F := Ideal)) X (kd Cert.KernelIdeal.main_arg9) : IVec Cert.KernelIdeal.S96446x27 32) = n := by
  subst hA hY hn
  refine ⟨?_, ?_, ?_⟩
  · dsimp only [tap23]; after_results_simp; rfl
  · dsimp only [tap23]; after_results_simp
  · dsimp only [tap23]; after_results_simp

set_option maxHeartbeats 4000000 in
theorem step24 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v338) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap24 (F := Ideal)) X (kd Cert.KernelIdeal.main_v351) : FVec Ideal Cert.KernelIdeal.S96446x96 .f32)
        = addf A (ktap 24 Cert.KernelIdeal.Gen.slices_S96768x27x96_S96768x1x96_0_24_0 Cert.KernelIdeal.Gen.slices_S96446x27_S96446x1_0_24 Y n)
    ∧ (after (tap24 (F := Ideal)) X (kd Cert.KernelIdeal.main_v25) : FVec Ideal Cert.KernelIdeal.S96768x27x96 .bf16) = Y
    ∧ (after (tap24 (F := Ideal)) X (kd Cert.KernelIdeal.main_arg9) : IVec Cert.KernelIdeal.S96446x27 32) = n := by
  subst hA hY hn
  refine ⟨?_, ?_, ?_⟩
  · dsimp only [tap24]; after_results_simp; rfl
  · dsimp only [tap24]; after_results_simp
  · dsimp only [tap24]; after_results_simp

set_option maxHeartbeats 4000000 in
theorem step25 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v351) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap25 (F := Ideal)) X (kd Cert.KernelIdeal.main_v364) : FVec Ideal Cert.KernelIdeal.S96446x96 .f32)
        = addf A (ktap 25 Cert.KernelIdeal.Gen.slices_S96768x27x96_S96768x1x96_0_25_0 Cert.KernelIdeal.Gen.slices_S96446x27_S96446x1_0_25 Y n)
    ∧ (after (tap25 (F := Ideal)) X (kd Cert.KernelIdeal.main_v25) : FVec Ideal Cert.KernelIdeal.S96768x27x96 .bf16) = Y
    ∧ (after (tap25 (F := Ideal)) X (kd Cert.KernelIdeal.main_arg9) : IVec Cert.KernelIdeal.S96446x27 32) = n := by
  subst hA hY hn
  refine ⟨?_, ?_, ?_⟩
  · dsimp only [tap25]; after_results_simp; rfl
  · dsimp only [tap25]; after_results_simp
  · dsimp only [tap25]; after_results_simp

set_option maxHeartbeats 4000000 in
theorem step26 (X : KVal) (A : FVec Ideal Cert.KernelIdeal.S96446x96 .f32) (Y : FVec Ideal Cert.KernelIdeal.S96768x27x96 .bf16) (n : IVec Cert.KernelIdeal.S96446x27 32)
    (hA : (X (kd Cert.KernelIdeal.main_v364) : FVec Ideal Cert.KernelIdeal.S96446x96 .f32) = A)
    (hY : (X (kd Cert.KernelIdeal.main_v25) : FVec Ideal Cert.KernelIdeal.S96768x27x96 .bf16) = Y)
    (hn : (X (kd Cert.KernelIdeal.main_arg9) : IVec Cert.KernelIdeal.S96446x27 32) = n) :
    (after (tap26 (F := Ideal)) X (kd Cert.KernelIdeal.main_v377) : FVec Ideal Cert.KernelIdeal.S96446x96 .f32)
        = addf A (ktap 26 Cert.KernelIdeal.Gen.slices_S96768x27x96_S96768x1x96_0_26_0 Cert.KernelIdeal.Gen.slices_S96446x27_S96446x1_0_26 Y n)
    ∧ (after (tap26 (F := Ideal)) X (kd Cert.KernelIdeal.main_v25) : FVec Ideal Cert.KernelIdeal.S96768x27x96 .bf16) = Y
    ∧ (after (tap26 (F := Ideal)) X (kd Cert.KernelIdeal.main_arg9) : IVec Cert.KernelIdeal.S96446x27 32) = n := by
  subst hA hY hn
  refine ⟨?_, ?_, ?_⟩
  · dsimp only [tap26]; after_results_simp; rfl
  · dsimp only [tap26]; after_results_simp
  · dsimp only [tap26]; after_results_simp

end Steps

set_option maxHeartbeats 4000000 in
set_option maxRecDepth 100000 in
/-- The kernel's accumulated table is `kacc` of the product table, re-laid as rows × 27 × 96, and the neighbour table:
    the opening and the 27 taps composed; the fifteen operations after them leave the accumulated table alone. -/
theorem kernel_acc (W : KVal) :
    (after (Cert.KernelIdeal.Gen.hostOps1 (F := Ideal)) W (kd Cert.KernelIdeal.main_v377) : FVec Ideal Cert.KernelIdeal.S96446x96 .f32)
      = kacc (shapeCast Cert.KernelIdeal.S96768x27x96 (W (kd Cert.KernelIdeal.main_v24) : FVec Ideal Cert.KernelIdeal.S96768x2592 .bf16) Cert.KernelIdeal.Gen.shapeCasts_S96768x2592_S96768x27x96)
          (W (kd Cert.KernelIdeal.main_arg9)) := by
  rw [Cert.Bridge.StageC.split, Cert.Bridge.StageC.acc_kept, take_eq]
  simp only [Cert.Bridge.StageC.after_app]
  unfold kacc
  have s := opening_res W
  have s0 := step0 _ _ _ _ s.1 s.2.1 s.2.2
  have s1 := step1 _ _ _ _ s0.1 s0.2.1 s0.2.2
  have s2 := step2 _ _ _ _ s1.1 s1.2.1 s1.2.2
  have s3 := step3 _ _ _ _ s2.1 s2.2.1 s2.2.2
  have s4 := step4 _ _ _ _ s3.1 s3.2.1 s3.2.2
  have s5 := step5 _ _ _ _ s4.1 s4.2.1 s4.2.2
  have s6 := step6 _ _ _ _ s5.1 s5.2.1 s5.2.2
  have s7 := step7 _ _ _ _ s6.1 s6.2.1 s6.2.2
  have s8 := step8 _ _ _ _ s7.1 s7.2.1 s7.2.2
  have s9 := step9 _ _ _ _ s8.1 s8.2.1 s8.2.2
  have s10 := step10 _ _ _ _ s9.1 s9.2.1 s9.2.2
  have s11 := step11 _ _ _ _ s10.1 s10.2.1 s10.2.2
  have s12 := step12 _ _ _ _ s11.1 s11.2.1 s11.2.2
  have s13 := step13 _ _ _ _ s12.1 s12.2.1 s12.2.2
  have s14 := step14 _ _ _ _ s13.1 s13.2.1 s13.2.2
  have s15 := step15 _ _ _ _ s14.1 s14.2.1 s14.2.2
  have s16 := step16 _ _ _ _ s15.1 s15.2.1 s15.2.2
  have s17 := step17 _ _ _ _ s16.1 s16.2.1 s16.2.2
  have s18 := step18 _ _ _ _ s17.1 s17.2.1 s17.2.2
  have s19 := step19 _ _ _ _ s18.1 s18.2.1 s18.2.2
  have s20 := step20 _ _ _ _ s19.1 s19.2.1 s19.2.2
  have s21 := step21 _ _ _ _ s20.1 s20.2.1 s20.2.2
  have s22 := step22 _ _ _ _ s21.1 s21.2.1 s21.2.2
  have s23 := step23 _ _ _ _ s22.1 s22.2.1 s22.2.2
  have s24 := step24 _ _ _ _ s23.1 s23.2.1 s23.2.2
  have s25 := step25 _ _ _ _ s24.1 s24.2.1 s24.2.2
  have s26 := step26 _ _ _ _ s25.1 s25.2.1 s25.2.2
  exact s26.1

/-- The product table re-laid as rows × 27 × 96: entry `(r, k, h)` is entry `(r, 96 k + h)`. -/
theorem relaid_apply (v : FVec Ideal Cert.KernelIdeal.S96768x2592 .bf16) (r : Fin 96768) (k : Fin 27) (h : Fin 96) :
    shapeCast Cert.KernelIdeal.S96768x27x96 v Cert.KernelIdeal.Gen.shapeCasts_S96768x2592_S96768x27x96 (ix3 r k h)
      = v (ix2 r (⟨k.val * 96 + h.val, by omega⟩ : Fin 2592)) := by
  refine shapeCast_apply _ _ (ix3 r k h) (ix2 r (⟨k.val * 96 + h.val, by omega⟩ : Fin 2592)) ?_
  rw [Shape.rowMajor_val_two, Shape.rowMajor_val_three]
  show r.val * 2592 + (k.val * 96 + h.val) = (r.val * 27 + k.val) * 96 + h.val
  omega

/-- THE TWO ACCUMULATED TABLES AGREE: given the product table entry by entry on the rows a neighbour entry can name (`hY`),
    the same neighbour table on both sides (`h9`) and its entries in `[0, 96446]` (`hrange`). Entry `(p, q)` of the
    kernel's table is the zero word plus, tap by tap, `Y[nbr[p, k], 96 k + q]`; `hY` turns each into the reference's
    `∑_c table[nbr[p, k], c] · filter[k, c, q]`. -/
theorem acc_agree (W : KVal) (U : RVal)
    (hY : ∀ (r : Fin 96447) (k : Fin 27) (h : Fin 96),
        re (W (kd Cert.KernelIdeal.main_v24) (ix2 (⟨r.val, by omega⟩ : Fin 96768) (⟨k.val * 96 + h.val, by omega⟩ : Fin 2592)))
          = ∑ c : Fin 192, re (U (rd Cert.ReferenceIdeal.main_v13) (ix2 r c)) * re (U (rd Cert.ReferenceIdeal.main_arg2) (ix3 k c h)))
    (h9 : U (rd Cert.ReferenceIdeal.main_arg9) = W (kd Cert.KernelIdeal.main_arg9))
    (hrange : ∀ i : Cert.KernelIdeal.S96446x27.Idx, 0 ≤ (W (kd Cert.KernelIdeal.main_arg9) i).toInt ∧ (W (kd Cert.KernelIdeal.main_arg9) i).toInt ≤ 96446) :
    after (Cert.KernelIdeal.Gen.hostOps1 (F := Ideal)) W (kd Cert.KernelIdeal.main_v377) = after (Cert.ReferenceIdeal.Stages.opsB (F := Ideal)) U (rd Cert.ReferenceIdeal.main_v365) := by
  refine funext fun (i : Cert.KernelIdeal.S96446x96.Idx) => ?_
  obtain ⟨p, q, rfl⟩ : ∃ (p : Fin 96446) (q : Fin 96), i = ix2 p q := ⟨i 0, i 1, eq_ix2 i⟩
  rw [kernel_acc]
  refine (kacc_apply _ _ hrange p q).trans ?_
  refine Eq.trans ?_ (Cert.Bridge.AccRef.ref_acc_apply U (W (kd Cert.KernelIdeal.main_arg9)) h9 hrange p q).symm
  refine congrArg acc27 (funext fun k => ?_)
  refine (relaid_apply _ _ k q).trans ?_
  exact hY (⟨(W (kd Cert.KernelIdeal.main_arg9) (ix2 p k)).toInt.toNat, by have := (hrange (ix2 p k)).1; have := (hrange (ix2 p k)).2; omega⟩ : Fin 96447) k q

end Cert.Bridge.StageB

end
-- ==== Proof.StageD.lean ====
import proofs.«412869_j60387240182488_3_alg».proof.Proof.Gen.KernelIdeal.Launch
import proofs.«412869_j60387240182488_3_alg».proof.Proof.RefOps
import proofs.«412869_j60387240182488_3_alg».proof.Proof.Common
import proofs.«412869_j60387240182488_3_alg».proof.Proof.Names
import Idealize.ShloMosaic.Lib.KernelVsHost
import Idealize.ShloMosaic.Lib.IdealHost
import Idealize.ShloMosaic.Lib.ValueIdx
import Idealize.ShloMosaic.Lib.ValueLayout
import Idealize.ShloMosaic.Lib.Pipeline.Value

/-!
# The padded accumulator and the normalised feature, entry by entry

Two stretches of host operations read at an index.

The kernel program appends 834 rows to its accumulated feature ([96446, 96] → [97280, 96]) before the normalising
region. The appended rows hold the padding value, an integer scalar converted to single precision; the padding stretch
reads that scalar and does not write it: the last operation of the accumulating stretch before it writes the integer
zero there. So the padded array is the accumulator on its own rows and zero on the appended ones once BOTH stretches
have run, and after the padding stretch alone only under the hypothesis that the scalar is zero.

The reference program normalises and clamps on the host: per channel it lays the mean, the scale, the reciprocal root
of the variance plus ε and the shift along the rows, and computes `max ((γ · (x − μ)) · rsqrt (σ² + ε) + β) 0` entry
by entry, which is the shared entry function `Cert.Bridge.bn`.
-/

noncomputable section

namespace Cert.Bridge.StageD

open Idealize.ShloMosaic Idealize.ShloMosaic.TcCoe Idealize.ShloMosaic.StableHlo Idealize.ShloMosaic.ValueIdx
open Idealize.SL.Sem
open Cert.Bridge

section Kernel

open Cert.KernelIdeal.Gen

/-- The padding stretch's result as one term: the accumulated feature with 834 rows of the padding value appended along
axis 0, the padding value being the integer scalar held in `main_c_64`, converted. -/
theorem accpad_eq (X : KVal) :
    (after (hostOps1_1 (F := Ideal)) X (kd Cert.KernelIdeal.main_v388) : Cert.KernelIdeal.S97280x96.Idx → EReal)
      = pad Cert.KernelIdeal.S97280x96 ![0, 0] ![834, 0] ![0, 0]
          (X (kd Cert.KernelIdeal.main_v377) : Cert.KernelIdeal.S96446x96.Idx → EReal)
          (sitofp .f32 (X (kd Cert.KernelIdeal.main_c_64) : IVec Cert.KernelIdeal.S_ 32) : FVec Ideal Cert.KernelIdeal.S_ .f32)
          pads_S96446x96_S97280x96_08340_000 h_S_ := by
  after_results; rfl

/-- The padded accumulator at an index when the scalar the stretch converts is the integer zero: the accumulator on the
first 96446 rows (low padding 0, no interior padding: row `r` reads row `r`), zero on the 834 rows appended. -/
theorem accpad_apply_of (X : KVal)
    (hc : (X (kd Cert.KernelIdeal.main_c_64) : IVec Cert.KernelIdeal.S_ 32) = constantI Cert.KernelIdeal.S_ 32 0#32)
    (i : Cert.KernelIdeal.S97280x96.Idx) :
    re (after (hostOps1_1 (F := Ideal)) X (kd Cert.KernelIdeal.main_v388) i)
      = if h : (i 0).val < 96446 then
          re (X (kd Cert.KernelIdeal.main_v377) (ix2 (⟨(i 0).val, h⟩ : Fin 96446) (⟨(i 1).val, (i 1).isLt⟩ : Fin 96)))
        else 0 := by
  unfold re
  rw [accpad_eq]
  by_cases h : (i 0).val < 96446
  · rw [dif_pos h]
    refine pad_apply_of_inside _ _ _ _ _ _ _ i (ix2 (⟨(i 0).val, h⟩ : Fin 96446) (⟨(i 1).val, (i 1).isLt⟩ : Fin 96)) fun a => ?_
    match a with
    | ⟨0, _⟩ => show (i 0).val = 0 + (i 0).val * (0 + 1); omega
    | ⟨1, _⟩ => show (i 1).val = 0 + (i 1).val * (0 + 1); omega
  · rw [dif_neg h]
    refine (pad_apply_of_not_inside _ _ _ _ _ _ _ i (0 : Fin 2) ?_).trans ?_
    · show ¬(0 ≤ (i 0).val ∧ ((i 0).val - 0) % (0 + 1) = 0 ∧ ((i 0).val - 0) / (0 + 1) < 96446)
      omega
    · rw [hc, sitofp_apply, constantI_apply]
      show (((0#32 : BitVec 32).toInt : ℝ) : EReal) = 0
      simp

/-- The integer scalar the padding stretch converts is the constant zero once the accumulating stretch has run: that
stretch's last operation (the 423rd) writes it. -/
theorem c64_after (W : KVal) :
    (after (hostOps1 (F := Ideal)) W (kd Cert.KernelIdeal.main_c_64) : IVec Cert.KernelIdeal.S_ 32)
      = constantI Cert.KernelIdeal.S_ 32 0#32 := by
  have hd : List.drop 422 (hostOps1 (F := Ideal))
      = [StableHlo.nullary Cert.KernelIdeal.main_c_64 (constantI Cert.KernelIdeal.S_ 32 0#32)] := rfl
  have hs : (hostOps1 (F := Ideal))
      = List.take 422 hostOps1 ++ [StableHlo.nullary Cert.KernelIdeal.main_c_64 (constantI Cert.KernelIdeal.S_ 32 0#32)] := by
    rw [← hd, List.take_append_drop]
  rw [hs, after_append]
  after_results

/-- The padded accumulator at an index after the accumulating stretch and the padding stretch: the accumulator on the
first 96446 rows, zero on the 834 rows appended. -/
theorem accpad_apply' (W : KVal) (i : Cert.KernelIdeal.S97280x96.Idx) :
    re (after (hostOps1_1 (F := Ideal)) (after (hostOps1 (F := Ideal)) W) (kd Cert.KernelIdeal.main_v388) i)
      = if h : (i 0).val < 96446 then
          re (after (hostOps1 (F := Ideal)) W (kd Cert.KernelIdeal.main_v377)
            (ix2 (⟨(i 0).val, h⟩ : Fin 96446) (⟨(i 1).val, (i 1).isLt⟩ : Fin 96)))
        else 0 :=
  accpad_apply_of _ (c64_after W) i

end Kernel

section Reference

open Cert.ReferenceIdeal.Gen Cert.ReferenceIdeal.Stages

/-- A per-channel vector laid along the rows, [96] → [1, 96] → [96446, 96]. -/
abbrev chan (x : FVec Ideal Cert.ReferenceIdeal.S96 .f32) : FVec Ideal Cert.ReferenceIdeal.S96446x96 .f32 :=
  broadcastInDim Cert.ReferenceIdeal.S96446x96 ![0, 1] bcast_S1x96_S96446x96_0_1
    (broadcastInDim Cert.ReferenceIdeal.S1x96 ![1] bcast_S96_S1x96_1 x)

/-- Laid along the rows, a per-channel vector reads at any entry its value at the entry's channel: the unit axis of the
middle array reads 0, the channel axis is carried through both steps. -/
theorem chan_apply (x : FVec Ideal Cert.ReferenceIdeal.S96 .f32) (i : Cert.ReferenceIdeal.S96446x96.Idx) :
    chan x i = x (ix1 (i 1)) := by
  refine (broadcastInDim_apply _ _ _ i (ix2 (0 : Fin 1) (⟨(i 1).val, (i 1).isLt⟩ : Fin 96)) fun a => ?_).trans ?_
  · match a with
    | ⟨0, _⟩ => rfl
    | ⟨1, _⟩ => rfl
  · refine broadcastInDim_apply _ _ _ _ (ix1 (i 1)) fun a => ?_
    match a with
    | ⟨0, _⟩ => rfl

/-- The host's reciprocal square root acts entry by entry. -/
theorem hostRsqrt_apply {s : Shape} (x : FVec Ideal s .f32) (j : s.Idx) : Host.rsqrt x j = Ideal.rsqrt (x j) := rfl

set_option maxHeartbeats 4000000 in  -- nineteen operations read back through one another
/-- The normalising stretch's result as one term. -/
theorem yR_eq (U : RVal) :
    (after (opsD (F := Ideal)) U (rd Cert.ReferenceIdeal.main_v391) : Cert.ReferenceIdeal.S96446x96.Idx → EReal)
      = maximumf
          (addf
            (mulf
              (mulf (chan (U (rd Cert.ReferenceIdeal.main_arg3)))
                (subf (U (rd Cert.ReferenceIdeal.main_v365)) (chan (U (rd Cert.ReferenceIdeal.main_v368)))))
              (chan (Host.rsqrt (addf (U (rd Cert.ReferenceIdeal.main_v375))
                (broadcastInDim Cert.ReferenceIdeal.S96 ![] bcast_S_S96
                  (constant (F := Ideal) Cert.ReferenceIdeal.S_ .f32 0x3727C5AC#32))))))
            (chan (U (rd Cert.ReferenceIdeal.main_arg4))))
          (broadcastInDim Cert.ReferenceIdeal.S96446x96 ![] bcast_S_S96446x96
            (constant (F := Ideal) Cert.ReferenceIdeal.S_ .f32 0x00000000#32)) := by
  after_results_simp; rfl

/-- The reference's normalised, clamped feature at an entry: the shared entry function of the accumulated feature
there and of the channel's scale, shift, mean and variance. The clamp's zero is the single-precision zero word. -/
theorem yR_apply (U : RVal) (i : Cert.ReferenceIdeal.S96446x96.Idx) :
    after (opsD (F := Ideal)) U (rd Cert.ReferenceIdeal.main_v391) i
      = Cert.Bridge.bn (U (rd Cert.ReferenceIdeal.main_v365) i) (U (rd Cert.ReferenceIdeal.main_arg3) (ix1 (i 1)))
          (U (rd Cert.ReferenceIdeal.main_arg4) (ix1 (i 1))) (U (rd Cert.ReferenceIdeal.main_v368) (ix1 (i 1)))
          (U (rd Cert.ReferenceIdeal.main_v375) (ix1 (i 1))) := by
  rw [yR_eq]
  unfold Cert.Bridge.bn
  rw [maximumf_apply, addf_apply, mulf_apply, mulf_apply, subf_apply, chan_apply, chan_apply, chan_apply, chan_apply,
    hostRsqrt_apply, addf_apply, broadcastInDim_scalar_apply, constant_apply, broadcastInDim_scalar_apply, constant_apply,
    Ideal.ofBits_zero_f32]

end Reference

end Cert.Bridge.StageD

end
-- ==== Proof.StageE.lean ====
import proofs.«412869_j60387240182488_3_alg».proof.Proof.Gen.KernelIdeal.Launch
import proofs.«412869_j60387240182488_3_alg».proof.Proof.RefOps
import proofs.«412869_j60387240182488_3_alg».proof.Proof.Names
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

/-!
# The eight corners

Both programs end their host part with the same interpolation: the normalised, clamped feature table `y` (96446 rows of 96
channels) gets one zero row appended (row 96446, the row a missing corner points at), and every one of the 120000 query
points sums, over its 8 corners `k`, the corner's weight `w[n, k]` times row `idx[n, k]` of the padded table (an index below
zero counting from the end). The kernel's program cuts `y` out of the first 96446 rows of a longer array; the reference
starts its running sum from an array of zeros. Both results are one function `cornerSum` of the padded table, the weights
and the indices; the tables agree entry by entry, and `0 + x = x` on the extended reals removes the reference's zero start.
-/

noncomputable section

namespace Cert.Bridge.StageE

open Idealize.ShloMosaic Idealize.ShloMosaic.TcCoe Idealize.SL.Sem Idealize.ShloMosaic.StableHlo Idealize.ShloMosaic.ValueIdx

/-- Reads each operation's result at its own buffer and passes over the operations that write another buffer, wherever such
    a reading is still pending (the two pieces of the padded table sit inside a concatenation's list). -/
macro "results_rw" : tactic =>
  `(tactic| (repeat (first
               | rw [nullary_result] | rw [unary_result] | rw [binary_result] | rw [ternary_result] | rw [reshape_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide))))

/-! ## The shared function -/

section Def
open Cert.KernelIdeal Cert.KernelIdeal.Gen
variable {F : FTy → Type} [FloatOps F]

/-- The feature table with its zero row appended: rows 0 to 96445 are `y`, row 96446 is zero. -/
def paddedTable (y : FVec F S96446x96 .f32) : FVec F S96447x96 .f32 :=
  concatenate S96447x96 0
    [⟨S96446x96, y⟩, ⟨S1x96, broadcastInDim S1x96 ![] bcast_S_S1x96 (constant S_ .f32 0x00000000#32)⟩]
    concatenates_S96446x96_S1x96_S96447x96_d0

/-- One column (at offset `off`) of the corner indices as a column of table rows: an index below zero has 96447 added. -/
def cornerRows (off : Fin S120000x8.rank → Nat) (hs : S120000x8.Slices off S120000x1) (cidx : IVec S120000x8 32) :
    IVec S120000x1 32 :=
  broadcastInDim S120000x1 ![0] bcast_S120000_S120000x1_0
    (select
      (cmpi .slt (shapeCast S120000 (extractStridedSlice S120000x1 off cidx hs) shapeCasts_S120000x1_S120000)
        (broadcastInDim S120000 ![] bcast_S_S120000 (constantI S_ 32 0#32)))
      (addi (shapeCast S120000 (extractStridedSlice S120000x1 off cidx hs) shapeCasts_S120000x1_S120000)
        (broadcastInDim S120000 ![] bcast_S_S120000 (constantI S_ 32 96447#32)))
      (shapeCast S120000 (extractStridedSlice S120000x1 off cidx hs) shapeCasts_S120000x1_S120000))

/-- One corner's term: the corner's weight, the same on all 96 channels, times the table row the corner names. -/
def cornerTerm (off : Fin S120000x8.rank → Nat) (hs : S120000x8.Slices off S120000x1)
    (table : FVec F S96447x96 .f32) (cw : FVec F S120000x8 .f32) (cidx : IVec S120000x8 32) : FVec F S120000x96 .f32 :=
  mulf (broadcastInDim S120000x96 ![0, 1] bcast_S120000x1_S120000x96_0_1 (extractStridedSlice S120000x1 off cw hs))
    (Host.gather gather_S96447x96_S120000x1_S120000x96_1_0_n_n_0_1_196 table (cornerRows off hs cidx))

/-- The eight corners' terms added up in order, corner 0 first. -/
def cornerSum (table : FVec F S96447x96 .f32) (cw : FVec F S120000x8 .f32) (cidx : IVec S120000x8 32) :
    FVec F S120000x96 .f32 :=
  addf (addf (addf (addf (addf (addf (addf
    (cornerTerm ![0, 0] slices_S120000x8_S120000x1_0_0 table cw cidx)
    (cornerTerm ![0, 1] slices_S120000x8_S120000x1_0_1 table cw cidx))
    (cornerTerm ![0, 2] slices_S120000x8_S120000x1_0_2 table cw cidx))
    (cornerTerm ![0, 3] slices_S120000x8_S120000x1_0_3 table cw cidx))
    (cornerTerm ![0, 4] slices_S120000x8_S120000x1_0_4 table cw cidx))
    (cornerTerm ![0, 5] slices_S120000x8_S120000x1_0_5 table cw cidx))
    (cornerTerm ![0, 6] slices_S120000x8_S120000x1_0_6 table cw cidx))
    (cornerTerm ![0, 7] slices_S120000x8_S120000x1_0_7 table cw cidx)

end Def

/-! ## The kernel's program -/

section K
open Cert.KernelIdeal Cert.KernelIdeal.Gen

set_option maxRecDepth 16384 in
set_option maxHeartbeats 8000000 in
/-- The kernel's program sums the eight corners over the padded table cut from the first 96446 rows of its normalised array. -/
theorem kernel_corners (W : KVal) :
    (after (hostOps2 (F := Ideal)) W (kd main_v495) : FVec Ideal S120000x96 .f32)
      = cornerSum (F := Ideal)
          (paddedTable (extractStridedSlice S96446x96 ![0, 0] (W (kd main_v389)) slices_S97280x96_S96446x96_0_0))
          (W (kd main_arg7)) (W (kd main_arg10)) := by
  after_results_simp
  results_rw
  rfl

end K

/-! ## The reference -/

section R
open Cert.ReferenceIdeal Cert.ReferenceIdeal.Gen Cert.ReferenceIdeal.Stages

/-- Adding to the array of zeros changes nothing: `0 + x = x` on the extended reals. -/
theorem zero_addf (x : FVec Ideal S120000x96 .f32) :
    addf (broadcastInDim S120000x96 ![] bcast_S_S120000x96 (constant (F := Ideal) S_ .f32 0x00000000#32)) x = x := by
  funext j
  rw [addf_apply, broadcastInDim_scalar_apply, constant_apply, Ideal.ofBits_zero_f32, zero_add]

set_option maxRecDepth 16384 in
set_option maxHeartbeats 8000000 in
/-- The reference sums the same eight corners over its own padded table, from a zero start. -/
theorem reference_corners (U : RVal) :
    (after (opsE (F := Ideal)) U (rd main_v498) : FVec Ideal S120000x96 .f32)
      = cornerSum (F := Ideal) (paddedTable (U (rd main_v391))) (U (rd main_arg7)) (U (rd main_arg10)) := by
  after_results_simp
  results_rw
  rw [zero_addf]
  rfl

end R

/-! ## The two programs agree -/

/-- Rows 0 to 96445 of the kernel's normalised array are the reference's table (`hy`), the zero row is the same, so the
    padded tables are equal; the weights and indices are the same arguments; the eight corners are then one function. -/
theorem corner_agree (W : KVal) (U : RVal)
    (hy : ∀ i : Cert.ReferenceIdeal.S96446x96.Idx, W (kd Cert.KernelIdeal.main_v389) (ix2 (⟨(i 0).val, by have := (i 0).isLt; simp [Cert.ReferenceIdeal.S96446x96] at this; omega⟩ : Fin 97280) (⟨(i 1).val, (i 1).isLt⟩ : Fin 96)) = U (rd Cert.ReferenceIdeal.main_v391) i)
    (h7 : U (rd Cert.ReferenceIdeal.main_arg7) = W (kd Cert.KernelIdeal.main_arg7)) (h10 : U (rd Cert.ReferenceIdeal.main_arg10) = W (kd Cert.KernelIdeal.main_arg10)) :
    after (Cert.KernelIdeal.Gen.hostOps2 (F := Ideal)) W (kd Cert.KernelIdeal.main_v495) = after (Cert.ReferenceIdeal.Stages.opsE (F := Ideal)) U (rd Cert.ReferenceIdeal.main_v498) := by
  have hT : (extractStridedSlice Cert.KernelIdeal.S96446x96 ![0, 0] (W (kd Cert.KernelIdeal.main_v389))
      Cert.KernelIdeal.Gen.slices_S97280x96_S96446x96_0_0 : FVec Ideal Cert.KernelIdeal.S96446x96 .f32)
        = U (rd Cert.ReferenceIdeal.main_v391) := by
    funext i
    refine (extractStridedSlice_apply _ _ _ i _ fun a => ?_).trans (hy i)
    match a with
    | ⟨0, _⟩ => exact (Nat.zero_add _).symm
    | ⟨1, _⟩ => exact (Nat.zero_add _).symm
  exact (kernel_corners W).trans (by rw [hT, reference_corners U, h7, h10])

end Cert.Bridge.StageE

end
-- ==== Proof.StageF.lean ====
import proofs.«412869_j60387240182488_3_alg».proof.Proof.Gen.KernelIdeal.Launch
import proofs.«412869_j60387240182488_3_alg».proof.Proof.RefOps
import proofs.«412869_j60387240182488_3_alg».proof.Proof.Common
import proofs.«412869_j60387240182488_3_alg».proof.Proof.Names
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws
import Mathlib.Algebra.BigOperators.Fin

/-!
# The last stretch: the linear layer and the bias

The reference's result at entry `(n, h)` is the interpolated feature there, plus the sum over the 192 columns of the
concatenated input row `n` times column `h` of the linear weight, plus the bias at `h`. The concatenated row is the
first input's row followed by the second's, so the sum over 192 columns splits at 96 into the two inputs' sums against the
upper and the lower half of the weight. On the kernel's side the arrays handed to the last region are copies: a pad by
zero rows on every side is the identity whatever its fill value, a slice reads the operand moved by its offset, and a
change of format is the identity on the extended reals.
-/

noncomputable section

namespace Cert.Bridge.StageF

open Idealize.ShloMosaic Idealize.ShloMosaic.TcCoe Idealize.ShloMosaic.StableHlo Idealize.ShloMosaic.ValueIdx
open Cert.KernelIdeal.Gen Cert.ReferenceIdeal.Stages Cert.Bridge
open scoped BigOperators

/-- A sum over 192 columns is the sum over the first 96 plus the sum over the last 96. -/
theorem sum_split (f : Fin 192 → EReal) :
    ∑ k : Fin 192, f k = ∑ k : Fin 96, f ⟨k.val, by omega⟩ + ∑ k : Fin 96, f ⟨k.val + 96, by omega⟩ :=
  (Fin.sum_univ_add (a := 96) (b := 96) (f := (f : Fin (96 + 96) → EReal))).trans
    (congrArg₂ (· + ·) rfl (Finset.sum_congr rfl fun k _ => congrArg f (Fin.ext (Nat.add_comm 96 k.val))))

/-- The reference's result at an entry: the interpolated feature, plus the row of the concatenated input against the
    column of the linear weight (the product of a 120000×192 by a 192×96 matrix read at an entry), plus the bias, which is
    broadcast first to one row and then down the rows. -/
theorem outR_apply (U : RVal) (i : Cert.ReferenceIdeal.S120000x96.Idx) :
    re (after (opsF (F := Ideal)) U (rd Cert.ReferenceIdeal.main_v503) i)
      = (re (U (rd Cert.ReferenceIdeal.main_v498) i) + ∑ k : Fin 192, re (U (rd Cert.ReferenceIdeal.main_v0) (ix2 (i 0) k)) * re (U (rd Cert.ReferenceIdeal.main_arg5) (ix2 k (i 1))))
        + re (U (rd Cert.ReferenceIdeal.main_arg6) (ix1 (i 1))) := by
  obtain ⟨n, h, rfl⟩ : ∃ (n : Fin 120000) (h : Fin 96), i = ix2 n h := ⟨i 0, i 1, eq_ix2 i⟩
  after_results
  refine congrArg₂ (· + ·) (congrArg₂ (· + ·) rfl ?_) ?_
  · exact StackMember.dotGeneral_plain_apply (m := 120000) (n := 96) (k := 192) none _ _ n h
  · refine (broadcastInDim_apply _ _ _ (ix2 n h) (ix2 (0 : Fin 1) h) fun a => ?_).trans
      (broadcastInDim_apply _ _ _ (ix2 (0 : Fin 1) h) (ix1 h) fun a => ?_)
    · match a with
      | ⟨0, _⟩ => rfl
      | ⟨1, _⟩ => rfl
    · match a with
      | ⟨0, _⟩ => rfl

/-- The concatenated input at column `k` of row `n`: the first input's column `k` below 96, the second input's column
    `k - 96` from 96 on. No later operation of the stretch writes the concatenation. -/
theorem v0_apply (U : RVal) (n : Fin 120000) (k : Fin 192) :
    after (opsA (F := Ideal)) U (rd Cert.ReferenceIdeal.main_v0) (ix2 n k)
      = if h : k.val < 96 then U (rd Cert.ReferenceIdeal.main_arg0) (ix2 n (⟨k.val, h⟩ : Fin 96)) else U (rd Cert.ReferenceIdeal.main_arg1) (ix2 n (⟨k.val - 96, by omega⟩ : Fin 96)) := by
  after_results
  by_cases hk : k.val < 96
  · rw [dif_pos hk]
    exact concatenate_pair_apply_left (t := Cert.ReferenceIdeal.S120000x192) (s₁ := Cert.ReferenceIdeal.S120000x96)
      (s₂ := Cert.ReferenceIdeal.S120000x96) (1 : Fin 2) _ _ _ (ix2 n k) rfl (ix2 n (⟨k.val, hk⟩ : Fin 96)) fun b => by
      match b with
      | ⟨0, _⟩ => rfl
      | ⟨1, _⟩ => rfl
  · rw [dif_neg hk]
    exact concatenate_pair_apply_right (t := Cert.ReferenceIdeal.S120000x192) (s₁ := Cert.ReferenceIdeal.S120000x96)
      (s₂ := Cert.ReferenceIdeal.S120000x96) (1 : Fin 2) _ _ _ (ix2 n k) rfl rfl (ix2 n (⟨k.val - 96, by omega⟩ : Fin 96))
      (fun b hb => by
        match b, hb with
        | ⟨0, _⟩, _ => rfl
        | ⟨1, _⟩, hb => exact absurd rfl hb)
      (by show (k.val - 96) + 96 = k.val; omega)

/-- A pad by zero rows and zero columns on every side, with no interior padding, is the operand, whatever the fill
    value: every index is inside. -/
theorem pad_zero_eq {α : Type} (x : Cert.KernelIdeal.S120000x96.Idx → α) {u : Shape} (v : u.Idx → α)
    (h : Cert.KernelIdeal.S120000x96.Pads ![0, 0] ![0, 0] ![0, 0] Cert.KernelIdeal.S120000x96) (hu : 0 < u.numel) :
    pad Cert.KernelIdeal.S120000x96 ![0, 0] ![0, 0] ![0, 0] x v h hu = x := by
  funext j
  refine pad_apply_of_inside _ _ _ x v h hu j j fun a => ?_
  match a with
  | ⟨0, _⟩ => show (j 0).val = 0 + (j 0).val * (0 + 1); omega
  | ⟨1, _⟩ => show (j 1).val = 0 + (j 1).val * (0 + 1); omega

/-- The interpolated feature handed to the last region is the one the corner sums left: a pad by zero rows. -/
theorem v496_eq (X : KVal) :
    after (hostOps2_6 (F := Ideal)) (after (hostOps2_5 (F := Ideal)) (after (hostOps2_4 (F := Ideal)) (after (hostOps2_3 (F := Ideal)) (after (hostOps2_2 (F := Ideal)) (after (hostOps2_1 (F := Ideal)) X))))) (kd Cert.KernelIdeal.main_v496)
      = X (kd Cert.KernelIdeal.main_v495) := by
  after_results
  show pad Cert.KernelIdeal.S120000x96 ![0, 0] ![0, 0] ![0, 0] (X (kd Cert.KernelIdeal.main_v495)) _
    Cert.KernelIdeal.Gen.pads_S120000x96_S120000x96_000_000 Cert.KernelIdeal.Gen.h_S_ = _
  exact pad_zero_eq _ _ _ _

/-- The first input handed to the last region is the first argument: a pad by zero rows; no earlier operation of these
    stretches writes the argument. -/
theorem v497_eq (X : KVal) :
    after (hostOps2_6 (F := Ideal)) (after (hostOps2_5 (F := Ideal)) (after (hostOps2_4 (F := Ideal)) (after (hostOps2_3 (F := Ideal)) (after (hostOps2_2 (F := Ideal)) (after (hostOps2_1 (F := Ideal)) X))))) (kd Cert.KernelIdeal.main_v497)
      = X (kd Cert.KernelIdeal.main_arg0) := by
  after_results
  show pad Cert.KernelIdeal.S120000x96 ![0, 0] ![0, 0] ![0, 0] (X (kd Cert.KernelIdeal.main_arg0)) _
    Cert.KernelIdeal.Gen.pads_S120000x96_S120000x96_000_000 Cert.KernelIdeal.Gen.h_S_ = _
  exact pad_zero_eq _ _ _ _

/-- The second input handed to the last region is the second argument, likewise. -/
theorem v498_eq (X : KVal) :
    after (hostOps2_6 (F := Ideal)) (after (hostOps2_5 (F := Ideal)) (after (hostOps2_4 (F := Ideal)) (after (hostOps2_3 (F := Ideal)) (after (hostOps2_2 (F := Ideal)) (after (hostOps2_1 (F := Ideal)) X))))) (kd Cert.KernelIdeal.main_v498)
      = X (kd Cert.KernelIdeal.main_arg1) := by
  after_results
  show pad Cert.KernelIdeal.S120000x96 ![0, 0] ![0, 0] ![0, 0] (X (kd Cert.KernelIdeal.main_arg1)) _
    Cert.KernelIdeal.Gen.pads_S120000x96_S120000x96_000_000 Cert.KernelIdeal.Gen.h_S_ = _
  exact pad_zero_eq _ _ _ _

/-- The upper half of the linear weight: rows 0 to 95 (a slice at offset 0; the change of format is the identity). -/
theorem v500_apply (X : KVal) (a b : Fin 96) :
    re (after (hostOps2_6 (F := Ideal)) (after (hostOps2_5 (F := Ideal)) (after (hostOps2_4 (F := Ideal)) (after (hostOps2_3 (F := Ideal)) (after (hostOps2_2 (F := Ideal)) (after (hostOps2_1 (F := Ideal)) X))))) (kd Cert.KernelIdeal.main_v500) (ix2 a b))
      = re (X (kd Cert.KernelIdeal.main_arg5) (ix2 (⟨a.val, by omega⟩ : Fin 192) b)) := by
  after_results
  show extractStridedSlice (s := Cert.KernelIdeal.S192x96) Cert.KernelIdeal.S96x96 ![0, 0] (X (kd Cert.KernelIdeal.main_arg5))
    Cert.KernelIdeal.Gen.slices_S192x96_S96x96_0_0 (ix2 a b) = _
  exact extractStridedSlice_apply (s := Cert.KernelIdeal.S192x96) (t := Cert.KernelIdeal.S96x96) ![0, 0] _ _ (ix2 a b) (ix2 (⟨a.val, by omega⟩ : Fin 192) b) fun ax => by
    match ax with
    | ⟨0, _⟩ => show a.val = 0 + a.val; omega
    | ⟨1, _⟩ => show b.val = 0 + b.val; omega

/-- The lower half of the linear weight: rows 96 to 191 (a slice at row offset 96). -/
theorem v502_apply (X : KVal) (a b : Fin 96) :
    re (after (hostOps2_6 (F := Ideal)) (after (hostOps2_5 (F := Ideal)) (after (hostOps2_4 (F := Ideal)) (after (hostOps2_3 (F := Ideal)) (after (hostOps2_2 (F := Ideal)) (after (hostOps2_1 (F := Ideal)) X))))) (kd Cert.KernelIdeal.main_v502) (ix2 a b))
      = re (X (kd Cert.KernelIdeal.main_arg5) (ix2 (⟨a.val + 96, by omega⟩ : Fin 192) b)) := by
  after_results
  show extractStridedSlice (s := Cert.KernelIdeal.S192x96) Cert.KernelIdeal.S96x96 ![96, 0] (X (kd Cert.KernelIdeal.main_arg5))
    Cert.KernelIdeal.Gen.slices_S192x96_S96x96_96_0 (ix2 a b) = _
  exact extractStridedSlice_apply (s := Cert.KernelIdeal.S192x96) (t := Cert.KernelIdeal.S96x96) ![96, 0] _ _ (ix2 a b) (ix2 (⟨a.val + 96, by omega⟩ : Fin 192) b) fun ax => by
    match ax with
    | ⟨0, _⟩ => show a.val + 96 = 96 + a.val; omega
    | ⟨1, _⟩ => show b.val = 0 + b.val; omega

/-- None of these stretches writes the bias. -/
theorem arg6_eq (X : KVal) :
    after (hostOps2_6 (F := Ideal)) (after (hostOps2_5 (F := Ideal)) (after (hostOps2_4 (F := Ideal)) (after (hostOps2_3 (F := Ideal)) (after (hostOps2_2 (F := Ideal)) (after (hostOps2_1 (F := Ideal)) X))))) (kd Cert.KernelIdeal.main_arg6)
      = X (kd Cert.KernelIdeal.main_arg6) := by
  after_results

/-- What the last region finds: the interpolated feature, the two inputs, the two halves of the linear weight and the
    bias, each the array it copies. -/
theorem pads_eq (X : KVal) :
    let Z := after (hostOps2_6 (F := Ideal)) (after (hostOps2_5 (F := Ideal)) (after (hostOps2_4 (F := Ideal)) (after (hostOps2_3 (F := Ideal)) (after (hostOps2_2 (F := Ideal)) (after (hostOps2_1 (F := Ideal)) X)))))
    Z (kd Cert.KernelIdeal.main_v496) = X (kd Cert.KernelIdeal.main_v495) ∧ Z (kd Cert.KernelIdeal.main_v497) = X (kd Cert.KernelIdeal.main_arg0) ∧ Z (kd Cert.KernelIdeal.main_v498) = X (kd Cert.KernelIdeal.main_arg1)
    ∧ (∀ a b : Fin 96, re (Z (kd Cert.KernelIdeal.main_v500) (ix2 a b)) = re (X (kd Cert.KernelIdeal.main_arg5) (ix2 (⟨a.val, by omega⟩ : Fin 192) b)))
    ∧ (∀ a b : Fin 96, re (Z (kd Cert.KernelIdeal.main_v502) (ix2 a b)) = re (X (kd Cert.KernelIdeal.main_arg5) (ix2 (⟨a.val + 96, by omega⟩ : Fin 192) b)))
    ∧ Z (kd Cert.KernelIdeal.main_arg6) = X (kd Cert.KernelIdeal.main_arg6) := by
  intro Z
  exact ⟨v496_eq X, v497_eq X, v498_eq X, v500_apply X, v502_apply X, arg6_eq X⟩

end Cert.Bridge.StageF

end
-- ==== Proof.Reg0.lean ====
import proofs.«412869_j60387240182488_3_alg».proof.Proof.KernelIdealFrame
import proofs.«412869_j60387240182488_3_alg».proof.Proof.Common
import Idealize.ShloMosaic.Lib.Pipeline.Value
import Idealize.ShloMosaic.Lib.ValueIdx
import Idealize.ShloMosaic.PureOps.Ideal.Laws

/-!
# Region 0: the product array

Region 0 walks the 189 row blocks of the padded voxel table (96768 rows, 192 columns, 512 rows to a block) and writes, for each,
the block's product with the whole flattened weight matrix (192 rows, 2592 columns) into the same row block of the result. At the
extended reals the product is accumulated into a zero array with no rounding and the final narrowing is the identity, so an entry
of a written block is the plain sum over the 192 shared positions of row entry times column entry. Every row of the result lies
in exactly one block (189 · 512 = 96768), so the whole result array is that sum at every index.
-/

set_option maxRecDepth 16384

noncomputable section

namespace Cert.Bridge.Reg0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)
open Cert.Bridge (re)

/-! ## The block product at an index -/

/-- Left operand of the block product at output row `j 0`: the row is the output's, the column is the shared position. -/
theorem lhs_axis0 (j : S512x2592.Idx) (q : dot_S512x192_S192x2592_S512x2592_1_0_0_1_n_n.contr.Idx) :
    (dot_S512x192_S192x2592_S512x2592_1_0_0_1_n_n.lhsIdx j q 0).val = (j 0).val := by
  unfold DotDims.lhsIdx
  rw [dif_neg (show ¬(0 : Fin S512x192.rank) ∈ dot_S512x192_S192x2592_S512x2592_1_0_0_1_n_n.lhsBatch by decide), dif_pos (show (0 : Fin S512x192.rank) ∈ dot_S512x192_S192x2592_S512x2592_1_0_0_1_n_n.lhsNonContracting by decide)]
  rfl
theorem lhs_axis1 (j : S512x2592.Idx) (q : dot_S512x192_S192x2592_S512x2592_1_0_0_1_n_n.contr.Idx) :
    (dot_S512x192_S192x2592_S512x2592_1_0_0_1_n_n.lhsIdx j q 1).val = (q ⟨0, by decide⟩).val :=
  dot_S512x192_S192x2592_S512x2592_1_0_0_1_n_n.lhsIdx_val_of_single rfl j q
/-- Right operand: the row is the shared position, the column is the output's. -/
theorem rhs_axis0 (j : S512x2592.Idx) (q : dot_S512x192_S192x2592_S512x2592_1_0_0_1_n_n.contr.Idx) :
    (dot_S512x192_S192x2592_S512x2592_1_0_0_1_n_n.rhsIdx j q 0).val = (q ⟨0, by decide⟩).val :=
  dot_S512x192_S192x2592_S512x2592_1_0_0_1_n_n.rhsIdx_val_of_single rfl j q
theorem rhs_axis1 (j : S512x2592.Idx) (q : dot_S512x192_S192x2592_S512x2592_1_0_0_1_n_n.contr.Idx) :
    (dot_S512x192_S192x2592_S512x2592_1_0_0_1_n_n.rhsIdx j q 1).val = (j 1).val := by
  unfold DotDims.rhsIdx
  rw [dif_neg (show ¬(1 : Fin S192x2592.rank) ∈ dot_S512x192_S192x2592_S512x2592_1_0_0_1_n_n.rhsBatch by decide), dif_pos (show (1 : Fin S192x2592.rank) ∈ dot_S512x192_S192x2592_S512x2592_1_0_0_1_n_n.rhsNonContracting by decide)]
  rfl

/-- The body's value at entry `(p, q)` of a block: the casts between equal shapes change nothing, the product is accumulated into
    zero, the narrowing is the identity; what is left is the sum over the shared position of row entry times column entry. -/
theorem blockProduct_apply (x0 : FVec Ideal S512x192 .bf16) (x1 : FVec Ideal S192x2592 .bf16) (j : S512x2592.Idx) :
    k0_pay1 (F := Ideal) x0 x1 j
      = ∑ k : Fin 192, x0 (ix2 (⟨(j 0).val, (j 0).isLt⟩ : Fin 512) k) * x1 (ix2 k (⟨(j 1).val, (j 1).isLt⟩ : Fin 2592)) := by
  unfold k0_pay1
  rw [truncf_apply, shapeCast_self, shapeCast_self]
  simp only [matmul]
  rw [Ideal.matmul_constant_zero_apply, ← Equiv.sum_comp (contrEquiv1 dot_S512x192_S192x2592_S512x2592_1_0_0_1_n_n 192 rfl rfl).symm]
  refine Finset.sum_congr rfl fun k _ => ?_
  have hk := contrEquiv1_symm_val dot_S512x192_S192x2592_S512x2592_1_0_0_1_n_n 192 rfl rfl k
  have el : dot_S512x192_S192x2592_S512x2592_1_0_0_1_n_n.lhsIdx j ((contrEquiv1 dot_S512x192_S192x2592_S512x2592_1_0_0_1_n_n 192 rfl rfl).symm k)
      = ix2 (⟨(j 0).val, (j 0).isLt⟩ : Fin 512) k := funext fun a => Fin.ext (by
    match a with
    | ⟨0, _⟩ => exact lhs_axis0 _ _
    | ⟨1, _⟩ => exact (lhs_axis1 _ _).trans hk)
  have er : dot_S512x192_S192x2592_S512x2592_1_0_0_1_n_n.rhsIdx j ((contrEquiv1 dot_S512x192_S192x2592_S512x2592_1_0_0_1_n_n 192 rfl rfl).symm k)
      = ix2 k (⟨(j 1).val, (j 1).isLt⟩ : Fin 2592) := funext fun a => Fin.ext (by
    match a with
    | ⟨0, _⟩ => exact (rhs_axis0 _ _).trans hk
    | ⟨1, _⟩ => exact rhs_axis1 _ _)
  rw [el, er]

/-! ## The grid's index maps -/

/-- Decided over the 189 points: at point `t` the table's window and the result's window sit at row block `t`, column block
    `0`; the weight matrix's window is the whole matrix at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem zeros2 : (![0, 0] : Fin 2 → Nat) = fun _ => 0 := funext fun a => by fin_cases a <;> rfl

variable (V : (c : Dev nD) → (b : Ref sig .tc) → Buf (Elt Ideal) ((c : Thread nD τ).loc b))

/-- The product array: entry `(r, q)` is row `r` of the padded table against column `q` of the flattened weights. -/
abbrev product (c : Dev nD) : S96768x2592.Idx → EReal :=
  fun i => ∑ k : Fin 192, re (V c main_v23 (ix2 (i 0) k)) * re (V c main_v22 (ix2 k (i 1)))

/-! ## What a point writes back -/

/-- Point `t` writes back row block `t` of the product array: the table's block at `t` holds rows `512 t … 512 t + 511`, the
    weights' block is the whole matrix, and the result's block sits at the same rows. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 (F := Ideal) V c).after 2 t) = _
  rw [after0_2]
  unfold out0_2
  rw [View.canon_unit_zero zeros2]
  simp only [View.ld_unit_zero (S := S512x192) zeros2, View.ld_unit_zero (S := S192x2592) zeros2]
  obtain ⟨e0, e1, e2, e3, e4, e5⟩ := index_facts t
  funext j
  refine (blockProduct_apply _ _ j).trans ?_
  show ∑ k : Fin 192, re (V c main_v23 (((cfg0.win 0).blk t).view.emb (ix2 (⟨(j 0).val, (j 0).isLt⟩ : Fin 512) k)))
        * re (V c main_v22 (((cfg0.win 1).blk t).view.emb (ix2 k (⟨(j 1).val, (j 1).isLt⟩ : Fin 2592))))
      = ∑ k : Fin 192, re (V c main_v23 (ix2 ((((cfg0.win 2).blk t).view.emb j) 0) k))
        * re (V c main_v22 (ix2 k ((((cfg0.win 2).blk t).view.emb j) 1)))
  refine Finset.sum_congr rfl fun k _ => ?_
  have h0 : ((cfg0.win 0).blk t).view.emb (ix2 (⟨(j 0).val, (j 0).isLt⟩ : Fin 512) k) = ix2 ((((cfg0.win 2).blk t).view.emb j) 0) k := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 192 + 1 * k.val = k.val; omega
  have h1 : ((cfg0.win 1).blk t).view.emb (ix2 k (⟨(j 1).val, (j 1).isLt⟩ : Fin 2592)) = ix2 k ((((cfg0.win 2).blk t).view.emb j) 1) := by
    funext a; apply Fin.ext
    match a with
    | ⟨0, _⟩ => show win0_1.index t (0 : Fin 2) * 192 + 1 * k.val = k.val; omega
    | ⟨1, _⟩ => show win0_1.index t (1 : Fin 2) * 2592 + 1 * (j 1).val = win0_2.index t (1 : Fin 2) * 2592 + 1 * (j 1).val; omega
  rw [h0, h1]
  rfl

/-! ## Every index is written -/

/-- An index lies in point `t`'s block exactly when each coordinate lies in the block's range on its axis. -/
theorem mem_block (t : Fin cfg0.N) (i : S96768x2592.Idx) :
    i ∈ ((cfg0.win 2).blk t).view.set ↔ ∀ a : Fin 2, win0_2.index t a * S512x2592.size a ≤ (i a).val ∧ (i a).val < win0_2.index t a * S512x2592.size a + S512x2592.size a := by
  show i ∈ ((View.whole main_v24).slice (win0_2.rect t)).set ↔ _
  rw [View.set_slice_whole, Rect.mem_set_unit]
  exact Iff.rfl

/-- Row `r` lies in row block `r / 512`, and 189 blocks of 512 rows are all 96768 rows. -/
theorem covered (i : S96768x2592.Idx) :
    ∃ t : Fin cfg0.N, (cfg0.win 2).flush t = true ∧ i ∈ ((cfg0.win 2).blk t).view.set := by
  have hi0 : (i 0).val < 96768 := (i 0).isLt
  have hi1 : (i 1).val < 2592 := (i 1).isLt
  have hN : cfg0.N = 189 := N_0
  let t : Fin cfg0.N := ⟨(i 0).val / 512, by rw [hN]; omega⟩
  obtain ⟨e0, e1, e2, e3, e4, e5⟩ := index_facts t
  have e4' : win0_2.index t (0 : Fin 2) = (i 0).val / 512 := e4
  refine ⟨t, flush0_2 t, ?_⟩
  rw [mem_block]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2592 ≤ (i 1).val ∧ (i 1).val < win0_2.index t (1 : Fin 2) * 2592 + 2592; omega

/-! ## The array after the region -/

/-- Region 0's result array, in closed form. -/
theorem arr0 (c : Dev nD) : ((dat0 (F := Ideal) V c).arrAt 2 cfg0.N : S96768x2592.Idx → EReal)
    = fun i => ∑ k : Fin 192, re (V c main_v23 (ix2 (i 0) k)) * re (V c main_v22 (ix2 k (i 1))) :=
  (dat0 (F := Ideal) V c).arrAt_eq_of_cover 2 (product V c) (fun t _ => flushed_eq V c t) covered

end Cert.Bridge.Reg0

end
-- ==== Proof.Reg1.lean ====
import proofs.«412869_j60387240182488_3_alg».proof.Proof.KernelIdealFrame
import proofs.«412869_j60387240182488_3_alg».proof.Proof.Common
import Idealize.ShloMosaic.Lib.Pipeline.Value
import Idealize.ShloMosaic.Lib.ValueIdx
import Idealize.ShloMosaic.PureOps.Ideal.Laws

/-!
# Region 1's output array in closed form

Region 1 normalises and clamps the accumulated features block by block: at every grid point it reads a block of 1024 rows of
the padded accumulator and the four whole per-channel vectors (scale, shift, mean, variance), and writes the block
`max ((γ · (x − μ)) · rsqrt (σ² + ε) + β) 0`, entry by entry, the four vectors read at the entry's column. The 95 blocks
of 1024 rows tile the 97280 rows of the output, so the array the region leaves is that function of the entry
contents at every index.
-/

set_option maxRecDepth 16384

noncomputable section

namespace Cert.Bridge.Reg1

open Cert.KernelIdeal Cert.KernelIdeal.Gen Cert.KernelIdeal.GenP
open Idealize.ShloMosaic Idealize.ShloMosaic.TcCoe Idealize.SL.Sem
open Idealize.ShloMosaic.Pipeline (Dat)
open Idealize.ShloMosaic.ValueIdx

/-! ## The payload at an entry -/

/-- A row vector `[1,96]` broadcast along 1024 rows reads, at `(p, q)`, its entry at column `q`. -/
theorem bcast_row (h : S1x96.Broadcasts S1024x96) (w : FVec Ideal S1x96 .f32) (p : Fin 1024) (q : Fin 96) :
    broadcastTo S1024x96 w h (ix2 p q) = w (ix2 (0 : Fin 1) q) := by
  refine broadcastTo_apply w h (ix2 p q) (ix2 (0 : Fin 1) q) ?_
  intro a
  match a with
  | ⟨0, _⟩ => rfl
  | ⟨1, _⟩ => rfl

/-- A `[96]` vector viewed as the row vector `[1,96]` reads, at `(0, q)`, its entry `q`: the same row-major position. -/
theorem cast_row (h : S96.ShapeCasts S1x96) (v : FVec Ideal S96 .f32) (q : Fin 96) :
    shapeCast S1x96 v h (ix2 (0 : Fin 1) q) = v (ix1 q) := by
  refine shapeCast_apply v h (ix2 (0 : Fin 1) q) (ix1 q) ?_
  rw [Shape.rowMajor_val_one, Shape.rowMajor_val_two]
  show q.val = 0 * 96 + q.val
  omega

/-- The two together: a per-channel vector spread over the block reads its entry at the column. -/
theorem chan_apply (h : S96.ShapeCasts S1x96) (h' : S1x96.Broadcasts S1024x96) (v : FVec Ideal S96 .f32) (p : Fin 1024) (q : Fin 96) :
    broadcastTo S1024x96 (shapeCast S1x96 v h) h' (ix2 p q) = v (ix1 q) :=
  (bcast_row h' _ p q).trans (cast_row h v q)

/-- The body's arithmetic at the entry `(p, q)` of a block: the block's entry normalised by the four vectors' entries at
    column `q` and clamped at zero. Every operation is pointwise; the layout operations are the identity cast, the cast of
    a vector to a row and the row's broadcast along the block's rows. -/
theorem pay_apply (x : FVec Ideal S1024x96 .f32) (g b mu var : FVec Ideal S96 .f32) (p : Fin 1024) (q : Fin 96) :
    k1_pay1 (F := Ideal) x g b mu var (ix2 p q)
      = Cert.Bridge.bn (x (ix2 p q)) (g (ix1 q)) (b (ix1 q)) (mu (ix1 q)) (var (ix1 q)) := by
  unfold k1_pay1 Cert.Bridge.bn
  show max ((broadcastTo S1024x96 (shapeCast S1x96 g _) _ (ix2 p q)
        * (shapeCast S1024x96 x _ (ix2 p q) - broadcastTo S1024x96 (shapeCast S1x96 (shapeCast S96 mu _) _) _ (ix2 p q)))
        * broadcastTo S1024x96 (rsqrt (addf (shapeCast S1x96 (shapeCast S96 var _) _) (broadcast S1x96 (Scalar.ofBits .f32 0x3727C5AC#32)))) _ (ix2 p q)
        + broadcastTo S1024x96 (shapeCast S1x96 b _) _ (ix2 p q)) (Scalar.ofBits (F := Ideal) .f32 0x00000000#32) = _
  rw [chan_apply, chan_apply, chan_apply, bcast_row, shapeCast_self, shapeCast_self]
  show max (g (ix1 q) * (x (ix2 p q) - mu (ix1 q))
      * Ideal.rsqrt (shapeCast S1x96 (shapeCast S96 var _) _ (ix2 (0 : Fin 1) q) + Ideal.ofBits .f32 0x3727C5AC#32) + b (ix1 q)) (Ideal.ofBits .f32 0x00000000#32) = _
  rw [cast_row, shapeCast_self, Ideal.ofBits_zero_f32]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The normalised, clamped array: the entry at `(r, q)` from the accumulator's entry there and the four vectors' entries
    at column `q`. -/
abbrev bnArr (X : S97280x96.Idx → EReal) (g b mu var : S96.Idx → EReal) : S97280x96.Idx → EReal :=
  fun i => Cert.Bridge.bn (X i) (g (ix1 (i 1))) (b (ix1 (i 1))) (mu (ix1 (i 1))) (var (ix1 (i 1)))

/-- One entry of a block's result is the array's closed form at the entry's place in the array, once the accumulator's
    block holds the array's entry there (`h0`), the place has the entry's column (`hq`) and the four blocks are the four
    whole vectors. -/
theorem entry_eq (x0 : FVec Ideal S1024x96 .f32) (x1 x2 x3 x4 : FVec Ideal S96 .f32)
    (X : S97280x96.Idx → EReal) (g b mu var : S96.Idx → EReal) (j : S1024x96.Idx) (i : S97280x96.Idx)
    (h0 : x0 j = X i) (hq : (i 1).val = (j 1).val)
    (h1 : ∀ y, x1 y = g y) (h2 : ∀ y, x2 y = b y) (h3 : ∀ y, x3 y = mu y) (h4 : ∀ y, x4 y = var y) :
    k1_pay1 (F := Ideal) x0 x1 x2 x3 x4 j = bnArr X g b mu var i := by
  obtain ⟨p, q, rfl⟩ : ∃ (p : Fin 1024) (q : Fin 96), j = ix2 p q := ⟨j 0, j 1, eq_ix2 j⟩
  have hi : (ix1 q : S96.Idx) = ix1 (i 1) := funext fun a => Fin.ext (by match a with | ⟨0, _⟩ => exact hq.symm)
  rw [pay_apply, h0, h1, h2, h3, h4, hi]
  rfl

/-- The printed index maps over the 95 points: the accumulator's window moves with the output's, the four vectors'
    windows stay at block 0, and the output's block at point `t` is row block `t`, column block 0. -/
theorem idx_facts : ∀ t : Fin cfg1.N,
    win1_0.index t (0 : Fin 2) = win1_5.index t (0 : Fin 2) ∧ win1_0.index t (1 : Fin 2) = win1_5.index t (1 : Fin 2)
    ∧ win1_1.index t (0 : Fin 1) = 0 ∧ win1_2.index t (0 : Fin 1) = 0 ∧ win1_3.index t (0 : Fin 1) = 0 ∧ win1_4.index t (0 : Fin 1) = 0
    ∧ win1_5.index t (0 : Fin 2) = t.val ∧ win1_5.index t (1 : Fin 2) = 0 :=
  (by decide +kernel : ∀ t : Fin grid1.N, _)

/-- What point `t` writes back is block `t` of the closed form of the entry contents. -/
theorem flushed_eq (c : Dev nD) (t : Fin cfg1.N) :
    (dat1 V c).flushed 5 t = ((cfg1.win 5).blk t).view.read (Elt Ideal)
      (bnArr (V c main_v388) (V c main_arg3) (V c main_arg4) (V c main_v380) (V c main_v387)) := by
  show (cfg1.win 5).cut (grid1.coords t) ((dat1 V c).after 5 t) = _
  rw [after1_5]
  unfold out1_5
  rw [View.canon_unit_zero hz2]
  simp only [View.ld_unit_zero (S := S1024x96) hz2, View.ld_unit_zero (S := S96) hz1]
  obtain ⟨e0, e1, e2, e3, e4, e5, e6, e7⟩ := idx_facts t
  funext j
  refine entry_eq (iblk1 V c 0 t) (iblk1 V c 1 t) (iblk1 V c 2 t) (iblk1 V c 3 t) (iblk1 V c 4 t)
    (V c main_v388) (V c main_arg3) (V c main_arg4) (V c main_v380) (V c main_v387) j (((cfg1.win 5).blk t).view.emb j) ?_ ?_ ?_ ?_ ?_ ?_
  · show V c main_v388 (((cfg1.win 0).blk t).view.emb j) = V c main_v388 (((cfg1.win 5).blk t).view.emb j)
    refine congrArg (V c main_v388) (funext fun a => Fin.ext ?_)
    match a with
    | ⟨0, _⟩ => show win1_0.index t (0 : Fin 2) * 1024 + 1 * (j 0).val = win1_5.index t (0 : Fin 2) * 1024 + 1 * (j 0).val; omega
    | ⟨1, _⟩ => show win1_0.index t (1 : Fin 2) * 96 + 1 * (j 1).val = win1_5.index t (1 : Fin 2) * 96 + 1 * (j 1).val; omega
  · show win1_5.index t (1 : Fin 2) * 96 + 1 * (j 1).val = (j 1).val; omega
  · intro y
    show V c main_arg3 (((cfg1.win 1).blk t).view.emb y) = V c main_arg3 y
    refine congrArg (V c main_arg3) (funext fun a => Fin.ext ?_)
    match a with
    | ⟨0, _⟩ => show win1_1.index t (0 : Fin 1) * 96 + 1 * (y 0).val = (y 0).val; omega
  · intro y
    show V c main_arg4 (((cfg1.win 2).blk t).view.emb y) = V c main_arg4 y
    refine congrArg (V c main_arg4) (funext fun a => Fin.ext ?_)
    match a with
    | ⟨0, _⟩ => show win1_2.index t (0 : Fin 1) * 96 + 1 * (y 0).val = (y 0).val; omega
  · intro y
    show V c main_v380 (((cfg1.win 3).blk t).view.emb y) = V c main_v380 y
    refine congrArg (V c main_v380) (funext fun a => Fin.ext ?_)
    match a with
    | ⟨0, _⟩ => show win1_3.index t (0 : Fin 1) * 96 + 1 * (y 0).val = (y 0).val; omega
  · intro y
    show V c main_v387 (((cfg1.win 4).blk t).view.emb y) = V c main_v387 y
    refine congrArg (V c main_v387) (funext fun a => Fin.ext ?_)
    match a with
    | ⟨0, _⟩ => show win1_4.index t (0 : Fin 1) * 96 + 1 * (y 0).val = (y 0).val; omega

/-- An index of the array is in point `t`'s block iff each coordinate is in the block's range on its axis. -/
theorem mem_blk (t : Fin cfg1.N) (i : S97280x96.Idx) :
    i ∈ ((cfg1.win 5).blk t).view.set ↔ ∀ a : Fin 2, win1_5.index t a * S1024x96.size a ≤ (i a).val ∧ (i a).val < win1_5.index t a * S1024x96.size a + S1024x96.size a := by
  show i ∈ ((View.whole main_v389).slice (win1_5.rect t)).set ↔ _
  rw [View.set_slice_whole, Rect.mem_set_unit]
  exact Iff.rfl

/-- Every index is in some point's block: row `r` is in row block `r / 1024` (95 · 1024 = 97280), and the one column
    block holds every column. -/
theorem cover (i : S97280x96.Idx) : ∃ t : Fin cfg1.N, (cfg1.win 5).flush t = true ∧ i ∈ ((cfg1.win 5).blk t).view.set := by
  have hi0 : (i 0).val < 97280 := (i 0).isLt
  have hi1 : (i 1).val < 96 := (i 1).isLt
  have hN : grid1.N = 95 := N_1
  obtain ⟨t, ht⟩ : ∃ t : Fin cfg1.N, t.val = (i 0).val / 1024 := ⟨⟨(i 0).val / 1024, by show _ < grid1.N; omega⟩, rfl⟩
  obtain ⟨-, -, -, -, -, -, e6, e7⟩ := idx_facts t
  refine ⟨t, flush1_5 t, ?_⟩
  rw [mem_blk]
  intro a
  match a with
  | ⟨0, _⟩ => show win1_5.index t (0 : Fin 2) * 1024 ≤ (i 0).val ∧ (i 0).val < win1_5.index t (0 : Fin 2) * 1024 + 1024; omega
  | ⟨1, _⟩ => show win1_5.index t (1 : Fin 2) * 96 ≤ (i 1).val ∧ (i 1).val < win1_5.index t (1 : Fin 2) * 96 + 96; omega

/-- REGION 1's OUTPUT ARRAY after its 95 points: the normalised, clamped accumulator, entry by entry, of the contents the
    region finds. -/
theorem arr1 (c : Dev nD) : ((dat1 (F := Ideal) V c).arrAt 5 cfg1.N : S97280x96.Idx → EReal)
    = fun i => Cert.Bridge.bn (V c main_v388 i) (V c main_arg3 (ix1 (i 1))) (V c main_arg4 (ix1 (i 1))) (V c main_v380 (ix1 (i 1))) (V c main_v387 (ix1 (i 1))) :=
  (dat1 V c).arrAt_eq_of_cover 5 (bnArr (V c main_v388) (V c main_arg3) (V c main_arg4) (V c main_v380) (V c main_v387))
    (fun t _ => flushed_eq V c t) cover

end Cert.Bridge.Reg1

end
-- ==== Proof.Reg2.lean ====
import proofs.«412869_j60387240182488_3_alg».proof.Proof.KernelIdealFrame
import proofs.«412869_j60387240182488_3_alg».proof.Proof.Common
import Idealize.ShloMosaic.Lib.Pipeline.Value
import Idealize.ShloMosaic.Lib.ValueIdx
import Idealize.ShloMosaic.Lib.ValueLayout
import Idealize.ShloMosaic.PureOps.Ideal.Laws

/-!
# Region 2's output array in closed form

Region 2 runs over 50 grid points. At point `t` its body reads rows `2400·t … 2400·t + 2399` of three `[120000, 96]`
arrays (the interpolated feature `a`, and the two halves `h`, `q` of the concatenated input), the whole of two
`[96, 96]` weight matrices `W₁`, `W₂` and the whole bias vector `b`, and writes the same rows of the output:
`out[r, c] = (a[r, c] + (∑ₖ h[r, k] · W₁[k, c] + ∑ₖ q[r, k] · W₂[k, c])) + b[c]`.
The narrowing of `h` and `q` to the matrices' format is the identity on the extended reals, each product is
accumulated into a zero array, and the bias is one row repeated over the block's 2400 rows. An entry of the output
depends on one row of `h` and `q`, one column of `W₁` and `W₂`, one entry of `a` and one of `b`; the 50 blocks of
2400 rows tile the 120000 rows, so the array after the region is this function of the arrays the region finds.
-/

noncomputable section

namespace Cert.Bridge.Reg2

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)

/-! ## The body's arithmetic at one entry of the block -/

/-- On the left operand's row axis the product's operand index is the output's row. -/
theorem dot_lhs_0 (i : S2400x96.Idx) (r : dot_S2400x96_S96x96_S2400x96_1_0_0_1_n_n.contr.Idx) :
    (dot_S2400x96_S96x96_S2400x96_1_0_0_1_n_n.lhsIdx i r 0).val = (i 0).val := by
  unfold DotDims.lhsIdx
  rw [dif_neg (show ¬(0 : Fin S2400x96.rank) ∈ dot_S2400x96_S96x96_S2400x96_1_0_0_1_n_n.lhsBatch by decide), dif_pos (show (0 : Fin S2400x96.rank) ∈ dot_S2400x96_S96x96_S2400x96_1_0_0_1_n_n.lhsNonContracting by decide)]
  rfl
/-- On the left operand's column axis it is the summation index. -/
theorem dot_lhs_1 (i : S2400x96.Idx) (r : dot_S2400x96_S96x96_S2400x96_1_0_0_1_n_n.contr.Idx) :
    (dot_S2400x96_S96x96_S2400x96_1_0_0_1_n_n.lhsIdx i r 1).val = (r ⟨0, by decide⟩).val :=
  dot_S2400x96_S96x96_S2400x96_1_0_0_1_n_n.lhsIdx_val_of_single rfl i r
/-- On the right operand's row axis it is the summation index. -/
theorem dot_rhs_0 (i : S2400x96.Idx) (r : dot_S2400x96_S96x96_S2400x96_1_0_0_1_n_n.contr.Idx) :
    (dot_S2400x96_S96x96_S2400x96_1_0_0_1_n_n.rhsIdx i r 0).val = (r ⟨0, by decide⟩).val :=
  dot_S2400x96_S96x96_S2400x96_1_0_0_1_n_n.rhsIdx_val_of_single rfl i r
/-- On the right operand's column axis it is the output's column. -/
theorem dot_rhs_1 (i : S2400x96.Idx) (r : dot_S2400x96_S96x96_S2400x96_1_0_0_1_n_n.contr.Idx) :
    (dot_S2400x96_S96x96_S2400x96_1_0_0_1_n_n.rhsIdx i r 1).val = (i 1).val := by
  unfold DotDims.rhsIdx
  rw [dif_neg (show ¬(1 : Fin S96x96.rank) ∈ dot_S2400x96_S96x96_S2400x96_1_0_0_1_n_n.rhsBatch by decide), dif_pos (show (1 : Fin S96x96.rank) ∈ dot_S2400x96_S96x96_S2400x96_1_0_0_1_n_n.rhsNonContracting by decide)]
  rfl

/-- A `[2400, 96] · [96, 96]` product accumulated into the zero array, at row `p` and column `q`: the sum over the 96
    inner positions of the row's entry times the column's entry. -/
theorem prod_apply (a : FVec Ideal S2400x96 .bf16) (b : FVec Ideal S96x96 .bf16) (p : Fin 2400) (q : Fin 96) :
    matmul dot_S2400x96_S96x96_S2400x96_1_0_0_1_n_n none a b (constant S2400x96 .f32 0x00000000#32) (ix2 p q)
      = ∑ k : Fin 96, a (ix2 p k) * b (ix2 k q) := by
  simp only [matmul]
  rw [Ideal.matmul_constant_zero_apply, ← Equiv.sum_comp (contrEquiv1 dot_S2400x96_S96x96_S2400x96_1_0_0_1_n_n 96 rfl rfl).symm]
  refine Finset.sum_congr rfl fun k _ => ?_
  have hk := contrEquiv1_symm_val dot_S2400x96_S96x96_S2400x96_1_0_0_1_n_n 96 rfl rfl k
  have el : dot_S2400x96_S96x96_S2400x96_1_0_0_1_n_n.lhsIdx (ix2 p q) ((contrEquiv1 dot_S2400x96_S96x96_S2400x96_1_0_0_1_n_n 96 rfl rfl).symm k) = ix2 p k := funext fun ax => Fin.ext (by
    match ax with
    | ⟨0, _⟩ => exact dot_lhs_0 _ _
    | ⟨1, _⟩ => exact (dot_lhs_1 _ _).trans hk)
  have er : dot_S2400x96_S96x96_S2400x96_1_0_0_1_n_n.rhsIdx (ix2 p q) ((contrEquiv1 dot_S2400x96_S96x96_S2400x96_1_0_0_1_n_n 96 rfl rfl).symm k) = ix2 k q := funext fun ax => Fin.ext (by
    match ax with
    | ⟨0, _⟩ => exact (dot_rhs_0 _ _).trans hk
    | ⟨1, _⟩ => exact dot_rhs_1 _ _)
  rw [el, er]

/-- The bias vector laid as one row and repeated over the block's rows, at row `p` and column `q`: the bias at `q`. -/
theorem bias_apply (b : FVec Ideal S96 .f32) (p : Fin 2400) (q : Fin 96) :
    broadcastTo S2400x96 (shapeCast S1x96 b shapeCasts_S96_S1x96) broadcasts_S1x96_S2400x96 (ix2 p q) = b (ix1 q) := by
  rw [broadcastTo_1b_ab_apply, shapeCast_a_1a_apply]

/-- The body's result at row `p` and column `q` of the block, from the six blocks it read. -/
theorem body_apply (x0 x1 x2 : Vec Ideal S2400x96 .f32) (x3 x4 : Vec Ideal S96x96 .bf16) (x5 : Vec Ideal S96 .f32) (p : Fin 2400) (q : Fin 96) :
    k2_pay1 (F := Ideal) x0 x1 x2 x3 x4 x5 (ix2 p q)
      = (x0 (ix2 p q) + (∑ k : Fin 96, x1 (ix2 p k) * x3 (ix2 k q) + ∑ k : Fin 96, x2 (ix2 p k) * x4 (ix2 k q))) + x5 (ix1 q) := by
  unfold k2_pay1
  simp only [shapeCast_self, addf_apply]
  rw [prod_apply, prod_apply, bias_apply]
  rfl

/-! ## From the blocks to the array -/

theorem zero2 : (![0, 0] : Fin 2 → Nat) = fun _ => 0 := funext fun a => by fin_cases a <;> rfl
theorem zero1 : (![0] : Fin 1 → Nat) = fun _ => 0 := funext fun a => by fin_cases a <;> rfl

/-- The printed index maps, decided over the 50 points: the output and the three row-blocked inputs are at row block
    `t` and column block 0; the two matrices and the bias at block 0. -/
theorem index_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0 :=
  (by decide +kernel : ∀ t : Fin grid2.N, _)

/-- The closed form: the output as one function of the six arrays, entry by entry. -/
abbrev closed (a h g : S120000x96.Idx → EReal) (w1 w2 : S96x96.Idx → EReal) (b : S96.Idx → EReal) : S120000x96.Idx → EReal :=
  fun i => (a i + (∑ k : Fin 96, h (ix2 (i 0) k) * w1 (ix2 k (i 1)) + ∑ k : Fin 96, g (ix2 (i 0) k) * w2 (ix2 k (i 1)))) + b (ix1 (i 1))

variable (V : (c : Dev nD) → (b : Ref sig .tc) → Buf (Elt Ideal) ((c : Thread nD τ).loc b))

/-- A point of the grid is below 50. -/
theorem point_lt (t : Fin cfg2.N) : t.val < 50 := lt_of_lt_of_eq t.isLt N_2

/-- The output's block at point `t` holds rows `2400·t + p`: where entry `(p, q)` of the block sits in the array. -/
theorem out_emb (t : Fin cfg2.N) (p : Fin 2400) (q : Fin 96) :
    ((cfg2.win 6).blk t).view.emb (ix2 p q) = ix2 (⟨t.val * 2400 + p.val, by have := point_lt t; omega⟩ : Fin 120000) q := by
  obtain ⟨e0, e1, -⟩ := index_facts t
  funext a; apply Fin.ext
  match a with
  | ⟨0, _⟩ => show win2_6.index t (0 : Fin 2) * 2400 + 1 * p.val = t.val * 2400 + p.val; omega
  | ⟨1, _⟩ => show win2_6.index t (1 : Fin 2) * 96 + 1 * q.val = q.val; omega

/-- Entry `(p, q)` of the first input's block at point `t` is the array's entry at row `2400·t + p`. -/
theorem read0 (c : Dev nD) (t : Fin cfg2.N) (p : Fin 2400) (q : Fin 96) :
    iblk2 (F := Ideal) V c 0 t (ix2 p q) = V c main_v496 (ix2 (⟨t.val * 2400 + p.val, by have := point_lt t; omega⟩ : Fin 120000) q) := by
  obtain ⟨-, -, e0, e1, -⟩ := index_facts t
  show V c main_v496 (((cfg2.win 0).blk t).view.emb (ix2 p q)) = _
  refine congrArg (V c main_v496) (funext fun a => Fin.ext ?_)
  match a with
  | ⟨0, _⟩ => show win2_0.index t (0 : Fin 2) * 2400 + 1 * p.val = t.val * 2400 + p.val; omega
  | ⟨1, _⟩ => show win2_0.index t (1 : Fin 2) * 96 + 1 * q.val = q.val; omega
/-- The same for the second input. -/
theorem read1 (c : Dev nD) (t : Fin cfg2.N) (p : Fin 2400) (q : Fin 96) :
    iblk2 (F := Ideal) V c 1 t (ix2 p q) = V c main_v497 (ix2 (⟨t.val * 2400 + p.val, by have := point_lt t; omega⟩ : Fin 120000) q) := by
  obtain ⟨-, -, -, -, e0, e1, -⟩ := index_facts t
  show V c main_v497 (((cfg2.win 1).blk t).view.emb (ix2 p q)) = _
  refine congrArg (V c main_v497) (funext fun a => Fin.ext ?_)
  match a with
  | ⟨0, _⟩ => show win2_1.index t (0 : Fin 2) * 2400 + 1 * p.val = t.val * 2400 + p.val; omega
  | ⟨1, _⟩ => show win2_1.index t (1 : Fin 2) * 96 + 1 * q.val = q.val; omega
/-- The same for the third input. -/
theorem read2 (c : Dev nD) (t : Fin cfg2.N) (p : Fin 2400) (q : Fin 96) :
    iblk2 (F := Ideal) V c 2 t (ix2 p q) = V c main_v498 (ix2 (⟨t.val * 2400 + p.val, by have := point_lt t; omega⟩ : Fin 120000) q) := by
  obtain ⟨-, -, -, -, -, -, e0, e1, -⟩ := index_facts t
  show V c main_v498 (((cfg2.win 2).blk t).view.emb (ix2 p q)) = _
  refine congrArg (V c main_v498) (funext fun a => Fin.ext ?_)
  match a with
  | ⟨0, _⟩ => show win2_2.index t (0 : Fin 2) * 2400 + 1 * p.val = t.val * 2400 + p.val; omega
  | ⟨1, _⟩ => show win2_2.index t (1 : Fin 2) * 96 + 1 * q.val = q.val; omega
/-- The first matrix's block at every point is the whole matrix. -/
theorem read3 (c : Dev nD) (t : Fin cfg2.N) (k q : Fin 96) :
    iblk2 (F := Ideal) V c 3 t (ix2 k q) = V c main_v500 (ix2 k q) := by
  obtain ⟨-, -, -, -, -, -, -, -, e0, e1, -⟩ := index_facts t
  show V c main_v500 (((cfg2.win 3).blk t).view.emb (ix2 k q)) = _
  refine congrArg (V c main_v500) (funext fun a => Fin.ext ?_)
  match a with
  | ⟨0, _⟩ => show win2_3.index t (0 : Fin 2) * 96 + 1 * k.val = k.val; omega
  | ⟨1, _⟩ => show win2_3.index t (1 : Fin 2) * 96 + 1 * q.val = q.val; omega
/-- The second matrix's likewise. -/
theorem read4 (c : Dev nD) (t : Fin cfg2.N) (k q : Fin 96) :
    iblk2 (F := Ideal) V c 4 t (ix2 k q) = V c main_v502 (ix2 k q) := by
  obtain ⟨-, -, -, -, -, -, -, -, -, -, e0, e1, -⟩ := index_facts t
  show V c main_v502 (((cfg2.win 4).blk t).view.emb (ix2 k q)) = _
  refine congrArg (V c main_v502) (funext fun a => Fin.ext ?_)
  match a with
  | ⟨0, _⟩ => show win2_4.index t (0 : Fin 2) * 96 + 1 * k.val = k.val; omega
  | ⟨1, _⟩ => show win2_4.index t (1 : Fin 2) * 96 + 1 * q.val = q.val; omega
/-- The bias's block at every point is the whole vector. -/
theorem read5 (c : Dev nD) (t : Fin cfg2.N) (q : Fin 96) :
    iblk2 (F := Ideal) V c 5 t (ix1 q) = V c main_arg6 (ix1 q) := by
  obtain ⟨-, -, -, -, -, -, -, -, -, -, -, -, e0⟩ := index_facts t
  show V c main_arg6 (((cfg2.win 5).blk t).view.emb (ix1 q)) = _
  refine congrArg (V c main_arg6) (funext fun a => Fin.ext ?_)
  match a with
  | ⟨0, _⟩ => show win2_5.index t (0 : Fin 1) * 96 + 1 * q.val = q.val; omega

/-- What point `t` writes back is block `t` of the closed form of the arrays the region finds. -/
theorem flushed_eq (c : Dev nD) (t : Fin cfg2.N) :
    (dat2 (F := Ideal) V c).flushed 6 t = ((cfg2.win 6).blk t).view.read (Elt Ideal)
      (closed (V c main_v496) (V c main_v497) (V c main_v498) (V c main_v500) (V c main_v502) (V c main_arg6)) := by
  show (cfg2.win 6).cut (grid2.coords t) ((dat2 (F := Ideal) V c).after 6 t) = _
  rw [after2_6]
  unfold out2_6
  rw [View.canon_unit_zero zero2]
  simp only [View.ld_unit_zero (S := S2400x96) zero2, View.ld_unit_zero (S := S96x96) zero2, View.ld_unit_zero (S := S96) zero1]
  funext j
  obtain ⟨p, q, rfl⟩ : ∃ (p : Fin 2400) (q : Fin 96), j = ix2 p q := ⟨j 0, j 1, eq_ix2 j⟩
  show k2_pay1 (F := Ideal) (iblk2 V c 0 t) (iblk2 V c 1 t) (iblk2 V c 2 t) (iblk2 V c 3 t) (iblk2 V c 4 t) (iblk2 V c 5 t) (ix2 p q)
    = closed (V c main_v496) (V c main_v497) (V c main_v498) (V c main_v500) (V c main_v502) (V c main_arg6) (((cfg2.win 6).blk t).view.emb (ix2 p q))
  rw [out_emb]
  refine (body_apply (iblk2 V c 0 t) (iblk2 V c 1 t) (iblk2 V c 2 t) (iblk2 V c 3 t) (iblk2 V c 4 t) (iblk2 V c 5 t) p q).trans ?_
  simp only [read0, read1, read2, read3, read4, read5]

/-- An index of the array is in point `t`'s block iff each coordinate is in the block's range on its axis. -/
theorem mem_block (t : Fin cfg2.N) (i : S120000x96.Idx) :
    i ∈ ((cfg2.win 6).blk t).view.set ↔ ∀ a : Fin 2, win2_6.index t a * S2400x96.size a ≤ (i a).val ∧ (i a).val < win2_6.index t a * S2400x96.size a + S2400x96.size a := by
  show i ∈ ((View.whole main_v503).slice (win2_6.rect t)).set ↔ _
  rw [View.set_slice_whole, Rect.mem_set_unit]
  exact Iff.rfl

/-- Every row is in some point's block: row `r` in that of point `r / 2400`. -/
theorem covered (i : S120000x96.Idx) : ∃ t : Fin cfg2.N, (cfg2.win 6).flush t = true ∧ i ∈ ((cfg2.win 6).blk t).view.set := by
  have hi0 : (i 0).val < 120000 := (i 0).isLt
  have hi1 : (i 1).val < 96 := (i 1).isLt
  have hN : cfg2.N = 50 := N_2
  refine ⟨⟨(i 0).val / 2400, by rw [hN]; omega⟩, flush2_6 _, ?_⟩
  rw [mem_block]
  obtain ⟨e0, e1, -⟩ := index_facts ⟨(i 0).val / 2400, by rw [hN]; omega⟩
  intro a
  match a with
  | ⟨0, _⟩ =>
    show win2_6.index ⟨(i 0).val / 2400, _⟩ (0 : Fin 2) * 2400 ≤ (i 0).val ∧ (i 0).val < win2_6.index ⟨(i 0).val / 2400, _⟩ (0 : Fin 2) * 2400 + 2400
    rw [e0]; show (i 0).val / 2400 * 2400 ≤ (i 0).val ∧ (i 0).val < (i 0).val / 2400 * 2400 + 2400; omega
  | ⟨1, _⟩ =>
    show win2_6.index ⟨(i 0).val / 2400, _⟩ (1 : Fin 2) * 96 ≤ (i 1).val ∧ (i 1).val < win2_6.index ⟨(i 0).val / 2400, _⟩ (1 : Fin 2) * 96 + 96
    rw [e1]; omega

/-- The array after region 2: the closed form of the arrays the region finds. -/
theorem arr2 (c : Dev nD) : ((dat2 (F := Ideal) V c).arrAt 6 cfg2.N : S120000x96.Idx → EReal)
    = fun i => (re (V c main_v496 i) + (∑ k : Fin 96, re (V c main_v497 (ix2 (i 0) k)) * re (V c main_v500 (ix2 k (i 1)))
        + ∑ k : Fin 96, re (V c main_v498 (ix2 (i 0) k)) * re (V c main_v502 (ix2 k (i 1))))) + re (V c main_arg6 (ix1 (i 1))) :=
  (dat2 (F := Ideal) V c).arrAt_eq_of_cover 6
    (closed (V c main_v496) (V c main_v497) (V c main_v498) (V c main_v500) (V c main_v502) (V c main_arg6))
    (fun t _ => flushed_eq V c t) covered

end Cert.Bridge.Reg2

end
-- ==== Proof.Chain.lean ====
/-
  The chain from the two launch memories to the two result buffers.

  The kernel program's buffers at its fourteen boundaries are the generated frame's `W0 … W14`; the reference's after
  each of its six stretches are `U0 … U6` here. Boundary by boundary the buffers that matter are shown equal:
  the padded table of voxel means (rows below 96447) and the filters laid side by side; through the first region
  the product `Y`, whose gathered rows sum over the 27 taps to the reference's accumulator (here the neighbour indices'
  range is used); mean and variance; through the second region the normalised, clamped features; the eight corner
  terms; through the third region the result, where the reference's one sum over 192 concatenated features is the
  kernel program's two sums over 96. An argument buffer is written by nothing, so at every boundary it holds what the
  launch memory holds.
-/
import proofs.«412869_j60387240182488_3_alg».proof.Proof.KernelIdealFrame
import proofs.«412869_j60387240182488_3_alg».proof.Proof.RefRun
import proofs.«412869_j60387240182488_3_alg».proof.Proof.Names
import proofs.«412869_j60387240182488_3_alg».proof.Proof.Common
import proofs.«412869_j60387240182488_3_alg».proof.Proof.KKept
import proofs.«412869_j60387240182488_3_alg».proof.Proof.StageA
import proofs.«412869_j60387240182488_3_alg».proof.Proof.StageAW
import proofs.«412869_j60387240182488_3_alg».proof.Proof.StageB
import proofs.«412869_j60387240182488_3_alg».proof.Proof.StageC
import proofs.«412869_j60387240182488_3_alg».proof.Proof.StageD
import proofs.«412869_j60387240182488_3_alg».proof.Proof.StageE
import proofs.«412869_j60387240182488_3_alg».proof.Proof.StageF
import proofs.«412869_j60387240182488_3_alg».proof.Proof.Reg0
import proofs.«412869_j60387240182488_3_alg».proof.Proof.Reg1
import proofs.«412869_j60387240182488_3_alg».proof.Proof.Reg2
import Idealize.ShloMosaic.Lib.ValueIdx

noncomputable section

open Idealize.ShloMosaic Idealize.ShloMosaic.TcCoe Idealize.ShloMosaic.StableHlo Idealize.ShloMosaic.ValueIdx Idealize.SL.Sem

namespace Cert.Bridge

open Cert.KernelIdeal.Gen Cert.KernelIdeal.GenP Cert.ReferenceIdeal.Stages
open Cert.Bridge.KKept Cert.Bridge.StageA Cert.Bridge.StageB Cert.Bridge.StageC Cert.Bridge.StageD Cert.Bridge.StageE Cert.Bridge.StageF
open Cert.Bridge.Reg0 Cert.Bridge.Reg1 Cert.Bridge.Reg2

section Chain

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's buffers at launch and after each stretch. -/
abbrev U0 : RVal := launchContents m' c
abbrev U1 : RVal := after (opsA (F := Ideal)) (U0 m' c)
abbrev U2 : RVal := after (opsB (F := Ideal)) (U1 m' c)
abbrev U3 : RVal := after (opsC (F := Ideal)) (U2 m' c)
abbrev U4 : RVal := after (opsD (F := Ideal)) (U3 m' c)
abbrev U5 : RVal := after (opsE (F := Ideal)) (U4 m' c)
abbrev U6 : RVal := after (opsF (F := Ideal)) (U5 m' c)

/-- The two launch memories agree on the eleven arguments. -/
structure Args : Prop where
  a0 : U0 m' c (rd Cert.ReferenceIdeal.main_arg0) = W0 m ρ c (kd Cert.KernelIdeal.main_arg0)
  a1 : U0 m' c (rd Cert.ReferenceIdeal.main_arg1) = W0 m ρ c (kd Cert.KernelIdeal.main_arg1)
  a2 : U0 m' c (rd Cert.ReferenceIdeal.main_arg2) = W0 m ρ c (kd Cert.KernelIdeal.main_arg2)
  a3 : U0 m' c (rd Cert.ReferenceIdeal.main_arg3) = W0 m ρ c (kd Cert.KernelIdeal.main_arg3)
  a4 : U0 m' c (rd Cert.ReferenceIdeal.main_arg4) = W0 m ρ c (kd Cert.KernelIdeal.main_arg4)
  a5 : U0 m' c (rd Cert.ReferenceIdeal.main_arg5) = W0 m ρ c (kd Cert.KernelIdeal.main_arg5)
  a6 : U0 m' c (rd Cert.ReferenceIdeal.main_arg6) = W0 m ρ c (kd Cert.KernelIdeal.main_arg6)
  a7 : U0 m' c (rd Cert.ReferenceIdeal.main_arg7) = W0 m ρ c (kd Cert.KernelIdeal.main_arg7)
  a8 : U0 m' c (rd Cert.ReferenceIdeal.main_arg8) = W0 m ρ c (kd Cert.KernelIdeal.main_arg8)
  a9 : U0 m' c (rd Cert.ReferenceIdeal.main_arg9) = W0 m ρ c (kd Cert.KernelIdeal.main_arg9)
  a10 : U0 m' c (rd Cert.ReferenceIdeal.main_arg10) = W0 m ρ c (kd Cert.KernelIdeal.main_arg10)

/-! ## The arguments at every boundary -/

theorem U1_arg (b : Ref Cert.ReferenceIdeal.sig .tc) (hb : b ∈ argsR) : U1 m' c (rd b) = U0 m' c (rd b) := keptA _ b hb
theorem U2_arg (b : Ref Cert.ReferenceIdeal.sig .tc) (hb : b ∈ argsR) : U2 m' c (rd b) = U0 m' c (rd b) :=
  (keptB _ b (List.mem_cons_of_mem _ hb)).trans (U1_arg m' c b hb)
theorem U3_arg (b : Ref Cert.ReferenceIdeal.sig .tc) (hb : b ∈ argsR) : U3 m' c (rd b) = U0 m' c (rd b) :=
  (keptC _ b (List.mem_cons_of_mem _ (List.mem_cons_of_mem _ hb))).trans (U2_arg m' c b hb)
theorem U4_arg (b : Ref Cert.ReferenceIdeal.sig .tc) (hb : b ∈ argsR) : U4 m' c (rd b) = U0 m' c (rd b) :=
  (keptD _ b (List.mem_cons_of_mem _ hb)).trans (U3_arg m' c b hb)
theorem U5_arg (b : Ref Cert.ReferenceIdeal.sig .tc) (hb : b ∈ argsR) : U5 m' c (rd b) = U0 m' c (rd b) :=
  (keptE _ b (List.mem_cons_of_mem _ hb)).trans (U4_arg m' c b hb)
theorem U5_v0 : U5 m' c (rd Cert.ReferenceIdeal.main_v0) = U1 m' c (rd Cert.ReferenceIdeal.main_v0) :=
  (keptE _ _ List.mem_cons_self).trans ((keptD _ _ List.mem_cons_self).trans
    ((keptC _ _ (List.mem_cons_of_mem _ List.mem_cons_self)).trans (keptB _ _ List.mem_cons_self)))

theorem W2_arg (b : Ref Cert.KernelIdeal.sig .tc) (hb : b ∈ argsK) : W2 m ρ c (kd b) = W0 m ρ c (kd b) :=
  (kept_hostOps0_1 _ b hb).trans (kept_hostOps0 _ b hb)
theorem W3_arg (b : Ref Cert.KernelIdeal.sig .tc) (hb : b ∈ argsK) (hne : ∀ w, Pipeline.arrRef Cert.KernelIdeal.spec0 w ≠ b) :
    W3 m ρ c (kd b) = W0 m ρ c (kd b) := (W3_of_ne m ρ c b hne).trans (W2_arg m ρ c b hb)
theorem W4_arg (b : Ref Cert.KernelIdeal.sig .tc) (hb : b ∈ argsK) (hne : ∀ w, Pipeline.arrRef Cert.KernelIdeal.spec0 w ≠ b) :
    W4 m ρ c (kd b) = W0 m ρ c (kd b) := (kept_hostOps1 _ b hb).trans (W3_arg m ρ c b hb hne)
theorem W5_arg (b : Ref Cert.KernelIdeal.sig .tc) (hb : b ∈ argsK) (hne : ∀ w, Pipeline.arrRef Cert.KernelIdeal.spec0 w ≠ b) :
    W5 m ρ c (kd b) = W0 m ρ c (kd b) := (kept_hostOps1_1 _ b hb).trans (W4_arg m ρ c b hb hne)
theorem W6_arg (b : Ref Cert.KernelIdeal.sig .tc) (hb : b ∈ argsK) (hne : ∀ w, Pipeline.arrRef Cert.KernelIdeal.spec0 w ≠ b)
    (hne1 : ∀ w, Pipeline.arrRef Cert.KernelIdeal.spec1 w ≠ b) : W6 m ρ c (kd b) = W0 m ρ c (kd b) :=
  (W6_of_ne m ρ c b hne1).trans (W5_arg m ρ c b hb hne)
theorem W7_arg (b : Ref Cert.KernelIdeal.sig .tc) (hb : b ∈ argsK) (hne : ∀ w, Pipeline.arrRef Cert.KernelIdeal.spec0 w ≠ b)
    (hne1 : ∀ w, Pipeline.arrRef Cert.KernelIdeal.spec1 w ≠ b) : W7 m ρ c (kd b) = W0 m ρ c (kd b) :=
  (kept_hostOps2 _ b hb).trans (W6_arg m ρ c b hb hne hne1)

/-! ## Region 0 and the taps -/

theorem hY3 (ha : Args m ρ m' c) (r : Fin 96447) (k : Fin 27) (h : Fin 96) :
    re (W3 m ρ c (kd Cert.KernelIdeal.main_v24) (ix2 (⟨r.val, by omega⟩ : Fin 96768) (⟨k.val * 96 + h.val, by omega⟩ : Fin 2592)))
      = ∑ c' : Fin 192, re (U1 m' c (rd Cert.ReferenceIdeal.main_v13) (ix2 r c')) * re (U1 m' c (rd Cert.ReferenceIdeal.main_arg2) (ix3 k c' h)) := by
  have e24 : W3 m ρ c (kd Cert.KernelIdeal.main_v24) = (dat0 (F := Ideal) (V2 m ρ) c).arrAt 2 Cert.KernelIdeal.cfg0.N := W3_arr m ρ c 2
  have e := congrFun (arr0 (V2 m ρ) c) (ix2 (⟨r.val, by omega⟩ : Fin 96768) (⟨k.val * 96 + h.val, by omega⟩ : Fin 2592))
  refine Eq.trans (α := EReal) (congrFun e24 _) (Eq.trans (α := EReal) e (Finset.sum_congr rfl fun c' _ => ?_))
  have e1 := vpad_agree (W0 m ρ c) (U0 m' c) ha.a0 ha.a1 ha.a8 r c'
  have e2 := wflat_eq (W0 m ρ c) c' k h
  have e3 : U1 m' c (rd Cert.ReferenceIdeal.main_arg2) = W0 m ρ c (kd Cert.KernelIdeal.main_arg2) :=
    (U1_arg m' c _ (by decide)).trans ha.a2
  show re (W2 m ρ c (kd Cert.KernelIdeal.main_v23) (ix2 (⟨r.val, by omega⟩ : Fin 96768) c')) * re (W2 m ρ c (kd Cert.KernelIdeal.main_v22) (ix2 c' (⟨k.val * 96 + h.val, by omega⟩ : Fin 2592))) = _
  rw [e3]
  exact congrArg₂ (fun x y : EReal => x * y) e1 e2

theorem acc4 (ha : Args m ρ m' c)
    (hrange : ∀ i : Cert.KernelIdeal.S96446x27.Idx, 0 ≤ (W0 m ρ c (kd Cert.KernelIdeal.main_arg9) i).toInt ∧ (W0 m ρ c (kd Cert.KernelIdeal.main_arg9) i).toInt ≤ 96446) :
    W4 m ρ c (kd Cert.KernelIdeal.main_v377) = U2 m' c (rd Cert.ReferenceIdeal.main_v365) := by
  have h9w : W3 m ρ c (kd Cert.KernelIdeal.main_arg9) = W0 m ρ c (kd Cert.KernelIdeal.main_arg9) := W3_arg m ρ c _ (by decide) (by decide)
  refine acc_agree (W3 m ρ c) (U1 m' c) (hY3 m ρ m' c ha) ?_ ?_
  · exact ((U1_arg m' c _ (by decide)).trans ha.a9).trans h9w.symm
  · intro i; rw [h9w]; exact hrange i

/-! ## The statistics, region 1, the corners, region 2 -/

theorem bn_congr {x x' g g' b b' mu mu' v v' : EReal} (hx : x = x') (hg : g = g') (hb : b = b') (hmu : mu = mu')
    (hv : v = v') : Cert.Bridge.bn x g b mu v = Cert.Bridge.bn x' g' b' mu' v' := by
  subst hx hg hb hmu hv; rfl

theorem hy6 (ha : Args m ρ m' c)
    (hacc : W4 m ρ c (kd Cert.KernelIdeal.main_v377) = U2 m' c (rd Cert.ReferenceIdeal.main_v365))
    (hmu : W4 m ρ c (kd Cert.KernelIdeal.main_v380) = U3 m' c (rd Cert.ReferenceIdeal.main_v368))
    (hvar : W4 m ρ c (kd Cert.KernelIdeal.main_v387) = U3 m' c (rd Cert.ReferenceIdeal.main_v375))
    (i : Cert.ReferenceIdeal.S96446x96.Idx) :
    W6 m ρ c (kd Cert.KernelIdeal.main_v389) (ix2 (⟨(i 0).val, by have := (i 0).isLt; simp [Cert.ReferenceIdeal.S96446x96] at this; omega⟩ : Fin 97280) (⟨(i 1).val, (i 1).isLt⟩ : Fin 96))
      = U4 m' c (rd Cert.ReferenceIdeal.main_v391) i := by
  -- region 1's output entry is the entry function of the padded accumulator's entry, the scale and shift arguments, and
  -- the mean and variance, all as the region finds them; the reference's entry is the same function of its own buffers
  have e6 : W6 m ρ c (kd Cert.KernelIdeal.main_v389) = (dat1 (F := Ideal) (V5 m ρ) c).arrAt 5 Cert.KernelIdeal.cfg1.N := W6_arr m ρ c 5
  have hlt : (i 0).val < 96446 := (i 0).isLt
  have e := congrFun (arr1 (V5 m ρ) c) (ix2 (⟨(i 0).val, by omega⟩ : Fin 97280) (⟨(i 1).val, (i 1).isLt⟩ : Fin 96))
  refine Eq.trans (α := EReal) (congrFun e6 _) (Eq.trans (α := EReal) e ?_)
  refine Eq.trans (α := EReal) ?_ (yR_apply (U3 m' c) i).symm
  -- the accumulated feature: the pad keeps the rows below 96446, and the two accumulators agree
  have h1 : re (W5 m ρ c (kd Cert.KernelIdeal.main_v388) (ix2 (⟨(i 0).val, by omega⟩ : Fin 97280) (⟨(i 1).val, (i 1).isLt⟩ : Fin 96)))
      = re (U3 m' c (rd Cert.ReferenceIdeal.main_v365) i) := by
    have hp := accpad_apply' (W3 m ρ c) (ix2 (⟨(i 0).val, by omega⟩ : Fin 97280) (⟨(i 1).val, (i 1).isLt⟩ : Fin 96))
    rw [dif_pos (show ((ix2 (⟨(i 0).val, by omega⟩ : Fin 97280) (⟨(i 1).val, (i 1).isLt⟩ : Fin 96) : Cert.KernelIdeal.S97280x96.Idx) 0).val < 96446 from hlt)] at hp
    have hk : U3 m' c (rd Cert.ReferenceIdeal.main_v365) = U2 m' c (rd Cert.ReferenceIdeal.main_v365) := keptC _ _ List.mem_cons_self
    refine Eq.trans (α := EReal) hp (Eq.trans (α := EReal) (congrFun hacc _) (Eq.trans (α := EReal) ?_ (congrFun hk.symm i)))
    exact congrArg (U2 m' c (rd Cert.ReferenceIdeal.main_v365)) (eq_ix2 i).symm
  -- scale and shift: arguments, unchanged on both sides since the launch
  have e3 : W5 m ρ c (kd Cert.KernelIdeal.main_arg3) = U3 m' c (rd Cert.ReferenceIdeal.main_arg3) :=
    (W5_arg m ρ c _ (by decide) (by decide)).trans (ha.a3.symm.trans (U3_arg m' c _ (by decide)).symm)
  have e4 : W5 m ρ c (kd Cert.KernelIdeal.main_arg4) = U3 m' c (rd Cert.ReferenceIdeal.main_arg4) :=
    (W5_arg m ρ c _ (by decide) (by decide)).trans (ha.a4.symm.trans (U3_arg m' c _ (by decide)).symm)
  -- mean and variance: the padding stretch leaves them as the accumulating stretch wrote them
  have emu : W5 m ρ c (kd Cert.KernelIdeal.main_v380) = U3 m' c (rd Cert.ReferenceIdeal.main_v368) :=
    (kept_hostOps1_1' (W4 m ρ c) _ List.mem_cons_self).trans hmu
  have evar : W5 m ρ c (kd Cert.KernelIdeal.main_v387) = U3 m' c (rd Cert.ReferenceIdeal.main_v375) :=
    (kept_hostOps1_1' (W4 m ρ c) _ (List.mem_cons_of_mem _ List.mem_cons_self)).trans hvar
  exact bn_congr h1 (congrFun e3 _) (congrFun e4 _) (congrFun emu _) (congrFun evar _)

theorem corner7 (ha : Args m ρ m' c)
    (hy : ∀ i : Cert.ReferenceIdeal.S96446x96.Idx,
      W6 m ρ c (kd Cert.KernelIdeal.main_v389) (ix2 (⟨(i 0).val, by have := (i 0).isLt; simp [Cert.ReferenceIdeal.S96446x96] at this; omega⟩ : Fin 97280) (⟨(i 1).val, (i 1).isLt⟩ : Fin 96))
        = U4 m' c (rd Cert.ReferenceIdeal.main_v391) i) :
    W7 m ρ c (kd Cert.KernelIdeal.main_v495) = U5 m' c (rd Cert.ReferenceIdeal.main_v498) := by
  refine corner_agree (W6 m ρ c) (U4 m' c) hy ?_ ?_
  · exact ((U4_arg m' c _ (by decide)).trans ha.a7).trans (W6_arg m ρ c _ (by decide) (by decide) (by decide)).symm
  · exact ((U4_arg m' c _ (by decide)).trans ha.a10).trans (W6_arg m ρ c _ (by decide) (by decide) (by decide)).symm

theorem final14 (ha : Args m ρ m' c)
    (hw : W7 m ρ c (kd Cert.KernelIdeal.main_v495) = U5 m' c (rd Cert.ReferenceIdeal.main_v498)) :
    U6 m' c (rd Cert.ReferenceIdeal.main_v503) = W14 m ρ c (kd Cert.KernelIdeal.main_v503) := by
  funext i
  obtain ⟨n, h, rfl⟩ : ∃ (n : Fin 120000) (h : Fin 96), i = ix2 n h := ⟨i 0, i 1, eq_ix2 i⟩
  -- the arguments at the two programs' last boundaries are the launch memory's
  have r5 : U5 m' c (rd Cert.ReferenceIdeal.main_arg5) = W0 m ρ c (kd Cert.KernelIdeal.main_arg5) := (U5_arg m' c _ (by decide)).trans ha.a5
  have r6 : U5 m' c (rd Cert.ReferenceIdeal.main_arg6) = W0 m ρ c (kd Cert.KernelIdeal.main_arg6) := (U5_arg m' c _ (by decide)).trans ha.a6
  have k0 : W7 m ρ c (kd Cert.KernelIdeal.main_arg0) = W0 m ρ c (kd Cert.KernelIdeal.main_arg0) := W7_arg m ρ c _ (by decide) (by decide) (by decide)
  have k1 : W7 m ρ c (kd Cert.KernelIdeal.main_arg1) = W0 m ρ c (kd Cert.KernelIdeal.main_arg1) := W7_arg m ρ c _ (by decide) (by decide) (by decide)
  have k5 : W7 m ρ c (kd Cert.KernelIdeal.main_arg5) = W0 m ρ c (kd Cert.KernelIdeal.main_arg5) := W7_arg m ρ c _ (by decide) (by decide) (by decide)
  have k6 : W7 m ρ c (kd Cert.KernelIdeal.main_arg6) = W0 m ρ c (kd Cert.KernelIdeal.main_arg6) := W7_arg m ρ c _ (by decide) (by decide) (by decide)
  obtain ⟨p496, p497, p498, p500, p502, p6⟩ := pads_eq (W7 m ρ c)
  have e503 : W14 m ρ c (kd Cert.KernelIdeal.main_v503) = (dat2 (F := Ideal) (V13 m ρ) c).arrAt 6 Cert.KernelIdeal.cfg2.N := W14_arr m ρ c 6
  -- both entries are: the interpolated feature, plus the two inputs' rows against the two halves of the weight's
  -- column, plus the bias
  refine Eq.trans (α := EReal) (b := (re (U5 m' c (rd Cert.ReferenceIdeal.main_v498) (ix2 n h))
        + (∑ k : Fin 96, re (W0 m ρ c (kd Cert.KernelIdeal.main_arg0) (ix2 n k)) * re (W0 m ρ c (kd Cert.KernelIdeal.main_arg5) (ix2 (⟨k.val, by omega⟩ : Fin 192) h))
          + ∑ k : Fin 96, re (W0 m ρ c (kd Cert.KernelIdeal.main_arg1) (ix2 n k)) * re (W0 m ρ c (kd Cert.KernelIdeal.main_arg5) (ix2 (⟨k.val + 96, by omega⟩ : Fin 192) h))))
      + re (W0 m ρ c (kd Cert.KernelIdeal.main_arg6) (ix1 h))) ?_ (Eq.symm ?_)
  · -- the reference: the sum over 192 columns split at 96, the concatenation read in each half
    refine Eq.trans (α := EReal) (outR_apply (U5 m' c) (ix2 n h)) ?_
    refine congrArg₂ (fun x y : EReal => x + y) (congrArg₂ (fun x y : EReal => x + y) rfl ?_) (congrFun r6 (ix1 h))
    refine Eq.trans (α := EReal) (sum_split fun k : Fin 192 => re (U5 m' c (rd Cert.ReferenceIdeal.main_v0) (ix2 n k)) * re (U5 m' c (rd Cert.ReferenceIdeal.main_arg5) (ix2 k h))) ?_
    refine congrArg₂ (fun x y : EReal => x + y) (Finset.sum_congr rfl fun k _ => ?_) (Finset.sum_congr rfl fun k _ => ?_)
    · refine congrArg₂ (fun x y : EReal => x * y) ?_ (congrFun r5 _)
      have e := (v0_apply (U0 m' c) n (⟨k.val, by omega⟩ : Fin 192)).trans (dif_pos k.isLt)
      exact (congrFun (U5_v0 m' c) _).trans (e.trans (congrFun ha.a0 (ix2 n k)))
    · refine congrArg₂ (fun x y : EReal => x * y) ?_ (congrFun r5 _)
      have e := (v0_apply (U0 m' c) n (⟨k.val + 96, by omega⟩ : Fin 192)).trans (dif_neg (Nat.not_lt.mpr (Nat.le_add_left 96 k.val)))
      have ek : (⟨k.val + 96 - 96, by omega⟩ : Fin 96) = k := Fin.ext (Nat.add_sub_cancel k.val 96)
      exact (congrFun (U5_v0 m' c) _).trans (e.trans ((congrArg (fun j : Fin 96 => U0 m' c (rd Cert.ReferenceIdeal.main_arg1) (ix2 n j)) ek).trans (congrFun ha.a1 (ix2 n k))))
  · -- the kernel: the last region's output over the arrays it is handed, each the array it copies
    refine Eq.trans (α := EReal) (congrFun e503 (ix2 n h)) (Eq.trans (α := EReal) (congrFun (arr2 (V13 m ρ) c) (ix2 n h)) ?_)
    refine congrArg₂ (fun x y : EReal => x + y) (congrArg₂ (fun x y : EReal => x + y) (congrFun (p496.trans hw) (ix2 n h))
      (congrArg₂ (fun x y : EReal => x + y) (Finset.sum_congr rfl fun k _ => ?_) (Finset.sum_congr rfl fun k _ => ?_))) (congrFun (p6.trans k6) (ix1 h))
    · exact congrArg₂ (fun x y : EReal => x * y) (congrFun (p497.trans k0) (ix2 n k)) (Eq.trans (α := EReal) (p500 k h) (congrFun k5 _))
    · exact congrArg₂ (fun x y : EReal => x * y) (congrFun (p498.trans k1) (ix2 n k)) (Eq.trans (α := EReal) (p502 k h) (congrFun k5 _))

/-! ## The two results -/

/-- The reference's result buffer after its six stretches is the kernel program's result buffer at its last boundary. -/
theorem result_agree (ha : Args m ρ m' c)
    (hrange : ∀ i : Cert.KernelIdeal.S96446x27.Idx, 0 ≤ (W0 m ρ c (kd Cert.KernelIdeal.main_arg9) i).toInt ∧ (W0 m ρ c (kd Cert.KernelIdeal.main_arg9) i).toInt ≤ 96446) :
    U6 m' c (rd Cert.ReferenceIdeal.main_v503) = W14 m ρ c (kd Cert.KernelIdeal.main_v503) := by
  have h4 := acc4 m ρ m' c ha hrange
  obtain ⟨hmu, hvar⟩ := stats_agree (W3 m ρ c) (U2 m' c) h4
  have h6 := hy6 m ρ m' c ha h4 hmu hvar
  have h7 := corner7 m ρ m' c ha h6
  exact final14 m ρ m' c ha h7

end Chain

end Cert.Bridge

end
-- ==== Proof.lean ====
/-
  A sparse 3×3×3 convolution over occupied voxels followed by a trilinear read-back at the points, against its
  plain reference, over the extended reals.

  Both programs average the features of the points of each voxel (a scatter-add of the features and of ones, a
  quotient by the count clamped below by one), append a zero row for "no neighbour", and accumulate over the 27 taps
  `acc[i, h] = ∑ₖ ∑_c vpad[nbr[i, k], c] · W[k, c, h]`. The reference gathers the 192-wide rows and multiplies each tap
  by its filter; the kernel program multiplies the whole padded table once by the filters laid side by side
  (`Y[r, 96 k + h] = ∑_c vpad[r, c] · W[k, c, h]`, row blocks of 512) and gathers the 96-wide rows of `Y`: the same sum,
  entry by entry, as long as the neighbour index is a row of the table — the table has 96447 rows on one side and
  96768 (zero rows appended) on the other, and an index outside `[0, 96446]` would be wrapped or clamped against a
  different row count. The precondition states that range; nothing else of it is used.
  Mean and variance over the voxels are the same operations on the same accumulator; the normalisation
  `max ((γ (x − μ)) · rsqrt (σ² + ε) + β) 0` is computed by host operations on one side and in row blocks of 1024 on
  the other, one function of the entry and its channel's four numbers. The eight corner terms
  `∑ₖ w[n, k] · ypad[corner[n, k]]` are the same operations on equal tables (the reference starts its sum from
  zero). Last, `out + [hidden, query] · W_lin + b`: the reference contracts the 192 concatenated features at once,
  the kernel program the two halves of 96 against the two halves of `W_lin` (row blocks of 2400): a sum over 192
  terms split at 96.
  The changes of float format are the identity over the extended reals, and a matrix product into a zero
  accumulator is the plain sum.
-/
import proofs.«412869_j60387240182488_3_alg».proof.Defs
import proofs.«412869_j60387240182488_3_alg».proof.Proof.Gen.Kernel
import proofs.«412869_j60387240182488_3_alg».proof.Proof.Gen.KernelIdeal
import proofs.«412869_j60387240182488_3_alg».proof.Proof.Gen.ReferenceIdeal
import proofs.«412869_j60387240182488_3_alg».proof.Proof.Gen.Pre_finite_inputs
import proofs.«412869_j60387240182488_3_alg».proof.Proof.KernelFrame
import proofs.«412869_j60387240182488_3_alg».proof.Proof.KernelIdealFrame
import proofs.«412869_j60387240182488_3_alg».proof.Proof.RefRun
import proofs.«412869_j60387240182488_3_alg».proof.Proof.PreRange
import proofs.«412869_j60387240182488_3_alg».proof.Proof.Chain
import Idealize.ShloMosaic.Adequacy
import Idealize.ShloMosaic.Init

noncomputable section

namespace Cert.Proof

open Idealize.ShloMosaic Idealize.ShloMosaic.TcCoe Idealize.SL.Sem Cert.Bridge

/-- The kernel program runs and leaves its arguments as launched. -/
theorem frame_k : Cert.frame_Kernel := fun m ρ _ => Cert.Kernel.GenP.frame m ρ

/-- So does its reading over the extended reals. -/
theorem frame_ki : Cert.frame_KernelIdeal := fun m ρ _ => Cert.KernelIdeal.GenP.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Stages.run_stages (F := Ideal) m ρ)

/-- The idealization rewrote nothing. -/
theorem preserves : Cert.preserves_Kernel_KernelIdeal := trivial

/-- From memories that agree on the arguments both programs end, the reference's result buffer holding what the
    kernel program's holds: the kernel program's last boundary contents. -/
theorem algebraic : Cert.algebraic_KernelIdeal_ReferenceIdeal := by
  intro m ρ m' ρ' hpre hag
  refine ⟨fun c => Cert.KernelIdeal.GenP.W14 (F := Ideal) m ρ c (kd Cert.KernelIdeal.main_v503), Cert.KernelIdeal.GenP.run_result (F := Ideal) m ρ, ?_⟩
  refine (θ_run Cert.ReferenceIdeal.defs _ _).mono (fun r h c => ⟨(h c).1.trans ?_, (h c).2⟩)
    (Cert.ReferenceIdeal.Stages.run_stages (F := Ideal) m' ρ')
  obtain ⟨g0, g1, g2, g3, g4, g5, g6, g7, g8, g9, g10⟩ := hag c
  exact result_agree m ρ m' c ⟨g0, g1, g2, g3, g4, g5, g6, g7, g8, g9, g10⟩ (fun i => Cert.Bridge.PreRange.nbr_range m hpre c i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
